-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Pre_finite_inputs_ReferenceIdeal.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S8192x1024 : Shape := ⟨2, ![8192, 1024]⟩
abbrev S2048x1024 : Shape := ⟨2, ![2048, 1024]⟩
abbrev S2x128x1024 : Shape := ⟨3, ![2, 128, 1024]⟩
abbrev S16 : Shape := ⟨1, ![16]⟩
abbrev S8 : Shape := ⟨1, ![8]⟩
abbrev S_ : Shape := ⟨0, ![]⟩
abbrev S2 : Shape := ⟨1, ![2]⟩
abbrev S1 : Shape := ⟨1, ![1]⟩
abbrev S128x1024 : Shape := ⟨2, ![128, 1024]⟩
abbrev S1x128x1024 : Shape := ⟨3, ![1, 128, 1024]⟩

abbrev nBuf : Space → Nat
  | .hbm => 2
  | .vmem => 3
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S2048x1024, .f32⟩
  | .local _ .vmem, ⟨1, _⟩ => ⟨S2048x1024, .f32⟩
  | .local _ .vmem, ⟨2, _⟩ => ⟨S2x128x1024, .f32⟩
  | _, _ => ⟨S8192x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let c2_i32_16 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v32 : BitVec 32 := Scalar.muli c2_i32_16 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v33 : BitVec 32 := Scalar.addi v32 v28
  let c2048_i32 : BitVec 32 := 2048#32
  let v40 : BitVec 32 := Scalar.muli v33 c2048_i32
  let c0_i32_21 : BitVec 32 := 0#32
  ![v40.toNat, 0]
def k0_dev1 (d0 : Dev nD) : Nat :=
  let c0_i32_24 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_23 : BitVec 32 := 16#32
  let v43 : BitVec 32 := Scalar.muli v29 c16_i32_23
  let v44 : BitVec 32 := Scalar.addi c0_i32_24 v43
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_25 : BitVec 32 := 4#32
  let v45 : BitVec 32 := Scalar.muli v5 c4_i32_25
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v47 : BitVec 32 := Scalar.muli v8 c1_i32_26
  let v48 : BitVec 32 := Scalar.addi v46 v47
  v48.toNat
def k0_dev2 (d0 : Dev nD) : Nat :=
  let c0_i32_29 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_28 : BitVec 32 := 16#32
  let v49 : BitVec 32 := Scalar.muli v2 c16_i32_28
  let v50 : BitVec 32 := Scalar.addi c0_i32_29 v49
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_30 : BitVec 32 := 4#32
  let v51 : BitVec 32 := Scalar.muli v30 c4_i32_30
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v53 : BitVec 32 := Scalar.muli v8 c1_i32_31
  let v54 : BitVec 32 := Scalar.addi v52 v53
  v54.toNat
def k0_dev3 (d0 : Dev nD) : Nat :=
  let c0_i32_34 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_33 : BitVec 32 := 16#32
  let v55 : BitVec 32 := Scalar.muli v2 c16_i32_33
  let v56 : BitVec 32 := Scalar.addi c0_i32_34 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_35 : BitVec 32 := 4#32
  let v57 : BitVec 32 := Scalar.muli v5 c4_i32_35
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_36 : BitVec 32 := 1#32
  let v59 : BitVec 32 := Scalar.muli v31 c1_i32_36
  let v60 : BitVec 32 := Scalar.addi v58 v59
  v60.toNat
def k0_off2 (d0 : Dev nD) (c0_i32_38 : BitVec 32) : Fin 2 → Nat :=
  let c2_i32_16 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v32 : BitVec 32 := Scalar.muli c2_i32_16 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v33 : BitVec 32 := Scalar.addi v32 v28
  let c2048_i32_37 : BitVec 32 := 2048#32
  let v61 : BitVec 32 := Scalar.muli v33 c2048_i32_37
  let v62 : BitVec 32 := Scalar.addi v61 c0_i32_38
  let c0_i32_47 : BitVec 32 := 0#32
  ![v62.toNat, 0]
def k0_dev4 (d0 : Dev nD) : Nat :=
  let c0_i32_42 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_41 : BitVec 32 := 16#32
  let v63 : BitVec 32 := Scalar.muli v29 c16_i32_41
  let v64 : BitVec 32 := Scalar.addi c0_i32_42 v63
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_43 : BitVec 32 := 4#32
  let v65 : BitVec 32 := Scalar.muli v5 c4_i32_43
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v67 : BitVec 32 := Scalar.muli v8 c1_i32_44
  let v68 : BitVec 32 := Scalar.addi v66 v67
  v68.toNat
def k0_dev5 (d0 : Dev nD) : Nat :=
  let c0_i32_52 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_51 : BitVec 32 := 16#32
  let v77 : BitVec 32 := Scalar.muli v29 c16_i32_51
  let v78 : BitVec 32 := Scalar.addi c0_i32_52 v77
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_53 : BitVec 32 := 4#32
  let v79 : BitVec 32 := Scalar.muli v5 c4_i32_53
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v81 : BitVec 32 := Scalar.muli v8 c1_i32_54
  let v82 : BitVec 32 := Scalar.addi v80 v81
  v82.toNat
def k0_dev6 (d0 : Dev nD) : Nat :=
  let c0_i32_62 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_61 : BitVec 32 := 16#32
  let v91 : BitVec 32 := Scalar.muli v29 c16_i32_61
  let v92 : BitVec 32 := Scalar.addi c0_i32_62 v91
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_63 : BitVec 32 := 4#32
  let v93 : BitVec 32 := Scalar.muli v5 c4_i32_63
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v95 : BitVec 32 := Scalar.muli v8 c1_i32_64
  let v96 : BitVec 32 := Scalar.addi v94 v95
  v96.toNat
def k0_dev7 (d0 : Dev nD) : Nat :=
  let c0_i32_72 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_71 : BitVec 32 := 16#32
  let v105 : BitVec 32 := Scalar.muli v29 c16_i32_71
  let v106 : BitVec 32 := Scalar.addi c0_i32_72 v105
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_73 : BitVec 32 := 4#32
  let v107 : BitVec 32 := Scalar.muli v5 c4_i32_73
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v109 : BitVec 32 := Scalar.muli v8 c1_i32_74
  let v110 : BitVec 32 := Scalar.addi v108 v109
  v110.toNat
def k0_dev8 (d0 : Dev nD) : Nat :=
  let c0_i32_82 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_81 : BitVec 32 := 16#32
  let v119 : BitVec 32 := Scalar.muli v29 c16_i32_81
  let v120 : BitVec 32 := Scalar.addi c0_i32_82 v119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_83 : BitVec 32 := 4#32
  let v121 : BitVec 32 := Scalar.muli v5 c4_i32_83
  let v122 : BitVec 32 := Scalar.addi v120 v121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v123 : BitVec 32 := Scalar.muli v8 c1_i32_84
  let v124 : BitVec 32 := Scalar.addi v122 v123
  v124.toNat
def k0_dev9 (d0 : Dev nD) : Nat :=
  let c0_i32_91 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_90 : BitVec 32 := 16#32
  let v133 : BitVec 32 := Scalar.muli v29 c16_i32_90
  let v134 : BitVec 32 := Scalar.addi c0_i32_91 v133
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_92 : BitVec 32 := 4#32
  let v135 : BitVec 32 := Scalar.muli v5 c4_i32_92
  let v136 : BitVec 32 := Scalar.addi v134 v135
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v137 : BitVec 32 := Scalar.muli v8 c1_i32_93
  let v138 : BitVec 32 := Scalar.addi v136 v137
  v138.toNat
def k0_dev10 (d0 : Dev nD) : Nat :=
  let c0_i32_100 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_99 : BitVec 32 := 16#32
  let v147 : BitVec 32 := Scalar.muli v29 c16_i32_99
  let v148 : BitVec 32 := Scalar.addi c0_i32_100 v147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_101 : BitVec 32 := 4#32
  let v149 : BitVec 32 := Scalar.muli v5 c4_i32_101
  let v150 : BitVec 32 := Scalar.addi v148 v149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_102 : BitVec 32 := 1#32
  let v151 : BitVec 32 := Scalar.muli v8 c1_i32_102
  let v152 : BitVec 32 := Scalar.addi v150 v151
  v152.toNat
def k0_dev11 (d0 : Dev nD) : Nat :=
  let c0_i32_109 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_108 : BitVec 32 := 16#32
  let v161 : BitVec 32 := Scalar.muli v29 c16_i32_108
  let v162 : BitVec 32 := Scalar.addi c0_i32_109 v161
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_110 : BitVec 32 := 4#32
  let v163 : BitVec 32 := Scalar.muli v5 c4_i32_110
  let v164 : BitVec 32 := Scalar.addi v162 v163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v165 : BitVec 32 := Scalar.muli v8 c1_i32_111
  let v166 : BitVec 32 := Scalar.addi v164 v165
  v166.toNat
def k0_dev12 (d0 : Dev nD) : Nat :=
  let c0_i32_118 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_117 : BitVec 32 := 16#32
  let v175 : BitVec 32 := Scalar.muli v29 c16_i32_117
  let v176 : BitVec 32 := Scalar.addi c0_i32_118 v175
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_119 : BitVec 32 := 4#32
  let v177 : BitVec 32 := Scalar.muli v5 c4_i32_119
  let v178 : BitVec 32 := Scalar.addi v176 v177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_120 : BitVec 32 := 1#32
  let v179 : BitVec 32 := Scalar.muli v8 c1_i32_120
  let v180 : BitVec 32 := Scalar.addi v178 v179
  v180.toNat
def k0_dev13 (d0 : Dev nD) : Nat :=
  let c0_i32_127 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_126 : BitVec 32 := 16#32
  let v189 : BitVec 32 := Scalar.muli v29 c16_i32_126
  let v190 : BitVec 32 := Scalar.addi c0_i32_127 v189
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_128 : BitVec 32 := 4#32
  let v191 : BitVec 32 := Scalar.muli v5 c4_i32_128
  let v192 : BitVec 32 := Scalar.addi v190 v191
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v193 : BitVec 32 := Scalar.muli v8 c1_i32_129
  let v194 : BitVec 32 := Scalar.addi v192 v193
  v194.toNat
def k0_dev14 (d0 : Dev nD) : Nat :=
  let c0_i32_136 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_135 : BitVec 32 := 16#32
  let v203 : BitVec 32 := Scalar.muli v29 c16_i32_135
  let v204 : BitVec 32 := Scalar.addi c0_i32_136 v203
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_137 : BitVec 32 := 4#32
  let v205 : BitVec 32 := Scalar.muli v5 c4_i32_137
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v207 : BitVec 32 := Scalar.muli v8 c1_i32_138
  let v208 : BitVec 32 := Scalar.addi v206 v207
  v208.toNat
def k0_dev15 (d0 : Dev nD) : Nat :=
  let c0_i32_145 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_144 : BitVec 32 := 16#32
  let v217 : BitVec 32 := Scalar.muli v29 c16_i32_144
  let v218 : BitVec 32 := Scalar.addi c0_i32_145 v217
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_146 : BitVec 32 := 4#32
  let v219 : BitVec 32 := Scalar.muli v5 c4_i32_146
  let v220 : BitVec 32 := Scalar.addi v218 v219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v221 : BitVec 32 := Scalar.muli v8 c1_i32_147
  let v222 : BitVec 32 := Scalar.addi v220 v221
  v222.toNat
def k0_dev16 (d0 : Dev nD) : Nat :=
  let c0_i32_154 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_153 : BitVec 32 := 16#32
  let v231 : BitVec 32 := Scalar.muli v29 c16_i32_153
  let v232 : BitVec 32 := Scalar.addi c0_i32_154 v231
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_155 : BitVec 32 := 4#32
  let v233 : BitVec 32 := Scalar.muli v5 c4_i32_155
  let v234 : BitVec 32 := Scalar.addi v232 v233
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v235 : BitVec 32 := Scalar.muli v8 c1_i32_156
  let v236 : BitVec 32 := Scalar.addi v234 v235
  v236.toNat
def k0_dev17 (d0 : Dev nD) : Nat :=
  let c0_i32_163 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_162 : BitVec 32 := 16#32
  let v245 : BitVec 32 := Scalar.muli v29 c16_i32_162
  let v246 : BitVec 32 := Scalar.addi c0_i32_163 v245
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_164 : BitVec 32 := 4#32
  let v247 : BitVec 32 := Scalar.muli v5 c4_i32_164
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v249 : BitVec 32 := Scalar.muli v8 c1_i32_165
  let v250 : BitVec 32 := Scalar.addi v248 v249
  v250.toNat
def k0_dev18 (d0 : Dev nD) : Nat :=
  let c0_i32_172 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_171 : BitVec 32 := 16#32
  let v259 : BitVec 32 := Scalar.muli v29 c16_i32_171
  let v260 : BitVec 32 := Scalar.addi c0_i32_172 v259
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_173 : BitVec 32 := 4#32
  let v261 : BitVec 32 := Scalar.muli v5 c4_i32_173
  let v262 : BitVec 32 := Scalar.addi v260 v261
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_174 : BitVec 32 := 1#32
  let v263 : BitVec 32 := Scalar.muli v8 c1_i32_174
  let v264 : BitVec 32 := Scalar.addi v262 v263
  v264.toNat
def k0_dev19 (d0 : Dev nD) : Nat :=
  let c0_i32_181 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_180 : BitVec 32 := 16#32
  let v273 : BitVec 32 := Scalar.muli v29 c16_i32_180
  let v274 : BitVec 32 := Scalar.addi c0_i32_181 v273
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_182 : BitVec 32 := 4#32
  let v275 : BitVec 32 := Scalar.muli v5 c4_i32_182
  let v276 : BitVec 32 := Scalar.addi v274 v275
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v277 : BitVec 32 := Scalar.muli v8 c1_i32_183
  let v278 : BitVec 32 := Scalar.addi v276 v277
  v278.toNat
def k0_dev20 (d0 : Dev nD) : Nat :=
  let c0_i32_214 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_213 : BitVec 32 := 16#32
  let v309 : BitVec 32 := Scalar.muli v2 c16_i32_213
  let v310 : BitVec 32 := Scalar.addi c0_i32_214 v309
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_215 : BitVec 32 := 4#32
  let v311 : BitVec 32 := Scalar.muli v30 c4_i32_215
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_216 : BitVec 32 := 1#32
  let v313 : BitVec 32 := Scalar.muli v8 c1_i32_216
  let v314 : BitVec 32 := Scalar.addi v312 v313
  v314.toNat
def k0_dev21 (d0 : Dev nD) : Nat :=
  let c0_i32_224 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_223 : BitVec 32 := 16#32
  let v322 : BitVec 32 := Scalar.muli v2 c16_i32_223
  let v323 : BitVec 32 := Scalar.addi c0_i32_224 v322
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_225 : BitVec 32 := 4#32
  let v324 : BitVec 32 := Scalar.muli v5 c4_i32_225
  let v325 : BitVec 32 := Scalar.addi v323 v324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_226 : BitVec 32 := 1#32
  let v326 : BitVec 32 := Scalar.muli v31 c1_i32_226
  let v327 : BitVec 32 := Scalar.addi v325 v326
  v327.toNat
def k0_dev22 (d0 : Dev nD) : Nat :=
  let c0_i32_255 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_254 : BitVec 32 := 16#32
  let v358 : BitVec 32 := Scalar.muli v2 c16_i32_254
  let v359 : BitVec 32 := Scalar.addi c0_i32_255 v358
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_256 : BitVec 32 := 4#32
  let v360 : BitVec 32 := Scalar.muli v30 c4_i32_256
  let v361 : BitVec 32 := Scalar.addi v359 v360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_257 : BitVec 32 := 1#32
  let v362 : BitVec 32 := Scalar.muli v8 c1_i32_257
  let v363 : BitVec 32 := Scalar.addi v361 v362
  v363.toNat
def k0_dev23 (d0 : Dev nD) : Nat :=
  let c0_i32_265 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_264 : BitVec 32 := 16#32
  let v371 : BitVec 32 := Scalar.muli v2 c16_i32_264
  let v372 : BitVec 32 := Scalar.addi c0_i32_265 v371
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_266 : BitVec 32 := 4#32
  let v373 : BitVec 32 := Scalar.muli v5 c4_i32_266
  let v374 : BitVec 32 := Scalar.addi v372 v373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_267 : BitVec 32 := 1#32
  let v375 : BitVec 32 := Scalar.muli v31 c1_i32_267
  let v376 : BitVec 32 := Scalar.addi v374 v375
  v376.toNat
def k0_dev24 (d0 : Dev nD) : Nat :=
  let c0_i32_316 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_315 : BitVec 32 := 16#32
  let v422 : BitVec 32 := Scalar.muli v2 c16_i32_315
  let v423 : BitVec 32 := Scalar.addi c0_i32_316 v422
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_317 : BitVec 32 := 4#32
  let v424 : BitVec 32 := Scalar.muli v30 c4_i32_317
  let v425 : BitVec 32 := Scalar.addi v423 v424
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v426 : BitVec 32 := Scalar.muli v8 c1_i32_318
  let v427 : BitVec 32 := Scalar.addi v425 v426
  v427.toNat
def k0_dev25 (d0 : Dev nD) : Nat :=
  let c0_i32_326 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_325 : BitVec 32 := 16#32
  let v435 : BitVec 32 := Scalar.muli v2 c16_i32_325
  let v436 : BitVec 32 := Scalar.addi c0_i32_326 v435
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_327 : BitVec 32 := 4#32
  let v437 : BitVec 32 := Scalar.muli v5 c4_i32_327
  let v438 : BitVec 32 := Scalar.addi v436 v437
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_328 : BitVec 32 := 1#32
  let v439 : BitVec 32 := Scalar.muli v31 c1_i32_328
  let v440 : BitVec 32 := Scalar.addi v438 v439
  v440.toNat
def k0_dev26 (d0 : Dev nD) : Nat :=
  let c0_i32_377 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_376 : BitVec 32 := 16#32
  let v486 : BitVec 32 := Scalar.muli v2 c16_i32_376
  let v487 : BitVec 32 := Scalar.addi c0_i32_377 v486
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_378 : BitVec 32 := 4#32
  let v488 : BitVec 32 := Scalar.muli v30 c4_i32_378
  let v489 : BitVec 32 := Scalar.addi v487 v488
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_379 : BitVec 32 := 1#32
  let v490 : BitVec 32 := Scalar.muli v8 c1_i32_379
  let v491 : BitVec 32 := Scalar.addi v489 v490
  v491.toNat
def k0_dev27 (d0 : Dev nD) : Nat :=
  let c0_i32_387 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_386 : BitVec 32 := 16#32
  let v499 : BitVec 32 := Scalar.muli v2 c16_i32_386
  let v500 : BitVec 32 := Scalar.addi c0_i32_387 v499
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_388 : BitVec 32 := 4#32
  let v501 : BitVec 32 := Scalar.muli v5 c4_i32_388
  let v502 : BitVec 32 := Scalar.addi v500 v501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_389 : BitVec 32 := 1#32
  let v503 : BitVec 32 := Scalar.muli v31 c1_i32_389
  let v504 : BitVec 32 := Scalar.addi v502 v503
  v504.toNat
def k0_dev28 (d0 : Dev nD) : Nat :=
  let c0_i32_438 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_437 : BitVec 32 := 16#32
  let v550 : BitVec 32 := Scalar.muli v2 c16_i32_437
  let v551 : BitVec 32 := Scalar.addi c0_i32_438 v550
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_439 : BitVec 32 := 4#32
  let v552 : BitVec 32 := Scalar.muli v30 c4_i32_439
  let v553 : BitVec 32 := Scalar.addi v551 v552
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_440 : BitVec 32 := 1#32
  let v554 : BitVec 32 := Scalar.muli v8 c1_i32_440
  let v555 : BitVec 32 := Scalar.addi v553 v554
  v555.toNat
def k0_dev29 (d0 : Dev nD) : Nat :=
  let c0_i32_448 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_447 : BitVec 32 := 16#32
  let v563 : BitVec 32 := Scalar.muli v2 c16_i32_447
  let v564 : BitVec 32 := Scalar.addi c0_i32_448 v563
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_449 : BitVec 32 := 4#32
  let v565 : BitVec 32 := Scalar.muli v5 c4_i32_449
  let v566 : BitVec 32 := Scalar.addi v564 v565
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_450 : BitVec 32 := 1#32
  let v567 : BitVec 32 := Scalar.muli v31 c1_i32_450
  let v568 : BitVec 32 := Scalar.addi v566 v567
  v568.toNat
def k0_dev30 (d0 : Dev nD) : Nat :=
  let c0_i32_499 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_498 : BitVec 32 := 16#32
  let v614 : BitVec 32 := Scalar.muli v2 c16_i32_498
  let v615 : BitVec 32 := Scalar.addi c0_i32_499 v614
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_500 : BitVec 32 := 4#32
  let v616 : BitVec 32 := Scalar.muli v30 c4_i32_500
  let v617 : BitVec 32 := Scalar.addi v615 v616
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_501 : BitVec 32 := 1#32
  let v618 : BitVec 32 := Scalar.muli v8 c1_i32_501
  let v619 : BitVec 32 := Scalar.addi v617 v618
  v619.toNat
def k0_dev31 (d0 : Dev nD) : Nat :=
  let c0_i32_509 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_508 : BitVec 32 := 16#32
  let v627 : BitVec 32 := Scalar.muli v2 c16_i32_508
  let v628 : BitVec 32 := Scalar.addi c0_i32_509 v627
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_510 : BitVec 32 := 4#32
  let v629 : BitVec 32 := Scalar.muli v5 c4_i32_510
  let v630 : BitVec 32 := Scalar.addi v628 v629
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_511 : BitVec 32 := 1#32
  let v631 : BitVec 32 := Scalar.muli v31 c1_i32_511
  let v632 : BitVec 32 := Scalar.addi v630 v631
  v632.toNat
def k0_dev32 (d0 : Dev nD) : Nat :=
  let c0_i32_560 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_559 : BitVec 32 := 16#32
  let v678 : BitVec 32 := Scalar.muli v2 c16_i32_559
  let v679 : BitVec 32 := Scalar.addi c0_i32_560 v678
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_561 : BitVec 32 := 4#32
  let v680 : BitVec 32 := Scalar.muli v30 c4_i32_561
  let v681 : BitVec 32 := Scalar.addi v679 v680
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_562 : BitVec 32 := 1#32
  let v682 : BitVec 32 := Scalar.muli v8 c1_i32_562
  let v683 : BitVec 32 := Scalar.addi v681 v682
  v683.toNat
def k0_dev33 (d0 : Dev nD) : Nat :=
  let c0_i32_570 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_569 : BitVec 32 := 16#32
  let v691 : BitVec 32 := Scalar.muli v2 c16_i32_569
  let v692 : BitVec 32 := Scalar.addi c0_i32_570 v691
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_571 : BitVec 32 := 4#32
  let v693 : BitVec 32 := Scalar.muli v5 c4_i32_571
  let v694 : BitVec 32 := Scalar.addi v692 v693
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_572 : BitVec 32 := 1#32
  let v695 : BitVec 32 := Scalar.muli v31 c1_i32_572
  let v696 : BitVec 32 := Scalar.addi v694 v695
  v696.toNat
def k0_dev34 (d0 : Dev nD) : Nat :=
  let c0_i32_621 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_620 : BitVec 32 := 16#32
  let v742 : BitVec 32 := Scalar.muli v2 c16_i32_620
  let v743 : BitVec 32 := Scalar.addi c0_i32_621 v742
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_622 : BitVec 32 := 4#32
  let v744 : BitVec 32 := Scalar.muli v30 c4_i32_622
  let v745 : BitVec 32 := Scalar.addi v743 v744
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_623 : BitVec 32 := 1#32
  let v746 : BitVec 32 := Scalar.muli v8 c1_i32_623
  let v747 : BitVec 32 := Scalar.addi v745 v746
  v747.toNat
def k0_dev35 (d0 : Dev nD) : Nat :=
  let c0_i32_631 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_630 : BitVec 32 := 16#32
  let v755 : BitVec 32 := Scalar.muli v2 c16_i32_630
  let v756 : BitVec 32 := Scalar.addi c0_i32_631 v755
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_632 : BitVec 32 := 4#32
  let v757 : BitVec 32 := Scalar.muli v5 c4_i32_632
  let v758 : BitVec 32 := Scalar.addi v756 v757
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_633 : BitVec 32 := 1#32
  let v759 : BitVec 32 := Scalar.muli v31 c1_i32_633
  let v760 : BitVec 32 := Scalar.addi v758 v759
  v760.toNat
def k0_dev36 (d0 : Dev nD) : Nat :=
  let c0_i32_682 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_681 : BitVec 32 := 16#32
  let v806 : BitVec 32 := Scalar.muli v2 c16_i32_681
  let v807 : BitVec 32 := Scalar.addi c0_i32_682 v806
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_683 : BitVec 32 := 4#32
  let v808 : BitVec 32 := Scalar.muli v30 c4_i32_683
  let v809 : BitVec 32 := Scalar.addi v807 v808
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_684 : BitVec 32 := 1#32
  let v810 : BitVec 32 := Scalar.muli v8 c1_i32_684
  let v811 : BitVec 32 := Scalar.addi v809 v810
  v811.toNat
def k0_dev37 (d0 : Dev nD) : Nat :=
  let c0_i32_692 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_691 : BitVec 32 := 16#32
  let v819 : BitVec 32 := Scalar.muli v2 c16_i32_691
  let v820 : BitVec 32 := Scalar.addi c0_i32_692 v819
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_693 : BitVec 32 := 4#32
  let v821 : BitVec 32 := Scalar.muli v5 c4_i32_693
  let v822 : BitVec 32 := Scalar.addi v820 v821
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_694 : BitVec 32 := 1#32
  let v823 : BitVec 32 := Scalar.muli v31 c1_i32_694
  let v824 : BitVec 32 := Scalar.addi v822 v823
  v824.toNat
def k0_dev38 (d0 : Dev nD) : Nat :=
  let c0_i32_743 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_742 : BitVec 32 := 16#32
  let v870 : BitVec 32 := Scalar.muli v2 c16_i32_742
  let v871 : BitVec 32 := Scalar.addi c0_i32_743 v870
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_744 : BitVec 32 := 4#32
  let v872 : BitVec 32 := Scalar.muli v30 c4_i32_744
  let v873 : BitVec 32 := Scalar.addi v871 v872
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_745 : BitVec 32 := 1#32
  let v874 : BitVec 32 := Scalar.muli v8 c1_i32_745
  let v875 : BitVec 32 := Scalar.addi v873 v874
  v875.toNat
def k0_dev39 (d0 : Dev nD) : Nat :=
  let c0_i32_753 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_752 : BitVec 32 := 16#32
  let v883 : BitVec 32 := Scalar.muli v2 c16_i32_752
  let v884 : BitVec 32 := Scalar.addi c0_i32_753 v883
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_754 : BitVec 32 := 4#32
  let v885 : BitVec 32 := Scalar.muli v5 c4_i32_754
  let v886 : BitVec 32 := Scalar.addi v884 v885
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_755 : BitVec 32 := 1#32
  let v887 : BitVec 32 := Scalar.muli v31 c1_i32_755
  let v888 : BitVec 32 := Scalar.addi v886 v887
  v888.toNat
def k0_dev40 (d0 : Dev nD) : Nat :=
  let c0_i32_804 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_803 : BitVec 32 := 16#32
  let v934 : BitVec 32 := Scalar.muli v2 c16_i32_803
  let v935 : BitVec 32 := Scalar.addi c0_i32_804 v934
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_805 : BitVec 32 := 4#32
  let v936 : BitVec 32 := Scalar.muli v30 c4_i32_805
  let v937 : BitVec 32 := Scalar.addi v935 v936
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_806 : BitVec 32 := 1#32
  let v938 : BitVec 32 := Scalar.muli v8 c1_i32_806
  let v939 : BitVec 32 := Scalar.addi v937 v938
  v939.toNat
def k0_dev41 (d0 : Dev nD) : Nat :=
  let c0_i32_814 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_813 : BitVec 32 := 16#32
  let v947 : BitVec 32 := Scalar.muli v2 c16_i32_813
  let v948 : BitVec 32 := Scalar.addi c0_i32_814 v947
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_815 : BitVec 32 := 4#32
  let v949 : BitVec 32 := Scalar.muli v5 c4_i32_815
  let v950 : BitVec 32 := Scalar.addi v948 v949
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_816 : BitVec 32 := 1#32
  let v951 : BitVec 32 := Scalar.muli v31 c1_i32_816
  let v952 : BitVec 32 := Scalar.addi v950 v951
  v952.toNat
def k0_dev42 (d0 : Dev nD) : Nat :=
  let c0_i32_865 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_864 : BitVec 32 := 16#32
  let v998 : BitVec 32 := Scalar.muli v2 c16_i32_864
  let v999 : BitVec 32 := Scalar.addi c0_i32_865 v998
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_866 : BitVec 32 := 4#32
  let v1000 : BitVec 32 := Scalar.muli v30 c4_i32_866
  let v1001 : BitVec 32 := Scalar.addi v999 v1000
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_867 : BitVec 32 := 1#32
  let v1002 : BitVec 32 := Scalar.muli v8 c1_i32_867
  let v1003 : BitVec 32 := Scalar.addi v1001 v1002
  v1003.toNat
def k0_dev43 (d0 : Dev nD) : Nat :=
  let c0_i32_875 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_874 : BitVec 32 := 16#32
  let v1011 : BitVec 32 := Scalar.muli v2 c16_i32_874
  let v1012 : BitVec 32 := Scalar.addi c0_i32_875 v1011
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_876 : BitVec 32 := 4#32
  let v1013 : BitVec 32 := Scalar.muli v5 c4_i32_876
  let v1014 : BitVec 32 := Scalar.addi v1012 v1013
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_877 : BitVec 32 := 1#32
  let v1015 : BitVec 32 := Scalar.muli v31 c1_i32_877
  let v1016 : BitVec 32 := Scalar.addi v1014 v1015
  v1016.toNat
def k0_dev44 (d0 : Dev nD) : Nat :=
  let c0_i32_926 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_925 : BitVec 32 := 16#32
  let v1062 : BitVec 32 := Scalar.muli v2 c16_i32_925
  let v1063 : BitVec 32 := Scalar.addi c0_i32_926 v1062
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_927 : BitVec 32 := 4#32
  let v1064 : BitVec 32 := Scalar.muli v30 c4_i32_927
  let v1065 : BitVec 32 := Scalar.addi v1063 v1064
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_928 : BitVec 32 := 1#32
  let v1066 : BitVec 32 := Scalar.muli v8 c1_i32_928
  let v1067 : BitVec 32 := Scalar.addi v1065 v1066
  v1067.toNat
def k0_dev45 (d0 : Dev nD) : Nat :=
  let c0_i32_936 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_935 : BitVec 32 := 16#32
  let v1075 : BitVec 32 := Scalar.muli v2 c16_i32_935
  let v1076 : BitVec 32 := Scalar.addi c0_i32_936 v1075
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_937 : BitVec 32 := 4#32
  let v1077 : BitVec 32 := Scalar.muli v5 c4_i32_937
  let v1078 : BitVec 32 := Scalar.addi v1076 v1077
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_938 : BitVec 32 := 1#32
  let v1079 : BitVec 32 := Scalar.muli v31 c1_i32_938
  let v1080 : BitVec 32 := Scalar.addi v1078 v1079
  v1080.toNat
def k0_dev46 (d0 : Dev nD) : Nat :=
  let c0_i32_987 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_986 : BitVec 32 := 16#32
  let v1126 : BitVec 32 := Scalar.muli v2 c16_i32_986
  let v1127 : BitVec 32 := Scalar.addi c0_i32_987 v1126
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_988 : BitVec 32 := 4#32
  let v1128 : BitVec 32 := Scalar.muli v30 c4_i32_988
  let v1129 : BitVec 32 := Scalar.addi v1127 v1128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1130 : BitVec 32 := Scalar.muli v8 c1_i32_989
  let v1131 : BitVec 32 := Scalar.addi v1129 v1130
  v1131.toNat
def k0_dev47 (d0 : Dev nD) : Nat :=
  let c0_i32_997 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_996 : BitVec 32 := 16#32
  let v1139 : BitVec 32 := Scalar.muli v2 c16_i32_996
  let v1140 : BitVec 32 := Scalar.addi c0_i32_997 v1139
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_998 : BitVec 32 := 4#32
  let v1141 : BitVec 32 := Scalar.muli v5 c4_i32_998
  let v1142 : BitVec 32 := Scalar.addi v1140 v1141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_999 : BitVec 32 := 1#32
  let v1143 : BitVec 32 := Scalar.muli v31 c1_i32_999
  let v1144 : BitVec 32 := Scalar.addi v1142 v1143
  v1144.toNat
def k0_dev48 (d0 : Dev nD) : Nat :=
  let c0_i32_1048 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1047 : BitVec 32 := 16#32
  let v1190 : BitVec 32 := Scalar.muli v2 c16_i32_1047
  let v1191 : BitVec 32 := Scalar.addi c0_i32_1048 v1190
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_1049 : BitVec 32 := 4#32
  let v1192 : BitVec 32 := Scalar.muli v30 c4_i32_1049
  let v1193 : BitVec 32 := Scalar.addi v1191 v1192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1050 : BitVec 32 := 1#32
  let v1194 : BitVec 32 := Scalar.muli v8 c1_i32_1050
  let v1195 : BitVec 32 := Scalar.addi v1193 v1194
  v1195.toNat
def k0_dev49 (d0 : Dev nD) : Nat :=
  let c0_i32_1058 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1057 : BitVec 32 := 16#32
  let v1203 : BitVec 32 := Scalar.muli v2 c16_i32_1057
  let v1204 : BitVec 32 := Scalar.addi c0_i32_1058 v1203
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1059 : BitVec 32 := 4#32
  let v1205 : BitVec 32 := Scalar.muli v5 c4_i32_1059
  let v1206 : BitVec 32 := Scalar.addi v1204 v1205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_1060 : BitVec 32 := 1#32
  let v1207 : BitVec 32 := Scalar.muli v31 c1_i32_1060
  let v1208 : BitVec 32 := Scalar.addi v1206 v1207
  v1208.toNat
def k0_dev50 (d0 : Dev nD) : Nat :=
  let c0_i32_1109 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1108 : BitVec 32 := 16#32
  let v1254 : BitVec 32 := Scalar.muli v2 c16_i32_1108
  let v1255 : BitVec 32 := Scalar.addi c0_i32_1109 v1254
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_1110 : BitVec 32 := 4#32
  let v1256 : BitVec 32 := Scalar.muli v30 c4_i32_1110
  let v1257 : BitVec 32 := Scalar.addi v1255 v1256
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1111 : BitVec 32 := 1#32
  let v1258 : BitVec 32 := Scalar.muli v8 c1_i32_1111
  let v1259 : BitVec 32 := Scalar.addi v1257 v1258
  v1259.toNat
def k0_dev51 (d0 : Dev nD) : Nat :=
  let c0_i32_1119 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1118 : BitVec 32 := 16#32
  let v1267 : BitVec 32 := Scalar.muli v2 c16_i32_1118
  let v1268 : BitVec 32 := Scalar.addi c0_i32_1119 v1267
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1120 : BitVec 32 := 4#32
  let v1269 : BitVec 32 := Scalar.muli v5 c4_i32_1120
  let v1270 : BitVec 32 := Scalar.addi v1268 v1269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_1121 : BitVec 32 := 1#32
  let v1271 : BitVec 32 := Scalar.muli v31 c1_i32_1121
  let v1272 : BitVec 32 := Scalar.addi v1270 v1271
  v1272.toNat
def k0_off3 (d0 : Dev nD) (c0_i32_1146 : BitVec 32) : Fin 2 → Nat :=
  let c2_i32_19 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v37 : BitVec 32 := Scalar.muli c2_i32_19 v18
  let c1_i32_20 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v38 : BitVec 32 := Scalar.subi c1_i32_20 v28
  let v39 : BitVec 32 := Scalar.addi v37 v38
  let c2048_i32_1145 : BitVec 32 := 2048#32
  let v1302 : BitVec 32 := Scalar.muli v39 c2048_i32_1145
  let v1303 : BitVec 32 := Scalar.addi v1302 c0_i32_1146
  let c0_i32_1153 : BitVec 32 := 0#32
  ![v1303.toNat, 0]
def k0_dev52 (d0 : Dev nD) : Nat :=
  let c0_i32_1150 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1149 : BitVec 32 := 16#32
  let v1304 : BitVec 32 := Scalar.muli v2 c16_i32_1149
  let v1305 : BitVec 32 := Scalar.addi c0_i32_1150 v1304
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_1151 : BitVec 32 := 4#32
  let v1306 : BitVec 32 := Scalar.muli v30 c4_i32_1151
  let v1307 : BitVec 32 := Scalar.addi v1305 v1306
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1152 : BitVec 32 := 1#32
  let v1308 : BitVec 32 := Scalar.muli v8 c1_i32_1152
  let v1309 : BitVec 32 := Scalar.addi v1307 v1308
  v1309.toNat
def k0_off4 (d0 : Dev nD) (c128_i32_1166 : BitVec 32) : Fin 2 → Nat :=
  let c2_i32_18 : BitVec 32 := 2#32
  let c1_i32_17 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v34 : BitVec 32 := Scalar.subi c1_i32_17 v18
  let v35 : BitVec 32 := Scalar.muli c2_i32_18 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v36 : BitVec 32 := Scalar.addi v35 v28
  let c2048_i32_1165 : BitVec 32 := 2048#32
  let v1327 : BitVec 32 := Scalar.muli v36 c2048_i32_1165
  let v1328 : BitVec 32 := Scalar.addi v1327 c128_i32_1166
  let c0_i32_1173 : BitVec 32 := 0#32
  ![v1328.toNat, 0]
def k0_dev53 (d0 : Dev nD) : Nat :=
  let c0_i32_1170 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1169 : BitVec 32 := 16#32
  let v1329 : BitVec 32 := Scalar.muli v2 c16_i32_1169
  let v1330 : BitVec 32 := Scalar.addi c0_i32_1170 v1329
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1171 : BitVec 32 := 4#32
  let v1331 : BitVec 32 := Scalar.muli v5 c4_i32_1171
  let v1332 : BitVec 32 := Scalar.addi v1330 v1331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_1172 : BitVec 32 := 1#32
  let v1333 : BitVec 32 := Scalar.muli v31 c1_i32_1172
  let v1334 : BitVec 32 := Scalar.addi v1332 v1333
  v1334.toNat
def k0_dev54 (d0 : Dev nD) : Nat :=
  let c0_i32_1210 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1209 : BitVec 32 := 16#32
  let v1376 : BitVec 32 := Scalar.muli v2 c16_i32_1209
  let v1377 : BitVec 32 := Scalar.addi c0_i32_1210 v1376
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_1211 : BitVec 32 := 4#32
  let v1378 : BitVec 32 := Scalar.muli v30 c4_i32_1211
  let v1379 : BitVec 32 := Scalar.addi v1377 v1378
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1212 : BitVec 32 := 1#32
  let v1380 : BitVec 32 := Scalar.muli v8 c1_i32_1212
  let v1381 : BitVec 32 := Scalar.addi v1379 v1380
  v1381.toNat
def k0_dev55 (d0 : Dev nD) : Nat :=
  let c0_i32_1230 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1229 : BitVec 32 := 16#32
  let v1401 : BitVec 32 := Scalar.muli v2 c16_i32_1229
  let v1402 : BitVec 32 := Scalar.addi c0_i32_1230 v1401
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1231 : BitVec 32 := 4#32
  let v1403 : BitVec 32 := Scalar.muli v5 c4_i32_1231
  let v1404 : BitVec 32 := Scalar.addi v1402 v1403
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_1232 : BitVec 32 := 1#32
  let v1405 : BitVec 32 := Scalar.muli v31 c1_i32_1232
  let v1406 : BitVec 32 := Scalar.addi v1404 v1405
  v1406.toNat
def k0_dev56 (d0 : Dev nD) : Nat :=
  let c0_i32_1270 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1269 : BitVec 32 := 16#32
  let v1448 : BitVec 32 := Scalar.muli v2 c16_i32_1269
  let v1449 : BitVec 32 := Scalar.addi c0_i32_1270 v1448
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_1271 : BitVec 32 := 4#32
  let v1450 : BitVec 32 := Scalar.muli v30 c4_i32_1271
  let v1451 : BitVec 32 := Scalar.addi v1449 v1450
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1272 : BitVec 32 := 1#32
  let v1452 : BitVec 32 := Scalar.muli v8 c1_i32_1272
  let v1453 : BitVec 32 := Scalar.addi v1451 v1452
  v1453.toNat
def k0_dev57 (d0 : Dev nD) : Nat :=
  let c0_i32_1290 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1289 : BitVec 32 := 16#32
  let v1473 : BitVec 32 := Scalar.muli v2 c16_i32_1289
  let v1474 : BitVec 32 := Scalar.addi c0_i32_1290 v1473
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1291 : BitVec 32 := 4#32
  let v1475 : BitVec 32 := Scalar.muli v5 c4_i32_1291
  let v1476 : BitVec 32 := Scalar.addi v1474 v1475
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_1292 : BitVec 32 := 1#32
  let v1477 : BitVec 32 := Scalar.muli v31 c1_i32_1292
  let v1478 : BitVec 32 := Scalar.addi v1476 v1477
  v1478.toNat
def k0_dev58 (d0 : Dev nD) : Nat :=
  let c0_i32_1330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1329 : BitVec 32 := 16#32
  let v1520 : BitVec 32 := Scalar.muli v2 c16_i32_1329
  let v1521 : BitVec 32 := Scalar.addi c0_i32_1330 v1520
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_1331 : BitVec 32 := 4#32
  let v1522 : BitVec 32 := Scalar.muli v30 c4_i32_1331
  let v1523 : BitVec 32 := Scalar.addi v1521 v1522
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1332 : BitVec 32 := 1#32
  let v1524 : BitVec 32 := Scalar.muli v8 c1_i32_1332
  let v1525 : BitVec 32 := Scalar.addi v1523 v1524
  v1525.toNat
def k0_dev59 (d0 : Dev nD) : Nat :=
  let c0_i32_1350 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1349 : BitVec 32 := 16#32
  let v1545 : BitVec 32 := Scalar.muli v2 c16_i32_1349
  let v1546 : BitVec 32 := Scalar.addi c0_i32_1350 v1545
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1351 : BitVec 32 := 4#32
  let v1547 : BitVec 32 := Scalar.muli v5 c4_i32_1351
  let v1548 : BitVec 32 := Scalar.addi v1546 v1547
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_1352 : BitVec 32 := 1#32
  let v1549 : BitVec 32 := Scalar.muli v31 c1_i32_1352
  let v1550 : BitVec 32 := Scalar.addi v1548 v1549
  v1550.toNat
def k0_dev60 (d0 : Dev nD) : Nat :=
  let c0_i32_1390 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1389 : BitVec 32 := 16#32
  let v1592 : BitVec 32 := Scalar.muli v2 c16_i32_1389
  let v1593 : BitVec 32 := Scalar.addi c0_i32_1390 v1592
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_1391 : BitVec 32 := 4#32
  let v1594 : BitVec 32 := Scalar.muli v30 c4_i32_1391
  let v1595 : BitVec 32 := Scalar.addi v1593 v1594
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1392 : BitVec 32 := 1#32
  let v1596 : BitVec 32 := Scalar.muli v8 c1_i32_1392
  let v1597 : BitVec 32 := Scalar.addi v1595 v1596
  v1597.toNat
def k0_dev61 (d0 : Dev nD) : Nat :=
  let c0_i32_1410 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1409 : BitVec 32 := 16#32
  let v1617 : BitVec 32 := Scalar.muli v2 c16_i32_1409
  let v1618 : BitVec 32 := Scalar.addi c0_i32_1410 v1617
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1411 : BitVec 32 := 4#32
  let v1619 : BitVec 32 := Scalar.muli v5 c4_i32_1411
  let v1620 : BitVec 32 := Scalar.addi v1618 v1619
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_1412 : BitVec 32 := 1#32
  let v1621 : BitVec 32 := Scalar.muli v31 c1_i32_1412
  let v1622 : BitVec 32 := Scalar.addi v1620 v1621
  v1622.toNat
def k0_dev62 (d0 : Dev nD) : Nat :=
  let c0_i32_1450 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1449 : BitVec 32 := 16#32
  let v1664 : BitVec 32 := Scalar.muli v2 c16_i32_1449
  let v1665 : BitVec 32 := Scalar.addi c0_i32_1450 v1664
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_1451 : BitVec 32 := 4#32
  let v1666 : BitVec 32 := Scalar.muli v30 c4_i32_1451
  let v1667 : BitVec 32 := Scalar.addi v1665 v1666
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1452 : BitVec 32 := 1#32
  let v1668 : BitVec 32 := Scalar.muli v8 c1_i32_1452
  let v1669 : BitVec 32 := Scalar.addi v1667 v1668
  v1669.toNat
def k0_dev63 (d0 : Dev nD) : Nat :=
  let c0_i32_1470 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1469 : BitVec 32 := 16#32
  let v1689 : BitVec 32 := Scalar.muli v2 c16_i32_1469
  let v1690 : BitVec 32 := Scalar.addi c0_i32_1470 v1689
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1471 : BitVec 32 := 4#32
  let v1691 : BitVec 32 := Scalar.muli v5 c4_i32_1471
  let v1692 : BitVec 32 := Scalar.addi v1690 v1691
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_1472 : BitVec 32 := 1#32
  let v1693 : BitVec 32 := Scalar.muli v31 c1_i32_1472
  let v1694 : BitVec 32 := Scalar.addi v1692 v1693
  v1694.toNat
def k0_dev64 (d0 : Dev nD) : Nat :=
  let c0_i32_1510 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1509 : BitVec 32 := 16#32
  let v1736 : BitVec 32 := Scalar.muli v2 c16_i32_1509
  let v1737 : BitVec 32 := Scalar.addi c0_i32_1510 v1736
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_1511 : BitVec 32 := 4#32
  let v1738 : BitVec 32 := Scalar.muli v30 c4_i32_1511
  let v1739 : BitVec 32 := Scalar.addi v1737 v1738
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1512 : BitVec 32 := 1#32
  let v1740 : BitVec 32 := Scalar.muli v8 c1_i32_1512
  let v1741 : BitVec 32 := Scalar.addi v1739 v1740
  v1741.toNat
def k0_dev65 (d0 : Dev nD) : Nat :=
  let c0_i32_1530 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1529 : BitVec 32 := 16#32
  let v1761 : BitVec 32 := Scalar.muli v2 c16_i32_1529
  let v1762 : BitVec 32 := Scalar.addi c0_i32_1530 v1761
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1531 : BitVec 32 := 4#32
  let v1763 : BitVec 32 := Scalar.muli v5 c4_i32_1531
  let v1764 : BitVec 32 := Scalar.addi v1762 v1763
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_1532 : BitVec 32 := 1#32
  let v1765 : BitVec 32 := Scalar.muli v31 c1_i32_1532
  let v1766 : BitVec 32 := Scalar.addi v1764 v1765
  v1766.toNat
def k0_dev66 (d0 : Dev nD) : Nat :=
  let c0_i32_1570 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1569 : BitVec 32 := 16#32
  let v1808 : BitVec 32 := Scalar.muli v2 c16_i32_1569
  let v1809 : BitVec 32 := Scalar.addi c0_i32_1570 v1808
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.xori v5 c1_i32_14
  let c4_i32_1571 : BitVec 32 := 4#32
  let v1810 : BitVec 32 := Scalar.muli v30 c4_i32_1571
  let v1811 : BitVec 32 := Scalar.addi v1809 v1810
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1572 : BitVec 32 := 1#32
  let v1812 : BitVec 32 := Scalar.muli v8 c1_i32_1572
  let v1813 : BitVec 32 := Scalar.addi v1811 v1812
  v1813.toNat
def k0_dev67 (d0 : Dev nD) : Nat :=
  let c0_i32_1590 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1589 : BitVec 32 := 16#32
  let v1833 : BitVec 32 := Scalar.muli v2 c16_i32_1589
  let v1834 : BitVec 32 := Scalar.addi c0_i32_1590 v1833
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1591 : BitVec 32 := 4#32
  let v1835 : BitVec 32 := Scalar.muli v5 c4_i32_1591
  let v1836 : BitVec 32 := Scalar.addi v1834 v1835
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_1592 : BitVec 32 := 1#32
  let v1837 : BitVec 32 := Scalar.muli v31 c1_i32_1592
  let v1838 : BitVec 32 := Scalar.addi v1836 v1837
  v1838.toNat

class Facts₀ : Prop where
  hamt_1 : (1#32 : BitVec 32).msb = false
  hamt_3 : (3#32 : BitVec 32).msb = false
  inb_S16_S1_0 : ∀ a, (![0] : Fin 1 → Nat) a + S1.size a ≤ S16.size a
  squeezes_S1_S_ : S1.Squeezes S_
  inb_S2048x1024_S128x1024_0_0 : ∀ a, (![0, 0] : Fin 2 → Nat) a + S128x1024.size a ≤ S2048x1024.size a
  inb_S16_S1_1 : ∀ a, (![1] : Fin 1 → Nat) a + S1.size a ≤ S16.size a
  inb_S2048x1024_S128x1024_128_0 : ∀ a, (![128, 0] : Fin 2 → Nat) a + S128x1024.size a ≤ S2048x1024.size a
  inb_S16_S1_2 : ∀ a, (![2] : Fin 1 → Nat) a + S1.size a ≤ S16.size a
  inb_S2048x1024_S128x1024_256_0 : ∀ a, (![256, 0] : Fin 2 → Nat) a + S128x1024.size a ≤ S2048x1024.size a
  inb_S16_S1_3 : ∀ a, (![3] : Fin 1 → Nat) a + S1.size a ≤ S16.size a
  inb_S2048x1024_S128x1024_384_0 : ∀ a, (![384, 0] : Fin 2 → Nat) a + S128x1024.size a ≤ S2048x1024.size a
  inb_S16_S1_4 : ∀ a, (![4] : Fin 1 → Nat) a + S1.size a ≤ S16.size a
  inb_S2048x1024_S128x1024_512_0 : ∀ a, (![512, 0] : Fin 2 → Nat) a + S128x1024.size a ≤ S2048x1024.size a
  inb_S16_S1_5 : ∀ a, (![5] : Fin 1 → Nat) a + S1.size a ≤ S16.size a
  inb_S2048x1024_S128x1024_640_0 : ∀ a, (![640, 0] : Fin 2 → Nat) a + S128x1024.size a ≤ S2048x1024.size a
  inb_S16_S1_6 : ∀ a, (![6] : Fin 1 → Nat) a + S1.size a ≤ S16.size a
  inb_S2048x1024_S128x1024_768_0 : ∀ a, (![768, 0] : Fin 2 → Nat) a + S128x1024.size a ≤ S2048x1024.size a
  inb_S16_S1_7 : ∀ a, (![7] : Fin 1 → Nat) a + S1.size a ≤ S16.size a
  inb_S2048x1024_S128x1024_896_0 : ∀ a, (![896, 0] : Fin 2 → Nat) a + S128x1024.size a ≤ S2048x1024.size a
  inb_S16_S1_8 : ∀ a, (![8] : Fin 1 → Nat) a + S1.size a ≤ S16.size a
  inb_S2048x1024_S128x1024_1024_0 : ∀ a, (![1024, 0] : Fin 2 → Nat) a + S128x1024.size a ≤ S2048x1024.size a
  inb_S16_S1_9 : ∀ a, (![9] : Fin 1 → Nat) a + S1.size a ≤ S16.size a
  inb_S2048x1024_S128x1024_1152_0 : ∀ a, (![1152, 0] : Fin 2 → Nat) a + S128x1024.size a ≤ S2048x1024.size a
  inb_S16_S1_10 : ∀ a, (![10] : Fin 1 → Nat) a + S1.size a ≤ S16.size a
  inb_S2048x1024_S128x1024_1280_0 : ∀ a, (![1280, 0] : Fin 2 → Nat) a + S128x1024.size a ≤ S2048x1024.size a
  inb_S16_S1_11 : ∀ a, (![11] : Fin 1 → Nat) a + S1.size a ≤ S16.size a
  inb_S2048x1024_S128x1024_1408_0 : ∀ a, (![1408, 0] : Fin 2 → Nat) a + S128x1024.size a ≤ S2048x1024.size a
  inb_S16_S1_12 : ∀ a, (![12] : Fin 1 → Nat) a + S1.size a ≤ S16.size a
  inb_S2048x1024_S128x1024_1536_0 : ∀ a, (![1536, 0] : Fin 2 → Nat) a + S128x1024.size a ≤ S2048x1024.size a
  inb_S16_S1_13 : ∀ a, (![13] : Fin 1 → Nat) a + S1.size a ≤ S16.size a
  inb_S2048x1024_S128x1024_1664_0 : ∀ a, (![1664, 0] : Fin 2 → Nat) a + S128x1024.size a ≤ S2048x1024.size a
  inb_S16_S1_14 : ∀ a, (![14] : Fin 1 → Nat) a + S1.size a ≤ S16.size a
  inb_S2048x1024_S128x1024_1792_0 : ∀ a, (![1792, 0] : Fin 2 → Nat) a + S128x1024.size a ≤ S2048x1024.size a
  inb_S16_S1_15 : ∀ a, (![15] : Fin 1 → Nat) a + S1.size a ≤ S16.size a
  inb_S2048x1024_S128x1024_1920_0 : ∀ a, (![1920, 0] : Fin 2 → Nat) a + S128x1024.size a ≤ S2048x1024.size a
  h_S128x1024 : 0 < S128x1024.numel
  inb_S2x128x1024_S1x128x1024_0_0_0 : ∀ a, (![0, 0, 0] : Fin 3 → Nat) a + S1x128x1024.size a ≤ S2x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  inb_S2_S1_0 : ∀ a, (![0] : Fin 1 → Nat) a + S1.size a ≤ S2.size a
  squeezes_S1x128x1024_S128x1024 : S1x128x1024.Squeezes S128x1024
  inb_S2x128x1024_S1x128x1024_1_0_0 : ∀ a, (![1, 0, 0] : Fin 3 → Nat) a + S1x128x1024.size a ≤ S2x128x1024.size a
  inb_S2_S1_1 : ∀ a, (![1] : Fin 1 → Nat) a + S1.size a ≤ S2.size a
  inb_S8_S1_0 : ∀ a, (![0] : Fin 1 → Nat) a + S1.size a ≤ S8.size a
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  hcc0_scratch3 : 0 + S16.numel ≤ 131
  hcc0_scratch4 : 16 + S16.numel ≤ 131
  hcc0_scratch5 : 32 + S16.numel ≤ 131
  hcc0_scratch6 : 48 + S16.numel ≤ 131
  hcc0_scratch7 : 64 + S16.numel ≤ 131
  hcc0_scratch8 : 80 + S16.numel ≤ 131
  hcc0_scratch9 : 96 + S8.numel ≤ 131
  hcc0_scratch10 : 104 + S8.numel ≤ 131
  hcc0_scratch11 : 112 + S8.numel ≤ 131
  hcc0_scratch12 : 120 + S8.numel ≤ 131
  hcc0_scratch13 : 128 + S_.numel ≤ 131
  hcc0_scratch14 : 129 + S2.numel ≤ 131
  k0_off1_inb : ∀ d0 : Dev nD, ∀ a, (k0_off1 d0) a + S2048x1024.size a ≤ S8192x1024.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off2_inb : ∀ d0 : Dev nD, ∀ (r : Fin 16), ∀ a, (k0_off2 d0 (BitVec.ofNat 32 (128 * r.val))) a + S128x1024.size a ≤ S8192x1024.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_off3_inb : ∀ d0 : Dev nD, ∀ (r : Fin 8), ∀ a, (k0_off3 d0 (BitVec.ofNat 32 (256 * r.val))) a + S128x1024.size a ≤ S8192x1024.size a
  k0_dev52_lt : ∀ d0 : Dev nD, (k0_dev52 d0) < nD
  k0_off4_inb : ∀ d0 : Dev nD, ∀ (r : Fin 8), ∀ a, (k0_off4 d0 (BitVec.ofNat 32 (128 + 256 * r.val))) a + S128x1024.size a ≤ S8192x1024.size a
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD

variable [Facts₀]

abbrev cc0_scratch3 : DmaSems sig S16 := SemArray.consecutive 0 S16 hcc0_scratch3
abbrev cc0_scratch4 : DmaSems sig S16 := SemArray.consecutive 16 S16 hcc0_scratch4
abbrev cc0_scratch5 : DmaSems sig S16 := SemArray.consecutive 32 S16 hcc0_scratch5
abbrev cc0_scratch6 : DmaSems sig S16 := SemArray.consecutive 48 S16 hcc0_scratch6
abbrev cc0_scratch7 : DmaSems sig S16 := SemArray.consecutive 64 S16 hcc0_scratch7
abbrev cc0_scratch8 : DmaSems sig S16 := SemArray.consecutive 80 S16 hcc0_scratch8
abbrev cc0_scratch9 : DmaSems sig S8 := SemArray.consecutive 96 S8 hcc0_scratch9
abbrev cc0_scratch10 : DmaSems sig S8 := SemArray.consecutive 104 S8 hcc0_scratch10
abbrev cc0_scratch11 : DmaSems sig S8 := SemArray.consecutive 112 S8 hcc0_scratch11
abbrev cc0_scratch12 : DmaSems sig S8 := SemArray.consecutive 120 S8 hcc0_scratch12
abbrev cc0_scratch13 : DmaSems sig S_ := SemArray.consecutive 128 S_ hcc0_scratch13
abbrev cc0_scratch14 : DmaSems sig S2 := SemArray.consecutive 129 S2 hcc0_scratch14

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x1024 : Shape := ⟨2, ![16384, 1024]⟩
abbrev S2x8192x1024 : Shape := ⟨3, ![2, 8192, 1024]⟩
abbrev S_ : Shape := ⟨0, ![]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8192x1024, .f32⟩
  | .hbm, ⟨2, _⟩ => ⟨S_, .f32⟩
  | .hbm, ⟨3, _⟩ => ⟨S8192x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S16384x1024_S2x8192x1024 : S16384x1024.ShapeCasts S2x8192x1024
  reducesTo_S2x8192x1024_S8192x1024_d0 : S2x8192x1024.ReducesTo [0] S8192x1024
  h_S_ : 0 < S_.numel

variable [Facts₀]

class Facts : Prop extends Facts₀ where

variable [Facts]
-- ==== Proof.Mesh.lean ====
/-
  The mesh of 32 devices, numbered row-major over (x, y, z) = (2, 4, 4): device `c` sits at
  (c / 16, c / 4 % 4, c % 4). Each device has three partners: `xp` flips the x coordinate, `yp` and `zp`
  flip the low bit of the y and of the z coordinate. The low bits of y and z name the quarter of the rows a
  device reduces itself (`qme`); its y partner's, z partner's and diagonal partner's quarters are `qyp`,
  `qzp`, `qdg`. This module decides, over the 32 devices, that the printed device-id chains are these
  partners and that the printed row offsets are the quarters' chunks.
-/
import proofs.«900725_g7700000000000726_dist_ar_v7x_xyz2x4x4_x_m8192_n1024_f32_1_alg».proof.Proof.Gen.KernelIdeal
import Idealize.ShloMosaic.Lib.Decide

set_option Elab.async false

namespace Cert.KernelIdeal.Mesh

open Cert.KernelIdeal Cert.KernelIdeal.Gen Idealize.ShloMosaic Idealize.SL.Sem

/-- The partner across the x axis. -/
def xp (c : Dev nD) : Dev nD := ⟨(4 * ((c.val / 4) % 4) + c.val % 4 + 16) - 16 * (c.val / 16), by
  have h : c.val < 32 := c.isLt; show _ < 32; omega⟩
/-- The partner across the low bit of the y coordinate. -/
def yp (c : Dev nD) : Dev nD := ⟨c.val + 4 - 8 * ((c.val / 4) % 2), by
  have h : c.val < 32 := c.isLt; show _ < 32; omega⟩
/-- The partner across the low bit of the z coordinate. -/
def zp (c : Dev nD) : Dev nD := ⟨c.val + 1 - 2 * (c.val % 2), by
  have h : c.val < 32 := c.isLt; show _ < 32; omega⟩

theorem xp_xp (c : Dev nD) : xp (xp c) = c := by revert c; decide
theorem yp_yp (c : Dev nD) : yp (yp c) = c := by revert c; decide
theorem zp_zp (c : Dev nD) : zp (zp c) = c := by revert c; decide
theorem yp_zp (c : Dev nD) : yp (zp c) = zp (yp c) := by revert c; decide
theorem xp_yp (c : Dev nD) : xp (yp c) = yp (xp c) := by revert c; decide
theorem xp_zp (c : Dev nD) : xp (zp c) = zp (xp c) := by revert c; decide
theorem xp_ne (c : Dev nD) : xp c ≠ c := by revert c; decide
theorem yp_ne (c : Dev nD) : yp c ≠ c := by revert c; decide
theorem zp_ne (c : Dev nD) : zp c ≠ c := by revert c; decide
theorem xp_ne_yp (c : Dev nD) : xp c ≠ yp c := by revert c; decide
theorem xp_ne_zp (c : Dev nD) : xp c ≠ zp c := by revert c; decide
theorem yp_ne_zp (c : Dev nD) : yp c ≠ zp c := by revert c; decide

/-- The quarter of the rows a device reduces itself, and its partners' quarters. -/
def qme (c : Dev nD) : Nat := 2 * ((c.val / 4) % 2) + c.val % 2
def qyp (c : Dev nD) : Nat := 2 * (1 - (c.val / 4) % 2) + c.val % 2
def qzp (c : Dev nD) : Nat := 2 * ((c.val / 4) % 2) + (1 - c.val % 2)
def qdg (c : Dev nD) : Nat := 2 * (1 - (c.val / 4) % 2) + (1 - c.val % 2)

theorem qme_lt (c : Dev nD) : qme c < 4 := by unfold qme; omega
theorem qyp_lt (c : Dev nD) : qyp c < 4 := by unfold qyp; omega
theorem qzp_lt (c : Dev nD) : qzp c < 4 := by unfold qzp; omega
theorem qdg_lt (c : Dev nD) : qdg c < 4 := by unfold qdg; omega
theorem qme_xp (c : Dev nD) : qme (xp c) = qme c := by revert c; decide
theorem qme_yp (c : Dev nD) : qme (yp c) = qyp c := by revert c; decide
theorem qme_zp (c : Dev nD) : qme (zp c) = qzp c := by revert c; decide
theorem qyp_yp (c : Dev nD) : qyp (yp c) = qme c := by revert c; decide
theorem qzp_zp (c : Dev nD) : qzp (zp c) = qme c := by revert c; decide
theorem qzp_yp (c : Dev nD) : qzp (yp c) = qdg c := by revert c; decide
theorem qyp_zp (c : Dev nD) : qyp (zp c) = qdg c := by revert c; decide
theorem qdg_yp (c : Dev nD) : qdg (yp c) = qzp c := by revert c; decide
theorem qdg_zp (c : Dev nD) : qdg (zp c) = qyp c := by revert c; decide

/-! ## The printed device chains -/

open Lean Elab Command in
/-- `dev_eq N p`: the printed chain `k0_devN` names partner `p`, decided over the mesh. -/
elab "dev_eq " n:num p:ident : command => do
  let k := n.getNat
  let thm := mkIdent (Name.mkSimple s!"dev{k}_eq")
  let dv := mkIdent (Name.mkSimple s!"k0_dev{k}")
  let lt := mkIdent (Name.mkSimple s!"k0_dev{k}_lt")
  elabCommand (← `(theorem $thm : ∀ c : Dev nD, (⟨$dv c, $lt c⟩ : Dev nD) = $p c := by decide +kernel))

dev_eq 1 xp
dev_eq 2 yp
dev_eq 3 zp
dev_eq 4 xp
dev_eq 5 xp
dev_eq 6 xp
dev_eq 7 xp
dev_eq 8 xp
dev_eq 9 xp
dev_eq 10 xp
dev_eq 11 xp
dev_eq 12 xp
dev_eq 13 xp
dev_eq 14 xp
dev_eq 15 xp
dev_eq 16 xp
dev_eq 17 xp
dev_eq 18 xp
dev_eq 19 xp
dev_eq 20 yp
dev_eq 21 zp
dev_eq 22 yp
dev_eq 23 zp
dev_eq 24 yp
dev_eq 25 zp
dev_eq 26 yp
dev_eq 27 zp
dev_eq 28 yp
dev_eq 29 zp
dev_eq 30 yp
dev_eq 31 zp
dev_eq 32 yp
dev_eq 33 zp
dev_eq 34 yp
dev_eq 35 zp
dev_eq 36 yp
dev_eq 37 zp
dev_eq 38 yp
dev_eq 39 zp
dev_eq 40 yp
dev_eq 41 zp
dev_eq 42 yp
dev_eq 43 zp
dev_eq 44 yp
dev_eq 45 zp
dev_eq 46 yp
dev_eq 47 zp
dev_eq 48 yp
dev_eq 49 zp
dev_eq 50 yp
dev_eq 51 zp
dev_eq 52 yp
dev_eq 53 zp
dev_eq 54 yp
dev_eq 55 zp
dev_eq 56 yp
dev_eq 57 zp
dev_eq 58 yp
dev_eq 59 zp
dev_eq 60 yp
dev_eq 61 zp
dev_eq 62 yp
dev_eq 63 zp
dev_eq 64 yp
dev_eq 65 zp
dev_eq 66 yp
dev_eq 67 zp

/-! ## The printed row offsets -/

theorem off1_eq : ∀ c : Dev nD, k0_off1 c = ![2048 * qme c, 0] := by decide +kernel
theorem off2_eq : ∀ (c : Dev nD) (j : Fin 16), k0_off2 c (BitVec.ofNat 32 (128 * j.val)) = ![2048 * qme c + 128 * j.val, 0] := by decide +kernel
theorem off3_eq : ∀ (c : Dev nD) (i : Fin 8), k0_off3 c (BitVec.ofNat 32 (256 * i.val)) = ![2048 * qzp c + 256 * i.val, 0] := by decide +kernel
theorem off4_eq : ∀ (c : Dev nD) (i : Fin 8), k0_off4 c (BitVec.ofNat 32 (128 + 256 * i.val)) = ![2048 * qyp c + 128 + 256 * i.val, 0] := by decide +kernel

end Cert.KernelIdeal.Mesh
-- ==== Proof.RefSide.lean ====
/-
  The reference side: the one-device program sums the two row blocks of the whole input,
  `x.reshape(2, 8192, 1024).sum(axis = 0)`. Its run and its stages read at an index come from the
  generated modules imported here; this module restates the run's result at an index, names the
  block of the whole input a device of the mesh holds (the half its x coordinate names), and shows
  that a device's block plus the block of any device of the other half is the reference's result:
  at the extended reals the sum of the two halves does not depend on the order of its two terms.
-/
import proofs.«900725_g7700000000000726_dist_ar_v7x_xyz2x4x4_x_m8192_n1024_f32_1_alg».proof.Defs
import proofs.«900725_g7700000000000726_dist_ar_v7x_xyz2x4x4_x_m8192_n1024_f32_1_alg».proof.Proof.Gen.ReferenceIdeal.Run
import proofs.«900725_g7700000000000726_dist_ar_v7x_xyz2x4x4_x_m8192_n1024_f32_1_alg».proof.Proof.Gen.ReferenceIdeal.Read
import proofs.«900725_g7700000000000726_dist_ar_v7x_xyz2x4x4_x_m8192_n1024_f32_1_alg».proof.Proof.Gen.Pre_finite_inputs_ReferenceIdeal
import proofs.«900725_g7700000000000726_dist_ar_v7x_xyz2x4x4_x_m8192_n1024_f32_1_alg».proof.Proof.Mesh
import Idealize.ShloMosaic.Lib.Layout
import Idealize.ShloMosaic.PureOps.Ideal.Laws

noncomputable section

namespace Cert.RefSide

open Idealize.ShloMosaic Idealize.SL.Sem

/-- The whole input's shape and a device's block's shape (also the result's). -/
abbrev SW : Shape := ⟨2, ![16384, 1024]⟩
abbrev SB : Shape := ⟨2, ![8192, 1024]⟩

/-- Row `r` of half `b` of the whole array: row `b * 8192 + r`, the same column. -/
def half (b : Fin 2) (i : SB.Idx) : SW.Idx :=
  Shape.pair (d := ![16384, 1024]) ⟨b.val * 8192 + (i 0).val, by
      have h0 : (i 0).val < 8192 := (i 0).isLt; have hb : b.val < 2 := b.isLt; show _ < 16384; omega⟩
    ⟨(i 1).val, (i 1).isLt⟩

/-- The reference's result at an index: the two halves' elements there, added (the initial value is zero). -/
theorem ref_apply (X : SW.Idx → Elt Ideal .f32) (i : SB.Idx) :
    Cert.ReferenceIdeal.Read.val_main_v1 (F := Ideal) X i = X (half 0 i) + X (half 1 i) := by
  rw [Cert.ReferenceIdeal.Read.val_main_v1_apply, Cert.ReferenceIdeal.Read.val_main_cst_apply, Fin.sum_univ_two]
  rw [Cert.ReferenceIdeal.Read.val_main_v0_apply, Cert.ReferenceIdeal.Read.val_main_v0_apply]
  show Ideal.ofBits .f32 0x00000000#32 + _ = _
  rw [Ideal.ofBits_zero_f32, zero_add]
  have e : ∀ k : Fin 2, Cert.ReferenceIdeal.Read.idx_main_v0 (Cert.ReferenceIdeal.Read.idx_main_v1 i k) = half k i := by
    intro k; funext a; apply Fin.ext
    have h0 : (i 0).val < 8192 := (i 0).isLt
    have h1 : (i 1).val < 1024 := (i 1).isLt
    have hk : k.val < 2 := k.isLt
    match a with
    | ⟨0, _⟩ => show ((k.val * 8192 + (i 0).val) * 1024 + (i 1).val) / 1024 = k.val * 8192 + (i 0).val; omega
    | ⟨1, _⟩ => show ((k.val * 8192 + (i 0).val) * 1024 + (i 1).val) % 1024 = (i 1).val; omega
  rw [e 0, e 1]

/-- The half of the whole array device `c` holds: its x coordinate. -/
def hx (c : Dev 32) : Fin 2 := ⟨c.val / 16, by have h : c.val < 32 := c.isLt; omega⟩

/-- Device `c`'s block of the whole array `X`. -/
abbrev blk (c : Dev 32) (X : SW.Idx → Elt Ideal .f32) : SB.Idx → Elt Ideal .f32 :=
  Layout.blockN ⟨2, ![8192, 1024]⟩ ⟨2, ![16384, 1024]⟩ (Layout.meshBlock [2, 4, 4] ![[0], []] c) X

/-- The block at an index: the whole array at that row of the device's half. -/
theorem blk_apply (c : Dev 32) (X : SW.Idx → Elt Ideal .f32) (i : SB.Idx) :
    blk c X i = X (half (hx c) i) := by
  show X _ = X _
  congr 1
  funext a; apply Fin.ext
  have hc : c.val < 32 := c.isLt
  match a with
  | ⟨0, _⟩ =>
    show Layout.meshLin [2, 4, 4] c.val [0] * 8192 + (i 0).val = c.val / 16 * 8192 + (i 0).val
    have : Layout.meshLin [2, 4, 4] c.val [0] = c.val / 16 := by
      simp [Layout.meshLin, Layout.meshCoord, Layout.cutSize]; omega
    rw [this]
  | ⟨1, _⟩ =>
    show Layout.meshLin [2, 4, 4] c.val [] * 1024 + (i 1).val = (i 1).val
    simp [Layout.meshLin]

/-- Devices of one half hold one block. -/
theorem blk_congr {c d : Dev 32} (h : hx c = hx d) (X : SW.Idx → Elt Ideal .f32) : blk c X = blk d X := by
  funext i; rw [blk_apply, blk_apply, h]

section Partners
open Cert.KernelIdeal.Mesh

/-- The x partner holds the other half; the y and z partners hold the same half. -/
theorem hx_xp (c : Dev 32) : hx (xp c) = 1 - hx c := by revert c; decide
theorem hx_yp (c : Dev 32) : hx (yp c) = hx c := by revert c; decide
theorem hx_zp (c : Dev 32) : hx (zp c) = hx c := by revert c; decide

theorem blk_yp (c : Dev 32) (X : SW.Idx → Elt Ideal .f32) : blk (yp c) X = blk c X := blk_congr (hx_yp c) X
theorem blk_zp (c : Dev 32) (X : SW.Idx → Elt Ideal .f32) : blk (zp c) X = blk c X := blk_congr (hx_zp c) X

end Partners

/-- A block of one half plus a block of the other half is the reference's sum, in either order. -/
theorem blk_add {d e : Dev 32} (h : hx e = 1 - hx d) (X : SW.Idx → Elt Ideal .f32) (i : SB.Idx) :
    (show EReal from blk d X i) + (show EReal from blk e X i)
      = Cert.ReferenceIdeal.Read.val_main_v1 (F := Ideal) X i := by
  rw [blk_apply, blk_apply, ref_apply, h]
  have h2 : hx d = 0 ∨ hx d = 1 := by
    rcases hx d with ⟨_ | _ | n, hn⟩
    · left; rfl
    · right; rfl
    · omega
  rcases h2 with h2 | h2 <;> rw [h2]
  · rfl
  · exact add_comm (G := EReal) _ _

/-- A device's block plus its x partner's block is the reference's sum. -/
theorem blk_add_xp (c : Dev 32) (X : SW.Idx → Elt Ideal .f32) (i : SB.Idx) :
    (show EReal from blk c X i) + (show EReal from blk (Cert.KernelIdeal.Mesh.xp c) X i)
      = Cert.ReferenceIdeal.Read.val_main_v1 (F := Ideal) X i := blk_add (hx_xp c) X i

/-! ## The reference's run -/

/-- The reference runs, its result the stage `val_main_v1` of its argument, its argument unchanged. -/
theorem run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v1)
          = Cert.ReferenceIdeal.Read.val_main_v1 (F := Ideal) (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  Cert.ReferenceIdeal.Value.run (F := Ideal) m g

/-- The reference's frame: that run with the value dropped. -/
theorem frame_ri : Cert.frame_ReferenceIdeal := fun m g _ =>
  (θ_run Cert.ReferenceIdeal.defs _ _).mono (fun _ h c => (h c).2) (run m g)

/-- info: 'Cert.RefSide.blk_add' depends on axioms: [propext, Classical.choice, Quot.sound] -/
#guard_msgs in #print axioms blk_add
/-- info: 'Cert.RefSide.frame_ri' depends on axioms: [propext, Classical.choice, Quot.sound] -/
#guard_msgs in #print axioms frame_ri

end Cert.RefSide

end
-- ==== Proof.Views.lean ====
/-
  The memrefs the kernel body addresses, at a symbolic device `c` and chunk index, spelt exactly as the
  body's skeleton spells them (slices of the whole buffers at the printed offset functions), the semaphore
  cells, and the CONTENTS every buffer holds at each stage, as global functions of the launch memory `m`:
  device `c`'s input block `X c`, the sum `Ssum c = X c + X (xp c)` that device `c` computes for its own
  quarter of the rows, and the final result `OUTc c`, which at each row holds the sum computed by the device
  that owns the row's quarter and chunk in the exchange pattern.
-/
import proofs.«900725_g7700000000000726_dist_ar_v7x_xyz2x4x4_x_m8192_n1024_f32_1_alg».proof.Proof.Mesh
import Idealize.ShloMosaic.Lib.Pipeline.Launch
import Idealize.ShloMosaic.Lib.Pipeline.Kit
import Idealize.ShloMosaic.Lib.ValueIdx
import Idealize.ShloMosaic.Lib.Tactic

noncomputable section

namespace Cert.KernelIdeal.Ar

open Cert.KernelIdeal Cert.KernelIdeal.Gen Cert.KernelIdeal.Mesh
open Idealize.ShloMosaic Idealize.ShloMosaic.TcCoe Idealize.ShloMosaic.ValueIdx
open Idealize.SL Idealize.SL.Sem

variable {F : FTy → Type} [FloatOps F]

/-! ## The whole buffers -/

abbrev A0 : Memref sig .tc .hbm S8192x1024 .f32 := Memref.whole main_arg0
abbrev A1 : Memref sig .tc .hbm S8192x1024 .f32 := Memref.whole main_v1
abbrev VQ : Memref sig .tc .vmem S2048x1024 .f32 := Memref.whole cc0_scratch0
abbrev VR : Memref sig .tc .vmem S2048x1024 .f32 := Memref.whole cc0_scratch1
abbrev VS : Memref sig .tc .vmem S2x128x1024 .f32 := Memref.whole cc0_scratch2

/-! ## In-bounds evidence at a symbolic chunk -/

theorem inb16 (j : Fin 16) : ∀ a, (![j.val] : Fin 1 → Nat) a + S1.size a ≤ S16.size a := fun a => by
  have h := j.isLt; match a with | ⟨0, _⟩ => show j.val + 1 ≤ 16; omega
theorem inb8 (i : Fin 8) : ∀ a, (![i.val] : Fin 1 → Nat) a + S1.size a ≤ S8.size a := fun a => by
  have h := i.isLt; match a with | ⟨0, _⟩ => show i.val + 1 ≤ 8; omega
theorem inb2 (s : Fin 2) : ∀ a, (![s.val] : Fin 1 → Nat) a + S1.size a ≤ S2.size a := fun a => by
  have h := s.isLt; match a with | ⟨0, _⟩ => show s.val + 1 ≤ 2; omega
theorem inbR (j : Fin 16) : ∀ a, (![128 * j.val, 0] : Fin 2 → Nat) a + S128x1024.size a ≤ S2048x1024.size a := fun a => by
  have h := j.isLt
  match a with
  | ⟨0, _⟩ => show 128 * j.val + 128 ≤ 2048; omega
  | ⟨1, _⟩ => show 0 + 1024 ≤ 1024; omega
theorem inbS (s : Fin 2) : ∀ a, (![s.val, 0, 0] : Fin 3 → Nat) a + S1x128x1024.size a ≤ S2x128x1024.size a := fun a => by
  have h := s.isLt
  match a with
  | ⟨0, _⟩ => show s.val + 1 ≤ 2; omega
  | ⟨1, _⟩ => show 0 + 128 ≤ 128; omega
  | ⟨2, _⟩ => show 0 + 1024 ≤ 1024; omega

/-! ## The semaphores -/

abbrev sem16 (a : DmaSems sig S16) (j : Fin 16) : DmaSem sig :=
  ((a.slice (Rect.unit (s := S16) ![j.val] S1.size (inb16 j))).squeeze S_ squeezes_S1_S_).sem
abbrev sem8 (a : DmaSems sig S8) (i : Fin 8) : DmaSem sig :=
  ((a.slice (Rect.unit (s := S8) ![i.val] S1.size (inb8 i))).squeeze S_ squeezes_S1_S_).sem
abbrev sem2 (a : DmaSems sig S2) (s : Fin 2) : DmaSem sig :=
  ((a.slice (Rect.unit (s := S2) ![s.val] S1.size (inb2 s))).squeeze S_ squeezes_S1_S_).sem

/-- The runtime's barrier semaphore of collective id 0. -/
abbrev barS : Sem sig := (SemArray.scalar (sig.barrier 0 rfl) : Sems sig S_).sem

abbrev xS (j : Fin 16) : DmaSem sig := sem16 cc0_scratch3 j
abbrev xR (j : Fin 16) : DmaSem sig := sem16 cc0_scratch4 j
abbrev ydS (j : Fin 16) : DmaSem sig := sem16 cc0_scratch5 j
abbrev ydR (j : Fin 16) : DmaSem sig := sem16 cc0_scratch6 j
abbrev zdS (j : Fin 16) : DmaSem sig := sem16 cc0_scratch7 j
abbrev zdR (j : Fin 16) : DmaSem sig := sem16 cc0_scratch8 j
abbrev yrS (i : Fin 8) : DmaSem sig := sem8 cc0_scratch9 i
abbrev yrR (i : Fin 8) : DmaSem sig := sem8 cc0_scratch10 i
abbrev zrS (i : Fin 8) : DmaSem sig := sem8 cc0_scratch11 i
abbrev zrR (i : Fin 8) : DmaSem sig := sem8 cc0_scratch12 i
abbrev cpqS : DmaSem sig := cc0_scratch13.sem
abbrev cpoS (s : Fin 2) : DmaSem sig := sem2 cc0_scratch14 s

theorem xS_val (j : Fin 16) : (xS j).val = j.val := by revert j; decide
theorem xR_val (j : Fin 16) : (xR j).val = 16 + j.val := by revert j; decide
theorem ydS_val (j : Fin 16) : (ydS j).val = 32 + j.val := by revert j; decide
theorem ydR_val (j : Fin 16) : (ydR j).val = 48 + j.val := by revert j; decide
theorem zdS_val (j : Fin 16) : (zdS j).val = 64 + j.val := by revert j; decide
theorem zdR_val (j : Fin 16) : (zdR j).val = 80 + j.val := by revert j; decide
theorem yrS_val (i : Fin 8) : (yrS i).val = 96 + i.val := by revert i; decide
theorem yrR_val (i : Fin 8) : (yrR i).val = 104 + i.val := by revert i; decide
theorem zrS_val (i : Fin 8) : (zrS i).val = 112 + i.val := by revert i; decide
theorem zrR_val (i : Fin 8) : (zrR i).val = 120 + i.val := by revert i; decide
theorem cpqS_val : (cpqS : DmaSem sig).val = 128 := by decide
theorem cpoS_val (s : Fin 2) : (cpoS s).val = 129 + s.val := by revert s; decide

/-! ## The memrefs of the copies -/

/-- The quarter of the input a device reduces: the source of the local copy to `VQ`. -/
abbrev srcQ (c : Dev nD) : Memref sig .tc .hbm S2048x1024 .f32 :=
  A0.slice (Rect.unit (s := S8192x1024) (k0_off1 c) S2048x1024.size (k0_off1_inb c)) (fun _ => rfl)
/-- Chunk `j` of that quarter of the input: the source of the copy to the x partner. -/
abbrev srcX (c : Dev nD) (j : Fin 16) : Memref sig .tc .hbm S128x1024 .f32 :=
  A0.slice (Rect.unit (s := S8192x1024) (k0_off2 c (BitVec.ofNat 32 (128 * j.val))) S128x1024.size (k0_off2_inb c j)) (fun _ => rfl)
/-- The same rows of the RESULT array: where device `c`'s sum of chunk `j` goes, on itself and on its y and z partners. -/
abbrev outM (c : Dev nD) (j : Fin 16) : Memref sig .tc .hbm S128x1024 .f32 :=
  A1.slice (Rect.unit (s := S8192x1024) (k0_off2 c (BitVec.ofNat 32 (128 * j.val))) S128x1024.size (k0_off2_inb c j)) (fun _ => rfl)
/-- Even chunk `2 i` of the z partner's quarter of the result: forwarded to the y partner. -/
abbrev outE (c : Dev nD) (i : Fin 8) : Memref sig .tc .hbm S128x1024 .f32 :=
  A1.slice (Rect.unit (s := S8192x1024) (k0_off3 c (BitVec.ofNat 32 (256 * i.val))) S128x1024.size (k0_off3_inb c i)) (fun _ => rfl)
/-- Odd chunk `2 i + 1` of the y partner's quarter of the result: forwarded to the z partner. -/
abbrev outO (c : Dev nD) (i : Fin 8) : Memref sig .tc .hbm S128x1024 .f32 :=
  A1.slice (Rect.unit (s := S8192x1024) (k0_off4 c (BitVec.ofNat 32 (128 + 256 * i.val))) S128x1024.size (k0_off4_inb c i)) (fun _ => rfl)
/-- Chunk `j` of a receive or staging scratch of one quarter's size. -/
abbrev vrM (j : Fin 16) : Memref sig .tc .vmem S128x1024 .f32 :=
  VR.slice (Rect.unit (s := S2048x1024) ![128 * j.val, 0] S128x1024.size (inbR j)) (fun _ => rfl)
/-- Slot `s` of the two-slot sum buffer, as the copies read it. -/
abbrev vsM (s : Fin 2) : Memref sig .tc .vmem S128x1024 .f32 :=
  (VS.slice (Rect.unit (s := S2x128x1024) ![s.val, 0, 0] S1x128x1024.size (inbS s)) (fun _ => rfl)).squeeze S128x1024 squeezes_S1x128x1024_S128x1024

/-! ## Contents -/

variable (m : (ℓ : Loc nD τ sig) → Buf (Elt F) ℓ)

/-- Device `c`'s block of the input, as launched. -/
def X (c : Dev nD) : Buf (Elt F) ((c : Thread nD τ).loc main_arg0) := m ((c : Thread nD τ).loc main_arg0)

/-- What device `c` computes for the rows it reduces: its block plus its x partner's, row by row. -/
def Ssum (c : Dev nD) : FVec F S8192x1024 .f32 := addf (X m c) (X m (xp c))

/-- Row `r` of quarter `q`. -/
def qrow (q : Nat) (hq : q < 4) (r : Fin 2048) : Fin 8192 := ⟨2048 * q + r.val, by have := r.isLt; omega⟩

/-- `VQ` after the local copy: the device's own quarter of its block. -/
def VQc (c : Dev nD) : Buf (Elt F) ((c : Thread nD τ).loc cc0_scratch0) :=
  fun i => X m c (ix2 (qrow (qme c) (qme_lt c) (i 0)) (i 1))
/-- `VR` once every chunk from the x partner has landed: the x partner's same quarter. -/
def VRc (c : Dev nD) : Buf (Elt F) ((c : Thread nD τ).loc cc0_scratch1) :=
  fun i => X m (xp c) (ix2 (qrow (qme c) (qme_lt c) (i 0)) (i 1))
/-- A slot of `VS` holding the sum of chunk `j` (both slots stated alike: only one is ever claimed). -/
def VSc (c : Dev nD) (j : Fin 16) : Buf (Elt F) ((c : Thread nD τ).loc cc0_scratch2) :=
  fun i => Ssum m c (ix2 (qrow (qme c) (qme_lt c) ⟨128 * j.val + (i 1).val, by have hj := j.isLt; have h1 : (i 1).val < 128 := (i 1).isLt; show _ < 2048; omega⟩) (i 2))

/-- The device whose sum ends at row `r` of device `c`'s result: by the row's quarter, and in the diagonal quarter by
    the parity of its chunk (even chunks come round through the y partner, odd ones through the z partner). -/
def owner (c : Dev nD) (r : Nat) : Dev nD :=
  if r / 2048 = qme c then c
  else if r / 2048 = qyp c then yp c
  else if r / 2048 = qzp c then zp c
  else if (r % 2048 / 128) % 2 = 0 then zp (yp c) else yp (zp c)

/-- Device `c`'s result array at the end. -/
def OUTc (c : Dev nD) : Buf (Elt F) ((c : Thread nD τ).loc main_v1) :=
  fun i => Ssum m (owner c (i 0).val) i

end Cert.KernelIdeal.Ar

end
-- ==== Proof.Value.lean ====
/-
  The value of the kernel's result at the extended reals: every row of device `c`'s result holds the sum
  some device `d` computed, `d`'s block of the whole input plus its x partner's block. Every such `d` is
  reached from `c` through y and z partners only, so it holds the same half of the whole input as `c`, and
  its x partner holds the other half: the row is the sum of the two halves in one order or the other, which
  is the reference's result there.
-/
import proofs.«900725_g7700000000000726_dist_ar_v7x_xyz2x4x4_x_m8192_n1024_f32_1_alg».proof.Proof.Views
import proofs.«900725_g7700000000000726_dist_ar_v7x_xyz2x4x4_x_m8192_n1024_f32_1_alg».proof.Proof.RefSide

noncomputable section

namespace Cert.KernelIdeal.Ar

open Cert.KernelIdeal Cert.KernelIdeal.Gen Cert.KernelIdeal.Mesh
open Idealize.ShloMosaic Idealize.ShloMosaic.TcCoe Idealize.ShloMosaic.ValueIdx
open Idealize.SL Idealize.SL.Sem

/-- The owner of any row of device `c`'s result holds the same half of the whole input as `c`. -/
theorem hx_owner (c : Dev nD) (r : Nat) : Cert.RefSide.hx (owner c r) = Cert.RefSide.hx c := by
  unfold owner
  split_ifs
  · rfl
  · exact Cert.RefSide.hx_yp c
  · exact Cert.RefSide.hx_zp c
  · rw [Cert.RefSide.hx_zp, Cert.RefSide.hx_yp]
  · rw [Cert.RefSide.hx_yp, Cert.RefSide.hx_zp]

/-- Each device's result is the reference's, when each device's input is its block of the reference's input. -/
theorem OUTc_eq_ref (m : (ℓ : Loc Cert.KernelIdeal.nD Cert.KernelIdeal.τ Cert.KernelIdeal.sig) → Buf (Elt Ideal) ℓ)
    (xw : Cert.RefSide.SW.Idx → Elt Ideal .f32)
    (hagree : ∀ c : Dev nD, m ((c.tc : Thread nD τ).loc main_arg0)
      = Layout.blockN ⟨2, ![8192, 1024]⟩ ⟨2, ![16384, 1024]⟩ (Layout.meshBlock [2, 4, 4] ![[0], []] c) xw)
    (c : Dev nD) :
    OUTc (F := Ideal) m c = Cert.ReferenceIdeal.Read.val_main_v1 (F := Ideal) xw := by
  funext i
  show (show EReal from X m (owner c (i 0).val) i) + (show EReal from X m (xp (owner c (i 0).val)) i) = _
  unfold X
  rw [hagree, hagree]
  exact Cert.RefSide.blk_add (by rw [Cert.RefSide.hx_xp]) xw i

/-- info: 'Cert.KernelIdeal.Ar.OUTc_eq_ref' depends on axioms: [propext, Classical.choice, Quot.sound] -/
#guard_msgs in #print axioms OUTc_eq_ref

end Cert.KernelIdeal.Ar

end
-- ==== Proof.Sched.lean ====
/-
  The protocol, as a schedule of rounds (one per semaphore cell).
  Per device `o` (the cell's owner, the thread that waits on it):
  * the barrier semaphore: ONE round of three unit duties, paid by the x, y and z partner. Each hands the owner
    what it will write on that partner: the x partner's whole receive scratch, chunk by chunk; on the y (z) partner
    the rows of the result array the owner's sums go to, and the even (odd) chunks of the rows it forwards there;
  * the send semaphore of a copy (`xS ydS zdS yrS zrS`): one round, one duty, paid by the owner's own copy having read
    its source: the source comes back at the share it was lent at;
  * the receive semaphore of a copy (`xR ydR zdR yrR zrR`): one round, one duty, paid by the partner's copy having
    landed: the destination rows holding the final contents;
  * the local copy of the input quarter (`cpq`): one round; the staging buffer filled and the source share back;
  * the local copies of the sums to the result (`cpo s`): eight rounds, round `r` for chunk `2 r + s`: the result rows
    filled and the slot's share back.
-/
import proofs.«900725_g7700000000000726_dist_ar_v7x_xyz2x4x4_x_m8192_n1024_f32_1_alg».proof.Proof.Views

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The kinds of cell -/

inductive CK where
  | bar
  | xs (j : Fin 16) | xr (j : Fin 16)
  | yds (j : Fin 16) | ydr (j : Fin 16)
  | zds (j : Fin 16) | zdr (j : Fin 16)
  | yrs (i : Fin 8) | yrr (i : Fin 8)
  | zrs (i : Fin 8) | zrr (i : Fin 8)
  | cpq
  | cpo (s : Fin 2)
  deriving DecidableEq, Fintype

/-- The semaphore of each kind. -/
def CK.loc : CK → SemLoc sig
  | .bar => .reg barS
  | .xs j => .dma (xS j) | .xr j => .dma (xR j)
  | .yds j => .dma (ydS j) | .ydr j => .dma (ydR j)
  | .zds j => .dma (zdS j) | .zdr j => .dma (zdR j)
  | .yrs i => .dma (yrS i) | .yrr i => .dma (yrR i)
  | .zrs i => .dma (zrS i) | .zrr i => .dma (zrR i)
  | .cpq => .dma cpqS
  | .cpo s => .dma (cpoS s)

/-- The kind of a DMA semaphore, by its number. -/
def ckOfNat (n : Nat) : CK :=
  if n < 16 then .xs ⟨n % 16, Nat.mod_lt _ (by decide)⟩
  else if n < 32 then .xr ⟨n % 16, Nat.mod_lt _ (by decide)⟩
  else if n < 48 then .yds ⟨n % 16, Nat.mod_lt _ (by decide)⟩
  else if n < 64 then .ydr ⟨n % 16, Nat.mod_lt _ (by decide)⟩
  else if n < 80 then .zds ⟨n % 16, Nat.mod_lt _ (by decide)⟩
  else if n < 96 then .zdr ⟨n % 16, Nat.mod_lt _ (by decide)⟩
  else if n < 104 then .yrs ⟨n % 8, Nat.mod_lt _ (by decide)⟩
  else if n < 112 then .yrr ⟨n % 8, Nat.mod_lt _ (by decide)⟩
  else if n < 120 then .zrs ⟨n % 8, Nat.mod_lt _ (by decide)⟩
  else if n < 128 then .zrr ⟨n % 8, Nat.mod_lt _ (by decide)⟩
  else if n = 128 then .cpq
  else .cpo ⟨(n + 1) % 2, Nat.mod_lt _ (by decide)⟩

def ckOf : SemLoc sig → CK
  | .reg _ => .bar
  | .dma s => ckOfNat s.val

theorem ckOf_loc : ∀ k : CK, ckOf k.loc = k := by
  intro k; cases k <;> first | rfl | (rename_i j; revert j; decide)

theorem loc_injective : Function.Injective CK.loc := fun a b h => by
  rw [← ckOf_loc a, ← ckOf_loc b, h]

/-- A device's cell of a kind. -/
abbrev cell (o : Dev nD) (k : CK) : GSem nD τ sig := ((o : Thread nD τ), k.loc)

theorem cell_injective : Function.Injective (fun ok : Dev nD × CK => cell ok.1 ok.2) := by
  rintro ⟨o, k⟩ ⟨o', k'⟩ h
  have h1 : o = o' := congrArg (fun g : GSem nD τ sig => g.1.1) h
  have h2 : k = k' := loc_injective (congrArg Prod.snd h)
  subst h1; subst h2; rfl

/-! ## Amounts: a copy credits its destination view's count -/

abbrev Nv : ℕ := (vrM 0).view.dmaCredit
abbrev No : ℕ := (outM (0 : Dev nD) 0).view.dmaCredit
abbrev Nq : ℕ := (VQ : Memref sig .tc .vmem S2048x1024 .f32).view.dmaCredit

theorem Nv_pos : 0 < Nv := View.dmaCredit_pos _ (by decide)
theorem No_pos : 0 < No := View.dmaCredit_pos _ (by decide)
theorem Nq_pos : 0 < Nq := View.dmaCredit_pos _ (by decide)

theorem vrM_credit (j : Fin 16) : (vrM j).view.dmaCredit = Nv := rfl
theorem outM_credit (c : Dev nD) (j : Fin 16) : (outM c j).view.dmaCredit = No := rfl
theorem outE_credit (c : Dev nD) (i : Fin 8) : (outE c i).view.dmaCredit = No := rfl
theorem outO_credit (c : Dev nD) (i : Fin 8) : (outO c i).view.dmaCredit = No := rfl

def amt : CK → ℕ
  | .bar => 1
  | .xs _ => Nv | .xr _ => Nv
  | .cpq => Nq
  | _ => No

theorem amt_pos (k : CK) : 0 < amt k := by
  cases k <;> first | exact Nat.one_pos | exact Nv_pos | exact No_pos | exact Nq_pos

/-- Rounds per cell: the two local result copies' cells have one per chunk of their slot. -/
def nRd : CK → ℕ
  | .cpo _ => 8
  | _ => 1

/-! ## Shares: the input quarter is read by the local copy and by the copies to the x partner at once; a slot of
the sum buffer by the local copy and the copies to the y and z partner at once -/

abbrev shQ : PosShare TreeShare := fullShare.left
abbrev shX : PosShare TreeShare := fullShare.right
abbrev shO : PosShare TreeShare := fullShare.left
abbrev shY : PosShare TreeShare := fullShare.right.left
abbrev shZ : PosShare TreeShare := fullShare.right.right

/-- The slot chunk `j` is summed in, and the chunk of round `r` of slot `s`. -/
def slotOf (j : Fin 16) : Fin 2 := ⟨j.val % 2, Nat.mod_lt _ (by decide)⟩
def chunkOf (s : Fin 2) (r : ℕ) : Fin 16 := ⟨(2 * r + s.val) % 16, Nat.mod_lt _ (by decide)⟩

/-! ## Payloads -/

variable (m : (ℓ : Loc nD τ sig) → Buf (Elt F) ℓ)

/-- A points-to over a memref's elements on device `o`. -/
abbrev pts {sp : Space} {s : Shape} (o : Dev nD) (M : Memref sig .tc sp s .f32) (q : PosShare TreeShare)
    (f : Buf (Elt F) (M.view.loc (o : Thread nD τ))) : sProp 𝕄 :=
  M.view.loc (o : Thread nD τ) ↦[M.view.set]{q} f
/-- The same at contents nobody has stated yet. -/
abbrev ptsE {sp : Space} {s : Shape} (o : Dev nD) (M : Memref sig .tc sp s .f32) : sProp 𝕄 :=
  iprop(∃ f : Buf (Elt F) (M.view.loc (o : Thread nD τ)), M.view.loc (o : Thread nD τ) ↦[M.view.set]{fullShare} f)

/-- What the x partner's barrier signal hands `o`: the x partner's receive scratch, chunk by chunk. -/
def payBarX (o : Dev nD) : sProp 𝕄 := bigSep Finset.univ fun j : Fin 16 => ptsE (F := F) (xp o) (vrM j)
/-- What the y partner's hands `o`: on the y partner, the result rows of `o`'s quarter and the even chunks of `o`'s z partner's. -/
def payBarY (o : Dev nD) : sProp 𝕄 :=
  iprop((bigSep Finset.univ fun j : Fin 16 => ptsE (F := F) (yp o) (outM o j)) ∗ bigSep Finset.univ fun i : Fin 8 => ptsE (F := F) (yp o) (outE o i))
/-- What the z partner's hands `o`: on the z partner, the result rows of `o`'s quarter and the odd chunks of `o`'s y partner's. -/
def payBarZ (o : Dev nD) : sProp 𝕄 :=
  iprop((bigSep Finset.univ fun j : Fin 16 => ptsE (F := F) (zp o) (outM o j)) ∗ bigSep Finset.univ fun i : Fin 8 => ptsE (F := F) (zp o) (outO o i))

def pay (o : Dev nD) (k : CK) (r : ℕ) (d : Fin 3) : sProp 𝕄 :=
  match k with
  | .bar => if d = 0 then payBarX (F := F) o else if d = 1 then payBarY (F := F) o else payBarZ (F := F) o
  | .xs j => pts o (srcX o j) shX (X m o)
  | .xr j => pts o (vrM j) fullShare (VRc m o)
  | .yds j => pts o (vsM (slotOf j)) shY (VSc m o j)
  | .ydr j => pts o (outM (yp o) j) fullShare (OUTc m o)
  | .zds j => pts o (vsM (slotOf j)) shZ (VSc m o j)
  | .zdr j => pts o (outM (zp o) j) fullShare (OUTc m o)
  | .yrs i => pts o (outE o i) fullShare (OUTc m o)
  | .yrr i => pts o (outE (yp o) i) fullShare (OUTc m o)
  | .zrs i => pts o (outO o i) fullShare (OUTc m o)
  | .zrr i => pts o (outO (zp o) i) fullShare (OUTc m o)
  | .cpq => iprop(pts o VQ fullShare (VQc m o) ∗ pts o (srcQ o) shQ (X m o))
  | .cpo s => iprop(pts o (outM o (chunkOf s r)) fullShare (OUTc m o) ∗ pts o (vsM s) shO (VSc m o (chunkOf s r)))

/-! ## The schedule -/

def Rd : Rounds.Schedule (GSem nD τ sig) (Fin 3) 𝕄 where
  duties g r := if g.1.2 = .tc ∧ r < nRd (ckOf g.2) then (if ckOf g.2 = .bar then Finset.univ else {0}) else ∅
  amount g _ _ := amt (ckOf g.2)
  payload g r d := pay m g.1.1 (ckOf g.2) r d
  amount_pos g _ _ _ := amt_pos _

instance Rd_payload_storable (g : GSem nD τ sig) (r : ℕ) (d : Fin 3) :
    BI.Storable (upEmb : UEmb _ 𝕄) ((Rd (F := F) m).payload g r d) := by
  show BI.Storable upEmb (pay m g.1.1 (ckOf g.2) r d)
  unfold pay payBarX payBarY payBarZ
  cases ckOf g.2 <;> (repeat' split) <;> infer_instance

section Tables
variable (o : Dev nD)

theorem ckOf_cell (k : CK) : ckOf (cell o k).2 = k := ckOf_loc k

theorem duties_bar : (Rd (F := F) m).duties (cell o .bar) 0 = Finset.univ := by
  dsimp only [Rd]; rw [ckOf_loc]; exact (if_pos ⟨rfl, Nat.one_pos⟩).trans (if_pos rfl)
theorem duties_one (k : CK) (hk : k ≠ .bar) (r : ℕ) (hr : r < nRd k) : (Rd (F := F) m).duties (cell o k) r = {0} := by
  dsimp only [Rd]; rw [ckOf_loc]; exact (if_pos ⟨rfl, hr⟩).trans (if_neg hk)
theorem duties_later (k : CK) (r : ℕ) (hr : nRd k ≤ r) : (Rd (F := F) m).duties (cell o k) r = ∅ := by
  dsimp only [Rd]; rw [ckOf_loc]; exact if_neg fun h => absurd h.2 (by omega)
theorem amount_cell (k : CK) (r : ℕ) (d : Fin 3) : (Rd (F := F) m).amount (cell o k) r d = amt k := by
  dsimp only [Rd]; rw [ckOf_loc]
theorem payload_cell (k : CK) (r : ℕ) (d : Fin 3) : (Rd (F := F) m).payload (cell o k) r d = pay m o k r d := by
  dsimp only [Rd]; rw [ckOf_loc]
theorem expect_bar : (Rd (F := F) m).expect (cell o .bar) 0 = 3 := by
  unfold Schedule.expect Schedule.amountOf
  rw [duties_bar, Finset.sum_congr rfl fun d _ => amount_cell m o .bar 0 d, Finset.sum_const, Finset.card_univ, Fintype.card_fin]; rfl
theorem expect_one (k : CK) (hk : k ≠ .bar) (r : ℕ) (hr : r < nRd k) : (Rd (F := F) m).expect (cell o k) r = amt k := by
  unfold Schedule.expect Schedule.amountOf
  rw [duties_one m o k hk r hr, Finset.sum_singleton, amount_cell]
/-- The rest of a one-duty round, no duty taken: its payload. -/
theorem rest_one (k : CK) (hk : k ≠ .bar) (r : ℕ) (hr : r < nRd k) :
    bigSep ((Rd (F := F) m).duties (cell o k) r \ ∅) (fun d => (Rd (F := F) m).payload (cell o k) r d) = pay m o k r 0 := by
  rw [Finset.sdiff_empty, duties_one m o k hk r hr, bigSep_singleton, payload_cell]
/-- The rest of the barrier's round: the three partners' payloads. -/
theorem rest_bar :
    bigSep ((Rd (F := F) m).duties (cell o .bar) 0 \ ∅) (fun d => (Rd (F := F) m).payload (cell o .bar) 0 d)
      = iprop(payBarX (F := F) o ∗ payBarY (F := F) o ∗ payBarZ (F := F) o) := by
  rw [Finset.sdiff_empty, duties_bar, bigSep_univ_eq_bigSepL [0, 1, 2] (by decide) (by decide), bigSepL_cons_cons, bigSepL_cons_cons, bigSepL_singleton,
    payload_cell, payload_cell, payload_cell]
  rfl

end Tables

end Cert.KernelIdeal.Ar

end
-- ==== Proof.Sets.lean ====
/-
  The element sets of the kernel's row-block views: membership by row, the equalities between the views
  of one block of rows named from two devices, pairwise disjointness, the covers of the whole buffers, and
  from these the splitting of a whole points-to into its blocks and along shares.
-/
import proofs.«900725_g7700000000000726_dist_ar_v7x_xyz2x4x4_x_m8192_n1024_f32_1_alg».proof.Proof.Sched
import Idealize.ShloMosaic.Rules.PointsTo

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Blocks of rows of the 8192 x 1024 arrays -/

/-- Rows `[r, r + n)`, all columns. -/
def rowsH (r n : Nat) (h : r + n ≤ 8192) : Rect S8192x1024 :=
  Rect.unit (s := S8192x1024) ![r, 0] ![n, 1024] (Rect.inb₂ h (le_refl _))

theorem mem_rowsH {r n : Nat} {h : r + n ≤ 8192} {i : S8192x1024.Idx} :
    i ∈ (rowsH r n h).set ↔ r ≤ (i 0).val ∧ (i 0).val < r + n := by
  unfold rowsH
  rw [Rect.mem_set_unit, Fin.forall_fin_two]
  simp only [Matrix.cons_val_zero, Matrix.cons_val_one]
  constructor
  · rintro ⟨h0, -⟩; exact h0
  · intro h0; exact ⟨h0, Nat.zero_le _, by have := (i 1).isLt; simpa using this⟩

/-- Blocks of rows one of which ends before the other begins are disjoint. -/
theorem rowsH_disjoint {r n r' n' : Nat} {h : r + n ≤ 8192} {h' : r' + n' ≤ 8192}
    (hd : r + n ≤ r' ∨ r' + n' ≤ r) : Disjoint (rowsH r n h).set (rowsH r' n' h').set := by
  unfold rowsH
  exact Rect.unit_disjoint 0 (by simpa using hd)

theorem rowsH_congr {r r' n : Nat} {h : r + n ≤ 8192} (e : r = r') :
    (rowsH r n h).set = (rowsH r' n (e ▸ h)).set := by subst e; rfl

/-- A unit-stride rectangle at offsets `(r, 0)` of sizes `(n, 1024)`, however they are spelt, is that block. -/
theorem set_unit_rows {off size : Fin 2 → Nat} {inb : ∀ a, off a + size a ≤ S8192x1024.size a} {r n : Nat}
    {h : r + n ≤ 8192} (ho : off = ![r, 0]) (hz : size = ![n, 1024]) :
    (Rect.unit (s := S8192x1024) off size inb).set = (rowsH r n h).set := by
  subst ho; subst hz; rfl

/-- A block of 2048 rows is its sixteen blocks of 128 rows. -/
theorem rowsH_biUnion16 (r : Nat) (h : r + 2048 ≤ 8192) :
    (Finset.univ : Finset (Fin 16)).biUnion (fun j => (rowsH (r + 128 * j.val) 128 (by have := j.isLt; omega)).set)
      = (rowsH r 2048 h).set := by
  ext i
  simp only [Finset.mem_biUnion, Finset.mem_univ, true_and, mem_rowsH]
  constructor
  · rintro ⟨j, h1, h2⟩; have := j.isLt; omega
  · rintro ⟨h1, h2⟩
    exact ⟨⟨((i 0).val - r) / 128, by omega⟩, by show r + 128 * (((i 0).val - r) / 128) ≤ (i 0).val ∧ (i 0).val < r + 128 * (((i 0).val - r) / 128) + 128; omega⟩

/-! ## The views as blocks of rows -/

theorem qbounds (c : Dev nD) : qme c < 4 ∧ qyp c < 4 ∧ qzp c < 4 ∧ qdg c < 4 := ⟨qme_lt c, qyp_lt c, qzp_lt c, qdg_lt c⟩

theorem srcQ_rows (c : Dev nD) :
    (srcQ c).view.set = (rowsH (2048 * qme c) 2048 (by have := qme_lt c; omega)).set :=
  (View.set_slice_whole main_arg0 _).trans (set_unit_rows (off1_eq c) rfl)
theorem srcX_rows (c : Dev nD) (j : Fin 16) :
    (srcX c j).view.set = (rowsH (2048 * qme c + 128 * j.val) 128 (by have := qme_lt c; have := j.isLt; omega)).set :=
  (View.set_slice_whole main_arg0 _).trans (set_unit_rows (off2_eq c j) rfl)
theorem outM_rows (c : Dev nD) (j : Fin 16) :
    (outM c j).view.set = (rowsH (2048 * qme c + 128 * j.val) 128 (by have := qme_lt c; have := j.isLt; omega)).set :=
  (View.set_slice_whole main_v1 _).trans (set_unit_rows (off2_eq c j) rfl)
theorem outE_rows (c : Dev nD) (e : Fin 8) :
    (outE c e).view.set = (rowsH (2048 * qzp c + 256 * e.val) 128 (by have := qzp_lt c; have := e.isLt; omega)).set :=
  (View.set_slice_whole main_v1 _).trans (set_unit_rows (off3_eq c e) rfl)
theorem outO_rows (c : Dev nD) (e : Fin 8) :
    (outO c e).view.set = (rowsH (2048 * qyp c + 128 + 256 * e.val) 128 (by have := qyp_lt c; have := e.isLt; omega)).set :=
  (View.set_slice_whole main_v1 _).trans (set_unit_rows (off4_eq c e) rfl)

/-! ## Membership by rows -/

theorem mem_srcQ (c : Dev nD) (i : S8192x1024.Idx) :
    i ∈ (srcQ c).view.set ↔ 2048 * qme c ≤ (i 0).val ∧ (i 0).val < 2048 * qme c + 2048 := by
  rw [srcQ_rows]; exact mem_rowsH
theorem mem_srcX (c : Dev nD) (j : Fin 16) (i : S8192x1024.Idx) :
    i ∈ (srcX c j).view.set ↔ 2048 * qme c + 128 * j.val ≤ (i 0).val ∧ (i 0).val < 2048 * qme c + 128 * j.val + 128 := by
  rw [srcX_rows]; exact mem_rowsH
theorem mem_outM (c : Dev nD) (j : Fin 16) (i : S8192x1024.Idx) :
    i ∈ (outM c j).view.set ↔ 2048 * qme c + 128 * j.val ≤ (i 0).val ∧ (i 0).val < 2048 * qme c + 128 * j.val + 128 := by
  rw [outM_rows]; exact mem_rowsH
theorem mem_outE (c : Dev nD) (e : Fin 8) (i : S8192x1024.Idx) :
    i ∈ (outE c e).view.set ↔ 2048 * qzp c + 256 * e.val ≤ (i 0).val ∧ (i 0).val < 2048 * qzp c + 256 * e.val + 128 := by
  rw [outE_rows]; exact mem_rowsH
theorem mem_outO (c : Dev nD) (e : Fin 8) (i : S8192x1024.Idx) :
    i ∈ (outO c e).view.set ↔ 2048 * qyp c + 128 + 256 * e.val ≤ (i 0).val ∧ (i 0).val < 2048 * qyp c + 128 + 256 * e.val + 128 := by
  rw [outO_rows]; exact mem_rowsH

/-! ## One block of rows, named from two devices -/

/-- The even and the odd block of a pair. -/
abbrev evenJ (e : Fin 8) : Fin 16 := ⟨2 * e.val, by have := e.isLt; omega⟩
abbrev oddJ (e : Fin 8) : Fin 16 := ⟨2 * e.val + 1, by have := e.isLt; omega⟩

theorem outE_set (c : Dev nD) (e : Fin 8) : (outE c e).view.set = (outM (zp c) (evenJ e)).view.set :=
  (outE_rows c e).trans ((rowsH_congr (by
    rw [qme_zp]; show 2048 * qzp c + 256 * e.val = 2048 * qzp c + 128 * (2 * e.val); omega)).trans
    (outM_rows (zp c) (evenJ e)).symm)

theorem outO_set (c : Dev nD) (e : Fin 8) : (outO c e).view.set = (outM (yp c) (oddJ e)).view.set :=
  (outO_rows c e).trans ((rowsH_congr (by
    rw [qme_yp]; show 2048 * qyp c + 128 + 256 * e.val = 2048 * qyp c + 128 * (2 * e.val + 1); omega)).trans
    (outM_rows (yp c) (oddJ e)).symm)

/-! ## The receive scratch: sixteen blocks of 128 rows of 2048 -/

/-- The elements of block `j` of the receive scratch. -/
def vrK (j : Fin 16) : Finset S2048x1024.Idx := (vrM j).view.set

theorem vrM_set (j : Fin 16) :
    (vrM j).view.set = (Rect.unit (s := S2048x1024) ![128 * j.val, 0] S128x1024.size (inbR j)).set :=
  View.set_slice_whole cc0_scratch1 _

theorem mem_vrM (j : Fin 16) (i : S2048x1024.Idx) :
    i ∈ (vrM j).view.set ↔ 128 * j.val ≤ (i 0).val ∧ (i 0).val < 128 * j.val + 128 := by
  rw [vrM_set]
  show i ∈ (Rect.unit (s := S2048x1024) ![128 * j.val, 0] S128x1024.size (inbR j)).set ↔ _
  rw [Rect.mem_set_unit, Fin.forall_fin_two]
  simp only [Matrix.cons_val_zero, Matrix.cons_val_one]
  constructor
  · rintro ⟨h0, -⟩; exact h0
  · intro h0; exact ⟨h0, Nat.zero_le _, by have := (i 1).isLt; simpa using this⟩

theorem vrK_disjoint {j j' : Fin 16} (h : j ≠ j') : Disjoint (vrK j) (vrK j') := by
  unfold vrK
  rw [vrM_set, vrM_set]
  refine Rect.unit_disjoint 0 ?_
  have hne : j.val ≠ j'.val := fun e => h (Fin.ext e)
  show 128 * j.val + 128 ≤ 128 * j'.val ∨ 128 * j'.val + 128 ≤ 128 * j.val
  omega

theorem biUnion_vrK : (Finset.univ : Finset (Fin 16)).biUnion vrK = Finset.univ := by
  ext i
  refine ⟨fun _ => Finset.mem_univ _, fun _ => ?_⟩
  have hi : (i 0).val < 2048 := (i 0).isLt
  have hlt : (i 0).val / 128 < 16 := by omega
  refine Finset.mem_biUnion.mpr ⟨⟨(i 0).val / 128, hlt⟩, Finset.mem_univ _, ?_⟩
  show i ∈ (vrM ⟨(i 0).val / 128, hlt⟩).view.set
  exact (mem_vrM ⟨(i 0).val / 128, hlt⟩ i).mpr (by dsimp only; omega)

/-! ## The two slots of the sum buffer -/

/-- The elements of slot `s` of the sum buffer. -/
def vsK (s : Fin 2) : Finset S2x128x1024.Idx := (vsM s).view.set

theorem vsM_set (s : Fin 2) :
    (vsM s).view.set = (Rect.unit (s := S2x128x1024) ![s.val, 0, 0] S1x128x1024.size (inbS s)).set :=
  (View.set_reshape _ _).trans (View.set_slice_whole cc0_scratch2 _)

theorem mem_vsM (s : Fin 2) (i : S2x128x1024.Idx) : i ∈ (vsM s).view.set ↔ (i 0).val = s.val := by
  rw [vsM_set]
  show i ∈ (Rect.unit (s := S2x128x1024) ![s.val, 0, 0] S1x128x1024.size (inbS s)).set ↔ _
  rw [Rect.mem_set_unit]
  constructor
  · intro h
    have h0 : s.val ≤ (i 0).val ∧ (i 0).val < s.val + 1 := h 0
    omega
  · intro h a
    have h1 : (i 1).val < 128 := (i 1).isLt
    have h2 : (i 2).val < 1024 := (i 2).isLt
    match a with
    | ⟨0, _⟩ => exact (show s.val ≤ (i 0).val ∧ (i 0).val < s.val + 1 by omega)
    | ⟨1, _⟩ => exact (show 0 ≤ (i 1).val ∧ (i 1).val < 0 + 128 by omega)
    | ⟨2, _⟩ => exact (show 0 ≤ (i 2).val ∧ (i 2).val < 0 + 1024 by omega)

theorem vsK_disjoint : Disjoint (vsK 0) (vsK 1) := by
  unfold vsK
  rw [vsM_set, vsM_set]
  exact Rect.unit_disjoint 0 (.inl (by decide))

theorem union_vsK : vsK 0 ∪ vsK 1 = Finset.univ := by
  ext i
  refine ⟨fun _ => Finset.mem_univ _, fun _ => ?_⟩
  have hi : (i 0).val < 2 := (i 0).isLt
  rcases (show (i 0).val = 0 ∨ (i 0).val = 1 by omega) with h | h
  · exact Finset.mem_union_left _ ((mem_vsM 0 i).mpr h)
  · exact Finset.mem_union_right _ ((mem_vsM 1 i).mpr h)

/-! ## The input quarter: sixteen blocks -/

/-- The elements of block `j` of the quarter of the input device `c` reduces. -/
def srcK (c : Dev nD) (j : Fin 16) : Finset S8192x1024.Idx := (srcX c j).view.set

theorem srcK_disjoint (c : Dev nD) {j j' : Fin 16} (h : j ≠ j') : Disjoint (srcK c j) (srcK c j') := by
  unfold srcK
  rw [srcX_rows, srcX_rows]
  apply rowsH_disjoint
  have hne : j.val ≠ j'.val := fun e => h (Fin.ext e)
  omega

theorem biUnion_srcK (c : Dev nD) : (Finset.univ : Finset (Fin 16)).biUnion (srcK c) = (srcQ c).view.set := by
  rw [srcQ_rows, ← rowsH_biUnion16]
  exact Finset.biUnion_congr rfl fun j _ => srcX_rows c j

/-! ## The result array: four quarters, the fourth by even and odd blocks -/

/-- The index of the five families of blocks of the result array on a device: its own quarter's, its y
    partner's, its z partner's, and the even and the odd blocks of the fourth quarter. -/
abbrev OutT : Type := Fin 16 ⊕ Fin 16 ⊕ Fin 16 ⊕ Fin 8 ⊕ Fin 8

def outK (c : Dev nD) : OutT → Finset S8192x1024.Idx
  | .inl j => (outM c j).view.set
  | .inr (.inl j) => (outM (yp c) j).view.set
  | .inr (.inr (.inl j)) => (outM (zp c) j).view.set
  | .inr (.inr (.inr (.inl e))) => (outE (yp c) e).view.set
  | .inr (.inr (.inr (.inr e))) => (outO (zp c) e).view.set

/-- The first row of each block. -/
def outLo (c : Dev nD) : OutT → Nat
  | .inl j => 2048 * qme c + 128 * j.val
  | .inr (.inl j) => 2048 * qyp c + 128 * j.val
  | .inr (.inr (.inl j)) => 2048 * qzp c + 128 * j.val
  | .inr (.inr (.inr (.inl e))) => 2048 * qdg c + 256 * e.val
  | .inr (.inr (.inr (.inr e))) => 2048 * qdg c + 128 + 256 * e.val

/-- The four quarters of a device are the four combinations of two bits. -/
theorem quarters (c : Dev nD) : ∃ a b : Nat, a < 2 ∧ b < 2 ∧ qme c = 2 * a + b ∧ qyp c = 2 * (1 - a) + b
    ∧ qzp c = 2 * a + (1 - b) ∧ qdg c = 2 * (1 - a) + (1 - b) :=
  ⟨c.val / 4 % 2, c.val % 2, Nat.mod_lt _ (by decide), Nat.mod_lt _ (by decide), rfl, rfl, rfl, rfl⟩

theorem outLo_le (c : Dev nD) (t : OutT) : outLo c t + 128 ≤ 8192 := by
  obtain ⟨h1, h2, h3, h4⟩ := qbounds c
  rcases t with j | j | j | j | j <;> simp only [outLo] <;> have := j.isLt <;> omega

theorem outK_rows (c : Dev nD) (t : OutT) : outK c t = (rowsH (outLo c t) 128 (outLo_le c t)).set := by
  rcases t with j | j | j | j | j
  · exact outM_rows c j
  · exact (outM_rows (yp c) j).trans (rowsH_congr (by show 2048 * qme (yp c) + 128 * j.val = 2048 * qyp c + 128 * j.val; rw [qme_yp]))
  · exact (outM_rows (zp c) j).trans (rowsH_congr (by show 2048 * qme (zp c) + 128 * j.val = 2048 * qzp c + 128 * j.val; rw [qme_zp]))
  · exact (outE_rows (yp c) j).trans (rowsH_congr (by show 2048 * qzp (yp c) + 256 * j.val = 2048 * qdg c + 256 * j.val; rw [qzp_yp]))
  · exact (outO_rows (zp c) j).trans (rowsH_congr (by show 2048 * qyp (zp c) + 128 + 256 * j.val = 2048 * qdg c + 128 + 256 * j.val; rw [qyp_zp]))

theorem outK_disjoint (c : Dev nD) {t t' : OutT} (h : t ≠ t') : Disjoint (outK c t) (outK c t') := by
  rw [outK_rows, outK_rows]
  apply rowsH_disjoint
  obtain ⟨a, b, ha, hb, e1, e2, e3, e4⟩ := quarters c
  rcases t with j | j | j | j | j <;> rcases t' with k | k | k | k | k <;> simp only [outLo] <;>
    simp only [ne_eq, Sum.inl.injEq, Sum.inr.injEq, reduceCtorEq, not_false_eq_true, Fin.ext_iff] at h <;>
    have := j.isLt <;> have := k.isLt <;> omega

theorem biUnion_outK (c : Dev nD) : (Finset.univ : Finset OutT).biUnion (outK c) = Finset.univ := by
  ext i
  simp only [Finset.mem_biUnion, Finset.mem_univ, true_and, iff_true]
  have hi : (i 0).val < 8192 := (i 0).isLt
  obtain ⟨a, b, ha, hb, e1, e2, e3, e4⟩ := quarters c
  suffices h : ∃ t, outLo c t ≤ (i 0).val ∧ (i 0).val < outLo c t + 128 by
    obtain ⟨t, ht⟩ := h
    exact ⟨t, by rw [outK_rows]; exact mem_rowsH.mpr ht⟩
  have hq : (i 0).val / 2048 = qme c ∨ (i 0).val / 2048 = qyp c ∨ (i 0).val / 2048 = qzp c
      ∨ (i 0).val / 2048 = qdg c := by omega
  rcases hq with hq | hq | hq | hq
  · exact ⟨.inl ⟨(i 0).val % 2048 / 128, by omega⟩, by simp only [outLo]; omega⟩
  · exact ⟨.inr (.inl ⟨(i 0).val % 2048 / 128, by omega⟩), by simp only [outLo]; omega⟩
  · exact ⟨.inr (.inr (.inl ⟨(i 0).val % 2048 / 128, by omega⟩)), by simp only [outLo]; omega⟩
  · rcases Nat.mod_two_eq_zero_or_one ((i 0).val % 2048 / 128) with hp | hp
    · exact ⟨.inr (.inr (.inr (.inl ⟨(i 0).val % 2048 / 256, by omega⟩))), by simp only [outLo]; omega⟩
    · exact ⟨.inr (.inr (.inr (.inr ⟨(i 0).val % 2048 / 256, by omega⟩))), by simp only [outLo]; omega⟩

/-! ## Splitting the points-tos -/

/-- Along the two readers of the input quarter. -/
theorem share2 (ℓ : Loc nD τ sig) (I : Finset (Idx ℓ)) (f : Buf (Elt F) ℓ) :
    (ℓ ↦[I]{fullShare} f : sProp 𝕄) ⊣⊢ iprop((ℓ ↦[I]{shQ} f) ∗ (ℓ ↦[I]{shX} f)) :=
  pointsTo_share (PosShare.mem_left_op_right fullShare)

/-- Along the three readers of a slot of the sum buffer. -/
theorem share3 (ℓ : Loc nD τ sig) (I : Finset (Idx ℓ)) (f : Buf (Elt F) ℓ) :
    (ℓ ↦[I]{fullShare} f : sProp 𝕄) ⊣⊢ iprop((ℓ ↦[I]{shO} f) ∗ (ℓ ↦[I]{shY} f) ∗ (ℓ ↦[I]{shZ} f)) := by
  have h1 : (ℓ ↦[I]{fullShare} f : sProp 𝕄) ⊣⊢ iprop((ℓ ↦[I]{fullShare.left} f) ∗ (ℓ ↦[I]{fullShare.right} f)) :=
    pointsTo_share (PosShare.mem_left_op_right fullShare)
  have h2 : (ℓ ↦[I]{fullShare.right} f : sProp 𝕄) ⊣⊢ iprop((ℓ ↦[I]{fullShare.right.left} f) ∗ (ℓ ↦[I]{fullShare.right.right} f)) :=
    pointsTo_share (PosShare.mem_left_op_right fullShare.right)
  have e1 := BI.equiv_iff.mp ⟨h1.1, h1.2⟩
  have e2 := BI.equiv_iff.mp ⟨h2.1, h2.2⟩
  refine BIBase.BiEntails.of_eq ?_
  rw [e1, e2]

/-- A forwarded odd block is a block of the y partner's quarter; a forwarded even block one of the z partner's. -/
theorem outM_odd (c : Dev nD) (e : Fin 8) (q : PosShare TreeShare) (f : Buf (Elt F) ((c : Thread nD τ).loc main_v1)) :
    (pts c (outO c e) q f : sProp 𝕄) = pts c (outM (yp c) (oddJ e)) q f :=
  congrArg (fun I : Finset S8192x1024.Idx => (((c : Thread nD τ).loc main_v1 ↦[I]{q} f) : sProp 𝕄)) (outO_set c e)
theorem outM_even (c : Dev nD) (e : Fin 8) (q : PosShare TreeShare) (f : Buf (Elt F) ((c : Thread nD τ).loc main_v1)) :
    (pts c (outE c e) q f : sProp 𝕄) = pts c (outM (zp c) (evenJ e)) q f :=
  congrArg (fun I : Finset S8192x1024.Idx => (((c : Thread nD τ).loc main_v1 ↦[I]{q} f) : sProp 𝕄)) (outE_set c e)

/-- The result array by its sixty-four blocks. -/
theorem out_split_eq (c : Dev nD) (f : Buf (Elt F) ((c : Thread nD τ).loc main_v1)) :
    (((c : Thread nD τ).loc main_v1 ↦{fullShare} f) : sProp 𝕄)
      = iprop((bigSep Finset.univ fun j : Fin 16 => pts c (outM c j) fullShare f)
          ∗ (bigSep Finset.univ fun j : Fin 16 => pts c (outM (yp c) j) fullShare f)
          ∗ (bigSep Finset.univ fun j : Fin 16 => pts c (outM (zp c) j) fullShare f)
          ∗ (bigSep Finset.univ fun e : Fin 8 => pts c (outE (yp c) e) fullShare f)
          ∗ (bigSep Finset.univ fun e : Fin 8 => pts c (outO (zp c) e) fullShare f)) := by
  refine (Eq.trans ?_ (pointsTo_biUnion (ℓ := (c : Thread nD τ).loc main_v1) (q := fullShare) (f := f)
    (Finset.univ : Finset OutT) (outK c) (fun t _ t' _ h => outK_disjoint c h))).trans ?_
  · rw [biUnion_outK]
  · rw [bigSep_univ_sum, bigSep_univ_sum, bigSep_univ_sum, bigSep_univ_sum]
    rfl

theorem out_split (c : Dev nD) (f : Buf (Elt F) ((c : Thread nD τ).loc main_v1)) :
    (((c : Thread nD τ).loc main_v1 ↦{fullShare} f) : sProp 𝕄)
      ⊣⊢ iprop((bigSep Finset.univ fun j : Fin 16 => pts c (outM c j) fullShare f)
          ∗ (bigSep Finset.univ fun j : Fin 16 => pts c (outM (yp c) j) fullShare f)
          ∗ (bigSep Finset.univ fun j : Fin 16 => pts c (outM (zp c) j) fullShare f)
          ∗ (bigSep Finset.univ fun e : Fin 8 => pts c (outE (yp c) e) fullShare f)
          ∗ (bigSep Finset.univ fun e : Fin 8 => pts c (outO (zp c) e) fullShare f)) :=
  BIBase.BiEntails.of_eq (out_split_eq c f)

/-- The receive scratch by its sixteen blocks. -/
theorem vr_split_eq (c : Dev nD) (f : Buf (Elt F) ((c : Thread nD τ).loc cc0_scratch1)) :
    (((c : Thread nD τ).loc cc0_scratch1 ↦{fullShare} f) : sProp 𝕄)
      = bigSep Finset.univ fun j : Fin 16 => pts c (vrM j) fullShare f := by
  refine Eq.trans ?_ (pointsTo_biUnion (ℓ := (c : Thread nD τ).loc cc0_scratch1) (q := fullShare) (f := f)
    (Finset.univ : Finset (Fin 16)) vrK (fun j _ j' _ h => vrK_disjoint h))
  rw [biUnion_vrK]

theorem vr_split (c : Dev nD) (f : Buf (Elt F) ((c : Thread nD τ).loc cc0_scratch1)) :
    (((c : Thread nD τ).loc cc0_scratch1 ↦{fullShare} f) : sProp 𝕄)
      ⊣⊢ bigSep Finset.univ fun j : Fin 16 => pts c (vrM j) fullShare f :=
  BIBase.BiEntails.of_eq (vr_split_eq c f)

/-- The sum buffer by its two slots. -/
theorem vs_split (c : Dev nD) (f : Buf (Elt F) ((c : Thread nD τ).loc cc0_scratch2)) :
    (((c : Thread nD τ).loc cc0_scratch2 ↦{fullShare} f) : sProp 𝕄)
      ⊣⊢ iprop(pts c (vsM 0) fullShare f ∗ pts c (vsM 1) fullShare f) := by
  have h : (((c : Thread nD τ).loc cc0_scratch2 ↦[vsK 0 ∪ vsK 1]{fullShare} f) : sProp 𝕄)
      ⊣⊢ iprop(((c : Thread nD τ).loc cc0_scratch2 ↦[vsK 0]{fullShare} f) ∗ ((c : Thread nD τ).loc cc0_scratch2 ↦[vsK 1]{fullShare} f)) :=
    pointsTo_union vsK_disjoint
  rw [union_vsK] at h
  exact h

/-- The input block: the quarter the device reduces, and the rest. -/
theorem in_split (c : Dev nD) (f : Buf (Elt F) ((c : Thread nD τ).loc main_arg0)) :
    (((c : Thread nD τ).loc main_arg0 ↦{fullShare} f) : sProp 𝕄)
      ⊣⊢ iprop(pts c (srcQ c) fullShare f
          ∗ ((c : Thread nD τ).loc main_arg0 ↦[Finset.univ \ (srcQ c).view.set]{fullShare} f)) :=
  pointsTo_split_subset (Finset.subset_univ _)

/-- The input quarter by its sixteen blocks, at any share. -/
theorem srcQ_split_eq (c : Dev nD) (q : PosShare TreeShare) (f : Buf (Elt F) ((c : Thread nD τ).loc main_arg0)) :
    (pts c (srcQ c) q f : sProp 𝕄) = bigSep Finset.univ fun j : Fin 16 => pts c (srcX c j) q f := by
  refine Eq.trans ?_ (pointsTo_biUnion (ℓ := (c : Thread nD τ).loc main_arg0) (q := q) (f := f)
    (Finset.univ : Finset (Fin 16)) (srcK c) (fun j _ j' _ h => srcK_disjoint c h))
  rw [biUnion_srcK]

theorem srcQ_split (c : Dev nD) (q : PosShare TreeShare) (f : Buf (Elt F) ((c : Thread nD τ).loc main_arg0)) :
    (pts c (srcQ c) q f : sProp 𝕄) ⊣⊢ bigSep Finset.univ fun j : Fin 16 => pts c (srcX c j) q f :=
  BIBase.BiEntails.of_eq (srcQ_split_eq c q f)

/-! ## Joining back, forgetting contents, and universes as chains -/

/-- The two slots of the sum buffer, ending at different contents, are the whole buffer at some contents. -/
theorem vs_join (c : Dev nD) (f g : Buf (Elt F) ((c : Thread nD τ).loc cc0_scratch2)) :
    iprop(pts c (vsM 0) fullShare f ∗ pts c (vsM 1) fullShare g)
      ⊢ (iprop(∃ h, ((c : Thread nD τ).loc cc0_scratch2) ↦{fullShare} h) : sProp 𝕄) := by
  have hj : iprop((((c : Thread nD τ).loc cc0_scratch2) ↦[vsK 0]{fullShare} f) ∗ (((c : Thread nD τ).loc cc0_scratch2) ↦[vsK 1]{fullShare} g))
      ⊢ ((((c : Thread nD τ).loc cc0_scratch2) ↦[vsK 0 ∪ vsK 1]{fullShare} _) : sProp 𝕄) := pointsTo_join vsK_disjoint
  rw [union_vsK] at hj
  refine hj.trans ?_
  iintro H
  iexists _
  iexact H

/-- A points-to at stated contents is one at some contents. -/
theorem ptsE_of {sp : Space} {s : Shape} (o : Dev nD) (M : Memref sig .tc sp s .f32)
    (f : Buf (Elt F) (M.view.loc (o : Thread nD τ))) : pts o M fullShare f ⊢ ptsE (F := F) o M := by
  iintro H
  iexists f
  iexact H

/-- The same over a family of memrefs. -/
theorem ptsE_of_bigSep {sp : Space} {s : Shape} {T : Type} (S : Finset T) (c : Dev nD) (M : T → Memref sig .tc sp s .f32)
    (f : (j : T) → Buf (Elt F) ((M j).view.loc (c : Thread nD τ))) :
    bigSep S (fun j => pts c (M j) fullShare (f j)) ⊢ bigSep S (fun j => ptsE (F := F) c (M j)) :=
  bigSep_mono fun j _ => ptsE_of c (M j) (f j)

/-- A family over eight, and over sixteen, indices as a chain. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  rfl
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13
      ∗ Φ 14 ∗ Φ 15) := by
  rw [bigSep_univ_eq_bigSepL [0, 1, 2, 3, 4, 5, 6, 7, 8, 9, 10, 11, 12, 13, 14, 15] (by decide) (by decide)]
  rfl

/-- info: 'Cert.KernelIdeal.Ar.out_split' depends on axioms: [propext, Classical.choice, Quot.sound] -/
#guard_msgs in #print axioms out_split
/-- info: 'Cert.KernelIdeal.Ar.vr_split' depends on axioms: [propext, Classical.choice, Quot.sound] -/
#guard_msgs in #print axioms vr_split
/-- info: 'Cert.KernelIdeal.Ar.vs_split' depends on axioms: [propext, Classical.choice, Quot.sound] -/
#guard_msgs in #print axioms vs_split
/-- info: 'Cert.KernelIdeal.Ar.in_split' depends on axioms: [propext, Classical.choice, Quot.sound] -/
#guard_msgs in #print axioms in_split
/-- info: 'Cert.KernelIdeal.Ar.srcQ_split' depends on axioms: [propext, Classical.choice, Quot.sound] -/
#guard_msgs in #print axioms srcQ_split
/-- info: 'Cert.KernelIdeal.Ar.share3' depends on axioms: [propext, Classical.choice, Quot.sound] -/
#guard_msgs in #print axioms share3
/-- info: 'Cert.KernelIdeal.Ar.vs_join' depends on axioms: [propext, Classical.choice, Quot.sound] -/
#guard_msgs in #print axioms vs_join
/-- info: 'Cert.KernelIdeal.Ar.outE_set' depends on axioms: [propext, Classical.choice, Quot.sound] -/
#guard_msgs in #print axioms outE_set
/-- info: 'Cert.KernelIdeal.Ar.outO_set' depends on axioms: [propext, Classical.choice, Quot.sound] -/
#guard_msgs in #print axioms outO_set
/-- info: 'Cert.KernelIdeal.Ar.mem_vsM' depends on axioms: [propext, Classical.choice, Quot.sound] -/
#guard_msgs in #print axioms mem_vsM

end Cert.KernelIdeal.Ar

end
-- ==== Proof.Ghost.lean ====
/-
  What each device starts the body from, and what it ends with.
  * What it owes at launch: one unit to each partner's barrier semaphore, and to each cell that one of its copies
    lands on (a receive cell on a partner) the copy's credit; written as nested sums in the order the body pays them,
    so that each payment takes the head off.
  * Its ghost state: every cell's invariant and that round 0 of every cell is reached (persistent, the same for all
    devices); its own cells' positions; the tokens of the duties IT pays (its own send and local cells', and the
    partners' receive and barrier cells'); the credit dealt to it at launch for what others owe its cells.
  * Levels for the deadlock argument: a device may wait on a cell only while everything it still owes is at a higher
    level. Local cells 0, the barrier 1, the x receive cells 2, the y/z spread receive cells 3, the forward receive cells 4:
    this is the order in which the body's waits and payments alternate.
-/
import proofs.«900725_g7700000000000726_dist_ar_v7x_xyz2x4x4_x_m8192_n1024_f32_1_alg».proof.Proof.Sched

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a device owes -/

def fin16 (n : ℕ) : Fin 16 := ⟨n % 16, Nat.mod_lt _ (by decide)⟩
def fin8 (n : ℕ) : Fin 8 := ⟨n % 8, Nat.mod_lt _ (by decide)⟩

abbrev Tal : Type := CellTallies nD τ sig Unit

def tBar (p : Dev nD) : Tal := tallyAt (cell p .bar) () 1
def tX (c : Dev nD) (j : Fin 16) : Tal := tallyAt (cell (xp c) (.xr j)) () Nv
def tYD (c : Dev nD) (j : Fin 16) : Tal := tallyAt (cell (yp c) (.ydr j)) () No
def tZD (c : Dev nD) (j : Fin 16) : Tal := tallyAt (cell (zp c) (.zdr j)) () No
def tYR (c : Dev nD) (i : Fin 8) : Tal := tallyAt (cell (yp c) (.yrr i)) () No
def tZR (c : Dev nD) (i : Fin 8) : Tal := tallyAt (cell (zp c) (.zrr i)) () No

/-- The forward iteration `j` of the last loop makes: an even chunk goes to the y partner, an odd one to the z partner. -/
def tFw (c : Dev nD) (j : Fin 16) : Tal := if j.val % 2 = 0 then tYR c (fin8 (j.val / 2)) else tZR c (fin8 (j.val / 2))

/-- Owed with the last `k` forwards still to make. -/
def rem3 (c : Dev nD) : ℕ → Tal
  | 0 => 0
  | k + 1 => tFw c (fin16 (15 - k)) + rem3 c k
/-- Owed with the last `k` spread iterations still to run (each pays the y partner, then the z partner). -/
def rem2 (c : Dev nD) : ℕ → Tal
  | 0 => rem3 c 16
  | k + 1 => tYD c (fin16 (15 - k)) + (tZD c (fin16 (15 - k)) + rem2 c k)
/-- Owed with the last `k` copies to the x partner still to issue. -/
def rem1 (c : Dev nD) : ℕ → Tal
  | 0 => rem2 c 16
  | k + 1 => tX c (fin16 (15 - k)) + rem1 c k
/-- Owed at launch: the three barrier signals (x, y, z in that order), then the copies. -/
def O₀ (c : Dev nD) : Tal := tBar (xp c) + (tBar (yp c) + (tBar (zp c) + rem1 c 16))

/-! ## Levels -/

def L (g : GSem nD τ sig) : Finset Unit := if g.1.2 = .tc then {()} else ∅
def lvK : CK → ℕ
  | .bar => 1
  | .xr _ => 2
  | .ydr _ => 3 | .zdr _ => 3
  | .yrr _ => 4 | .zrr _ => 4
  | _ => 0
def lv (g : GSem nD τ sig) (_ : Unit) : ℕ := lvK (ckOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (o : Dev nD) (k : CK) (u : Unit) : lv (cell o k) u = lvK k := by unfold lv; rw [ckOf_loc]

/-! ## The ghost state -/

variable (m : (ℓ : Loc nD τ sig) → Buf (Elt F) ℓ)

/-- Every cell's invariant, at the names `K`, and that round 0 of every cell is reached. -/
def recs (K : Dev nD × CK → ℕ) : sProp 𝕄 :=
  iprop((bigSep Finset.univ fun ok : Dev nD × CK => cellInv ER (Rd m) (K ok) (cell ok.1 ok.2))
    ∗ bigSep Finset.univ fun ok : Dev nD × CK => reached ER (cell ok.1 ok.2) 0)

instance recs_persistent (K : Dev nD × CK → ℕ) : BI.Persistent (recs m K) := by unfold recs; infer_instance

theorem inv_at (K : Dev nD × CK → ℕ) (o : Dev nD) (k : CK) : recs m K ⊢ cellInv ER (Rd m) (K (o, k)) (cell o k) := by
  unfold recs; iintro ⟨H, -⟩
  iapply (show (bigSep Finset.univ fun ok : Dev nD × CK => (cellInv ER (Rd m) (K ok) (cell ok.1 ok.2) : sProp 𝕄)) ⊢ cellInv ER (Rd m) (K (o, k)) (cell o k)
    from bigSep_elim (Finset.mem_univ (o, k)))
  iexact H
theorem reached_at (K : Dev nD × CK → ℕ) (o : Dev nD) (k : CK) : recs m K ⊢ reached ER (cell o k) 0 := by
  unfold recs; iintro ⟨-, H⟩
  iapply (show (bigSep Finset.univ fun ok : Dev nD × CK => (reached ER (cell ok.1 ok.2) 0 : sProp 𝕄)) ⊢ reached ER (cell o k) 0
    from bigSep_elim (Finset.mem_univ (o, k)))
  iexact H

abbrev pos0 (c : Dev nD) (k : CK) : sProp 𝕄 := atPos ER (cell c k) 0 ∅ 0
abbrev tok0 (o : Dev nD) (k : CK) (r : ℕ) (d : Fin 3) : sProp 𝕄 := dutyTok ER (cell o k) r d

/-- Device `c`'s positions on its own cells, grouped as the body's loops use them. -/
def posOwn (c : Dev nD) : sProp 𝕄 :=
  iprop(pos0 c .bar ∗ pos0 c .cpq ∗ pos0 c (.cpo 0) ∗ pos0 c (.cpo 1)
    ∗ (bigSep Finset.univ fun j : Fin 16 => iprop(pos0 c (.xs j) ∗ pos0 c (.xr j) ∗ pos0 c (.yds j) ∗ pos0 c (.ydr j) ∗ pos0 c (.zds j) ∗ pos0 c (.zdr j)))
    ∗ (bigSep Finset.univ fun i : Fin 8 => iprop(pos0 c (.yrs i) ∗ pos0 c (.yrr i) ∗ pos0 c (.zrs i) ∗ pos0 c (.zrr i))))

/-- The tokens of the duties device `c` pays: on the three partners' barrier cells (duty 0 on the x partner's, 1 on the y
    partner's, 2 on the z partner's), on its own local and send cells, and on the partners' receive cells. -/
def payToks (c : Dev nD) : sProp 𝕄 :=
  iprop(tok0 (xp c) .bar 0 0 ∗ tok0 (yp c) .bar 0 1 ∗ tok0 (zp c) .bar 0 2 ∗ tok0 c .cpq 0 0
    ∗ (bigSep Finset.univ fun j : Fin 16 => iprop(tok0 c (.xs j) 0 0 ∗ tok0 (xp c) (.xr j) 0 0))
    ∗ (bigSep Finset.univ fun j : Fin 16 => iprop(tok0 c (.cpo (slotOf j)) (j.val / 2) 0 ∗ tok0 c (.yds j) 0 0 ∗ tok0 (yp c) (.ydr j) 0 0
        ∗ tok0 c (.zds j) 0 0 ∗ tok0 (zp c) (.zdr j) 0 0))
    ∗ (bigSep Finset.univ fun i : Fin 8 => iprop(tok0 c (.yrs i) 0 0 ∗ tok0 (yp c) (.yrr i) 0 0 ∗ tok0 c (.zrs i) 0 0 ∗ tok0 (zp c) (.zrr i) 0 0)))

/-- The credit dealt to device `c` at launch: what the partners owe its barrier and receive cells. -/
def creds (c : Dev nD) : sProp 𝕄 :=
  iprop(cred (tallyAt (cell c .bar) () 3)
    ∗ (bigSep Finset.univ fun j : Fin 16 => iprop(cred (tallyAt (cell c (.xr j)) () Nv) ∗ cred (tallyAt (cell c (.ydr j)) () No) ∗ cred (tallyAt (cell c (.zdr j)) () No)))
    ∗ (bigSep Finset.univ fun i : Fin 8 => iprop(cred (tallyAt (cell c (.yrr i)) () No) ∗ cred (tallyAt (cell c (.zrr i)) () No))))

def ghost (K : Dev nD × CK → ℕ) (c : Dev nD) : sProp 𝕄 := iprop(recs m K ∗ posOwn c ∗ payToks c)

/-- Device `c`'s buffers as the body finds them: the input at its launch contents, the result and the scratches at anything. -/
def bufs0 (c : Dev nD) : sProp 𝕄 :=
  iprop((((c : Thread nD τ).loc main_arg0) ↦{fullShare} X m c)
    ∗ (∃ f : Buf (Elt F) ((c : Thread nD τ).loc main_v1), ((c : Thread nD τ).loc main_v1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- And at the end: the input unchanged, the result at its final contents, the scratches at anything. -/
def bufs1 (c : Dev nD) : sProp 𝕄 :=
  iprop((((c : Thread nD τ).loc main_arg0) ↦{fullShare} X m c)
    ∗ (((c : Thread nD τ).loc main_v1) ↦{fullShare} OUTc m c)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The own (scoped) DMA semaphores back at zero. -/
def sems0 (c : Dev nD) : sProp 𝕄 := bigSep Finset.univ fun s : DmaSem sig => semVal ((c : Thread nD τ), SemLoc.dma s) 0

/-- What the body of device `c` starts from, and ends with. -/
def Φ₀ (c : Dev nD) : sProp 𝕄 := iprop((∃ K, ghost m K c) ∗ creds c ∗ levAts L lv ∗ bufs0 m c)
def Φ₁ (c : Dev nD) : sProp 𝕄 := iprop(bufs1 m c ∗ sems0 c)

end Cert.KernelIdeal.Ar

end
-- ==== Proof.Frag.lean ====
/-
  The body's statements, one definition per kind of step, at a symbolic device `c` and chunk index, each followed by
  an arbitrary continuation `k`: the printed body is a chain of these (by definitional unfolding), so a lemma about
  one of them at a symbolic chunk applies at each of its unrolled occurrences.
-/
import proofs.«900725_g7700000000000726_dist_ar_v7x_xyz2x4x4_x_m8192_n1024_f32_1_alg».proof.Proof.Ghost
import proofs.«900725_g7700000000000726_dist_ar_v7x_xyz2x4x4_x_m8192_n1024_f32_1_alg».proof.Proof.Gen.KernelIdeal.Skeleton

noncomputable section

namespace Cert.KernelIdeal.Ar

open Cert.KernelIdeal Cert.KernelIdeal.Gen Cert.KernelIdeal.Mesh
open Idealize.ShloMosaic Idealize.ShloMosaic.TcCoe
open Idealize.SL Idealize.SL.Sem

variable {F : FTy → Type} [FloatOps F]

/-- Programs of the kernel body. -/
abbrev PR (F : FTy → Type) [FloatOps F] (α : Type) : Type 1 := Prog (TpuEff nD τ sig (Elt F) Λ₀ .tc) α

variable {α : Type}

/-! ## Entry -/

/-- The local copy of the device's quarter of the input to `VQ`. -/
abbrev fCpq (c : Dev nD) (k : PR F α) : PR F α :=
  Prog.op (.enqueueDma (srcQ c) (.here VQ) (.dma cpqS) (View.wordExact_bits rfl) (Memref.isWhole_whole _).wordExact ⟨Or.inl rfl, trivial⟩) fun _ => k
/-- One unit to device `n`'s barrier semaphore. -/
abbrev fSig (n : Dev nD) (k : PR F α) : PR F α :=
  Prog.op (.semSignal ((n, Proc.tc) : Thread nD τ) barS (1#32).toNat) fun _ => k
/-- The wait for the three partners' units. -/
abbrev fBarWait (k : PR F α) : PR F α :=
  Prog.op (.semWait barS (3#32).toNat) fun _ => k
/-- Chunk `j` of the quarter to device `n`'s receive scratch. -/
abbrev fX (c : Dev nD) (j : Fin 16) (n : Dev nD) (k : PR F α) : PR F α :=
  Prog.op (.enqueueDma (srcX c j) (.remote (Dev.tc n) (vrM j) (.dma (xS j))) (.dma (xR j)) (View.wordExact_bits rfl) (View.wordExact_bits rfl) ⟨⟨rfl, Or.inl rfl⟩, trivial⟩) fun _ => k
/-- The wait for the local copy of the quarter. -/
abbrev fWaitQ (c : Dev nD) (k : PR F α) : PR F α :=
  Prog.op (.waitDma2 cpqS (srcQ c) VQ (View.wordExact_bits rfl) (Memref.isWhole_whole _).wordExact) fun _ => k

/-! ## The reduce-and-spread loop, iteration `j` (slot `slotOf j`) -/

/-- The waits that free a slot: the y copy's and the z copy's send semaphores of chunk `j`, and the local result copy's. -/
abbrev fWaitYdS (c : Dev nD) (j : Fin 16) (k : PR F α) : PR F α :=
  Prog.op (.waitDma2 (ydS j) (outM c j) (vsM (slotOf j)) (View.wordExact_bits rfl) ((View.wordExact_bits rfl).reshape _ _)) fun _ => k
abbrev fWaitZdS (c : Dev nD) (j : Fin 16) (k : PR F α) : PR F α :=
  Prog.op (.waitDma2 (zdS j) (outM c j) (vsM (slotOf j)) (View.wordExact_bits rfl) ((View.wordExact_bits rfl).reshape _ _)) fun _ => k
abbrev fWaitO (c : Dev nD) (j : Fin 16) (k : PR F α) : PR F α :=
  Prog.op (.waitDma2 (cpoS (slotOf j)) (vsM (slotOf j)) (outM c j) ((View.wordExact_bits rfl).reshape _ _) (View.wordExact_bits rfl)) fun _ => k
/-- The wait for the x partner's chunk `j`. -/
abbrev fWaitXR (c : Dev nD) (j : Fin 16) (k : PR F α) : PR F α :=
  Prog.op (.waitDma2 (xR j) (srcX c j) (vrM j) (View.wordExact_bits rfl) (View.wordExact_bits rfl)) fun _ => k
/-- The sum of chunk `j`: two loads, the (unused) load of the slot, the store of the sum into the slot. -/
abbrev fSum (j : Fin 16) (k : PR F α) : PR F α :=
  Prog.op (.load VQ (Rect.unit (s := S2048x1024) ![128 * j.val, 0] S128x1024.size (inbR j)).toLoadRect (View.loadsAt_vmem h_S128x1024)) fun (v : Vec F S128x1024 .f32) =>
  Prog.op (.load VR (Rect.unit (s := S2048x1024) ![128 * j.val, 0] S128x1024.size (inbR j)).toLoadRect (View.loadsAt_vmem h_S128x1024)) fun (w : Vec F S128x1024 .f32) =>
  Prog.op (.load VS (Rect.unit (s := S2x128x1024) ![(slotOf j).val, 0, 0] S1x128x1024.size (inbS (slotOf j))).toLoadRect (View.loadsAt_vmem h_S1x128x1024)) fun (_ : Vec F S1x128x1024 .f32) =>
  Prog.op (.store VS (Rect.unit (s := S2x128x1024) ![(slotOf j).val, 0, 0] S1x128x1024.size (inbS (slotOf j)))
        (shapeCast S1x128x1024 (addf v w) shapeCasts_S128x1024_S1x128x1024) Finset.univ (View.stores_vmem_bits_univ h_S1x128x1024 rfl) (.inl rfl)) fun _ => k
/-- The local copy of the slot to the device's own result rows. -/
abbrev fO (c : Dev nD) (j : Fin 16) (k : PR F α) : PR F α :=
  Prog.op (.enqueueDma (vsM (slotOf j)) (.here (outM c j)) (.dma (cpoS (slotOf j))) ((View.wordExact_bits rfl).reshape _ _) (View.wordExact_bits rfl) ⟨Or.inl rfl, trivial⟩) fun _ => k
/-- The copies of the slot to the same rows on device `n` (the y partner, the z partner). -/
abbrev fYD (c : Dev nD) (j : Fin 16) (n : Dev nD) (k : PR F α) : PR F α :=
  Prog.op (.enqueueDma (vsM (slotOf j)) (.remote (Dev.tc n) (outM c j) (.dma (ydS j))) (.dma (ydR j)) ((View.wordExact_bits rfl).reshape _ _) (View.wordExact_bits rfl) ⟨⟨rfl, Or.inl rfl⟩, trivial⟩) fun _ => k
abbrev fZD (c : Dev nD) (j : Fin 16) (n : Dev nD) (k : PR F α) : PR F α :=
  Prog.op (.enqueueDma (vsM (slotOf j)) (.remote (Dev.tc n) (outM c j) (.dma (zdS j))) (.dma (zdR j)) ((View.wordExact_bits rfl).reshape _ _) (View.wordExact_bits rfl) ⟨⟨rfl, Or.inl rfl⟩, trivial⟩) fun _ => k

/-! ## The forwarding loop -/

/-- The waits for the y partner's and the z partner's chunk `j`. -/
abbrev fWaitYdR (c : Dev nD) (j : Fin 16) (k : PR F α) : PR F α :=
  Prog.op (.waitDma2 (ydR j) (vsM (slotOf j)) (outM c j) ((View.wordExact_bits rfl).reshape _ _) (View.wordExact_bits rfl)) fun _ => k
abbrev fWaitZdR (c : Dev nD) (j : Fin 16) (k : PR F α) : PR F α :=
  Prog.op (.waitDma2 (zdR j) (vsM (slotOf j)) (outM c j) ((View.wordExact_bits rfl).reshape _ _) (View.wordExact_bits rfl)) fun _ => k
/-- Even chunk `2 e` of the z partner's quarter forwarded to device `n` (the y partner). -/
abbrev fYR (c : Dev nD) (e : Fin 8) (n : Dev nD) (k : PR F α) : PR F α :=
  Prog.op (.enqueueDma (outE c e) (.remote (Dev.tc n) (outE c e) (.dma (yrS e))) (.dma (yrR e)) (View.wordExact_bits rfl) (View.wordExact_bits rfl) ⟨⟨rfl, Or.inl rfl⟩, trivial⟩) fun _ => k
/-- Odd chunk `2 e + 1` of the y partner's quarter forwarded to device `n` (the z partner). -/
abbrev fZR (c : Dev nD) (e : Fin 8) (n : Dev nD) (k : PR F α) : PR F α :=
  Prog.op (.enqueueDma (outO c e) (.remote (Dev.tc n) (outO c e) (.dma (zrS e))) (.dma (zrR e)) (View.wordExact_bits rfl) (View.wordExact_bits rfl) ⟨⟨rfl, Or.inl rfl⟩, trivial⟩) fun _ => k

/-! ## Any other wait on a DMA semaphore, by its printed operands -/

abbrev fWait {sp sp' : Space} {s s' : Shape} (sem : DmaSem sig) (src : Memref sig .tc sp' s' .f32) (dst : Memref sig .tc sp s .f32)
    (h1 : src.view.WordExact) (h2 : dst.view.WordExact) (k : PR F α) : PR F α :=
  Prog.op (.waitDma2 sem src dst h1 h2) fun _ => k

end Cert.KernelIdeal.Ar

end
-- ==== Proof.Levels.lean ====
/-
  The levels of the deadlock argument, as facts about tallies: a tally is ABOVE `n` when every cell it is positive
  at is a TensorCore's and sits at a level above `n`. A device may wait on a cell of its own at level at most `n`
  while what it owes is above `n`. What a device owes shrinks along the body through the tails `rem1`, `rem2`,
  `rem3`: the copies to the x partner land on level 2 cells, the spread copies on level 3 cells, the forwards
  on level 4 cells.
-/
import proofs.«900725_g7700000000000726_dist_ar_v7x_xyz2x4x4_x_m8192_n1024_f32_1_alg».proof.Proof.Ghost

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel has no loop variant. -/
abbrev 𝒱₀ : Variants := Variants.none

/-- Every cell the tally is positive at is a TensorCore's, at a level above `n`. -/
def Above (n : ℕ) (O : Tal) : Prop := ∀ g u, 0 < O g u → g.1.2 = .tc ∧ n < lv g u

theorem above_zero (n : ℕ) : Above n 0 := fun g u hg => absurd hg (Nat.lt_irrefl 0)

theorem Above.add {n : ℕ} {O₁ O₂ : Tal} (h₁ : Above n O₁) (h₂ : Above n O₂) : Above n (O₁ + O₂) := fun g u hg =>
  (Pipeline.add_pos_cases hg).elim (h₁ g u) (h₂ g u)

theorem Above.mono {n n' : ℕ} {O : Tal} (h : n ≤ n') (hO : Above n' O) : Above n O := fun g u hg =>
  ⟨(hO g u hg).1, lt_of_le_of_lt h (hO g u hg).2⟩

/-- A tally at one cell of kind `k` is above every level below the kind's. -/
theorem above_tally (p : Dev nD) (k : CK) (a n : ℕ) (h : n < lvK k) : Above n (tallyAt (cell p k) () a) := fun g u hg => by
  obtain ⟨rfl, -⟩ := Pipeline.tallyAt_pos hg
  exact ⟨rfl, by rw [lv_cell]; exact h⟩

theorem above_tBar (p : Dev nD) : Above 0 (tBar p) := above_tally p .bar 1 0 (by decide)
theorem above_tX (c : Dev nD) (j : Fin 16) : Above 1 (tX c j) := above_tally _ _ _ 1 (show 1 < 2 by decide)
theorem above_tYD (c : Dev nD) (j : Fin 16) : Above 2 (tYD c j) := above_tally _ _ _ 2 (show 2 < 3 by decide)
theorem above_tZD (c : Dev nD) (j : Fin 16) : Above 2 (tZD c j) := above_tally _ _ _ 2 (show 2 < 3 by decide)
theorem above_tYR (c : Dev nD) (i : Fin 8) : Above 3 (tYR c i) := above_tally _ _ _ 3 (show 3 < 4 by decide)
theorem above_tZR (c : Dev nD) (i : Fin 8) : Above 3 (tZR c i) := above_tally _ _ _ 3 (show 3 < 4 by decide)

theorem above_tFw (c : Dev nD) (j : Fin 16) : Above 3 (tFw c j) := by
  unfold tFw; split
  · exact above_tYR _ _
  · exact above_tZR _ _

theorem above_rem3 (c : Dev nD) : ∀ k, Above 3 (rem3 c k)
  | 0 => above_zero 3
  | k + 1 => (above_tFw c _).add (above_rem3 c k)

theorem above_rem2 (c : Dev nD) : ∀ k, Above 2 (rem2 c k)
  | 0 => (above_rem3 c 16).mono (by decide)
  | k + 1 => (above_tYD c _).add ((above_tZD c _).add (above_rem2 c k))

theorem above_rem1 (c : Dev nD) : ∀ k, Above 1 (rem1 c k)
  | 0 => (above_rem2 c 16).mono (by decide)
  | k + 1 => (above_tX c _).add (above_rem1 c k)

/-- What a device owes at launch is above level 0. -/
theorem above_O₀ (c : Dev nD) : Above 0 (O₀ c) :=
  (above_tBar _).add ((above_tBar _).add ((above_tBar _).add ((above_rem1 c 16).mono (by decide))))

/-- The evidence of a wait: device `c` may wait on its cell of kind `k`, of level at most `n`, while what it owes is
    above `n`. -/
theorem mayWait_above (c : Dev nD) (k : CK) (n : ℕ) (hk : lvK k ≤ n) (O : Tal) (hO : Above n O) :
    (levAts L lv : sProp 𝕄) ⊢ MayWait (c : Thread nD τ) k.loc () O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; show lv (cell c k) () ≤ n; rw [lv_cell]; exact hk)
    (fun g u hg => (hO g u hg).2)

/-- Owing nothing, a device may wait anywhere. -/
theorem mayWait_zero (c : Dev nD) (k : CK) : (levAts L lv : sProp 𝕄) ⊢ MayWait (c : Thread nD τ) k.loc () 0 := by
  rw [MayWait_zero]; iintro -; iempintro

end Cert.KernelIdeal.Ar

end
-- ==== Proof.StepBase.lean ====
/-
  Shared by the step lemmas: what a device still owes, at whatever set of waits it has recorded; and the
  arithmetic that ties a chunk to its slot and to its round on the slot's local-copy cell.
-/
import proofs.«900725_g7700000000000726_dist_ar_v7x_xyz2x4x4_x_m8192_n1024_f32_1_alg».proof.Proof.Frag
import proofs.«900725_g7700000000000726_dist_ar_v7x_xyz2x4x4_x_m8192_n1024_f32_1_alg».proof.Proof.Levels

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `c` owes `O`, having recorded some waits. -/
def ow (c : Dev nD) (O : Tal) : sProp 𝕄 := iprop(∃ W, owes (c : Thread nD τ) O W)

/-- Chunk `j` is the chunk of round `j / 2` of its slot. -/
theorem chunkOf_slotOf (j : Fin 16) : chunkOf (slotOf j) (j.val / 2) = j := by revert j; decide
theorem round_lt (j : Fin 16) : j.val / 2 < nRd (.cpo (slotOf j)) := by revert j; decide

end Cert.KernelIdeal.Ar

end
-- ==== Proof.PhP.lean ====
/-
  The first and the last stretch of a device's body, as entailments between whole assertions: what the device is
  launched with, cut into the positions, tokens, credit and blocks of rows the body's steps take one at a time,
  with the three payloads of the entry handshake made from the rows the partners will write; and, at the end, the
  blocks of rows put back into whole buffers at their final contents.
-/
import proofs.«900725_g7700000000000726_dist_ar_v7x_xyz2x4x4_x_m8192_n1024_f32_1_alg».proof.Proof.Sets
import proofs.«900725_g7700000000000726_dist_ar_v7x_xyz2x4x4_x_m8192_n1024_f32_1_alg».proof.Proof.StepBase

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The payloads of the entry handshake -/

theorem pay_barX (o : Dev nD) : pay m o .bar 0 0 = payBarX (F := F) o := rfl
theorem pay_barY (o : Dev nD) : pay m o .bar 0 1 = payBarY (F := F) o := rfl
theorem pay_barZ (o : Dev nD) : pay m o .bar 0 2 = payBarZ (F := F) o := rfl

/-- A device's whole receive scratch is what its x partner's signal hands that partner. -/
theorem payX_of (c : Dev nD) (f : Buf (Elt F) ((c : Thread nD τ).loc cc0_scratch1)) :
    (((c : Thread nD τ).loc cc0_scratch1 ↦{fullShare} f) : sProp 𝕄) ⊢ pay m (xp c) .bar 0 0 := by
  rw [pay_barX, vr_split_eq c f]
  unfold payBarX
  rw [xp_xp]
  exact ptsE_of_bigSep Finset.univ c vrM (fun _ => f)

/-- The rows of a device's result array that its y partner writes are what its signal hands that partner. -/
theorem payY_of (c : Dev nD) (f : Buf (Elt F) ((c : Thread nD τ).loc main_v1)) :
    iprop((bigSep Finset.univ fun j : Fin 16 => pts c (outM (yp c) j) fullShare f)
        ∗ (bigSep Finset.univ fun e : Fin 8 => pts c (outE (yp c) e) fullShare f))
      ⊢ pay m (yp c) .bar 0 1 := by
  rw [pay_barY]
  unfold payBarY
  rw [yp_yp]
  exact BIClass.sep_mono (ptsE_of_bigSep Finset.univ c (fun j => outM (yp c) j) (fun _ => f))
    (ptsE_of_bigSep Finset.univ c (fun e => outE (yp c) e) (fun _ => f))

/-- The same for the z partner. -/
theorem payZ_of (c : Dev nD) (f : Buf (Elt F) ((c : Thread nD τ).loc main_v1)) :
    iprop((bigSep Finset.univ fun j : Fin 16 => pts c (outM (zp c) j) fullShare f)
        ∗ (bigSep Finset.univ fun e : Fin 8 => pts c (outO (zp c) e) fullShare f))
      ⊢ pay m (zp c) .bar 0 2 := by
  rw [pay_barZ]
  unfold payBarZ
  rw [zp_zp]
  exact BIClass.sep_mono (ptsE_of_bigSep Finset.univ c (fun j => outM (zp c) j) (fun _ => f))
    (ptsE_of_bigSep Finset.univ c (fun e => outO (zp c) e) (fun _ => f))

/-! ## Whole buffers through the memrefs that name them -/

theorem pts_VQ (c : Dev nD) (f : Buf (Elt F) ((c : Thread nD τ).loc cc0_scratch0)) :
    (pts c VQ fullShare f : sProp 𝕄) = ((c : Thread nD τ).loc cc0_scratch0 ↦{fullShare} f) := by
  show (((c : Thread nD τ).loc cc0_scratch0 ↦[(View.whole cc0_scratch0).set]{fullShare} f) : sProp 𝕄) = _
  rw [View.set_whole]

theorem ow_of (c : Dev nD) (O : Tal) (W : Waits sig Unit) : owes (c : Thread nD τ) O W ⊢ (ow c O : sProp 𝕄) := by
  unfold ow
  iintro H
  iexists W
  iexact H

/-! ## The buffers as the body takes them -/

/-- The device's buffers cut for the body: the input as the rest, the quarter at the local copy's share and its
    sixteen blocks at the other; the first scratch whole; the device's own quarter of the result by blocks; the
    three payloads of the entry handshake (the receive scratch, and the result rows the y and the z partner write);
    the two slots of the sum buffer. -/
def bufsP (c : Dev nD) : sProp 𝕄 :=
  iprop((((c : Thread nD τ).loc main_arg0) ↦[Finset.univ \ (srcQ c).view.set]{fullShare} X m c)
    ∗ pts c (srcQ c) shQ (X m c)
    ∗ (bigSep Finset.univ fun j : Fin 16 => pts c (srcX c j) shX (X m c))
    ∗ (∃ fq : Buf (Elt F) ((c : Thread nD τ).loc cc0_scratch0), pts c VQ fullShare fq)
    ∗ (∃ fo : Buf (Elt F) ((c : Thread nD τ).loc main_v1), bigSep Finset.univ fun j : Fin 16 => pts c (outM c j) fullShare fo)
    ∗ pay m (xp c) .bar 0 0 ∗ pay m (yp c) .bar 0 1 ∗ pay m (zp c) .bar 0 2
    ∗ (∃ fs : Buf (Elt F) ((c : Thread nD τ).loc cc0_scratch2), pts c (vsM 0) fullShare fs ∗ pts c (vsM 1) fullShare fs))

theorem bufs0_split (c : Dev nD) : bufs0 m c ⊢ bufsP m c := by
  unfold bufs0 bufsP
  iintro ⟨Hin, ⟨%fo, Hout⟩, ⟨%fq, Hq⟩, ⟨%fr, Hr⟩, ⟨%fs, Hs⟩⟩
  ihave Hin2 := (in_split c (X m c)).1 $$ Hin
  icases Hin2 with ⟨HQf, HinRest⟩
  ihave HQ2 := (share2 ((c : Thread nD τ).loc main_arg0) (srcQ c).view.set (X m c)).1 $$ HQf
  icases HQ2 with ⟨HQ, HX⟩
  ihave HX2 := (srcQ_split c shX (X m c)).1 $$ HX
  ihave Ho := (out_split c fo).1 $$ Hout
  icases Ho with ⟨Hom, Hoy, Hoz, HoE, HoO⟩
  ihave Hs2 := (vs_split c fs).1 $$ Hs
  isplitl [HinRest]; · iexact HinRest
  isplitl [HQ]; · iexact HQ
  isplitl [HX2]; · iexact HX2
  isplitl [Hq]
  · iexists fq; rw [pts_VQ]; iexact Hq
  isplitl [Hom]
  · iexists fo; iexact Hom
  isplitl [Hr]
  · iapply (payX_of m c fr); iexact Hr
  isplitl [Hoy HoE]
  · iapply (payY_of m c fo); isplitl [Hoy]; · iexact Hoy
    iexact HoE
  isplitl [Hoz HoO]
  · iapply (payZ_of m c fo); isplitl [Hoz]; · iexact Hoz
    iexact HoO
  iexists fs
  iexact Hs2

/-- What the body's first step starts from: the cells' invariants and reached rounds, the levels, the device's
    positions, the tokens of the duties it pays, the credit dealt to it, what it owes, and its buffers cut. -/
def postPrelude (K : Dev nD × CK → ℕ) (c : Dev nD) : sProp 𝕄 :=
  iprop(recs m K ∗ levAts L lv ∗ posOwn c ∗ payToks c ∗ creds c ∗ ow c (O₀ c) ∗ bufsP m c)

/-- What a device is launched with, regrouped for the body. -/
theorem prelude (c : Dev nD) (K : Dev nD × CK → ℕ) (W : Waits sig Unit) :
    iprop(ghost m K c ∗ creds c ∗ levAts L lv ∗ bufs0 m c ∗ owes (c : Thread nD τ) (O₀ c) W)
      ⊢ postPrelude m K c := by
  unfold ghost postPrelude
  iintro ⟨⟨HR, HP, HT⟩, HC, HL, HB, HO⟩
  isplitl [HR]; · iexact HR
  isplitl [HL]; · iexact HL
  isplitl [HP]; · iexact HP
  isplitl [HT]; · iexact HT
  isplitl [HC]; · iexact HC
  isplitl [HO]
  · iapply (ow_of c (O₀ c) W); iexact HO
  iapply (bufs0_split m c)
  iexact HB

/-! ## The end -/

/-- What the body's last step leaves: the input cut as at the start, every block of the result at its final
    contents, the scratches, the device's semaphores at zero, nothing owed. -/
def preFinale (c : Dev nD) (fq : Buf (Elt F) ((c : Thread nD τ).loc cc0_scratch0))
    (f0 f1 : Buf (Elt F) ((c : Thread nD τ).loc cc0_scratch2)) : sProp 𝕄 :=
  iprop((((c : Thread nD τ).loc main_arg0) ↦[Finset.univ \ (srcQ c).view.set]{fullShare} X m c)
        ∗ pts c (srcQ c) shQ (X m c)
        ∗ (bigSep Finset.univ fun j : Fin 16 => pts c (srcX c j) shX (X m c))
        ∗ (bigSep Finset.univ fun j : Fin 16 => pts c (outM c j) fullShare (OUTc m c))
        ∗ (bigSep Finset.univ fun j : Fin 16 => pts c (outM (yp c) j) fullShare (OUTc m c))
        ∗ (bigSep Finset.univ fun j : Fin 16 => pts c (outM (zp c) j) fullShare (OUTc m c))
        ∗ (bigSep Finset.univ fun e : Fin 8 => pts c (outE (yp c) e) fullShare (OUTc m c))
        ∗ (bigSep Finset.univ fun e : Fin 8 => pts c (outO (zp c) e) fullShare (OUTc m c))
        ∗ pts c VQ fullShare fq
        ∗ (bigSep Finset.univ fun j : Fin 16 => pts c (vrM j) fullShare (VRc m c))
        ∗ pts c (vsM 0) fullShare f0 ∗ pts c (vsM 1) fullShare f1
        ∗ sems0 c ∗ ow c 0)

/-- The blocks of rows at their final contents, the scratches, the semaphores at zero and nothing owed are what
    the body ends with. -/
theorem finale (c : Dev nD) (fq : Buf (Elt F) ((c : Thread nD τ).loc cc0_scratch0))
    (f0 f1 : Buf (Elt F) ((c : Thread nD τ).loc cc0_scratch2)) :
    preFinale m c fq f0 f1 ⊢ (iprop(Φ₁ m c ∗ ∃ W, owes (c : Thread nD τ) 0 W) : sProp 𝕄) := by
  unfold preFinale Φ₁ bufs1 ow
  iintro ⟨HinRest, HQ, HX, Hom, Hoy, Hoz, HoE, HoO, Hvq, Hvr, Hvs0, Hvs1, Hsems, HO⟩
  isplitr [HO]
  · isplitr [Hsems]
    · -- the input
      isplitl [HinRest HQ HX]
      · iapply (in_split c (X m c)).2
        isplitr [HinRest]
        · iapply (share2 ((c : Thread nD τ).loc main_arg0) (srcQ c).view.set (X m c)).2
          isplitl [HQ]; · iexact HQ
          iapply (srcQ_split c shX (X m c)).2
          iexact HX
        · iexact HinRest
      -- the result
      isplitl [Hom Hoy Hoz HoE HoO]
      · iapply (out_split c (OUTc m c)).2
        isplitl [Hom]; · iexact Hom
        isplitl [Hoy]; · iexact Hoy
        isplitl [Hoz]; · iexact Hoz
        isplitl [HoE]; · iexact HoE
        iexact HoO
      -- the scratches
      isplitl [Hvq]
      · iexists fq; rw [← pts_VQ]; iexact Hvq
      isplitl [Hvr]
      · iexists (VRc m c); iapply (vr_split c (VRc m c)).2; iexact Hvr
      iapply (vs_join c f0 f1)
      isplitl [Hvs0]; · iexact Hvs0
      iexact Hvs1
    · iexact Hsems
  · iexact HO

/-- info: 'Cert.KernelIdeal.Ar.prelude' depends on axioms: [propext, Classical.choice, Quot.sound] -/
#guard_msgs in #print axioms prelude
/-- info: 'Cert.KernelIdeal.Ar.finale' depends on axioms: [propext, Classical.choice, Quot.sound] -/
#guard_msgs in #print axioms finale
/-- info: 'Cert.KernelIdeal.Ar.bufs0_split' depends on axioms: [propext, Classical.choice, Quot.sound] -/
#guard_msgs in #print axioms bufs0_split
/-- info: 'Cert.KernelIdeal.Ar.payX_of' depends on axioms: [propext, Classical.choice, Quot.sound] -/
#guard_msgs in #print axioms payX_of
/-- info: 'Cert.KernelIdeal.Ar.payY_of' depends on axioms: [propext, Classical.choice, Quot.sound] -/
#guard_msgs in #print axioms payY_of
/-- info: 'Cert.KernelIdeal.Ar.payZ_of' depends on axioms: [propext, Classical.choice, Quot.sound] -/
#guard_msgs in #print axioms payZ_of

end Cert.KernelIdeal.Ar

end
-- ==== Proof.Landing.lean ====
/-
  What each copy of the kernel lands on its destination's elements, and what the body's store leaves in a
  slot of the sum buffer, as the global contents of the exchange pattern.

  Every view here is a unit-stride window of a whole buffer (for the sum buffer, with its leading unit axis
  dropped), so reading contents through it is reading them at the window's offsets plus the index; a copy's
  landing `dst.write fd (src.read fs) univ` agrees on `dst`'s elements with any contents `G` that `dst` reads as
  `src` reads `fs`. The row arithmetic is the closed form of the printed offsets; which device's sum a row of the
  result holds (`owner`) is decided over the mesh from the row's quarter and, in the diagonal quarter, from the
  parity of its chunk.
-/
import proofs.«900725_g7700000000000726_dist_ar_v7x_xyz2x4x4_x_m8192_n1024_f32_1_alg».proof.Proof.Views
import Idealize.ShloMosaic.Lib.Pipeline.Value

noncomputable section

namespace Cert.KernelIdeal.Ar

open Cert.KernelIdeal Cert.KernelIdeal.Gen Cert.KernelIdeal.Mesh
open Idealize.ShloMosaic Idealize.ShloMosaic.TcCoe Idealize.ShloMosaic.ValueIdx
open Idealize.SL Idealize.SL.Sem

variable {F : FTy → Type} [FloatOps F]

/-! ## Reading and writing through a window -/

/-- Writing `w` on every index of a view leaves, on the view's elements, any contents the view reads as `w`. -/
theorem write_univ_eq_of_read_eq {sg : RefSig} {κ : Kind} {sp : Space} {s : Shape} {e : EltTy} {Val : EltTy → Type}
    (dst : View sg κ sp s e) (fd G : dst.ty.Contents Val) (w : s.Idx → Val e)
    (h : ∀ x, dst.read Val G x = w x) :
    ∀ i ∈ dst.set, dst.write Val fd w Finset.univ i = G i := by
  intro i hi
  obtain ⟨y, rfl⟩ := dst.exists_emb_of_mem_set hi
  rw [View.write_emb_of_mem _ _ (Finset.mem_univ y), ← h y, View.read_apply, cast_cast, cast_eq]

/-- A unit-stride window of a view reads the view at the window's offsets plus the index. -/
theorem read_slice_unit_idx {sg : RefSig} {κ : Kind} {sp : Space} {s : Shape} {e : EltTy} {Val : EltTy → Type}
    (v : View sg κ sp s e) (off size : Fin s.rank → Nat) (inb : ∀ a, off a + size a ≤ s.size a)
    (f : v.ty.Contents Val) (x : (⟨s.rank, size⟩ : Shape).Idx) (i : s.Idx)
    (hi : ∀ a, (i a).val = off a + (x a).val) :
    (v.slice (Rect.unit off size inb)).read Val f x = v.read Val f i := by
  have h : (Rect.unit off size inb).emb x = i := funext fun a => Fin.ext (by
    rw [hi a, Rect.emb_apply]; simp)
  rw [← h]; rfl

/-! ## Rows -/

/-- Row `r` of chunk `j` of a quarter. -/
def crow (j : Fin 16) (r : Fin 128) : Fin 2048 :=
  ⟨128 * j.val + r.val, by have hj := j.isLt; have hr := r.isLt; omega⟩

/-- The launch contents of a device's block depend on the device and the index only. -/
theorem X_congr (m : (ℓ : Loc nD τ sig) → Buf (Elt F) ℓ) {c c' : Dev nD} (h : c = c') {i i' : S8192x1024.Idx}
    (hi : i = i') : X m c i = X m c' i' := by subst h; subst hi; rfl

theorem Ssum_congr (m : (ℓ : Loc nD τ sig) → Buf (Elt F) ℓ) {c c' : Dev nD} (h : c = c') (i : S8192x1024.Idx) :
    Ssum m c i = Ssum m c' i := by subst h; rfl

/-! ## Whose sum a row of the result holds -/

theorem owner_of_qme (c : Dev nD) (r : Nat) (h : r / 2048 = qme c) : owner c r = c := by
  unfold owner; rw [if_pos h]

theorem owner_yp_of_qme (c : Dev nD) (r : Nat) (h : r / 2048 = qme c) : owner (yp c) r = c := by
  have h1 : ¬ (qme c = qme (yp c)) := by clear h; revert c; decide
  have h2 : qme c = qyp (yp c) := by clear h; revert c; decide
  unfold owner; rw [h, if_neg h1, if_pos h2, yp_yp]

theorem owner_zp_of_qme (c : Dev nD) (r : Nat) (h : r / 2048 = qme c) : owner (zp c) r = c := by
  have h1 : ¬ (qme c = qme (zp c)) := by clear h; revert c; decide
  have h2 : ¬ (qme c = qyp (zp c)) := by clear h; revert c; decide
  have h3 : qme c = qzp (zp c) := by clear h; revert c; decide
  unfold owner; rw [h, if_neg h1, if_neg h2, if_pos h3, zp_zp]

theorem owner_of_qzp (c : Dev nD) (r : Nat) (h : r / 2048 = qzp c) : owner c r = zp c := by
  have h1 : ¬ (qzp c = qme c) := by clear h; revert c; decide
  have h2 : ¬ (qzp c = qyp c) := by clear h; revert c; decide
  unfold owner; rw [h, if_neg h1, if_neg h2, if_pos rfl]

theorem owner_yp_of_qzp_even (c : Dev nD) (r : Nat) (h : r / 2048 = qzp c) (he : (r % 2048 / 128) % 2 = 0) :
    owner (yp c) r = zp c := by
  have h1 : ¬ (qzp c = qme (yp c)) := by clear h; revert c; decide
  have h2 : ¬ (qzp c = qyp (yp c)) := by clear h; revert c; decide
  have h3 : ¬ (qzp c = qzp (yp c)) := by clear h; revert c; decide
  unfold owner; rw [h, if_neg h1, if_neg h2, if_neg h3, if_pos he, yp_yp]

theorem owner_of_qyp (c : Dev nD) (r : Nat) (h : r / 2048 = qyp c) : owner c r = yp c := by
  have h1 : ¬ (qyp c = qme c) := by clear h; revert c; decide
  unfold owner; rw [h, if_neg h1, if_pos rfl]

theorem owner_zp_of_qyp_odd (c : Dev nD) (r : Nat) (h : r / 2048 = qyp c) (ho : (r % 2048 / 128) % 2 = 1) :
    owner (zp c) r = yp c := by
  have h1 : ¬ (qyp c = qme (zp c)) := by clear h; revert c; decide
  have h2 : ¬ (qyp c = qyp (zp c)) := by clear h; revert c; decide
  have h3 : ¬ (qyp c = qzp (zp c)) := by clear h; revert c; decide
  have h4 : ¬ ((r % 2048 / 128) % 2 = 0) := by omega
  unfold owner; rw [h, if_neg h1, if_neg h2, if_neg h3, if_neg h4, zp_zp]

variable (m : (ℓ : Loc nD τ sig) → Buf (Elt F) ℓ)

/-! ## The local copy of the device's quarter -/

theorem land_cpq (c : Dev nD) (fd : Buf (Elt F) ((c : Thread nD τ).loc cc0_scratch0)) :
    ∀ i ∈ (VQ : Memref sig .tc .vmem S2048x1024 .f32).view.set,
      (VQ.view.write (Elt F) fd ((srcQ c).view.read (Elt F) (X m c)) Finset.univ) i = VQc m c i := by
  refine write_univ_eq_of_read_eq VQ.view fd (VQc m c) _ fun x => ?_
  refine (read_slice_unit_idx A0.view (k0_off1 c) S2048x1024.size (k0_off1_inb c) (X m c) x
    (ix2 (qrow (qme c) (qme_lt c) (x 0)) (x 1)) ?_).symm
  intro a; rw [off1_eq c]
  match a with
  | ⟨0, _⟩ => rfl
  | ⟨1, _⟩ => exact (Nat.zero_add _).symm

/-! ## The chunks sent to the x partner -/

theorem land_x (c : Dev nD) (j : Fin 16) (fd : Buf (Elt F) ((xp c : Thread nD τ).loc cc0_scratch1)) :
    ∀ i ∈ (vrM j).view.set,
      ((vrM j).view.write (Elt F) fd ((srcX c j).view.read (Elt F) (X m c)) Finset.univ) i = VRc m (xp c) i := by
  refine write_univ_eq_of_read_eq (vrM j).view fd (VRc m (xp c)) _ fun x => ?_
  have hL := read_slice_unit_idx VR.view ![128 * j.val, 0] S128x1024.size (inbR j) (VRc m (xp c)) x
    (ix2 (crow j (x 0)) (x 1)) (fun a => by
      match a with
      | ⟨0, _⟩ => rfl
      | ⟨1, _⟩ => exact (Nat.zero_add _).symm)
  have hR := read_slice_unit_idx A0.view (k0_off2 c (BitVec.ofNat 32 (128 * j.val))) S128x1024.size (k0_off2_inb c j)
    (X m c) x (ix2 (qrow (qme c) (qme_lt c) (crow j (x 0))) (x 1)) (fun a => by
      rw [off2_eq c j]
      match a with
      | ⟨0, _⟩ => exact (Nat.add_assoc _ _ _).symm
      | ⟨1, _⟩ => exact (Nat.zero_add _).symm)
  refine hL.trans (Eq.trans ?_ hR.symm)
  show X m (xp (xp c)) (ix2 (qrow (qme (xp c)) (qme_lt (xp c)) (crow j (x 0))) (x 1)) = _
  refine X_congr m (xp_xp c) ?_
  have hq : qrow (qme (xp c)) (qme_lt (xp c)) (crow j (x 0)) = qrow (qme c) (qme_lt c) (crow j (x 0)) :=
    Fin.ext (by show 2048 * qme (xp c) + _ = 2048 * qme c + _; rw [qme_xp])
  rw [hq]; rfl

/-! ## The sums written to the result, on the device and on its y and z partners -/

/-- The slot's rank-2 view reads the sum of chunk `j`. -/
theorem read_vsM (c : Dev nD) (j : Fin 16) (s : Fin 2) (x : S128x1024.Idx) :
    (vsM s).view.read (Elt F) (VSc m c j) x = Ssum m c (ix2 (qrow (qme c) (qme_lt c) (crow j (x 0))) (x 1)) := by
  show ((VS.slice (Rect.unit (s := S2x128x1024) ![s.val, 0, 0] S1x128x1024.size (inbS s)) (fun _ => rfl)).squeeze
    S128x1024 squeezes_S1x128x1024_S128x1024).view.read (Elt F) (VSc m c j) x = _
  rw [Memref.read_squeeze_slice _ _ _ _ shapeCasts_S1x128x1024_S128x1024, shapeCast_dropUnit_apply]
  refine (read_slice_unit_idx VS.view ![s.val, 0, 0] S1x128x1024.size (inbS s) (VSc m c j) _
    (ix3 s (x 0) (x 1)) ?_).trans rfl
  refine Fin.forall_fin_succ.mpr ⟨?_, Fin.forall_fin_succ.mpr ⟨?_, Fin.forall_fin_succ.mpr ⟨?_, fun a => a.elim0⟩⟩⟩
  · exact (Nat.add_zero _).symm
  · exact (Nat.zero_add _).symm
  · exact (Nat.zero_add _).symm

/-- Rows `(qme c, j)` of the result of a device that holds `c`'s sum there. -/
theorem read_outM (c d : Dev nD) (j : Fin 16) (x : S128x1024.Idx)
    (hown : ∀ r, r / 2048 = qme c → owner d r = c) :
    (outM c j).view.read (Elt F) (OUTc m d) x = Ssum m c (ix2 (qrow (qme c) (qme_lt c) (crow j (x 0))) (x 1)) := by
  refine (read_slice_unit_idx A1.view (k0_off2 c (BitVec.ofNat 32 (128 * j.val))) S128x1024.size (k0_off2_inb c j)
    (OUTc m d) x (ix2 (qrow (qme c) (qme_lt c) (crow j (x 0))) (x 1)) (fun a => by
      rw [off2_eq c j]
      match a with
      | ⟨0, _⟩ => exact (Nat.add_assoc _ _ _).symm
      | ⟨1, _⟩ => exact (Nat.zero_add _).symm)).trans ?_
  show Ssum m (owner d (2048 * qme c + (128 * j.val + (x 0).val))) _ = _
  refine Ssum_congr m (hown _ ?_) _
  have hj := j.isLt; have hx : (x 0).val < 128 := (x 0).isLt
  omega

theorem land_o (c : Dev nD) (j : Fin 16) (s : Fin 2) (fd : Buf (Elt F) ((c : Thread nD τ).loc main_v1)) :
    ∀ i ∈ (outM c j).view.set,
      ((outM c j).view.write (Elt F) fd ((vsM s).view.read (Elt F) (VSc m c j)) Finset.univ) i = OUTc m c i := by
  refine write_univ_eq_of_read_eq (outM c j).view fd (OUTc m c) _ fun x => ?_
  rw [read_vsM m c j s x]; exact read_outM m c c j x (owner_of_qme c)

theorem land_yd (c : Dev nD) (j : Fin 16) (s : Fin 2) (fd : Buf (Elt F) ((yp c : Thread nD τ).loc main_v1)) :
    ∀ i ∈ (outM c j).view.set,
      ((outM c j).view.write (Elt F) fd ((vsM s).view.read (Elt F) (VSc m c j)) Finset.univ) i = OUTc m (yp c) i := by
  refine write_univ_eq_of_read_eq (outM c j).view fd (OUTc m (yp c)) _ fun x => ?_
  rw [read_vsM m c j s x]; exact read_outM m c (yp c) j x (owner_yp_of_qme c)

theorem land_zd (c : Dev nD) (j : Fin 16) (s : Fin 2) (fd : Buf (Elt F) ((zp c : Thread nD τ).loc main_v1)) :
    ∀ i ∈ (outM c j).view.set,
      ((outM c j).view.write (Elt F) fd ((vsM s).view.read (Elt F) (VSc m c j)) Finset.univ) i = OUTc m (zp c) i := by
  refine write_univ_eq_of_read_eq (outM c j).view fd (OUTc m (zp c)) _ fun x => ?_
  rw [read_vsM m c j s x]; exact read_outM m c (zp c) j x (owner_zp_of_qme c)

/-! ## The forwarded chunks of the diagonal quarter -/

/-- Row `r` of even chunk `2 e`, and of odd chunk `2 e + 1`, of a quarter. -/
def erow (e : Fin 8) (r : Fin 128) : Fin 2048 :=
  ⟨256 * e.val + r.val, by have he := e.isLt; have hr := r.isLt; omega⟩
def orow (e : Fin 8) (r : Fin 128) : Fin 2048 :=
  ⟨128 + 256 * e.val + r.val, by have he := e.isLt; have hr := r.isLt; omega⟩

/-- Even chunk `2 e` of quarter `qzp c` of the result of a device that holds the z partner's sum there. -/
theorem read_outE (c d : Dev nD) (e : Fin 8) (x : S128x1024.Idx)
    (hown : ∀ r, r / 2048 = qzp c → (r % 2048 / 128) % 2 = 0 → owner d r = zp c) :
    (outE c e).view.read (Elt F) (OUTc m d) x = Ssum m (zp c) (ix2 (qrow (qzp c) (qzp_lt c) (erow e (x 0))) (x 1)) := by
  refine (read_slice_unit_idx A1.view (k0_off3 c (BitVec.ofNat 32 (256 * e.val))) S128x1024.size (k0_off3_inb c e)
    (OUTc m d) x (ix2 (qrow (qzp c) (qzp_lt c) (erow e (x 0))) (x 1)) (fun a => by
      rw [off3_eq c e]
      match a with
      | ⟨0, _⟩ => exact (Nat.add_assoc _ _ _).symm
      | ⟨1, _⟩ => exact (Nat.zero_add _).symm)).trans ?_
  show Ssum m (owner d (2048 * qzp c + (256 * e.val + (x 0).val))) _ = _
  have he := e.isLt; have hx : (x 0).val < 128 := (x 0).isLt
  refine Ssum_congr m (hown _ ?_ ?_) _ <;> omega

/-- Odd chunk `2 e + 1` of quarter `qyp c` of the result of a device that holds the y partner's sum there. -/
theorem read_outO (c d : Dev nD) (e : Fin 8) (x : S128x1024.Idx)
    (hown : ∀ r, r / 2048 = qyp c → (r % 2048 / 128) % 2 = 1 → owner d r = yp c) :
    (outO c e).view.read (Elt F) (OUTc m d) x = Ssum m (yp c) (ix2 (qrow (qyp c) (qyp_lt c) (orow e (x 0))) (x 1)) := by
  refine (read_slice_unit_idx A1.view (k0_off4 c (BitVec.ofNat 32 (128 + 256 * e.val))) S128x1024.size (k0_off4_inb c e)
    (OUTc m d) x (ix2 (qrow (qyp c) (qyp_lt c) (orow e (x 0))) (x 1)) (fun a => by
      rw [off4_eq c e]
      match a with
      | ⟨0, _⟩ => show 2048 * qyp c + (128 + 256 * e.val + (x 0).val) = 2048 * qyp c + 128 + 256 * e.val + (x 0).val; omega
      | ⟨1, _⟩ => exact (Nat.zero_add _).symm)).trans ?_
  show Ssum m (owner d (2048 * qyp c + (128 + 256 * e.val + (x 0).val))) _ = _
  have he := e.isLt; have hx : (x 0).val < 128 := (x 0).isLt
  refine Ssum_congr m (hown _ ?_ ?_) _ <;> omega

theorem land_yr (c : Dev nD) (e : Fin 8) (fd : Buf (Elt F) ((yp c : Thread nD τ).loc main_v1)) :
    ∀ i ∈ (outE c e).view.set,
      ((outE c e).view.write (Elt F) fd ((outE c e).view.read (Elt F) (OUTc m c)) Finset.univ) i = OUTc m (yp c) i := by
  refine write_univ_eq_of_read_eq (outE c e).view fd (OUTc m (yp c)) _ fun x => ?_
  rw [read_outE m c c e x (fun r h _ => owner_of_qzp c r h), read_outE m c (yp c) e x (owner_yp_of_qzp_even c)]

theorem land_zr (c : Dev nD) (e : Fin 8) (fd : Buf (Elt F) ((zp c : Thread nD τ).loc main_v1)) :
    ∀ i ∈ (outO c e).view.set,
      ((outO c e).view.write (Elt F) fd ((outO c e).view.read (Elt F) (OUTc m c)) Finset.univ) i = OUTc m (zp c) i := by
  refine write_univ_eq_of_read_eq (outO c e).view fd (OUTc m (zp c)) _ fun x => ?_
  rw [read_outO m c c e x (fun r h _ => owner_of_qyp c r h), read_outO m c (zp c) e x (owner_zp_of_qyp_odd c)]

/-! ## The body's sum into a slot -/

/-- The slot's rank-3 window and its rank-2 view cover the same elements. -/
theorem access_vs_set (s : Fin 2) :
    (VS.access (Rect.unit (s := S2x128x1024) ![s.val, 0, 0] S1x128x1024.size (inbS s))).set = (vsM s).view.set := by
  show _ = ((VS.view.slice (Rect.unit (s := S2x128x1024) ![s.val, 0, 0] S1x128x1024.size (inbS s))).reshape S128x1024
    squeezes_S1x128x1024_S128x1024.numel_eq).set
  rw [View.set_reshape]

/-- The sum of chunk `j` of the device's quarter and of the x partner's, stored with a leading unit axis into
    slot `s`, leaves the slot holding the sum of chunk `j`. -/
theorem store_vs (c : Dev nD) (j : Fin 16) (s : Fin 2) (f : Buf (Elt F) ((c : Thread nD τ).loc cc0_scratch2)) :
    ∀ i ∈ (vsM s).view.set,
      ((VS.access (Rect.unit (s := S2x128x1024) ![s.val, 0, 0] S1x128x1024.size (inbS s))).write (Elt F) f
        (shapeCast S1x128x1024
          (addf (VQ.view.readAt (Elt F) (Rect.unit (s := S2048x1024) ![128 * j.val, 0] S128x1024.size (inbR j)).toLoadRect (VQc m c))
                (VR.view.readAt (Elt F) (Rect.unit (s := S2048x1024) ![128 * j.val, 0] S128x1024.size (inbR j)).toLoadRect (VRc m c)))
          shapeCasts_S128x1024_S1x128x1024) Finset.univ) i = VSc m c j i := by
  rw [← access_vs_set s]
  refine write_univ_eq_of_read_eq (VS.access (Rect.unit (s := S2x128x1024) ![s.val, 0, 0] S1x128x1024.size (inbS s)))
    f (VSc m c j) _ fun x => ?_
  rw [shapeCast_addUnit_apply]
  have h0 : (x 0).val = 0 := by have h : (x 0).val < 1 := (x 0).isLt; omega
  refine (read_slice_unit_idx VS.view ![s.val, 0, 0] S1x128x1024.size (inbS s) (VSc m c j) x
    (ix3 s (x 1) (x 2)) ?_).trans ?_
  · refine Fin.forall_fin_succ.mpr ⟨?_, Fin.forall_fin_succ.mpr ⟨?_, Fin.forall_fin_succ.mpr ⟨?_, fun a => a.elim0⟩⟩⟩
    · show s.val = s.val + (x 0).val; rw [h0]; rfl
    · exact (Nat.zero_add _).symm
    · exact (Nat.zero_add _).symm
  · have hidx : ∀ a : Fin 2, ((ix2 (crow j (x 1)) (x 2) : S2048x1024.Idx) a).val
        = (![128 * j.val, 0] : Fin 2 → Nat) a + ((fun a : Fin 2 => x a.succ) a).val := fun a => by
      match a with
      | ⟨0, _⟩ => rfl
      | ⟨1, _⟩ => exact (Nat.zero_add _).symm
    have hQ := read_slice_unit_idx VQ.view ![128 * j.val, 0] S128x1024.size (inbR j) (VQc m c)
      (fun a : Fin 2 => x a.succ) (ix2 (crow j (x 1)) (x 2)) hidx
    have hR := read_slice_unit_idx VR.view ![128 * j.val, 0] S128x1024.size (inbR j) (VRc m c)
      (fun a : Fin 2 => x a.succ) (ix2 (crow j (x 1)) (x 2)) hidx
    show FloatOps.addf (X m c _) (X m (xp c) _) = FloatOps.addf _ _
    exact congrArg₂ FloatOps.addf hQ.symm hR.symm

/-- info: 'Cert.KernelIdeal.Ar.land_zr' depends on axioms: [propext, Classical.choice, Quot.sound] -/
#guard_msgs in #print axioms land_zr
/-- info: 'Cert.KernelIdeal.Ar.store_vs' depends on axioms: [propext, Classical.choice, Quot.sound] -/
#guard_msgs in #print axioms store_vs

end Cert.KernelIdeal.Ar

end
-- ==== Proof.StepEntry.lean ====
/-
  The entry of the kernel body, one step at a time at a symbolic device `c` (and chunk `j`):
  * the local copy of the device's quarter of its input block into the staging buffer pays the one duty of the
    copy's own cell; its payload is the staging buffer holding the quarter and the lent share of the source;
  * a unit signalled to a partner's barrier semaphore pays one of the three duties of that partner's barrier round,
    handing the partner the buffers it will write on this device;
  * the wait for three units on the device's own barrier semaphore consumes that round whole and receives the
    three partners' payloads: the buffers this device will write on them;
  * the copy of chunk `j` of the quarter into the x partner's receive scratch pays the one duty of the device's
    send cell (the lent share of the source comes back) and the one duty of the x partner's receive cell (the chunk
    of the scratch holding the x partner's partner's, that is this device's, rows).
-/
import proofs.«900725_g7700000000000726_dist_ar_v7x_xyz2x4x4_x_m8192_n1024_f32_1_alg».proof.Proof.StepBase
import proofs.«900725_g7700000000000726_dist_ar_v7x_xyz2x4x4_x_m8192_n1024_f32_1_alg».proof.Proof.Landing

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem cpq_ne_bar : CK.cpq ≠ CK.bar := fun h => by cases h
theorem xs_ne_bar (j : Fin 16) : CK.xs j ≠ CK.bar := fun h => by cases h
theorem xr_ne_bar (j : Fin 16) : CK.xr j ≠ CK.bar := fun h => by cases h

/-! ## The local copy of the quarter -/

theorem step_cpq (c : Dev nD) (K : Dev nD × CK → ℕ) (f : Buf (Elt F) (VQ.view.loc (c : Thread nD τ)))
    {α : Type} (kk : PR F α) (Q : α → sProp 𝕄) :
    iprop(recs m K ∗ pts c (srcQ c) shQ (X m c) ∗ pts c VQ fullShare f ∗ tok0 c .cpq 0 0)
      ⊢ iprop((cred (tallyAt (cell c .cpq) () Nq) -∗ wp frame (wpE (defs₀ (F := F)) 𝒱₀ c none) Set.univ kk Q)
          -∗ wp frame (wpE (defs₀ (F := F)) 𝒱₀ c none) Set.univ (fCpq c kk) Q) := by
  have hd : (0 : Fin 3) ∈ (Rd m).duties (cell c .cpq) 0 := by
    rw [duties_one m c .cpq cpq_ne_bar 0 Nat.one_pos]; exact Finset.mem_singleton_self _
  have hpay : iprop(((VQ : Memref sig .tc .vmem S2048x1024 .f32).view.loc (c : Thread nD τ) ↦[VQ.view.set]{fullShare}
        (VQ.view.write (Elt F) f ((srcQ c).view.read (Elt F) (X m c)) Finset.univ))
        ∗ ((srcQ c).view.loc (c : Thread nD τ) ↦[(srcQ c).view.set]{shQ} X m c))
      ⊢ (Rd m).payload (cell c .cpq) 0 0 := by
    rw [payload_cell m c .cpq 0 0, pointsTo_congr (land_cpq m c f)]
    exact .rfl
  iintro ⟨#Hrec, Hs, Hd, T⟩ Hk
  ihave #I := (inv_at m K c .cpq) $$ Hrec
  ihave #R := (reached_at m K c .cpq) $$ Hrec
  iapply (Rounds.wp_copy_pointsTo 𝒱₀ ER (Rd m) (c : Thread nD τ) none (src := srcQ c) (dst := VQ) (sem := .dma cpqS)
    (q := shQ) (fs := X m c) (fd := f) (r := 0) (d := 0) hd () Nq rfl (amount_cell m c .cpq 0 0) hpay) $$ [Hs Hd T] [Hk]
  · isplitr; · iexact I
    isplitl [Hs]; · iexact Hs
    isplitl [Hd]; · iexact Hd
    isplitl [T]; · iexact T
    iexact R
  · iexact Hk

/-! ## A unit to a partner's barrier semaphore -/

theorem step_sig (c : Dev nD) (K : Dev nD × CK → ℕ) (p n : Dev nD) (hn : n = p) (d : Fin 3) (O : Tal)
    {α : Type} (kk : PR F α) (Q : α → sProp 𝕄) :
    iprop(recs m K ∗ ow c (tBar p + O) ∗ tok0 p .bar 0 d ∗ pay m p .bar 0 d)
      ⊢ iprop((ow c O -∗ wp frame (wpE (defs₀ (F := F)) 𝒱₀ c none) Set.univ kk Q)
          -∗ wp frame (wpE (defs₀ (F := F)) 𝒱₀ c none) Set.univ (fSig n kk) Q) := by
  subst hn
  have hd : d ∈ (Rd m).duties (cell n .bar) 0 := by rw [duties_bar m n]; exact Finset.mem_univ d
  rw [← show (Rd m).payload ((n : Thread nD τ), SemLoc.reg barS) 0 d = pay m n .bar 0 d from payload_cell m n .bar 0 d]
  unfold ow
  iintro ⟨#Hrec, HO, T, P⟩ Hk
  icases HO with ⟨%W, HO⟩
  ihave #I := (inv_at m K n .bar) $$ Hrec
  ihave #R := (reached_at m K n .bar) $$ Hrec
  iapply (Rounds.wp_signal 𝒱₀ ER (Rd m) (c : Thread nD τ) none (dst := (n : Thread nD τ)) (sem := barS) (r := 0) (d := d) (k' := 1)
    hd (amount_cell m n .bar 0 d) () O (add_comm _ _) (W := W)) $$ [HO T P] [Hk]
  · isplitr; · iexact I
    isplitl [HO]; · iexact HO
    isplitl [T]; · iexact T
    isplitl [P]; · iexact P
    iexact R
  · iintro HO
    iapply Hk
    iexists W
    iexact HO

/-! ## The wait for the three partners' units -/

theorem step_barwait (c : Dev nD) (K : Dev nD × CK → ℕ) (O : Tal) (hO : Above 1 O)
    {α : Type} (kk : PR F α) (Q : α → sProp 𝕄) :
    iprop(recs m K ∗ levAts L lv ∗ cred (tallyAt (cell c .bar) () 3) ∗ ow c O ∗ pos0 c .bar)
      ⊢ iprop(((ow c O ∗ atPos ER (cell c .bar) 1 ∅ 0 ∗ payBarX (F := F) c ∗ payBarY (F := F) c ∗ payBarZ (F := F) c)
            -∗ wp frame (wpE (defs₀ (F := F)) 𝒱₀ c none) Set.univ kk Q)
          -∗ wp frame (wpE (defs₀ (F := F)) 𝒱₀ c none) Set.univ (fBarWait kk) Q) := by
  unfold ow
  iintro ⟨#Hrec, Hlev, Hc, HO, Hat⟩ Hk
  icases HO with ⟨%W, HO⟩
  ihave #I := (inv_at m K c .bar) $$ Hrec
  ihave Hmw := (mayWait_above (F := F) c .bar 1 (Nat.le_refl 1) O hO) $$ Hlev
  iapply (Rounds.wp_wait_rest_token 𝒱₀ ER (Rd m) (c : Thread nD τ) none (sm := .reg barS) (k' := 3) (κ := K (c, .bar))
    (fun Kc => wpE_semWait_eq 𝒱₀ (c : Thread nD τ) none Set.univ Kc) (Set.mem_univ _) () (O := O) (W := W) (R := 0) (m := 0) (T := ∅)
    ((Nat.zero_add 3).trans (expect_bar m c).symm)) $$ [Hc HO Hmw Hat] [Hk]
  · isplitr; · iexact I
    isplitl [Hc]; · iexact Hc
    isplitl [HO]; · iexact HO
    isplitl [Hmw]; · iexact Hmw
    iexact Hat
  · rw [show bigSep ((Rd m).duties ((c : Thread nD τ), SemLoc.reg barS) 0 \ ∅) (fun d => (Rd m).payload ((c : Thread nD τ), SemLoc.reg barS) 0 d)
        = iprop(payBarX (F := F) c ∗ payBarY (F := F) c ∗ payBarZ (F := F) c) from rest_bar m c]
    iintro ⟨HO, Hat, -, HX, HY, HZ⟩
    iapply Hk
    isplitl [HO]; · iexists _; iexact HO
    isplitl [Hat]; · iexact Hat
    isplitl [HX]; · iexact HX
    isplitl [HY]; · iexact HY
    iexact HZ

/-! ## Chunk `j` of the quarter to the x partner -/

theorem step_x (c : Dev nD) (K : Dev nD × CK → ℕ) (j : Fin 16) (n : Dev nD) (hn : n = xp c)
    (fd : Buf (Elt F) ((vrM j).view.loc (xp c : Thread nD τ))) (O : Tal)
    {α : Type} (kk : PR F α) (Q : α → sProp 𝕄) :
    iprop(recs m K ∗ pts c (srcX c j) shX (X m c) ∗ pts (xp c) (vrM j) fullShare fd ∗ ow c (tX c j + O)
        ∗ tok0 c (.xs j) 0 0 ∗ tok0 (xp c) (.xr j) 0 0)
      ⊢ iprop(((cred (tallyAt (cell c (.xs j)) () Nv) ∗ ow c O) -∗ wp frame (wpE (defs₀ (F := F)) 𝒱₀ c none) Set.univ kk Q)
          -∗ wp frame (wpE (defs₀ (F := F)) 𝒱₀ c none) Set.univ (fX c j n kk) Q) := by
  subst hn
  have hd₁ : (0 : Fin 3) ∈ (Rd m).duties (cell c (.xs j)) 0 := by
    rw [duties_one m c (.xs j) (xs_ne_bar j) 0 Nat.one_pos]; exact Finset.mem_singleton_self _
  have hd₂ : (0 : Fin 3) ∈ (Rd m).duties (cell (xp c) (.xr j)) 0 := by
    rw [duties_one m (xp c) (.xr j) (xr_ne_bar j) 0 Nat.one_pos]; exact Finset.mem_singleton_self _
  have hpay₁ : ((srcX c j).view.loc (c : Thread nD τ) ↦[(srcX c j).view.set]{shX} X m c) ⊢ (Rd m).payload (cell c (.xs j)) 0 0 :=
    Entails.of_eq (payload_cell m c (.xs j) 0 0).symm
  have hpay₂ : ((vrM j).view.loc (Dev.tc (xp c) : Thread nD τ) ↦[(vrM j).view.set]{fullShare}
        ((vrM j).view.write (Elt F) fd ((srcX c j).view.read (Elt F) (X m c)) Finset.univ))
      ⊢ (Rd m).payload (cell (xp c) (.xr j)) 0 0 := by
    rw [payload_cell m (xp c) (.xr j) 0 0, pointsTo_congr (land_x m c j fd)]
    exact .rfl
  unfold ow
  iintro ⟨#Hrec, Hs, Hd, HO, T1, T2⟩ Hk
  icases HO with ⟨%W, HO⟩
  ihave #I1 := (inv_at m K c (.xs j)) $$ Hrec
  ihave #I2 := (inv_at m K (xp c) (.xr j)) $$ Hrec
  ihave #R1 := (reached_at m K c (.xs j)) $$ Hrec
  ihave #R2 := (reached_at m K (xp c) (.xr j)) $$ Hrec
  iapply (Rounds.wp_send_pointsTo 𝒱₀ ER (Rd m) (c : Thread nD τ) none (c' := Dev.tc (xp c)) (src := srcX c j) (dst := vrM j)
    (q := shX) (fs := X m c) (fd := fd) (r₁ := 0) (r₂ := 0) (d₁ := 0) (d₂ := 0) hd₁ hd₂ () () Nv rfl
    (amount_cell m c (.xs j) 0 0) (amount_cell m (xp c) (.xr j) 0 0) O (add_comm _ _) (W := W) hpay₁ hpay₂) $$ [Hs Hd HO T1 T2] [Hk]
  · isplitr; · iexact I1
    isplitr; · iexact I2
    isplitl [Hs]; · iexact Hs
    isplitl [Hd]; · iexact Hd
    isplitl [HO]; · iexact HO
    isplitl [T1]; · iexact T1
    isplitr; · iexact R1
    isplitl [T2]; · iexact T2
    iexact R2
  · iintro ⟨C, HO⟩
    iapply Hk
    isplitl [C]; · iexact C
    iexists W
    iexact HO

/-- info: 'Cert.KernelIdeal.Ar.step_cpq' depends on axioms: [propext, Classical.choice, Quot.sound] -/
#guard_msgs in #print axioms step_cpq
/-- info: 'Cert.KernelIdeal.Ar.step_sig' depends on axioms: [propext, Classical.choice, Quot.sound] -/
#guard_msgs in #print axioms step_sig
/-- info: 'Cert.KernelIdeal.Ar.step_barwait' depends on axioms: [propext, Classical.choice, Quot.sound] -/
#guard_msgs in #print axioms step_barwait
/-- info: 'Cert.KernelIdeal.Ar.step_x' depends on axioms: [propext, Classical.choice, Quot.sound] -/
#guard_msgs in #print axioms step_x

end Cert.KernelIdeal.Ar

end
-- ==== Proof.StepWait.lean ====
/-
  The wait of a device on one of its own DMA cells, for the whole of the cell's current round (every such round has
  one duty, of the amount the wait asks for): the device presents the credit for the round and that everything it
  still owes sits at a level above the cell's, and comes back one round further, with the round's payload. And the
  closing of a cell at the kernel's end: past its last round a cell has no duty, so its owner takes the counter
  back at zero.
-/
import proofs.«900725_g7700000000000726_dist_ar_v7x_xyz2x4x4_x_m8192_n1024_f32_1_alg».proof.Proof.Frag
import proofs.«900725_g7700000000000726_dist_ar_v7x_xyz2x4x4_x_m8192_n1024_f32_1_alg».proof.Proof.Levels
import proofs.«900725_g7700000000000726_dist_ar_v7x_xyz2x4x4_x_m8192_n1024_f32_1_alg».proof.Proof.StepBase

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A wait for the rest (all) of round `r` of the device's own cell of kind `k`. -/
theorem step_wait (m : (ℓ : Loc nD τ sig) → Buf (Elt F) ℓ) (c : Dev nD) (K : Dev nD × CK → ℕ) (k : CK) (hk : k ≠ .bar)
    (s : DmaSem sig) (hs : k.loc = .dma s) (r : ℕ) (hr : r < nRd k) {sp sp' : Space} {s1 s2 : Shape}
    (src : Memref sig .tc sp' s2 .f32) (dst : Memref sig .tc sp s1 .f32) (h1 : src.view.WordExact) (h2 : dst.view.WordExact)
    (hamt : dst.view.dmaCredit = amt k) (n : ℕ) (hn : lvK k ≤ n) (O : Tal) (hO : Above n O)
    {α : Type} (kk : PR F α) (Q : α → sProp 𝕄) :
    iprop(recs m K ∗ levAts L lv ∗ cred (tallyAt (cell c k) () (amt k)) ∗ ow (F := F) c O ∗ atPos ER (cell c k) r ∅ 0)
      ⊢ iprop(((ow (F := F) c O ∗ atPos ER (cell c k) (r + 1) ∅ 0 ∗ reached ER (cell c k) (r + 1) ∗ pay m c k r 0)
            -∗ wp frame (wpE (defs₀ (F := F)) 𝒱₀ c none) Set.univ kk Q)
          -∗ wp frame (wpE (defs₀ (F := F)) 𝒱₀ c none) Set.univ (fWait s src dst h1 h2 kk) Q) := by
  have hw : ∀ Kq : PUnit → sProp 𝕄, wpE (defs₀ (F := F)) 𝒱₀ (c : Thread nD τ) none Set.univ (.waitDma2 s src dst h1 h2) Kq
      = waitSpec (c : Thread nD τ) Set.univ k.loc (amt k) Kq := fun Kq => by
    rw [hs, ← hamt]; exact wpE_waitDma2_eq 𝒱₀ (c : Thread nD τ) none Set.univ Kq
  unfold ow
  iintro ⟨#Hrec, #Hlev, Hcred, ⟨%W, HL⟩, Hat⟩ Hk
  ihave Hinv := (inv_at m K c k) $$ Hrec
  ihave Hmw := (mayWait_above (F := F) c k n hn O hO) $$ Hlev
  iapply (wp_wait_rest_token 𝒱₀ ER (Rd m) (c : Thread nD τ) none hw (Set.mem_univ (K (c, k))) ()
    (R := r) (T := ∅) (m := 0) (by rw [expect_one m c k hk r hr, Nat.zero_add])) $$ [Hcred HL Hat]
  · isplitr; · iexact Hinv
    isplitl [Hcred]; · iexact Hcred
    isplitl [HL]; · iexact HL
    isplitr; · iexact Hmw
    iexact Hat
  iintro ⟨HL, Hat, Hr, Hrest⟩
  ihave Hpay := (Entails.of_eq (rest_one m c k hk r hr)) $$ Hrest
  iapply Hk
  isplitl [HL]; · iexists _; iexact HL
  isplitl [Hat]; · iexact Hat
  isplitl [Hr]; · iexact Hr
  iexact Hpay

/-- Past its last round a cell of the device's own has no duty: the device closes it and holds its counter at zero. -/
theorem close_cell (m : (ℓ : Loc nD τ sig) → Buf (Elt F) ℓ) (c : Dev nD) (K : Dev nD × CK → ℕ) (k : CK) (hk : k ≠ .bar) :
    iprop(recs m K ∗ atPos ER (cell c k) (nRd k) ∅ 0) ⊢ iprop(|={Set.univ}=> semVal (cell c k) 0) := by
  iintro ⟨#Hrec, Hat⟩
  ihave Hinv := (inv_at m K c k) $$ Hrec
  iapply (cell_close ER (Rd m) (Set.mem_univ (K (c, k))) ?_ (R := nRd k) (fun r hr => duties_later m c k r hr))
  · exact fun h => h
  isplitr; · iexact Hinv
  iexact Hat

end Cert.KernelIdeal.Ar

end
-- ==== Proof.Tac.lean ====
/-
  A tactic that runs tactic text built at elaboration time: the body's unrolled loops repeat one block of steps
  per chunk, differing only in the chunk's number, which the hypothesis names carry.
-/
import Lean

open Lean Elab Tactic

namespace Cert.KernelIdeal.Ar

/-- Parse `s` as one tactic (a parenthesised sequence) and run it. -/
def runTacStr (s : String) : TacticM Unit := do
  match Parser.runParserCategory (← getEnv) `tactic s with
  | .ok stx => evalTactic stx
  | .error e => throwError "tactic text does not parse: {e}\n{s}"

/-- `tac_str "…"`: run the tactic text. -/
elab "tac_str " s:str : tactic => runTacStr s.getString

end Cert.KernelIdeal.Ar
-- ==== Proof.PhE.lean ====
/-
  The entry of the kernel body (phase E), the sixteen copies to the x partner (phase X) and the wait for the local
  copy of the quarter (phase Q), each as one theorem over the phase's whole chain of statements: from the named
  resources the phase consumes and a continuation that takes the resources it leaves. The proofs apply, statement
  by statement, the step lemma of the statement at its literal chunk; the repeated blocks are written once as
  tactic text over the chunk's number, and each theorem's statement (one assertion per chunk) is spelt from the
  chunk's number in the same way.
-/
import proofs.«900725_g7700000000000726_dist_ar_v7x_xyz2x4x4_x_m8192_n1024_f32_1_alg».proof.Proof.StepEntry
import proofs.«900725_g7700000000000726_dist_ar_v7x_xyz2x4x4_x_m8192_n1024_f32_1_alg».proof.Proof.StepWait
import proofs.«900725_g7700000000000726_dist_ar_v7x_xyz2x4x4_x_m8192_n1024_f32_1_alg».proof.Proof.Sets
import proofs.«900725_g7700000000000726_dist_ar_v7x_xyz2x4x4_x_m8192_n1024_f32_1_alg».proof.Proof.Tac

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Tactics
open Lean Elab Tactic Command

/-! ## The proofs' repeated blocks -/

/-- The local copy of the quarter, the three barrier signals, the barrier wait, and the three partners' payloads
    opened chunk by chunk. -/
def entryText : String :=
"(
  try unfold O₀
  iapply (step_cpq m c K _ _ _) $$ [HQ Hvq Tcpq]
  · isplitr; · iexact HR
    isplitl [HQ]; · iexact HQ
    isplitl [Hvq]; · iexact Hvq
    iexact Tcpq
  iintro Ccpq
  iapply (step_sig m c K (xp c) _ (dev1_eq c) 0 (tBar (yp c) + (tBar (zp c) + rem1 c 16)) _ _) $$ [HO Tbx HpX]
  · isplitr; · iexact HR
    isplitl [HO]; · iexact HO
    isplitl [Tbx]; · iexact Tbx
    iexact HpX
  iintro HO
  iapply (step_sig m c K (yp c) _ (dev2_eq c) 1 (tBar (zp c) + rem1 c 16) _ _) $$ [HO Tby HpY]
  · isplitr; · iexact HR
    isplitl [HO]; · iexact HO
    isplitl [Tby]; · iexact Tby
    iexact HpY
  iintro HO
  iapply (step_sig m c K (zp c) _ (dev3_eq c) 2 (rem1 c 16) _ _) $$ [HO Tbz HpZ]
  · isplitr; · iexact HR
    isplitl [HO]; · iexact HO
    isplitl [Tbz]; · iexact Tbz
    iexact HpZ
  iintro HO
  iapply (step_barwait m c K (rem1 c 16) (above_rem1 c 16) _ _) $$ [Cbar HO Pbar]
  · isplitr; · iexact HR
    isplitr; · iexact Hlev
    isplitl [Cbar]; · iexact Cbar
    isplitl [HO]; · iexact HO
    iexact Pbar
  iintro ⟨HO, Pbar, RX, RY, RZ⟩
  unfold payBarX payBarY payBarZ
  ihave RX := (Entails.of_eq (bigSep_fin16 _)) $$ RX
  icases RX with ⟨Rvr0, Rvr1, Rvr2, Rvr3, Rvr4, Rvr5, Rvr6, Rvr7, Rvr8, Rvr9, Rvr10, Rvr11, Rvr12, Rvr13, Rvr14, Rvr15⟩
  icases RY with ⟨RYa, RYb⟩
  ihave RYa := (Entails.of_eq (bigSep_fin16 _)) $$ RYa
  icases RYa with ⟨Roy0, Roy1, Roy2, Roy3, Roy4, Roy5, Roy6, Roy7, Roy8, Roy9, Roy10, Roy11, Roy12, Roy13, Roy14, Roy15⟩
  ihave RYb := (Entails.of_eq (bigSep_fin8 _)) $$ RYb
  icases RYb with ⟨RoyE0, RoyE1, RoyE2, RoyE3, RoyE4, RoyE5, RoyE6, RoyE7⟩
  icases RZ with ⟨RZa, RZb⟩
  ihave RZa := (Entails.of_eq (bigSep_fin16 _)) $$ RZa
  icases RZa with ⟨Roz0, Roz1, Roz2, Roz3, Roz4, Roz5, Roz6, Roz7, Roz8, Roz9, Roz10, Roz11, Roz12, Roz13, Roz14, Roz15⟩
  ihave RZb := (Entails.of_eq (bigSep_fin8 _)) $$ RZb
  icases RZb with ⟨RozO0, RozO1, RozO2, RozO3, RozO4, RozO5, RozO6, RozO7⟩)"

/-- The copy of chunk `j` to the x partner: what is owed is restated with this copy's unit in front, the chunk of
    the partner's scratch is taken at the contents it holds. -/
def xCopyText (j : Nat) : String :=
s!"(
  icases Rvr{j} with ⟨%fvr{j}, Rvr{j}⟩
  ihave HO := (Entails.of_eq (congrArg (ow (F := F) c) (show rem1 c {16 - j} = tX c {j} + rem1 c {15 - j} from rfl))) $$ HO
  iapply (step_x m c K {j} _ (dev{4 + j}_eq c) fvr{j} (rem1 c {15 - j}) _ _) $$ [Hsx{j} Rvr{j} HO Txs{j} Txr{j}]
  · isplitr; · iexact HR
    isplitl [Hsx{j}]; · iexact Hsx{j}
    isplitl [Rvr{j}]; · iexact Rvr{j}
    isplitl [HO]; · iexact HO
    isplitl [Txs{j}]; · iexact Txs{j}
    iexact Txr{j}
  iintro ⟨Cxs{j}, HO⟩)"

/-- After the last copy nothing of the first stretch is owed: what is owed is the second stretch, whole. -/
def xEndText : String :=
"(
  ihave HO := (Entails.of_eq (congrArg (ow (F := F) c) (show rem1 c 0 = rem2 c 16 from rfl))) $$ HO)"

/-- The wait for the local copy of the quarter: the staging buffer comes back holding the quarter, with the lent
    share of the source. -/
def waitQText : String :=
"(
  iapply (step_wait m c K .cpq (fun h => by cases h) cpqS rfl 0 Nat.one_pos (srcQ c) VQ _ _ rfl 2 (Nat.zero_le 2) (rem2 c 16) (above_rem2 c 16) _ _) $$ [Ccpq HO Pcpq]
  · isplitr; · iexact HR
    isplitr; · iexact Hlev
    isplitl [Ccpq]; · iexact Ccpq
    isplitl [HO]; · iexact HO
    iexact Pcpq
  iintro ⟨HO, Pcpq, -, Hpay⟩
  ihave Hpay := (Entails.of_eq (show pay m c .cpq 0 0 = iprop(pts c VQ fullShare (VQc m c) ∗ pts c (srcQ c) shQ (X m c)) from rfl)) $$ Hpay
  icases Hpay with ⟨Hvq, HQ⟩)"

/-- Phase E: the entry. -/
elab "ph_entry" : tactic => runTacStr entryText
/-- Phase X, one copy. -/
elab "ph_xcopy " j:num : tactic => runTacStr (xCopyText j.getNat)
/-- Phase X: the sixteen copies in order. -/
elab "ph_xcopies" : tactic => do
  for j in [0:16] do runTacStr (xCopyText j)
  runTacStr xEndText
/-- Phase Q: the wait for the quarter. -/
elab "ph_waitq" : tactic => runTacStr waitQText

/-! ## The statements, spelt from the chunk's number

A phase's resources are listed as pairs: the name the proof gives a hypothesis, and its assertion. -/

/-- One assertion per chunk `0 … n - 1`. -/
def perChunk (n : Nat) (f : Nat → String × String) : List (String × String) := (List.range n).map f

/-- What the entry consumes. -/
def preEList : List (String × String) :=
  [("HO", "ow c (O₀ c)"), ("HQ", "pts c (srcQ c) shQ (X m c)"), ("Hvq", "pts c VQ fullShare fq"), ("Tcpq", "tok0 c .cpq 0 0"),
   ("HpX", "pay m (xp c) .bar 0 0"), ("HpY", "pay m (yp c) .bar 0 1"), ("HpZ", "pay m (zp c) .bar 0 2"),
   ("Tbx", "tok0 (xp c) .bar 0 0"), ("Tby", "tok0 (yp c) .bar 0 1"), ("Tbz", "tok0 (zp c) .bar 0 2"),
   ("Cbar", "cred (tallyAt (cell c .bar) () 3)"), ("Pbar", "pos0 c .bar")]
/-- What it leaves: the three partners' payloads chunk by chunk. -/
def postEList : List (String × String) :=
  [("HO", "ow c (rem1 c 16)"), ("Ccpq", "cred (tallyAt (cell c .cpq) () Nq)"), ("Pbar", "atPos ER (cell c .bar) 1 ∅ 0")]
  ++ perChunk 16 (fun j => (s!"Rvr{j}", s!"ptsE (F := F) (xp c) (vrM {j})"))
  ++ perChunk 16 (fun j => (s!"Roy{j}", s!"ptsE (F := F) (yp c) (outM c {j})"))
  ++ perChunk 8 (fun e => (s!"RoyE{e}", s!"ptsE (F := F) (yp c) (outE c {e})"))
  ++ perChunk 16 (fun j => (s!"Roz{j}", s!"ptsE (F := F) (zp c) (outM c {j})"))
  ++ perChunk 8 (fun e => (s!"RozO{e}", s!"ptsE (F := F) (zp c) (outO c {e})"))
/-- The entry's statements. -/
def chainEStr : String :=
  "fCpq c (fSig ⟨k0_dev1 c, k0_dev1_lt c⟩ (fSig ⟨k0_dev2 c, k0_dev2_lt c⟩ (fSig ⟨k0_dev3 c, k0_dev3_lt c⟩ (fBarWait kk))))"

/-- What the sixteen copies consume, kind by kind. -/
def preXList : List (String × String) :=
  [("HO", "ow c (rem1 c 16)")]
  ++ perChunk 16 (fun j => (s!"Hsx{j}", s!"pts c (srcX c {j}) shX (X m c)"))
  ++ perChunk 16 (fun j => (s!"Rvr{j}", s!"ptsE (F := F) (xp c) (vrM {j})"))
  ++ perChunk 16 (fun j => (s!"Txs{j}", s!"tok0 c (.xs {j}) 0 0"))
  ++ perChunk 16 (fun j => (s!"Txr{j}", s!"tok0 (xp c) (.xr {j}) 0 0"))
/-- What they leave: the credit of each copy's send cell. -/
def postXList : List (String × String) :=
  [("HO", "ow c (rem2 c 16)")]
  ++ perChunk 16 (fun j => (s!"Cxs{j}", s!"cred (tallyAt (cell c (.xs {j})) () Nv)"))
/-- The sixteen copies, in order, before the continuation. -/
def chainXStr : String :=
  (List.range 16).foldr (fun j acc => s!"fX c {j} ⟨k0_dev{4 + j} c, k0_dev{4 + j}_lt c⟩ ({acc})") "kk"

/-- What the wait for the quarter consumes and leaves. -/
def preQList : List (String × String) :=
  [("HO", "ow c (rem2 c 16)"), ("Ccpq", "cred (tallyAt (cell c .cpq) () Nq)"), ("Pcpq", "pos0 c .cpq")]
def postQList : List (String × String) :=
  [("HO", "ow c (rem2 c 16)"), ("Pcpq", "atPos ER (cell c .cpq) 1 ∅ 0"), ("Hvq", "pts c VQ fullShare (VQc m c)"),
   ("HQ", "pts c (srcQ c) shQ (X m c)")]

/-- Proving a `∗`-chain of named hypotheses, in order: one line each. -/
def closeRunE : List String → String
  | [] => "  iempintro"
  | [n] => s!"  iexact {n}"
  | n :: ns => s!"  isplitl [{n}]; · iexact {n}\n" ++ closeRunE ns

/-- A phase's theorem: from the persistent facts, what the phase consumes and a continuation taking what it leaves,
    the phase's statements followed by the continuation run. The proof names the hypotheses, runs the phase's
    tactic and hands the continuation what is left. -/
def phaseTextE (name extra : String) (pre post : List (String × String)) (chain tac : String) : String :=
  let sep := fun (l : List (String × String)) => "\n        ∗ ".intercalate (l.map (·.2))
  s!"theorem {name} (c : Dev nD) (K : Dev nD × CK → ℕ){extra} (kk : PR F PUnit) (Q : PUnit → sProp 𝕄) :
    iprop(recs m K ∗ levAts L lv
        ∗ {sep pre}
        ∗ (({sep post})
            -∗ wp frame (wpE (defs₀ (F := F)) 𝒱₀ c none) Set.univ kk Q))
      ⊢ wp frame (wpE (defs₀ (F := F)) 𝒱₀ c none) Set.univ
          ({chain}) Q := by
  iintro ⟨#HR, #Hlev, {", ".intercalate (pre.map (·.1))}, Hk⟩
  {tac}
  iapply Hk
{closeRunE (post.map (·.1))}"

/-- Parse one command and elaborate it. -/
def cmdOfTextE (s : String) : CommandElabM Unit := do
  match Parser.runParserCategory (← getEnv) `command s with
  | .ok stx => elabCommand stx
  | .error e => throwError "command text does not parse: {e}\n{s}"

/-- The three phases' theorems. -/
elab "gen_phase_E" : command =>
  cmdOfTextE (phaseTextE "phase_E" " (fq : Buf (Elt F) (VQ.view.loc (c : Thread nD τ)))" preEList postEList chainEStr "ph_entry")
elab "gen_phase_X" : command =>
  cmdOfTextE (phaseTextE "phase_X" "" preXList postXList chainXStr "ph_xcopies")
elab "gen_phase_Q" : command =>
  cmdOfTextE (phaseTextE "phase_Q" "" preQList postQList "fWaitQ c kk" "ph_waitq")

end Tactics

gen_phase_E
gen_phase_X
gen_phase_Q

/-- info: 'Cert.KernelIdeal.Ar.phase_E' depends on axioms: [propext, Classical.choice, Quot.sound] -/
#guard_msgs in #print axioms phase_E
/-- info: 'Cert.KernelIdeal.Ar.phase_X' depends on axioms: [propext, Classical.choice, Quot.sound] -/
#guard_msgs in #print axioms phase_X
/-- info: 'Cert.KernelIdeal.Ar.phase_Q' depends on axioms: [propext, Classical.choice, Quot.sound] -/
#guard_msgs in #print axioms phase_Q

end Cert.KernelIdeal.Ar

end
-- ==== Proof.StepSpread.lean ====
/-
  One iteration of the reduce-and-spread loop, the three copies of a summed slot: the local copy of slot
  `slotOf j` to the device's own result rows of chunk `j`, and the copies of the same slot to the same rows on
  the y partner and on the z partner. Each copy reads the slot at its own share of it and pays one duty per
  cell it credits: the local copy the duty of round `j / 2` of the slot's local cell, whose payload is the rows
  filled and the share back; a remote copy the one duty of its send cell (the share back) and the one duty of the
  partner's receive cell (the rows, on the partner, holding this device's sums).
-/
import proofs.«900725_g7700000000000726_dist_ar_v7x_xyz2x4x4_x_m8192_n1024_f32_1_alg».proof.Proof.Landing
import proofs.«900725_g7700000000000726_dist_ar_v7x_xyz2x4x4_x_m8192_n1024_f32_1_alg».proof.Proof.StepBase

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A cell that is not the barrier's has the one duty `0` in each of its rounds. -/
theorem mem_duties_one (m : (ℓ : Loc nD τ sig) → Buf (Elt F) ℓ) (o : Dev nD) (k : CK) (hk : k ≠ .bar) (r : ℕ) (hr : r < nRd k) :
    (0 : Fin 3) ∈ (Rd m).duties (cell o k) r := by
  rw [duties_one m o k hk r hr]; exact Finset.mem_singleton_self _

/-- The payload of round `j / 2` of the slot's local cell, at chunk `j`. -/
theorem pay_cpo (m : (ℓ : Loc nD τ sig) → Buf (Elt F) ℓ) (c : Dev nD) (j : Fin 16) :
    pay m c (.cpo (slotOf j)) (j.val / 2) 0
      = iprop(pts c (outM c j) fullShare (OUTc m c) ∗ pts c (vsM (slotOf j)) shO (VSc m c j)) := by
  show iprop(pts c (outM c (chunkOf (slotOf j) (j.val / 2))) fullShare (OUTc m c)
    ∗ pts c (vsM (slotOf j)) shO (VSc m c (chunkOf (slotOf j) (j.val / 2)))) = _
  rw [chunkOf_slotOf j]

/-- The payload of the y partner's receive cell of chunk `j`: on the y partner, this device's rows of the result. -/
theorem pay_ydr (m : (ℓ : Loc nD τ sig) → Buf (Elt F) ℓ) (c : Dev nD) (j : Fin 16) :
    pay m (yp c) (.ydr j) 0 0 = pts (yp c) (outM c j) fullShare (OUTc m (yp c)) := by
  show pts (yp c) (outM (yp (yp c)) j) fullShare (OUTc m (yp c)) = _
  rw [yp_yp c]

/-- The payload of the z partner's receive cell of chunk `j`. -/
theorem pay_zdr (m : (ℓ : Loc nD τ sig) → Buf (Elt F) ℓ) (c : Dev nD) (j : Fin 16) :
    pay m (zp c) (.zdr j) 0 0 = pts (zp c) (outM c j) fullShare (OUTc m (zp c)) := by
  show pts (zp c) (outM (zp (zp c)) j) fullShare (OUTc m (zp c)) = _
  rw [zp_zp c]

/-- The local copy of the slot of chunk `j` to the device's own result rows. -/
theorem step_o (m : (ℓ : Loc nD τ sig) → Buf (Elt F) ℓ) (c : Dev nD) (K : Dev nD × CK → ℕ) (j : Fin 16)
    (fd : Buf (Elt F) ((outM c j).view.loc (c : Thread nD τ))) {α : Type} (kk : PR F α) (Q : α → sProp 𝕄) :
    iprop(recs m K ∗ reached ER (cell c (.cpo (slotOf j))) (j.val / 2) ∗ pts c (vsM (slotOf j)) shO (VSc m c j)
        ∗ pts c (outM c j) fullShare fd ∗ tok0 c (.cpo (slotOf j)) (j.val / 2) 0)
      ⊢ iprop((cred (tallyAt (cell c (.cpo (slotOf j))) () No) -∗ wp frame (wpE (defs₀ (F := F)) 𝒱₀ c none) Set.univ kk Q)
          -∗ wp frame (wpE (defs₀ (F := F)) 𝒱₀ c none) Set.univ (fO c j kk) Q) := by
  iintro ⟨#Hrec, Hr, Hs, Hd, Ht⟩ Hk
  iapply (Rounds.wp_copy_pointsTo (Γ := .empty) (defs := defs₀ (F := F)) 𝒱₀ ER (Rd m) (c : Thread nD τ) none
    (src := vsM (slotOf j)) (dst := outM c j) (sem := .dma (cpoS (slotOf j))) (q := shO) (fs := VSc m c j) (fd := fd)
    (r := j.val / 2) (d := 0) (κ := K (c, .cpo (slotOf j)))
    (mem_duties_one m c (.cpo (slotOf j)) (fun h => by cases h) (j.val / 2) (round_lt j))
    () No rfl (amount_cell m c (.cpo (slotOf j)) (j.val / 2) 0)
    (by
      show _ ⊢ (Rd m).payload (cell c (.cpo (slotOf j))) (j.val / 2) 0
      rw [payload_cell m c (.cpo (slotOf j)) (j.val / 2) 0, pay_cpo m c j, pointsTo_congr (land_o m c j (slotOf j) fd)])) $$ [Hr Hs Hd Ht]
  · isplitr; · iapply (inv_at m K c (.cpo (slotOf j))) $$ Hrec
    isplitl [Hs]; · iexact Hs
    isplitl [Hd]; · iexact Hd
    isplitl [Ht]; · iexact Ht
    iexact Hr
  iexact Hk

/-- The copy of the slot of chunk `j` to the same rows of the result on the y partner. -/
theorem step_yd (m : (ℓ : Loc nD τ sig) → Buf (Elt F) ℓ) (c : Dev nD) (K : Dev nD × CK → ℕ) (j : Fin 16)
    (n : Dev nD) (hn : n = yp c) (fd : Buf (Elt F) ((outM c j).view.loc (yp c : Thread nD τ))) (O : Tal)
    {α : Type} (kk : PR F α) (Q : α → sProp 𝕄) :
    iprop(recs m K ∗ pts c (vsM (slotOf j)) shY (VSc m c j) ∗ pts (yp c) (outM c j) fullShare fd ∗ ow c (tYD c j + O)
        ∗ tok0 c (.yds j) 0 0 ∗ tok0 (yp c) (.ydr j) 0 0)
      ⊢ iprop(((cred (tallyAt (cell c (.yds j)) () No) ∗ ow c O) -∗ wp frame (wpE (defs₀ (F := F)) 𝒱₀ c none) Set.univ kk Q)
          -∗ wp frame (wpE (defs₀ (F := F)) 𝒱₀ c none) Set.univ (fYD c j n kk) Q) := by
  subst hn
  unfold ow
  iintro ⟨#Hrec, Hs, Hd, ⟨%W, HO⟩, T1, T2⟩ Hk
  iapply (Rounds.wp_send_pointsTo (Γ := .empty) (defs := defs₀ (F := F)) 𝒱₀ ER (Rd m) (c : Thread nD τ) none
    (c' := Dev.tc (yp c)) (src := vsM (slotOf j)) (dst := outM c j) (sS := .dma (ydS j)) (sem := .dma (ydR j))
    (q := shY) (fs := VSc m c j) (fd := fd) (r₁ := 0) (r₂ := 0) (d₁ := 0) (d₂ := 0)
    (κ₁ := K (c, .yds j)) (κ₂ := K (yp c, .ydr j)) (W := W)
    (mem_duties_one m c (.yds j) (fun h => by cases h) 0 Nat.one_pos)
    (mem_duties_one m (yp c) (.ydr j) (fun h => by cases h) 0 Nat.one_pos)
    () () No rfl (amount_cell m c (.yds j) 0 0) (amount_cell m (yp c) (.ydr j) 0 0) O (add_comm _ _)
    (Entails.of_eq (payload_cell m c (.yds j) 0 0).symm)
    (by
      show _ ⊢ (Rd m).payload (cell (yp c) (.ydr j)) 0 0
      rw [payload_cell m (yp c) (.ydr j) 0 0, pay_ydr m c j, pointsTo_congr (land_yd m c j (slotOf j) fd)])) $$ [Hs Hd HO T1 T2]
  · isplitr; · iapply (inv_at m K c (.yds j)) $$ Hrec
    isplitr; · iapply (inv_at m K (yp c) (.ydr j)) $$ Hrec
    isplitl [Hs]; · iexact Hs
    isplitl [Hd]; · iexact Hd
    isplitl [HO]; · iexact HO
    isplitl [T1]; · iexact T1
    isplitr; · iapply (reached_at m K c (.yds j)) $$ Hrec
    isplitl [T2]; · iexact T2
    iapply (reached_at m K (yp c) (.ydr j)) $$ Hrec
  iintro ⟨Hc, HO⟩
  iapply Hk
  isplitl [Hc]; · iexact Hc
  iexists W; iexact HO

/-- The copy of the slot of chunk `j` to the same rows of the result on the z partner. -/
theorem step_zd (m : (ℓ : Loc nD τ sig) → Buf (Elt F) ℓ) (c : Dev nD) (K : Dev nD × CK → ℕ) (j : Fin 16)
    (n : Dev nD) (hn : n = zp c) (fd : Buf (Elt F) ((outM c j).view.loc (zp c : Thread nD τ))) (O : Tal)
    {α : Type} (kk : PR F α) (Q : α → sProp 𝕄) :
    iprop(recs m K ∗ pts c (vsM (slotOf j)) shZ (VSc m c j) ∗ pts (zp c) (outM c j) fullShare fd ∗ ow c (tZD c j + O)
        ∗ tok0 c (.zds j) 0 0 ∗ tok0 (zp c) (.zdr j) 0 0)
      ⊢ iprop(((cred (tallyAt (cell c (.zds j)) () No) ∗ ow c O) -∗ wp frame (wpE (defs₀ (F := F)) 𝒱₀ c none) Set.univ kk Q)
          -∗ wp frame (wpE (defs₀ (F := F)) 𝒱₀ c none) Set.univ (fZD c j n kk) Q) := by
  subst hn
  unfold ow
  iintro ⟨#Hrec, Hs, Hd, ⟨%W, HO⟩, T1, T2⟩ Hk
  iapply (Rounds.wp_send_pointsTo (Γ := .empty) (defs := defs₀ (F := F)) 𝒱₀ ER (Rd m) (c : Thread nD τ) none
    (c' := Dev.tc (zp c)) (src := vsM (slotOf j)) (dst := outM c j) (sS := .dma (zdS j)) (sem := .dma (zdR j))
    (q := shZ) (fs := VSc m c j) (fd := fd) (r₁ := 0) (r₂ := 0) (d₁ := 0) (d₂ := 0)
    (κ₁ := K (c, .zds j)) (κ₂ := K (zp c, .zdr j)) (W := W)
    (mem_duties_one m c (.zds j) (fun h => by cases h) 0 Nat.one_pos)
    (mem_duties_one m (zp c) (.zdr j) (fun h => by cases h) 0 Nat.one_pos)
    () () No rfl (amount_cell m c (.zds j) 0 0) (amount_cell m (zp c) (.zdr j) 0 0) O (add_comm _ _)
    (Entails.of_eq (payload_cell m c (.zds j) 0 0).symm)
    (by
      show _ ⊢ (Rd m).payload (cell (zp c) (.zdr j)) 0 0
      rw [payload_cell m (zp c) (.zdr j) 0 0, pay_zdr m c j, pointsTo_congr (land_zd m c j (slotOf j) fd)])) $$ [Hs Hd HO T1 T2]
  · isplitr; · iapply (inv_at m K c (.zds j)) $$ Hrec
    isplitr; · iapply (inv_at m K (zp c) (.zdr j)) $$ Hrec
    isplitl [Hs]; · iexact Hs
    isplitl [Hd]; · iexact Hd
    isplitl [HO]; · iexact HO
    isplitl [T1]; · iexact T1
    isplitr; · iapply (reached_at m K c (.zds j)) $$ Hrec
    isplitl [T2]; · iexact T2
    iapply (reached_at m K (zp c) (.zdr j)) $$ Hrec
  iintro ⟨Hc, HO⟩
  iapply Hk
  isplitl [Hc]; · iexact Hc
  iexists W; iexact HO

/-- info: 'Cert.KernelIdeal.Ar.step_o' depends on axioms: [propext, Classical.choice, Quot.sound] -/
#guard_msgs in #print axioms step_o
/-- info: 'Cert.KernelIdeal.Ar.step_yd' depends on axioms: [propext, Classical.choice, Quot.sound] -/
#guard_msgs in #print axioms step_yd
/-- info: 'Cert.KernelIdeal.Ar.step_zd' depends on axioms: [propext, Classical.choice, Quot.sound] -/
#guard_msgs in #print axioms step_zd

end Cert.KernelIdeal.Ar

end
-- ==== Proof.StepSum.lean ====
/-
  The sum step of the reduce-and-spread loop: the two loads read chunk `j` of the device's own quarter and of the
  x partner's, the load of the slot reads nothing that is used, and the store leaves in the slot the sum of
  chunk `j`. The staging buffer of the device's quarter is held whole, the receive scratch by chunk `j` only,
  the sum buffer by the slot only: each access goes through elements of what is held.
-/
import proofs.«900725_g7700000000000726_dist_ar_v7x_xyz2x4x4_x_m8192_n1024_f32_1_alg».proof.Proof.StepBase
import proofs.«900725_g7700000000000726_dist_ar_v7x_xyz2x4x4_x_m8192_n1024_f32_1_alg».proof.Proof.Landing

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A load through a window of a buffer reads elements of the window's view. -/
theorem setOn_slice_subset {sg : RefSig} {κ : Kind} {sp : Space} {s : Shape} {e : EltTy} (v : View sg κ sp s e) (r : Rect s) :
    v.setOn r.toLoadRect.set ⊆ (v.slice r).set := by
  rw [View.set_slice]; exact subset_rfl

theorem step_sum (m : (ℓ : Loc nD τ sig) → Buf (Elt F) ℓ) (c : Dev nD) (j : Fin 16)
    (f : Buf (Elt F) (VS.view.loc (c : Thread nD τ))) {α : Type} (kk : PR F α) (Q : α → sProp 𝕄) :
    iprop(pts c VQ fullShare (VQc m c) ∗ pts c (vrM j) fullShare (VRc m c) ∗ pts c (vsM (slotOf j)) fullShare f)
      ⊢ iprop((iprop(pts c VQ fullShare (VQc m c) ∗ pts c (vrM j) fullShare (VRc m c) ∗ pts c (vsM (slotOf j)) fullShare (VSc m c j))
            -∗ wp frame (wpE (defs₀ (F := F)) 𝒱₀ c none) Set.univ kk Q)
          -∗ wp frame (wpE (defs₀ (F := F)) 𝒱₀ c none) Set.univ (fSum j kk) Q) := by
  iintro ⟨HQ, HR, HS⟩ Hk
  iapply (wp_load 𝒱₀ (c : Thread nD τ) none Set.univ (m := VQ) (S := VQ.view.set) (q := fullShare) (f := VQc m c)
    (View.setOn_subset_set _ _)) $$ HQ
  iintro HQ
  iapply (wp_load 𝒱₀ (c : Thread nD τ) none Set.univ (m := VR) (S := (vrM j).view.set) (q := fullShare) (f := VRc m c)
    (setOn_slice_subset VR.view _)) $$ HR
  iintro HR
  iapply (wp_load 𝒱₀ (c : Thread nD τ) none Set.univ (m := VS) (S := (vsM (slotOf j)).view.set) (q := fullShare) (f := f)
    (by rw [← access_vs_set]; exact setOn_slice_subset VS.view _)) $$ HS
  iintro HS
  iapply (wp_store 𝒱₀ (c : Thread nD τ) none Set.univ (m := VS)
    (r := Rect.unit (s := S2x128x1024) ![(slotOf j).val, 0, 0] S1x128x1024.size (inbS (slotOf j)))
    (S := (vsM (slotOf j)).view.set) (f := f)
    (by rw [← access_vs_set, View.setOn_univ])) $$ HS
  iintro HS
  iapply Hk
  isplitl [HQ]
  · iexact HQ
  isplitl [HR]
  · iexact HR
  iapply (Entails.of_eq (pointsTo_congr (ℓ := (vsM (slotOf j)).view.loc (c : Thread nD τ)) (q := fullShare)
    (store_vs m c j (slotOf j) f))) $$ HS

/-- info: 'Cert.KernelIdeal.Ar.step_sum' depends on axioms: [propext, Classical.choice, Quot.sound] -/
#guard_msgs in #print axioms step_sum

end Cert.KernelIdeal.Ar

end
-- ==== Proof.PhS.lean ====
/-
  The reduce-and-spread loop, one iteration as a tactic over the chunk's number: the hypothesis names of the
  body's proof carry the chunk, the slot and the round, so each iteration is the same text at other numbers.
  Iteration `j` frees its slot of chunk `j - 2` (the waits on that chunk's two send cells and on the slot's local
  cell, each returning its share of the slot), waits for the x partner's chunk `j`, sums it with the device's own
  into the slot, splits the slot three ways and issues the local copy and the copies to the y and z partners.
-/
import proofs.«900725_g7700000000000726_dist_ar_v7x_xyz2x4x4_x_m8192_n1024_f32_1_alg».proof.Proof.StepSpread
import proofs.«900725_g7700000000000726_dist_ar_v7x_xyz2x4x4_x_m8192_n1024_f32_1_alg».proof.Proof.StepWait
import proofs.«900725_g7700000000000726_dist_ar_v7x_xyz2x4x4_x_m8192_n1024_f32_1_alg».proof.Proof.StepSum
import proofs.«900725_g7700000000000726_dist_ar_v7x_xyz2x4x4_x_m8192_n1024_f32_1_alg».proof.Proof.Sets
import proofs.«900725_g7700000000000726_dist_ar_v7x_xyz2x4x4_x_m8192_n1024_f32_1_alg».proof.Proof.Tac

namespace Cert.KernelIdeal.Ar

section Meta

open Lean Elab Tactic Command

/-- The wait on a one-round send cell (kind text `yds` / `zds`) of chunk `p`, owing `rem2 c k`: the share of the slot comes back. -/
def waitSendText (kd sem : String) (p k : Nat) (cr pos out : String) : String :=
  s!"iapply (step_wait m c K (.{kd} {p}) (fun h => by cases h) ({sem} {p}) rfl 0 Nat.one_pos (outM c {p}) (vsM (slotOf {p})) _ _ rfl 2 (by decide) (rem2 c {k}) (above_rem2 c {k}) _ _) $$ [{cr} HO {pos}]; " ++
  s!"isplitr; iexact HR; isplitr; iexact Hlev; isplitl [{cr}]; iexact {cr}; isplitl [HO]; iexact HO; iexact {pos}; " ++
  s!"iintro ⟨HO, {pos}, -, Hpay⟩; " ++
  s!"ihave {out} := (Entails.of_eq (pay_{kd} m c {p})) $$ Hpay"

/-- The three waits that free the slot of chunk `p` (owing `rem2 c k`) and the rejoining of the slot's three shares. -/
def freeSlotText (p k : Nat) : String :=
  let s := p % 2
  waitSendText "yds" "ydS" p k s!"Cyds{p}" s!"Pyds{p}" s!"Ys{p}" ++ "; " ++
  waitSendText "zds" "zdS" p k s!"Czds{p}" s!"Pzds{p}" s!"Zs{p}" ++ "; " ++
  s!"iapply (step_wait m c K (.cpo (slotOf {p})) (fun h => by cases h) (cpoS (slotOf {p})) rfl (({p} : Fin 16).val / 2) (round_lt {p}) (vsM (slotOf {p})) (outM c {p}) _ _ rfl 2 (by decide) (rem2 c {k}) (above_rem2 c {k}) _ _) $$ [Ccpo{p} HO Pcpo{s}]; " ++
  s!"isplitr; iexact HR; isplitr; iexact Hlev; isplitl [Ccpo{p}]; iexact Ccpo{p}; isplitl [HO]; iexact HO; iexact Pcpo{s}; " ++
  s!"iintro ⟨HO, Pcpo{s}, Rcpo{s}, Hpay⟩; " ++
  s!"icases (Entails.of_eq (pay_cpo m c {p})) $$ Hpay with ⟨Hom{p}, Os{p}⟩; " ++
  s!"ihave Hvs{s} := (share3 ((vsM (slotOf {p})).view.loc (c : Thread nD τ)) (vsM (slotOf {p})).view.set (VSc m c {p})).2 $$ [Os{p} Ys{p} Zs{p}]; " ++
  s!"isplitl [Os{p}]; iexact Os{p}; isplitl [Ys{p}]; iexact Ys{p}; iexact Zs{p}"

/-- The wait for the x partner's chunk, the sum into the slot, the slot split three ways, and the three copies. -/
def sumSpreadText (j : Nat) : String :=
  let s := j % 2
  let k := 16 - j
  s!"iapply (step_wait m c K (.xr {j}) (fun h => by cases h) (xR {j}) rfl 0 Nat.one_pos (srcX c {j}) (vrM {j}) _ _ rfl 2 (by decide) (rem2 c {k}) (above_rem2 c {k}) _ _) $$ [Cxr{j} HO Pxr{j}]; " ++
  s!"isplitr; iexact HR; isplitr; iexact Hlev; isplitl [Cxr{j}]; iexact Cxr{j}; isplitl [HO]; iexact HO; iexact Pxr{j}; " ++
  s!"iintro ⟨HO, Pxr{j}, -, Hpay⟩; " ++
  s!"ihave Hvr{j} := (Entails.of_eq (pay_xr m c {j})) $$ Hpay; " ++
  s!"iapply (step_sum m c {j} _ _ _) $$ [Hvq Hvr{j} Hvs{s}]; " ++
  s!"isplitl [Hvq]; iexact Hvq; isplitl [Hvr{j}]; iexact Hvr{j}; iexact Hvs{s}; " ++
  s!"iintro ⟨Hvq, Hvr{j}, Hvs{s}⟩; " ++
  s!"icases (share3 ((vsM (slotOf {j})).view.loc (c : Thread nD τ)) (vsM (slotOf {j})).view.set (VSc m c {j})).1 $$ Hvs{s} with ⟨Os{j}, Ys{j}, Zs{j}⟩; " ++
  s!"iapply (step_o m c K {j} _ _ _) $$ [Rcpo{s} Os{j} Hom{j} Tcpo{j}]; " ++
  s!"isplitr; iexact HR; isplitl [Rcpo{s}]; iexact Rcpo{s}; isplitl [Os{j}]; iexact Os{j}; isplitl [Hom{j}]; iexact Hom{j}; iexact Tcpo{j}; " ++
  s!"iintro Ccpo{j}; " ++
  s!"icases Roy{j} with ⟨%fdy, Roy{j}⟩; " ++
  s!"iapply (step_yd m c K {j} _ (dev{20 + 2 * j}_eq c) _ (tZD c {j} + rem2 c {k - 1}) _ _) $$ [Ys{j} Roy{j} HO Tyds{j} Tydr{j}]; " ++
  s!"isplitr; iexact HR; isplitl [Ys{j}]; iexact Ys{j}; isplitl [Roy{j}]; iexact Roy{j}; isplitl [HO]; iexact HO; isplitl [Tyds{j}]; iexact Tyds{j}; iexact Tydr{j}; " ++
  s!"iintro ⟨Cyds{j}, HO⟩; " ++
  s!"icases Roz{j} with ⟨%fdz, Roz{j}⟩; " ++
  s!"iapply (step_zd m c K {j} _ (dev{21 + 2 * j}_eq c) _ (rem2 c {k - 1}) _ _) $$ [Zs{j} Roz{j} HO Tzds{j} Tzdr{j}]; " ++
  s!"isplitr; iexact HR; isplitl [Zs{j}]; iexact Zs{j}; isplitl [Roz{j}]; iexact Roz{j}; isplitl [HO]; iexact HO; isplitl [Tzds{j}]; iexact Tzds{j}; iexact Tzdr{j}; " ++
  s!"iintro ⟨Czds{j}, HO⟩"

/-- `spread_it j`: iteration `j` of the reduce-and-spread loop. For `j < 2` the slot is fresh and the round-0 fact of
    its local cell is read off the shared record; from `j = 2` on the slot is first freed of chunk `j - 2`. -/
elab "spread_it " j:num : tactic => do
  let j := j.getNat
  let pre := if j < 2 then s!"ihave Rcpo{j % 2} := (reached_at m K c (.cpo {j % 2})) $$ HR" else freeSlotText (j - 2) (16 - j)
  runTacStr ("(" ++ pre ++ "; " ++ sumSpreadText j ++ ")")

/-- The names of chunk `j`'s share of what the loop takes, in the order of `preSj`. -/
def preNames (j : Nat) : String :=
  s!"⟨Cxr{j}, Pxr{j}, Pyds{j}, Pzds{j}, Hom{j}, Tcpo{j}, Roy{j}, Tyds{j}, Tydr{j}, Roz{j}, Tzds{j}, Tzdr{j}⟩"

/-- `intro_S`: name what the loop takes. -/
elab "intro_S" : tactic =>
  runTacStr ("iintro ⟨#HR, #Hlev, ⟨HO, Hvq, Hvs0, Hvs1, Pcpo0, Pcpo1, " ++ ", ".intercalate ((List.range 16).map preNames) ++ "⟩, Hk⟩")

/-- Hand the hypotheses `hs` over, one per conjunct of the goal, in order; `last`: the goal ends with them. -/
def giveText (hs : List String) (last : Bool) : String :=
  match hs with
  | [] => ""
  | [h] => if last then s!"iexact {h}" else s!"isplitl [{h}]; iexact {h}"
  | h :: t => s!"isplitl [{h}]; iexact {h}; " ++ giveText t last

/-- `close_S`: what the loop leaves, conjunct by conjunct, to the continuation. -/
elab "close_S" : tactic => do
  let grp (j : Nat) : List String := [s!"Pxr{j}", s!"Hvr{j}", s!"Pyds{j}", s!"Pzds{j}", s!"Hom{j}"]
  let pend (j : Nat) : List String := [s!"Pxr{j}", s!"Hvr{j}", s!"Pyds{j}", s!"Pzds{j}", s!"Cyds{j}", s!"Czds{j}", s!"Ccpo{j}"]
  let one (hs : List String) (last : Bool) : String :=
    if last then giveText hs true else "isplitl [" ++ " ".intercalate hs ++ "]; " ++ giveText hs true
  let mid := "; ".intercalate ((List.range 14).map fun j => one (grp j) false)
  runTacStr ("(iapply Hk; " ++ giveText ["HO", "Hvq", "Pcpo0", "Pcpo1"] false ++ "; " ++ mid ++ "; " ++ one (pend 14) false ++ "; " ++ one (pend 15) true ++ ")")

/-- Parse `s` as one command and run it. -/
def runCmdS (s : String) : CommandElabM Unit := do
  match Parser.runParserCategory (← getEnv) `command s with
  | .ok stx => elabCommand stx
  | .error e => throwError "command text does not parse: {e}\n{s}"

/-- The sixteen iterations, each before what follows it; the last before the continuation `k`. -/
def chainSStr : String :=
  (List.range 16).foldr (fun j acc =>
    let it := s!"fIt c {j} ⟨k0_dev{20 + 2 * j} c, k0_dev{20 + 2 * j}_lt c⟩ ⟨k0_dev{21 + 2 * j} c, k0_dev{21 + 2 * j}_lt c⟩"
    if j < 2 then s!"{it} <| {acc}" else s!"fFree c {j - 2} <| {it} <| {acc}") "k"

/-- `gen_defs_S`: the loop's program `chainS` and the two assertions `preS`, `postS`, one item per chunk. -/
elab "gen_defs_S" : command => do
  let items (f : Nat → String) (n : Nat) : String := " ∗ ".intercalate ((List.range n).map f)
  runCmdS ("/-- The sixteen iterations: the first two find their slots fresh, the others free theirs of the chunk two before. -/\n" ++
    s!"abbrev chainS (c : Dev nD) (k : PR F α) : PR F α := {chainSStr}")
  runCmdS ("/-- What the loop starts from: what the device still owes (the spread and forward copies), the staged quarter, the two slots at any contents, the two local cells at round 0, and each chunk's share. -/\n" ++
    "def preS (m : (ℓ : Loc nD τ sig) → Buf (Elt F) ℓ) (c : Dev nD) (f0 f1 : Buf (Elt F) ((c : Thread nD τ).loc cc0_scratch2)) (fo : Buf (Elt F) ((c : Thread nD τ).loc main_v1)) : sProp 𝕄 := " ++
    "iprop(ow c (rem2 c 16) ∗ pts c VQ fullShare (VQc m c) ∗ pts c (vsM 0) fullShare f0 ∗ pts c (vsM 1) fullShare f1 ∗ pos0 c (.cpo 0) ∗ pos0 c (.cpo 1) ∗ " ++
    items (fun j => s!"preSj c fo {j}") 16 ++ ")")
  runCmdS ("/-- What it ends with: only the forward copies owed, the local cells at round 7 (the last chunk of each slot in flight). -/\n" ++
    "def postS (m : (ℓ : Loc nD τ sig) → Buf (Elt F) ℓ) (c : Dev nD) : sProp 𝕄 := " ++
    "iprop(ow c (rem2 c 0) ∗ pts c VQ fullShare (VQc m c) ∗ atPos ER (cell c (.cpo 0)) 7 ∅ 0 ∗ atPos ER (cell c (.cpo 1)) 7 ∅ 0 ∗ " ++
    items (fun j => s!"postSj m c {j}") 14 ++ " ∗ pendSj m c 14 ∗ pendSj m c 15)")

end Meta

end Cert.KernelIdeal.Ar

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The payloads the iteration's waits return, spelt as points-tos -/

theorem pay_xr (m : (ℓ : Loc nD τ sig) → Buf (Elt F) ℓ) (c : Dev nD) (j : Fin 16) :
    pay m c (.xr j) 0 0 = pts c (vrM j) fullShare (VRc m c) := rfl
theorem pay_yds (m : (ℓ : Loc nD τ sig) → Buf (Elt F) ℓ) (c : Dev nD) (j : Fin 16) :
    pay m c (.yds j) 0 0 = pts c (vsM (slotOf j)) shY (VSc m c j) := rfl
theorem pay_zds (m : (ℓ : Loc nD τ sig) → Buf (Elt F) ℓ) (c : Dev nD) (j : Fin 16) :
    pay m c (.zds j) 0 0 = pts c (vsM (slotOf j)) shZ (VSc m c j) := rfl

/-! ## The loop's program -/

variable {α : Type}

/-- The waits that free the slot of chunk `p`. -/
abbrev fFree (c : Dev nD) (p : Fin 16) (k : PR F α) : PR F α := fWaitYdS c p (fWaitZdS c p (fWaitO c p k))
/-- Chunk `j` awaited, summed into its slot, and the slot copied to the device's own result and to the partners `ny`, `nz`. -/
abbrev fIt (c : Dev nD) (j : Fin 16) (ny nz : Dev nD) (k : PR F α) : PR F α :=
  fWaitXR c j (fSum j (fO c j (fYD c j ny (fZD c j nz k))))

/-! ## What the loop takes and what it leaves -/

/-- For chunk `j`: the credit and the position of the x partner's receive cell, the positions of the two send cells,
    the device's own result rows (at any contents `fo`), the same rows on the y and on the z partner, and the tokens
    of the five duties the iteration's three copies pay. -/
def preSj (c : Dev nD) (fo : Buf (Elt F) ((c : Thread nD τ).loc main_v1)) (j : Fin 16) : sProp 𝕄 :=
  iprop(cred (tallyAt (cell c (.xr j)) () Nv) ∗ pos0 c (.xr j) ∗ pos0 c (.yds j) ∗ pos0 c (.zds j)
    ∗ pts c (outM c j) fullShare fo ∗ tok0 c (.cpo (slotOf j)) (j.val / 2) 0
    ∗ ptsE (F := F) (yp c) (outM c j) ∗ tok0 c (.yds j) 0 0 ∗ tok0 (yp c) (.ydr j) 0 0
    ∗ ptsE (F := F) (zp c) (outM c j) ∗ tok0 c (.zds j) 0 0 ∗ tok0 (zp c) (.zdr j) 0 0)

/-- For a chunk whose copies were waited inside the loop: the three cells one round on, the x partner's chunk, and
    the device's own result rows final. -/
def postSj (m : (ℓ : Loc nD τ sig) → Buf (Elt F) ℓ) (c : Dev nD) (j : Fin 16) : sProp 𝕄 :=
  iprop(atPos ER (cell c (.xr j)) 1 ∅ 0 ∗ pts c (vrM j) fullShare (VRc m c)
    ∗ atPos ER (cell c (.yds j)) 1 ∅ 0 ∗ atPos ER (cell c (.zds j)) 1 ∅ 0 ∗ pts c (outM c j) fullShare (OUTc m c))

/-- For the last two chunks, whose copies are still in flight at the loop's end: the send cells not yet waited, and
    the credit for the three waits to come. -/
def pendSj (m : (ℓ : Loc nD τ sig) → Buf (Elt F) ℓ) (c : Dev nD) (j : Fin 16) : sProp 𝕄 :=
  iprop(atPos ER (cell c (.xr j)) 1 ∅ 0 ∗ pts c (vrM j) fullShare (VRc m c) ∗ pos0 c (.yds j) ∗ pos0 c (.zds j)
    ∗ cred (tallyAt (cell c (.yds j)) () No) ∗ cred (tallyAt (cell c (.zds j)) () No)
    ∗ cred (tallyAt (cell c (.cpo (slotOf j))) () No))

/-! ## The loop's program, what it takes and what it leaves, an item per chunk -/

gen_defs_S

/-- The reduce-and-spread loop: from `preS`, the sixteen iterations leave `postS`. -/
theorem phase_S (m : (ℓ : Loc nD τ sig) → Buf (Elt F) ℓ) (c : Dev nD) (K : Dev nD × CK → ℕ)
    (f0 f1 : Buf (Elt F) ((c : Thread nD τ).loc cc0_scratch2)) (fo : Buf (Elt F) ((c : Thread nD τ).loc main_v1))
    (kk : PR F PUnit) (Q : PUnit → sProp 𝕄) :
    iprop(recs m K ∗ levAts L lv ∗ preS m c f0 f1 fo
        ∗ (postS m c -∗ wp frame (wpE (defs₀ (F := F)) 𝒱₀ c none) Set.univ kk Q))
      ⊢ wp frame (wpE (defs₀ (F := F)) 𝒱₀ c none) Set.univ (chainS c kk) Q := by
  unfold preS postS preSj postSj pendSj
  intro_S
  spread_it 0
  spread_it 1
  spread_it 2
  spread_it 3
  spread_it 4
  spread_it 5
  spread_it 6
  spread_it 7
  spread_it 8
  spread_it 9
  spread_it 10
  spread_it 11
  spread_it 12
  spread_it 13
  spread_it 14
  spread_it 15
  close_S

/-- info: 'Cert.KernelIdeal.Ar.phase_S' depends on axioms: [propext, Classical.choice, Quot.sound] -/
#guard_msgs in #print axioms phase_S

end Cert.KernelIdeal.Ar

end
-- ==== Proof.StepFwd.lean ====
/-
  The forwarding copies of the last loop. A device holds, in its own result array, an even chunk of its z partner's
  quarter (an odd chunk of its y partner's), at its final contents; it copies the chunk to the same rows of its y (z)
  partner's result array, which it was handed at the barrier. The partner's rows then hold the partner's final contents
  there: the chunk lies in the partner's diagonal quarter, whose owner is the same device.
-/
import proofs.«900725_g7700000000000726_dist_ar_v7x_xyz2x4x4_x_m8192_n1024_f32_1_alg».proof.Proof.StepBase
import proofs.«900725_g7700000000000726_dist_ar_v7x_xyz2x4x4_x_m8192_n1024_f32_1_alg».proof.Proof.Landing

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Even chunk `2 e` of the z partner's quarter, forwarded to the y partner. -/
theorem step_yr (m : (ℓ : Loc nD τ sig) → Buf (Elt F) ℓ) (c : Dev nD) (K : Dev nD × CK → ℕ) (e : Fin 8) (n : Dev nD) (hn : n = yp c)
    (fd : Buf (Elt F) ((outE c e).view.loc (yp c : Thread nD τ))) (O : Tal) {α : Type} (kk : PR F α) (Q : α → sProp 𝕄) :
    iprop(recs m K ∗ pts c (outE c e) fullShare (OUTc m c) ∗ pts (yp c) (outE c e) fullShare fd ∗ ow (F := F) c (tYR c e + O)
        ∗ tok0 (F := F) c (.yrs e) 0 0 ∗ tok0 (F := F) (yp c) (.yrr e) 0 0)
      ⊢ iprop(((cred (tallyAt (cell c (.yrs e)) () No) ∗ ow (F := F) c O)
            -∗ wp frame (wpE (defs₀ (F := F)) 𝒱₀ c none) Set.univ kk Q)
          -∗ wp frame (wpE (defs₀ (F := F)) 𝒱₀ c none) Set.univ (fYR c e n kk) Q) := by
  subst hn
  have hd₁ : (0 : Fin 3) ∈ (Rd (F := F) m).duties (cell c (.yrs e)) 0 := by
    rw [duties_one m c (.yrs e) (fun h => by cases h) 0 Nat.one_pos]; exact Finset.mem_singleton_self _
  have hd₂ : (0 : Fin 3) ∈ (Rd (F := F) m).duties (cell (yp c) (.yrr e)) 0 := by
    rw [duties_one m (yp c) (.yrr e) (fun h => by cases h) 0 Nat.one_pos]; exact Finset.mem_singleton_self _
  have hpay₁ : ((outE c e).view.loc (c : Thread nD τ) ↦[(outE c e).view.set]{fullShare} OUTc m c : sProp 𝕄)
      ⊢ (Rd (F := F) m).payload (cell c (.yrs e)) 0 0 := by
    rw [payload_cell]; exact .rfl
  have hpay₂ : ((outE c e).view.loc (yp c : Thread nD τ) ↦[(outE c e).view.set]{fullShare}
        ((outE c e).view.write (Elt F) fd ((outE c e).view.read (Elt F) (OUTc m c)) Finset.univ) : sProp 𝕄)
      ⊢ (Rd (F := F) m).payload (cell (yp c) (.yrr e)) 0 0 := by
    rw [payload_cell, pointsTo_congr (land_yr m c e fd)]
    show _ ⊢ pts (yp c) (outE (yp (yp c)) e) fullShare (OUTc m (yp c))
    rw [yp_yp]
  unfold ow
  iintro ⟨#Hrec, Hsrc, Hdst, ⟨%W, HL⟩, Ht₁, Ht₂⟩ Hk
  ihave Hi₁ := (inv_at m K c (.yrs e)) $$ Hrec
  ihave Hi₂ := (inv_at m K (yp c) (.yrr e)) $$ Hrec
  ihave Hr₁ := (reached_at m K c (.yrs e)) $$ Hrec
  ihave Hr₂ := (reached_at m K (yp c) (.yrr e)) $$ Hrec
  iapply (wp_send_pointsTo 𝒱₀ ER (Rd m) (c : Thread nD τ) none (c' := (yp c : Thread nD τ)) (src := outE c e) (dst := outE c e)
    (q := fullShare) (fs := OUTc m c) (fd := fd) (r₁ := 0) (r₂ := 0) (d₁ := 0) (d₂ := 0)
    hd₁ hd₂ () () No rfl (amount_cell m c (.yrs e) 0 0) (amount_cell m (yp c) (.yrr e) 0 0)
    (O₀ := tYR c e + O) O (add_comm _ _) hpay₁ hpay₂) $$ [Hsrc Hdst HL Ht₁ Ht₂]
  · isplitr; · iexact Hi₁
    isplitr; · iexact Hi₂
    isplitl [Hsrc]; · iexact Hsrc
    isplitl [Hdst]; · iexact Hdst
    isplitl [HL]; · iexact HL
    isplitl [Ht₁]; · iexact Ht₁
    isplitr; · iexact Hr₁
    isplitl [Ht₂]; · iexact Ht₂
    iexact Hr₂
  iintro ⟨Hc, HL⟩
  iapply Hk
  isplitl [Hc]; · iexact Hc
  iexists _; iexact HL

/-- Odd chunk `2 e + 1` of the y partner's quarter, forwarded to the z partner. -/
theorem step_zr (m : (ℓ : Loc nD τ sig) → Buf (Elt F) ℓ) (c : Dev nD) (K : Dev nD × CK → ℕ) (e : Fin 8) (n : Dev nD) (hn : n = zp c)
    (fd : Buf (Elt F) ((outO c e).view.loc (zp c : Thread nD τ))) (O : Tal) {α : Type} (kk : PR F α) (Q : α → sProp 𝕄) :
    iprop(recs m K ∗ pts c (outO c e) fullShare (OUTc m c) ∗ pts (zp c) (outO c e) fullShare fd ∗ ow (F := F) c (tZR c e + O)
        ∗ tok0 (F := F) c (.zrs e) 0 0 ∗ tok0 (F := F) (zp c) (.zrr e) 0 0)
      ⊢ iprop(((cred (tallyAt (cell c (.zrs e)) () No) ∗ ow (F := F) c O)
            -∗ wp frame (wpE (defs₀ (F := F)) 𝒱₀ c none) Set.univ kk Q)
          -∗ wp frame (wpE (defs₀ (F := F)) 𝒱₀ c none) Set.univ (fZR c e n kk) Q) := by
  subst hn
  have hd₁ : (0 : Fin 3) ∈ (Rd (F := F) m).duties (cell c (.zrs e)) 0 := by
    rw [duties_one m c (.zrs e) (fun h => by cases h) 0 Nat.one_pos]; exact Finset.mem_singleton_self _
  have hd₂ : (0 : Fin 3) ∈ (Rd (F := F) m).duties (cell (zp c) (.zrr e)) 0 := by
    rw [duties_one m (zp c) (.zrr e) (fun h => by cases h) 0 Nat.one_pos]; exact Finset.mem_singleton_self _
  have hpay₁ : ((outO c e).view.loc (c : Thread nD τ) ↦[(outO c e).view.set]{fullShare} OUTc m c : sProp 𝕄)
      ⊢ (Rd (F := F) m).payload (cell c (.zrs e)) 0 0 := by
    rw [payload_cell]; exact .rfl
  have hpay₂ : ((outO c e).view.loc (zp c : Thread nD τ) ↦[(outO c e).view.set]{fullShare}
        ((outO c e).view.write (Elt F) fd ((outO c e).view.read (Elt F) (OUTc m c)) Finset.univ) : sProp 𝕄)
      ⊢ (Rd (F := F) m).payload (cell (zp c) (.zrr e)) 0 0 := by
    rw [payload_cell, pointsTo_congr (land_zr m c e fd)]
    show _ ⊢ pts (zp c) (outO (zp (zp c)) e) fullShare (OUTc m (zp c))
    rw [zp_zp]
  unfold ow
  iintro ⟨#Hrec, Hsrc, Hdst, ⟨%W, HL⟩, Ht₁, Ht₂⟩ Hk
  ihave Hi₁ := (inv_at m K c (.zrs e)) $$ Hrec
  ihave Hi₂ := (inv_at m K (zp c) (.zrr e)) $$ Hrec
  ihave Hr₁ := (reached_at m K c (.zrs e)) $$ Hrec
  ihave Hr₂ := (reached_at m K (zp c) (.zrr e)) $$ Hrec
  iapply (wp_send_pointsTo 𝒱₀ ER (Rd m) (c : Thread nD τ) none (c' := (zp c : Thread nD τ)) (src := outO c e) (dst := outO c e)
    (q := fullShare) (fs := OUTc m c) (fd := fd) (r₁ := 0) (r₂ := 0) (d₁ := 0) (d₂ := 0)
    hd₁ hd₂ () () No rfl (amount_cell m c (.zrs e) 0 0) (amount_cell m (zp c) (.zrr e) 0 0)
    (O₀ := tZR c e + O) O (add_comm _ _) hpay₁ hpay₂) $$ [Hsrc Hdst HL Ht₁ Ht₂]
  · isplitr; · iexact Hi₁
    isplitr; · iexact Hi₂
    isplitl [Hsrc]; · iexact Hsrc
    isplitl [Hdst]; · iexact Hdst
    isplitl [HL]; · iexact HL
    isplitl [Ht₁]; · iexact Ht₁
    isplitr; · iexact Hr₁
    isplitl [Ht₂]; · iexact Ht₂
    iexact Hr₂
  iintro ⟨Hc, HL⟩
  iapply Hk
  isplitl [Hc]; · iexact Hc
  iexists _; iexact HL

/-- info: 'Cert.KernelIdeal.Ar.step_yr' depends on axioms: [propext, Classical.choice, Quot.sound] -/
#guard_msgs in #print axioms step_yr
/-- info: 'Cert.KernelIdeal.Ar.step_zr' depends on axioms: [propext, Classical.choice, Quot.sound] -/
#guard_msgs in #print axioms step_zr

end Cert.KernelIdeal.Ar

end
-- ==== Proof.PhF.lean ====
/-
  The forwarding loop, as tactic text over the named hypotheses of the body proof. Iteration `j`: the wait for the y
  partner's chunk `j`; for odd `j` the forward of that chunk to the z partner; the wait for the z partner's chunk `j`;
  for even `j` the forward of that chunk to the y partner. Each wait's payload and what the device owes are restated
  in the forms the next step takes them in (equal by unfolding the schedule's tables at the literal chunk).
-/
import proofs.«900725_g7700000000000726_dist_ar_v7x_xyz2x4x4_x_m8192_n1024_f32_1_alg».proof.Proof.StepWait
import proofs.«900725_g7700000000000726_dist_ar_v7x_xyz2x4x4_x_m8192_n1024_f32_1_alg».proof.Proof.StepFwd
import proofs.«900725_g7700000000000726_dist_ar_v7x_xyz2x4x4_x_m8192_n1024_f32_1_alg».proof.Proof.Sets
import proofs.«900725_g7700000000000726_dist_ar_v7x_xyz2x4x4_x_m8192_n1024_f32_1_alg».proof.Proof.Tac

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The wait for round 0 of a cell whose copies credit the amount of a block of 128 rows of the result, with that
    amount and the next round spelt as literals. -/
theorem step_wait0 (m : (ℓ : Loc nD τ sig) → Buf (Elt F) ℓ) (c : Dev nD) (K : Dev nD × CK → ℕ) (k : CK) (hk : k ≠ .bar)
    (hNo : amt k = No) (hr : 0 < nRd k) (s : DmaSem sig) (hs : k.loc = .dma s) {sp sp' : Space} {s1 s2 : Shape}
    (src : Memref sig .tc sp' s2 .f32) (dst : Memref sig .tc sp s1 .f32) (h1 : src.view.WordExact) (h2 : dst.view.WordExact)
    (hamt : dst.view.dmaCredit = No) (n : ℕ) (hn : lvK k ≤ n) (O : Tal) (hO : Above n O)
    {α : Type} (kk : PR F α) (Q : α → sProp 𝕄) :
    iprop(recs m K ∗ levAts L lv ∗ cred (tallyAt (cell c k) () No) ∗ ow (F := F) c O ∗ atPos ER (cell c k) 0 ∅ 0)
      ⊢ iprop(((ow (F := F) c O ∗ atPos ER (cell c k) 1 ∅ 0 ∗ reached ER (cell c k) 1 ∗ pay m c k 0 0)
            -∗ wp frame (wpE (defs₀ (F := F)) 𝒱₀ c none) Set.univ kk Q)
          -∗ wp frame (wpE (defs₀ (F := F)) 𝒱₀ c none) Set.univ (fWait s src dst h1 h2 kk) Q) := by
  have h := step_wait m c K k hk s hs 0 hr src dst h1 h2 (hamt.trans hNo.symm) n hn O hO kk Q
  rw [hNo] at h
  exact h

end Cert.KernelIdeal.Ar

end

namespace Cert.KernelIdeal.Ar

section Tactics
open Lean Elab Tactic

/-- The wait on the receive cell `kind j` (`ydr` or `zdr`, from partner `p`) at round 0, owing `rem3 c r`; the payload is
    named `G`, as the partner's rows of chunk `j` at their final contents. -/
def phFWait (kind sem p : String) (j r : Nat) (G : String) : String :=
  s!"(iapply (step_wait0 m c K (.{kind} {j}) (fun h => by cases h) rfl Nat.one_pos ({sem} {j}) rfl (vsM (slotOf {j})) (outM c {j}) _ _ (outM_credit c {j}) 3 (by decide) (rem3 c {r}) (above_rem3 c {r}) _ _) $$ [C{kind}{j} HO P{kind}{j}]; isplitr; iexact HR; isplitr; iexact Hlev; isplitl [C{kind}{j}]; iexact C{kind}{j}; isplitl [HO]; iexact HO; iexact P{kind}{j}; iintro ⟨HO, P{kind}{j}, -, Gtmp⟩; ihave {G} := (Entails.of_eq (show pay m c (.{kind} {j}) 0 0 = pts c (outM ({p} c) {j}) fullShare (OUTc m c) from rfl)) $$ Gtmp)"

/-- The forward of chunk `j`, held under `G` as rows of partner `p`'s quarter and restated by `restate` as the forward's
    source view: `step` is `step_zr` or `step_yr`, `R` the other partner's rows from the barrier, `s` / `t` the kinds of
    the send and receive cells, `tal` the tally the forward pays. -/
def phFFwd (step restate view p R s t tal : String) (j e d r : Nat) (G : String) : String :=
  s!"(ihave Hfsrc := (Entails.of_eq (show pts c (outM ({p} c) {j}) fullShare (OUTc m c) = pts c ({view} c {e}) fullShare (OUTc m c) from ({restate} (F := F) c {e} fullShare (OUTc m c)).symm)) $$ {G}; ihave HO := (Entails.of_eq (show ow (F := F) c (rem3 c {r + 1}) = ow (F := F) c ({tal} c {e} + rem3 c {r}) from rfl)) $$ HO; icases {R}{e} with ⟨%fd{R}{e}, {R}{e}⟩; iapply ({step} m c K {e} _ (dev{d}_eq c) fd{R}{e} (rem3 c {r}) _ _) $$ [Hfsrc {R}{e} HO T{s}{e} T{t}{e}]; isplitr; iexact HR; isplitl [Hfsrc]; iexact Hfsrc; isplitl [{R}{e}]; iexact {R}{e}; isplitl [HO]; iexact HO; isplitl [T{s}{e}]; iexact T{s}{e}; iexact T{t}{e}; iintro ⟨C{s}{e}, HO⟩)"

/-- `ph_F j`: iteration `j` of the forwarding loop. -/
elab "ph_F " j:num : tactic => do
  let J := j.getNat
  let E := J / 2
  if J % 2 == 1 then
    runTacStr (phFWait "ydr" "ydR" "yp" J (16 - J) s!"Goy{J}")
    runTacStr (phFFwd "step_zr" "outM_odd" "outO" "yp" "RozO" "zrs" "zrr" "tZR" J E (52 + J) (15 - J) s!"Goy{J}")
    runTacStr (phFWait "zdr" "zdR" "zp" J (15 - J) s!"Goz{J}")
  else
    runTacStr (phFWait "ydr" "ydR" "yp" J (16 - J) s!"Goy{J}")
    runTacStr (phFWait "zdr" "zdR" "zp" J (16 - J) s!"Goz{J}")
    runTacStr (phFFwd "step_yr" "outM_even" "outE" "zp" "RoyE" "yrs" "yrr" "tYR" J E (52 + J) (15 - J) s!"Goz{J}")

/-! ## The whole loop as one theorem

The statement (what the sixteen iterations take, what they leave, and the chain of the loop's fragments) and its proof
text are built here from the iteration's number, with every chunk a literal. -/

/-- What iteration `j`, then what pair `e` of iterations, takes; with the names the proof gives them. -/
def preFj (j : Nat) : List (String × String) :=
  [(s!"Cydr{j}", s!"cred (tallyAt (cell c (.ydr {j})) () No)"), (s!"Pydr{j}", s!"pos0 (F := F) c (.ydr {j})"),
   (s!"Czdr{j}", s!"cred (tallyAt (cell c (.zdr {j})) () No)"), (s!"Pzdr{j}", s!"pos0 (F := F) c (.zdr {j})")]
def preFe (e : Nat) : List (String × String) :=
  [(s!"RoyE{e}", s!"ptsE (F := F) (yp c) (outE c {e})"), (s!"Tyrs{e}", s!"tok0 (F := F) c (.yrs {e}) 0 0"), (s!"Tyrr{e}", s!"tok0 (F := F) (yp c) (.yrr {e}) 0 0"),
   (s!"RozO{e}", s!"ptsE (F := F) (zp c) (outO c {e})"), (s!"Tzrs{e}", s!"tok0 (F := F) c (.zrs {e}) 0 0"), (s!"Tzrr{e}", s!"tok0 (F := F) (zp c) (.zrr {e}) 0 0")]
/-- What iteration `j`, then pair `e`, leaves: both receive cells one round on, the rows that were not forwarded (the y
    partner's for even `j`, the z partner's for odd `j`), and the credit of the two forwards' send cells. -/
def postFj (j : Nat) : List (String × String) :=
  [(s!"Pydr{j}", s!"atPos ER (cell c (.ydr {j})) 1 ∅ 0"), (s!"Pzdr{j}", s!"atPos ER (cell c (.zdr {j})) 1 ∅ 0"),
   if j % 2 == 0 then (s!"Goy{j}", s!"pts c (outM (yp c) {j}) fullShare (OUTc m c)")
   else (s!"Goz{j}", s!"pts c (outM (zp c) {j}) fullShare (OUTc m c)")]
def postFe (e : Nat) : List (String × String) :=
  [(s!"Cyrs{e}", s!"cred (tallyAt (cell c (.yrs {e})) () No)"), (s!"Czrs{e}", s!"cred (tallyAt (cell c (.zrs {e})) () No)")]

def preFAll : List (String × String) :=
  [("HO", "ow (F := F) c (rem3 c 16)")] ++ (List.range 16).foldr (fun j acc => preFj j ++ acc) [] ++ (List.range 8).foldr (fun e acc => preFe e ++ acc) []
def postFAll : List (String × String) :=
  [("HO", "ow (F := F) c (rem3 c 0)")] ++ (List.range 16).foldr (fun j acc => postFj j ++ acc) [] ++ (List.range 8).foldr (fun e acc => postFe e ++ acc) []

/-- The loop's fragments, iteration by iteration, before the continuation `kk`. -/
def chainFStr : String :=
  (List.range 16).foldr (fun j acc =>
    if j % 2 == 0 then s!"fWaitYdR c {j} (fWaitZdR c {j} (fYR c {j / 2} ⟨k0_dev{52 + j} c, k0_dev{52 + j}_lt c⟩ ({acc})))"
    else s!"fWaitYdR c {j} (fZR c {j / 2} ⟨k0_dev{52 + j} c, k0_dev{52 + j}_lt c⟩ (fWaitZdR c {j} ({acc})))") "kk"

open Lean Elab Command

/-- Proving a chain of named hypotheses, in order. -/
def splitNames : List String → String
  | [] => "iempintro"
  | [n] => s!"iexact {n}"
  | n :: ns => s!"isplitl [{n}]; iexact {n}; " ++ splitNames ns

def runCmdStr (s : String) : CommandElabM Unit := do
  match Parser.runParserCategory (← getEnv) `command s with
  | .ok stx => elabCommand stx
  | .error e => throwError "command text does not parse: {e}\n{s}"

/-- `gen_phase_F`: the definitions `preF`, `postF`, `chainF` and the theorem `phase_F`. -/
elab "gen_phase_F" : command => do
  let sep := fun (l : List (String × String)) => " ∗ ".intercalate (l.map (·.2))
  runCmdStr s!"def preF (c : Dev nD) : sProp 𝕄 := iprop({sep preFAll})"
  runCmdStr s!"def postF (m : (ℓ : Loc nD τ sig) → Buf (Elt F) ℓ) (c : Dev nD) : sProp 𝕄 := iprop({sep postFAll})"
  runCmdStr s!"abbrev chainF (c : Dev nD) (kk : PR F PUnit) : PR F PUnit := {chainFStr}"
  let iters := "\n".intercalate ((List.range 16).map fun j => s!"  ph_F {j}")
  runCmdStr s!"theorem phase_F (m : (ℓ : Loc nD τ sig) → Buf (Elt F) ℓ) (c : Dev nD) (K : Dev nD × CK → ℕ) (kk : PR F PUnit) (Q : PUnit → sProp 𝕄) :
    iprop(recs m K ∗ levAts L lv ∗ preF (F := F) c ∗ (postF m c -∗ wp frame (wpE (defs₀ (F := F)) 𝒱₀ c none) Set.univ kk Q))
      ⊢ wp frame (wpE (defs₀ (F := F)) 𝒱₀ c none) Set.univ (chainF c kk) Q := by
  unfold preF postF
  iintro ⟨#HR, #Hlev, ⟨{", ".intercalate (preFAll.map (·.1))}⟩, Hk⟩
{iters}
  iapply Hk
  tac_str \"({splitNames (postFAll.map (·.1))})\""

end Tactics

end Cert.KernelIdeal.Ar

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

gen_phase_F

/-- info: 'Cert.KernelIdeal.Ar.phase_F' depends on axioms: [propext, Classical.choice, Quot.sound] -/
#guard_msgs in #print axioms phase_F

end Cert.KernelIdeal.Ar

end
-- ==== Proof.Sems.lean ====
/-
  The device's 131 DMA semaphores, all at zero, from the closed cells kind by kind: six families of sixteen (the
  send and receive cells of the copies to the x, y and z partner), four of eight (those of the forwards), the cell of
  the local copy of the quarter and the two of the local copies to the result. The semaphores are numbered family
  after family, so the index set splits as sums and products of initial segments.
-/
import proofs.«900725_g7700000000000726_dist_ar_v7x_xyz2x4x4_x_m8192_n1024_f32_1_alg».proof.Proof.Ghost

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The DMA semaphores by family: semaphore `16 t + j` is chunk `j` of the `t`-th family of sixteen, `96 + 8 t + e`
    chunk `e` of the `t`-th family of eight, and `128 + i` the `i`-th single one. -/
def semEquiv : (Fin 16 × Fin 6) ⊕ ((Fin 8 × Fin 4) ⊕ Fin 3) ≃ DmaSem sig :=
  (Equiv.sumCongr ((Equiv.prodComm _ _).trans finProdFinEquiv)
    ((Equiv.sumCongr ((Equiv.prodComm _ _).trans finProdFinEquiv) (Equiv.refl _)).trans finSumFinEquiv)).trans
    (finSumFinEquiv (m := 6 * 16) (n := 4 * 8 + 3))

theorem semEquiv_xs : ∀ j : Fin 16, semEquiv (.inl (j, 0)) = xS j := by decide
theorem semEquiv_xr : ∀ j : Fin 16, semEquiv (.inl (j, 1)) = xR j := by decide
theorem semEquiv_yds : ∀ j : Fin 16, semEquiv (.inl (j, 2)) = ydS j := by decide
theorem semEquiv_ydr : ∀ j : Fin 16, semEquiv (.inl (j, 3)) = ydR j := by decide
theorem semEquiv_zds : ∀ j : Fin 16, semEquiv (.inl (j, 4)) = zdS j := by decide
theorem semEquiv_zdr : ∀ j : Fin 16, semEquiv (.inl (j, 5)) = zdR j := by decide
theorem semEquiv_yrs : ∀ e : Fin 8, semEquiv (.inr (.inl (e, 0))) = yrS e := by decide
theorem semEquiv_yrr : ∀ e : Fin 8, semEquiv (.inr (.inl (e, 1))) = yrR e := by decide
theorem semEquiv_zrs : ∀ e : Fin 8, semEquiv (.inr (.inl (e, 2))) = zrS e := by decide
theorem semEquiv_zrr : ∀ e : Fin 8, semEquiv (.inr (.inl (e, 3))) = zrR e := by decide
theorem semEquiv_cpq : semEquiv (.inr (.inr 0)) = cpqS := by decide
theorem semEquiv_cpo0 : semEquiv (.inr (.inr 1)) = cpoS 0 := by decide
theorem semEquiv_cpo1 : semEquiv (.inr (.inr 2)) = cpoS 1 := by decide

theorem sems0_intro (c : Dev nD) :
    (iprop((bigSep Finset.univ fun j : Fin 16 => iprop(semVal (cell c (.xs j)) 0 ∗ semVal (cell c (.xr j)) 0
          ∗ semVal (cell c (.yds j)) 0 ∗ semVal (cell c (.ydr j)) 0 ∗ semVal (cell c (.zds j)) 0 ∗ semVal (cell c (.zdr j)) 0))
        ∗ (bigSep Finset.univ fun e : Fin 8 => iprop(semVal (cell c (.yrs e)) 0 ∗ semVal (cell c (.yrr e)) 0
          ∗ semVal (cell c (.zrs e)) 0 ∗ semVal (cell c (.zrr e)) 0))
        ∗ semVal (cell c .cpq) 0 ∗ semVal (cell c (.cpo 0)) 0 ∗ semVal (cell c (.cpo 1)) 0) : sProp 𝕄) ⊢ sems0 c := by
  unfold sems0
  rw [bigSep_univ_equiv semEquiv, bigSep_univ_sum, bigSep_univ_sum, bigSep_univ_prod, bigSep_univ_prod,
    bigSep_univ_eq_bigSepL ([0, 1, 2] : List (Fin 3)) (by decide) (by decide)]
  simp only [bigSep_univ_eq_bigSepL ([0, 1, 2, 3, 4, 5] : List (Fin 6)) (by decide) (by decide),
    bigSep_univ_eq_bigSepL ([0, 1, 2, 3] : List (Fin 4)) (by decide) (by decide),
    bigSepL_cons_cons, bigSepL_singleton,
    semEquiv_xs, semEquiv_xr, semEquiv_yds, semEquiv_ydr, semEquiv_zds, semEquiv_zdr,
    semEquiv_yrs, semEquiv_yrr, semEquiv_zrs, semEquiv_zrr, semEquiv_cpq, semEquiv_cpo0, semEquiv_cpo1]
  exact .rfl

/-- info: 'Cert.KernelIdeal.Ar.sems0_intro' depends on axioms: [propext, Classical.choice, Quot.sound] -/
#guard_msgs in #print axioms sems0_intro

end Cert.KernelIdeal.Ar

end
-- ==== Proof.PhT.lean ====
/-
  The first part of the body's tail: for each of the eight forwards, the waits for the two chunks forwarded to this
  device to have landed and for the two chunks forwarded from it to have been read.

  The four waits of one forward are proved once at a symbolic index; a list of such steps, each taking what the
  device owes and giving it back, is run by induction on the list.
-/
import proofs.«900725_g7700000000000726_dist_ar_v7x_xyz2x4x4_x_m8192_n1024_f32_1_alg».proof.Proof.StepWait
import proofs.«900725_g7700000000000726_dist_ar_v7x_xyz2x4x4_x_m8192_n1024_f32_1_alg».proof.Proof.Sets
import proofs.«900725_g7700000000000726_dist_ar_v7x_xyz2x4x4_x_m8192_n1024_f32_1_alg».proof.Proof.Sems

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The credit for the one duty of a round of the device's own cell of kind `k`. -/
abbrev cr (c : Dev nD) (k : CK) : sProp 𝕄 := cred (tallyAt (cell c k) () (amt k))
/-- The same with the amount spelt out. -/
abbrev crN (c : Dev nD) (k : CK) (a : ℕ) : sProp 𝕄 := cred (tallyAt (cell c k) () a)
theorem cr_of (c : Dev nD) (k : CK) (a : ℕ) (h : amt k = a) : crN (F := F) c k a ⊢ cr c k := by subst h; exact .rfl
/-- The device's position on its own cell of kind `k`: `r` rounds consumed. -/
abbrev posAt (c : Dev nD) (k : CK) (r : ℕ) : sProp 𝕄 := atPos ER (cell c k) r ∅ 0

variable {α : Type}

/-! ## The fragments -/

/-- The four waits of forward `e`: both forwards landed here, both forwards from here read. -/
abbrev tailE (c : Dev nD) (e : Fin 8) (k : PR F α) : PR F α :=
  fWait (yrR e) (outE c e) (outE c e) (View.wordExact_bits rfl) (View.wordExact_bits rfl)
  (fWait (zrR e) (outO c e) (outO c e) (View.wordExact_bits rfl) (View.wordExact_bits rfl)
  (fWait (yrS e) (outE c e) (outE c e) (View.wordExact_bits rfl) (View.wordExact_bits rfl)
  (fWait (zrS e) (outO c e) (outO c e) (View.wordExact_bits rfl) (View.wordExact_bits rfl) k)))

/-! ## What each group takes and gives -/

abbrev preE (c : Dev nD) (e : Fin 8) : sProp 𝕄 :=
  iprop(crN c (.yrr e) No ∗ posAt c (.yrr e) 0 ∗ crN c (.zrr e) No ∗ posAt c (.zrr e) 0
    ∗ crN c (.yrs e) No ∗ posAt c (.yrs e) 0 ∗ crN c (.zrs e) No ∗ posAt c (.zrs e) 0)
abbrev postE (m : (ℓ : Loc nD τ sig) → Buf (Elt F) ℓ) (c : Dev nD) (e : Fin 8) : sProp 𝕄 :=
  iprop(posAt c (.yrr e) 1 ∗ pts c (outE (yp c) e) fullShare (OUTc m c)
    ∗ posAt c (.zrr e) 1 ∗ pts c (outO (zp c) e) fullShare (OUTc m c)
    ∗ posAt c (.yrs e) 1 ∗ pts c (outE c e) fullShare (OUTc m c)
    ∗ posAt c (.zrs e) 1 ∗ pts c (outO c e) fullShare (OUTc m c))

/-- The body's programs under the kernel's clauses. -/
abbrev wpB (c : Dev nD) (k : PR F α) (Q : α → sProp 𝕄) : sProp 𝕄 :=
  wp frame (wpE (defs₀ (F := F)) 𝒱₀ c none) Set.univ k Q

variable (m : (ℓ : Loc nD τ sig) → Buf (Elt F) ℓ) (c : Dev nD) (K : Dev nD × CK → ℕ)

/-! ## The payloads of the cells waited on here -/

theorem pay_yrr (e : Fin 8) : (pay m c (.yrr e) 0 0 : sProp 𝕄) = pts c (outE (yp c) e) fullShare (OUTc m c) := rfl
theorem pay_zrr (e : Fin 8) : (pay m c (.zrr e) 0 0 : sProp 𝕄) = pts c (outO (zp c) e) fullShare (OUTc m c) := rfl
theorem pay_yrs (e : Fin 8) : (pay m c (.yrs e) 0 0 : sProp 𝕄) = pts c (outE c e) fullShare (OUTc m c) := rfl
theorem pay_zrs (e : Fin 8) : (pay m c (.zrs e) 0 0 : sProp 𝕄) = pts c (outO c e) fullShare (OUTc m c) := rfl

/-! ## One group at a symbolic chunk -/

theorem tail_e (e : Fin 8) (kk : PR F α) (Q : α → sProp 𝕄) :
    iprop(recs m K ∗ levAts L lv ∗ ow (F := F) c 0 ∗ preE c e ∗ ((ow (F := F) c 0 ∗ postE m c e) -∗ wpB c kk Q))
      ⊢ wpB c (tailE c e kk) Q := by
  iintro ⟨#HR, #Hlev, HO, ⟨C1, P1, C2, P2, C3, P3, C4, P4⟩, Hk⟩
  ihave C1 := (cr_of c (.yrr e) No rfl) $$ C1
  ihave C2 := (cr_of c (.zrr e) No rfl) $$ C2
  ihave C3 := (cr_of c (.yrs e) No rfl) $$ C3
  ihave C4 := (cr_of c (.zrs e) No rfl) $$ C4
  iapply (step_wait m c K (.yrr e) (fun h => by cases h) (yrR e) rfl 0 Nat.one_pos (outE c e) (outE c e) _ _ rfl 4
    (le_refl 4) 0 (above_zero 4) _ Q) $$ [C1 HO P1]
  · isplitr; · iexact HR
    isplitr; · iexact Hlev
    isplitl [C1]; · iexact C1
    isplitl [HO]; · iexact HO
    iexact P1
  iintro ⟨HO, P1, -, G1⟩
  ihave G1 := (Entails.of_eq (pay_yrr m c e)) $$ G1
  iapply (step_wait m c K (.zrr e) (fun h => by cases h) (zrR e) rfl 0 Nat.one_pos (outO c e) (outO c e) _ _ rfl 4
    (le_refl 4) 0 (above_zero 4) _ Q) $$ [C2 HO P2]
  · isplitr; · iexact HR
    isplitr; · iexact Hlev
    isplitl [C2]; · iexact C2
    isplitl [HO]; · iexact HO
    iexact P2
  iintro ⟨HO, P2, -, G2⟩
  ihave G2 := (Entails.of_eq (pay_zrr m c e)) $$ G2
  iapply (step_wait m c K (.yrs e) (fun h => by cases h) (yrS e) rfl 0 Nat.one_pos (outE c e) (outE c e) _ _ rfl 4
    (Nat.zero_le 4) 0 (above_zero 4) _ Q) $$ [C3 HO P3]
  · isplitr; · iexact HR
    isplitr; · iexact Hlev
    isplitl [C3]; · iexact C3
    isplitl [HO]; · iexact HO
    iexact P3
  iintro ⟨HO, P3, -, G3⟩
  ihave G3 := (Entails.of_eq (pay_yrs m c e)) $$ G3
  iapply (step_wait m c K (.zrs e) (fun h => by cases h) (zrS e) rfl 0 Nat.one_pos (outO c e) (outO c e) _ _ rfl 4
    (Nat.zero_le 4) 0 (above_zero 4) _ Q) $$ [C4 HO P4]
  · isplitr; · iexact HR
    isplitr; · iexact Hlev
    isplitl [C4]; · iexact C4
    isplitl [HO]; · iexact HO
    iexact P4
  iintro ⟨HO, P4, -, G4⟩
  ihave G4 := (Entails.of_eq (pay_zrs m c e)) $$ G4
  iapply Hk
  isplitl [HO]; · iexact HO
  isplitl [P1]; · iexact P1
  isplitl [G1]; · iexact G1
  isplitl [P2]; · iexact P2
  isplitl [G2]; · iexact G2
  isplitl [P3]; · iexact P3
  isplitl [G3]; · iexact G3
  isplitl [P4]; · iexact P4
  iexact G4

/-! ## A list of groups -/

theorem bigSepL_cons_sep {ι : Type} (i : ι) (l : List ι) (Φ : ι → sProp 𝕄) :
    bigSepL (i :: l) Φ = iprop(Φ i ∗ bigSepL l Φ) := bigSepL_cons i l Φ
theorem bigSepL_nil_emp {ι : Type} (Φ : ι → sProp 𝕄) : bigSepL ([] : List ι) Φ = iprop(emp) := rfl

/-- Steps that each take what the device owes and give it back, run one after the other. -/
theorem fold_steps {ι : Type} (step : ι → PR F α → PR F α) (pre post : ι → sProp 𝕄)
    (h : ∀ (i : ι) (kk : PR F α) (Q : α → sProp 𝕄),
      iprop(recs m K ∗ levAts L lv ∗ ow (F := F) c 0 ∗ pre i ∗ ((ow (F := F) c 0 ∗ post i) -∗ wpB c kk Q)) ⊢ wpB c (step i kk) Q)
    (l : List ι) (kk : PR F α) (Q : α → sProp 𝕄) :
    iprop(recs m K ∗ levAts L lv ∗ ow (F := F) c 0 ∗ bigSepL l pre ∗ ((ow (F := F) c 0 ∗ bigSepL l post) -∗ wpB c kk Q))
      ⊢ wpB c (l.foldr step kk) Q := by
  induction l generalizing kk Q with
  | nil =>
    rw [bigSepL_nil_emp, bigSepL_nil_emp]
    iintro ⟨#HR, #Hlev, HO, -, Hk⟩
    iapply Hk
    isplitl [HO]; · iexact HO
    iempintro
  | cons i l ih =>
    rw [bigSepL_cons_sep, bigSepL_cons_sep]
    iintro ⟨#HR, #Hlev, HO, ⟨Hi, Hl⟩, Hk⟩
    iapply (h i (l.foldr step kk) Q)
    isplitr; · iexact HR
    isplitr; · iexact Hlev
    isplitl [HO]; · iexact HO
    isplitl [Hi]; · iexact Hi
    iintro ⟨HO, Gi⟩
    iapply (ih kk Q)
    isplitr; · iexact HR
    isplitr; · iexact Hlev
    isplitl [HO]; · iexact HO
    isplitl [Hl]; · iexact Hl
    iintro ⟨HO, Gl⟩
    iapply Hk
    isplitl [HO]; · iexact HO
    isplitl [Gi]; · iexact Gi
    iexact Gl

/-! ## The eight forwards -/

/-- The waits of the eight forwards, in program order. -/
abbrev chainT1 (c : Dev nD) (kk : PR F α) : PR F α :=
  tailE c 0 (tailE c 1 (tailE c 2 (tailE c 3 (tailE c 4 (tailE c 5 (tailE c 6 (tailE c 7 kk)))))))

theorem phase_T1 (kk : PR F α) (Q : α → sProp 𝕄) :
    iprop(recs m K ∗ levAts L lv ∗ (ow (F := F) c 0 ∗ bigSep Finset.univ (preE (F := F) c))
        ∗ ((ow (F := F) c 0 ∗ bigSep Finset.univ (postE m c)) -∗ wpB c kk Q))
      ⊢ wpB c (chainT1 c kk) Q := by
  rw [bigSep_univ_eq_bigSepL ([0, 1, 2, 3, 4, 5, 6, 7] : List (Fin 8)) (by decide) (by decide) (preE (F := F) c),
    bigSep_univ_eq_bigSepL ([0, 1, 2, 3, 4, 5, 6, 7] : List (Fin 8)) (by decide) (by decide) (postE m c)]
  iintro ⟨#HR, #Hlev, ⟨HO, Hp⟩, Hk⟩
  iapply (fold_steps m c K (tailE c) (preE c) (postE m c) (tail_e m c K) [0, 1, 2, 3, 4, 5, 6, 7] kk Q)
  isplitr; · iexact HR
  isplitr; · iexact Hlev
  isplitl [HO]; · iexact HO
  isplitl [Hp]; · iexact Hp
  iexact Hk

/-- info: 'Cert.KernelIdeal.Ar.phase_T1' depends on axioms: [propext, Classical.choice, Quot.sound] -/
#guard_msgs in #print axioms phase_T1

end Cert.KernelIdeal.Ar

end
-- ==== Proof.PhT2.lean ====
/-
  The end of the kernel body's waits, second half: the sixteen waits for the copies to the x partner to have read
  their source (each gives back the lent share of its chunk of the input quarter), then, for the last chunk of
  each slot of the sum buffer, the three waits that free the slot: the copies to the y and to the z partner have
  read it, the local copy has filled the chunk's rows of the result. The slot's three shares rejoin. The proof's
  repeated blocks are tactic text over the chunk's number, and the theorem's statement (one assertion per chunk)
  is spelt from the chunk's number in the same way.
-/
import proofs.«900725_g7700000000000726_dist_ar_v7x_xyz2x4x4_x_m8192_n1024_f32_1_alg».proof.Proof.StepWait
import proofs.«900725_g7700000000000726_dist_ar_v7x_xyz2x4x4_x_m8192_n1024_f32_1_alg».proof.Proof.Sets
import proofs.«900725_g7700000000000726_dist_ar_v7x_xyz2x4x4_x_m8192_n1024_f32_1_alg».proof.Proof.Tac

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Tactics
open Lean Elab Tactic Command

/-! ## The proof's repeated blocks -/

/-- The wait for the copy of chunk `j` to the x partner to have read its source. -/
def xsWaitText (j : Nat) : String :=
s!"(
  iapply (step_wait m c K (.xs {j}) (fun h => by cases h) (xS {j}) rfl 0 Nat.one_pos (vrM {j}) (srcX c {j}) _ _ rfl 0 (Nat.le_refl 0) 0 (above_zero 0) _ _) $$ [Cxs{j} HO Pxs{j}]
  · isplitr; · iexact HR
    isplitr; · iexact Hlev
    isplitl [Cxs{j}]; · iexact Cxs{j}
    isplitl [HO]; · iexact HO
    iexact Pxs{j}
  iintro ⟨HO, Pxs{j}, -, Hsx{j}⟩
  ihave Hsx{j} := (Entails.of_eq (show pay m c (.xs {j}) 0 0 = pts c (srcX c {j}) shX (X m c) from rfl)) $$ Hsx{j})"

/-- The three waits that free the slot of chunk `j`, and the slot's shares rejoined. -/
def slotWaitText (j : Nat) : String :=
s!"(
  iapply (step_wait m c K (.yds {j}) (fun h => by cases h) (ydS {j}) rfl 0 Nat.one_pos (outM c {j}) (vsM (slotOf {j})) _ _ rfl 0 (Nat.le_refl 0) 0 (above_zero 0) _ _) $$ [Cyds{j} HO Pyds{j}]
  · isplitr; · iexact HR
    isplitr; · iexact Hlev
    isplitl [Cyds{j}]; · iexact Cyds{j}
    isplitl [HO]; · iexact HO
    iexact Pyds{j}
  iintro ⟨HO, Pyds{j}, -, Ys{j}⟩
  ihave Ys{j} := (Entails.of_eq (show pay m c (.yds {j}) 0 0 = pts c (vsM {j % 2}) shY (VSc m c {j}) from rfl)) $$ Ys{j}
  iapply (step_wait m c K (.zds {j}) (fun h => by cases h) (zdS {j}) rfl 0 Nat.one_pos (outM c {j}) (vsM (slotOf {j})) _ _ rfl 0 (Nat.le_refl 0) 0 (above_zero 0) _ _) $$ [Czds{j} HO Pzds{j}]
  · isplitr; · iexact HR
    isplitr; · iexact Hlev
    isplitl [Czds{j}]; · iexact Czds{j}
    isplitl [HO]; · iexact HO
    iexact Pzds{j}
  iintro ⟨HO, Pzds{j}, -, Zs{j}⟩
  ihave Zs{j} := (Entails.of_eq (show pay m c (.zds {j}) 0 0 = pts c (vsM {j % 2}) shZ (VSc m c {j}) from rfl)) $$ Zs{j}
  iapply (step_wait m c K (.cpo {j % 2}) (fun h => by cases h) (cpoS {j % 2}) rfl {j / 2} (by decide) (vsM (slotOf {j})) (outM c {j}) _ _ rfl 0 (Nat.le_refl 0) 0 (above_zero 0) _ _) $$ [Ccpo{j} HO Pcpo{j % 2}]
  · isplitr; · iexact HR
    isplitr; · iexact Hlev
    isplitl [Ccpo{j}]; · iexact Ccpo{j}
    isplitl [HO]; · iexact HO
    iexact Pcpo{j % 2}
  iintro ⟨HO, Pcpo{j % 2}, -, Hpay⟩
  ihave Hpay := (Entails.of_eq (show pay m c (.cpo {j % 2}) {j / 2} 0 = iprop(pts c (outM c {j}) fullShare (OUTc m c) ∗ pts c (vsM {j % 2}) shO (VSc m c {j})) from rfl)) $$ Hpay
  icases Hpay with ⟨Hom{j}, Os{j}⟩
  ihave Hvs{j % 2} := ((share3 ((vsM {j % 2}).view.loc (c : Thread nD τ)) (vsM {j % 2}).view.set (VSc m c {j})).2) $$ [Os{j} Ys{j} Zs{j}]
  · isplitl [Os{j}]; · iexact Os{j}
    isplitl [Ys{j}]; · iexact Ys{j}
    iexact Zs{j})"

elab "ph_xswaits" : tactic => do
  for j in [0:16] do runTacStr (xsWaitText j)
elab "ph_slotwaits " j:num : tactic => runTacStr (slotWaitText j.getNat)

/-! ## The statement, spelt from the chunk's number

The phase's resources are listed as pairs: the name the proof gives a hypothesis, and its assertion. -/

/-- One assertion per chunk `0 … n - 1`. -/
def perChunkT (n : Nat) (f : Nat → String × String) : List (String × String) := (List.range n).map f

/-- The credit and the positions of the last chunk `j` of a slot: its two send cells', and its local copy's credit. -/
def slotCred (j : Nat) : List (String × String) :=
  [(s!"Cyds{j}", s!"cred (tallyAt (cell c (.yds {j})) () No)"), (s!"Czds{j}", s!"cred (tallyAt (cell c (.zds {j})) () No)"),
   (s!"Ccpo{j}", s!"cred (tallyAt (cell c (.cpo (slotOf {j}))) () No)")]
def slotPos (j r : Nat) : List (String × String) :=
  [(s!"Pyds{j}", s!"atPos ER (cell c (.yds {j})) {r} ∅ 0"), (s!"Pzds{j}", s!"atPos ER (cell c (.zds {j})) {r} ∅ 0")]
def slotPos0 (j : Nat) : List (String × String) :=
  [(s!"Pyds{j}", s!"pos0 c (.yds {j})"), (s!"Pzds{j}", s!"pos0 c (.zds {j})")]
/-- The two local-copy cells at round `r`. -/
def cpoPos (r : Nat) : List (String × String) :=
  perChunkT 2 (fun s => (s!"Pcpo{s}", s!"atPos ER (cell c (.cpo {s})) {r} ∅ 0"))

/-- What these waits consume. -/
def preT2List : List (String × String) :=
  [("HO", "ow c 0")]
  ++ perChunkT 16 (fun j => (s!"Cxs{j}", s!"cred (tallyAt (cell c (.xs {j})) () Nv)"))
  ++ perChunkT 16 (fun j => (s!"Pxs{j}", s!"pos0 c (.xs {j})"))
  ++ slotCred 14 ++ slotCred 15 ++ slotPos0 14 ++ slotPos0 15 ++ cpoPos 7
/-- What they leave. -/
def postT2List : List (String × String) :=
  [("HO", "ow c 0")]
  ++ perChunkT 16 (fun j => (s!"Hsx{j}", s!"pts c (srcX c {j}) shX (X m c)"))
  ++ perChunkT 16 (fun j => (s!"Pxs{j}", s!"atPos ER (cell c (.xs {j})) 1 ∅ 0"))
  ++ slotPos 14 1 ++ slotPos 15 1 ++ cpoPos 8
  ++ [("Hom14", "pts c (outM c 14) fullShare (OUTc m c)"), ("Hom15", "pts c (outM c 15) fullShare (OUTc m c)"),
      ("Hvs0", "pts c (vsM 0) fullShare (VSc m c 14)"), ("Hvs1", "pts c (vsM 1) fullShare (VSc m c 15)")]
/-- The sixteen waits on the send cells of the copies to the x partner, then the two slots' waits, before the
    continuation. -/
def chainT2Str : String :=
  (List.range 16).foldr (fun j acc =>
      s!"fWait (xS {j}) (vrM {j}) (srcX c {j}) (View.wordExact_bits rfl) (View.wordExact_bits rfl) ({acc})")
    "fWaitYdS c 14 (fWaitZdS c 14 (fWaitO c 14 (fWaitYdS c 15 (fWaitZdS c 15 (fWaitO c 15 kk)))))"

/-- Proving a `∗`-chain of named hypotheses, in order: one line each. -/
def closeRunT2 : List String → String
  | [] => "  iempintro"
  | [n] => s!"  iexact {n}"
  | n :: ns => s!"  isplitl [{n}]; · iexact {n}\n" ++ closeRunT2 ns

/-- The phase's theorem: from the persistent facts, what the phase consumes and a continuation taking what it
    leaves, the phase's statements followed by the continuation run. -/
def phaseTextT2 (name : String) (pre post : List (String × String)) (chain tac : String) : String :=
  let sep := fun (l : List (String × String)) => "\n        ∗ ".intercalate (l.map (·.2))
  s!"theorem {name} (c : Dev nD) (K : Dev nD × CK → ℕ) (kk : PR F PUnit) (Q : PUnit → sProp 𝕄) :
    iprop(recs m K ∗ levAts L lv
        ∗ {sep pre}
        ∗ (({sep post})
            -∗ wp frame (wpE (defs₀ (F := F)) 𝒱₀ c none) Set.univ kk Q))
      ⊢ wp frame (wpE (defs₀ (F := F)) 𝒱₀ c none) Set.univ
          ({chain}) Q := by
  iintro ⟨#HR, #Hlev, {", ".intercalate (pre.map (·.1))}, Hk⟩
  {tac}
  iapply Hk
{closeRunT2 (post.map (·.1))}"

/-- Parse one command and elaborate it. -/
def cmdOfTextT2 (s : String) : CommandElabM Unit := do
  match Parser.runParserCategory (← getEnv) `command s with
  | .ok stx => elabCommand stx
  | .error e => throwError "command text does not parse: {e}\n{s}"

elab "gen_phase_T2" : command =>
  cmdOfTextT2 (phaseTextT2 "phase_T2" preT2List postT2List chainT2Str "ph_xswaits\n  ph_slotwaits 14\n  ph_slotwaits 15")

end Tactics

gen_phase_T2

/-- info: 'Cert.KernelIdeal.Ar.phase_T2' depends on axioms: [propext, Classical.choice, Quot.sound] -/
#guard_msgs in #print axioms phase_T2

end Cert.KernelIdeal.Ar

end
-- ==== Proof.PhC.lean ====
/-
  The kernel's end: every DMA cell of the device stands past its last round (round 1 for the one-round cells, round 8
  for the two cells of the local copies of the sums), where it has no duty left, so the device closes each and takes its
  counter back at zero; together they are the device's 131 DMA semaphores at zero.
-/
import proofs.«900725_g7700000000000726_dist_ar_v7x_xyz2x4x4_x_m8192_n1024_f32_1_alg».proof.Proof.StepWait
import proofs.«900725_g7700000000000726_dist_ar_v7x_xyz2x4x4_x_m8192_n1024_f32_1_alg».proof.Proof.Sems

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
/-- Under a persistent assertion, an update of every summand is an update of the whole. -/
theorem bigSep_fupd_under {I : Type} [DecidableEq I] {S : Finset I} {R : sProp 𝕄} [BI.Persistent R] {Φ Ψ : I → sProp 𝕄}
    (h : ∀ i ∈ S, iprop(R ∗ Φ i) ⊢ iprop(|={Set.univ}=> Ψ i)) : iprop(R ∗ bigSep S Φ) ⊢ iprop(|={Set.univ}=> bigSep S Ψ) :=
  ((sep_mono_left (BI.bigSep_of_persistent S R)).trans (by rw [← bigSep_sep']; exact bigSep_mono h)).trans (bigSep_fupd _ _)

/-- The six cells of chunk `j`'s copies to the x, y and z partner, closed. -/
theorem close_six (c : Dev nD) (K : Dev nD × CK → ℕ) (j : Fin 16) :
    iprop(recs m K ∗ (atPos ER (cell c (.xs j)) 1 ∅ 0 ∗ atPos ER (cell c (.xr j)) 1 ∅ 0 ∗ atPos ER (cell c (.yds j)) 1 ∅ 0
        ∗ atPos ER (cell c (.ydr j)) 1 ∅ 0 ∗ atPos ER (cell c (.zds j)) 1 ∅ 0 ∗ atPos ER (cell c (.zdr j)) 1 ∅ 0))
      ⊢ iprop(|={Set.univ}=> (semVal (cell c (.xs j)) 0 ∗ semVal (cell c (.xr j)) 0 ∗ semVal (cell c (.yds j)) 0
        ∗ semVal (cell c (.ydr j)) 0 ∗ semVal (cell c (.zds j)) 0 ∗ semVal (cell c (.zdr j)) 0)) := by
  iintro ⟨#HR, P1, P2, P3, P4, P5, P6⟩
  imod (close_cell m c K (.xs j) (fun h => by cases h)) $$ [P1] with S1
  · isplitr; · iexact HR
    iexact P1
  imod (close_cell m c K (.xr j) (fun h => by cases h)) $$ [P2] with S2
  · isplitr; · iexact HR
    iexact P2
  imod (close_cell m c K (.yds j) (fun h => by cases h)) $$ [P3] with S3
  · isplitr; · iexact HR
    iexact P3
  imod (close_cell m c K (.ydr j) (fun h => by cases h)) $$ [P4] with S4
  · isplitr; · iexact HR
    iexact P4
  imod (close_cell m c K (.zds j) (fun h => by cases h)) $$ [P5] with S5
  · isplitr; · iexact HR
    iexact P5
  imod (close_cell m c K (.zdr j) (fun h => by cases h)) $$ [P6] with S6
  · isplitr; · iexact HR
    iexact P6
  imodintro
  isplitl [S1]; · iexact S1
  isplitl [S2]; · iexact S2
  isplitl [S3]; · iexact S3
  isplitl [S4]; · iexact S4
  isplitl [S5]; · iexact S5
  iexact S6

/-- The four cells of forwarded chunk `e`'s two forwards, closed. -/
theorem close_four (c : Dev nD) (K : Dev nD × CK → ℕ) (e : Fin 8) :
    iprop(recs m K ∗ (atPos ER (cell c (.yrs e)) 1 ∅ 0 ∗ atPos ER (cell c (.yrr e)) 1 ∅ 0 ∗ atPos ER (cell c (.zrs e)) 1 ∅ 0
        ∗ atPos ER (cell c (.zrr e)) 1 ∅ 0))
      ⊢ iprop(|={Set.univ}=> (semVal (cell c (.yrs e)) 0 ∗ semVal (cell c (.yrr e)) 0 ∗ semVal (cell c (.zrs e)) 0
        ∗ semVal (cell c (.zrr e)) 0)) := by
  iintro ⟨#HR, P1, P2, P3, P4⟩
  imod (close_cell m c K (.yrs e) (fun h => by cases h)) $$ [P1] with S1
  · isplitr; · iexact HR
    iexact P1
  imod (close_cell m c K (.yrr e) (fun h => by cases h)) $$ [P2] with S2
  · isplitr; · iexact HR
    iexact P2
  imod (close_cell m c K (.zrs e) (fun h => by cases h)) $$ [P3] with S3
  · isplitr; · iexact HR
    iexact P3
  imod (close_cell m c K (.zrr e) (fun h => by cases h)) $$ [P4] with S4
  · isplitr; · iexact HR
    iexact P4
  imodintro
  isplitl [S1]; · iexact S1
  isplitl [S2]; · iexact S2
  isplitl [S3]; · iexact S3
  iexact S4

/-- Every DMA cell of the device closed: its DMA semaphores all at zero. -/
theorem close_all (c : Dev nD) (K : Dev nD × CK → ℕ) :
    iprop(recs m K
        ∗ (bigSep Finset.univ fun j : Fin 16 => iprop(atPos ER (cell c (.xs j)) 1 ∅ 0 ∗ atPos ER (cell c (.xr j)) 1 ∅ 0
            ∗ atPos ER (cell c (.yds j)) 1 ∅ 0 ∗ atPos ER (cell c (.ydr j)) 1 ∅ 0 ∗ atPos ER (cell c (.zds j)) 1 ∅ 0
            ∗ atPos ER (cell c (.zdr j)) 1 ∅ 0))
        ∗ (bigSep Finset.univ fun e : Fin 8 => iprop(atPos ER (cell c (.yrs e)) 1 ∅ 0 ∗ atPos ER (cell c (.yrr e)) 1 ∅ 0
            ∗ atPos ER (cell c (.zrs e)) 1 ∅ 0 ∗ atPos ER (cell c (.zrr e)) 1 ∅ 0))
        ∗ atPos ER (cell c .cpq) 1 ∅ 0 ∗ atPos ER (cell c (.cpo 0)) 8 ∅ 0 ∗ atPos ER (cell c (.cpo 1)) 8 ∅ 0)
      ⊢ iprop(|={Set.univ}=> sems0 (F := F) c) := by
  iintro ⟨#HR, H16, H8, Pq, Po0, Po1⟩
  imod (bigSep_fupd_under (R := recs m K) (fun j _ => close_six m c K j)) $$ [H16] with S16
  · isplitr; · iexact HR
    iexact H16
  imod (bigSep_fupd_under (R := recs m K) (fun e _ => close_four m c K e)) $$ [H8] with S8
  · isplitr; · iexact HR
    iexact H8
  imod (close_cell m c K .cpq (fun h => by cases h)) $$ [Pq] with Sq
  · isplitr; · iexact HR
    iexact Pq
  imod (close_cell m c K (.cpo 0) (fun h => by cases h)) $$ [Po0] with So0
  · isplitr; · iexact HR
    iexact Po0
  imod (close_cell m c K (.cpo 1) (fun h => by cases h)) $$ [Po1] with So1
  · isplitr; · iexact HR
    iexact Po1
  imodintro
  iapply (sems0_intro (F := F) c)
  isplitl [S16]; · iexact S16
  isplitl [S8]; · iexact S8
  isplitl [Sq]; · iexact Sq
  isplitl [So0] <;> iassumption

/-- info: 'Cert.KernelIdeal.Ar.close_all' depends on axioms: [propext, Classical.choice, Quot.sound] -/
#guard_msgs in #print axioms close_all

end Cert.KernelIdeal.Ar

end
-- ==== Proof.Names.lean ====
/-
  Names by number: the body keeps one proof-mode hypothesis per chunk (sixteen or eight of each kind), named by a
  prefix and the chunk's number. These functions spell such lists, and `run_tac` runs tactic text built from them.
-/
import proofs.«900725_g7700000000000726_dist_ar_v7x_xyz2x4x4_x_m8192_n1024_f32_1_alg».proof.Proof.Tac

open Lean Elab Tactic

namespace Cert.KernelIdeal.Ar

/-- `p0 p1 … p(n-1)`, separated by blanks: for `iframe`. -/
def nm (p : String) (n : Nat) : String := " ".intercalate ((List.range n).map fun i => s!"{p}{i}")
/-- `p0, p1, …, p(n-1)`: for an introduction pattern. -/
def pt (p : String) (n : Nat) : String := ", ".intercalate ((List.range n).map fun i => s!"{p}{i}")
/-- `⟨a0, b0, …⟩, ⟨a1, b1, …⟩, …`: one group per number, of the given prefixes. -/
def grp (ps : List String) (n : Nat) : String :=
  ", ".intercalate ((List.range n).map fun i => "⟨" ++ ", ".intercalate (ps.map fun p => s!"{p}{i}") ++ "⟩")
/-- The same groups as one `∗`-chain of names separated by blanks. -/
def grpNm (ps : List String) (n : Nat) : String :=
  " ".intercalate ((List.range n).map fun i => " ".intercalate (ps.map fun p => s!"{p}{i}"))

/-- `run_tac e`: evaluate the string `e` and run it as one tactic. -/
elab "run_tac " e:term : tactic => do
  let s ← unsafe (Term.evalTerm String (mkConst ``String) e)
  runTacStr s

end Cert.KernelIdeal.Ar
-- ==== Proof.Body.lean ====
/-
  The body of the kernel on one device, run from the ghost state the launch deals it to the state it ends in.
  The printed body is the chain of its statements (Frag.lean). It is cut into phases, each a theorem of its own:
  the entry (the local copy of the device's quarter, the three barrier signals, the wait for the three partners),
  the sixteen copies to the x partner, the arrival of the quarter, the reduce-and-spread loop, the forwarding loop,
  and the closing waits; then every own semaphore cell is closed and the buffers are put back together. Between two
  phases every resource is a hypothesis of its own, named by its kind and its chunk's number.
-/
import proofs.«900725_g7700000000000726_dist_ar_v7x_xyz2x4x4_x_m8192_n1024_f32_1_alg».proof.Proof.PhP
import proofs.«900725_g7700000000000726_dist_ar_v7x_xyz2x4x4_x_m8192_n1024_f32_1_alg».proof.Proof.PhE
import proofs.«900725_g7700000000000726_dist_ar_v7x_xyz2x4x4_x_m8192_n1024_f32_1_alg».proof.Proof.PhS
import proofs.«900725_g7700000000000726_dist_ar_v7x_xyz2x4x4_x_m8192_n1024_f32_1_alg».proof.Proof.PhF
import proofs.«900725_g7700000000000726_dist_ar_v7x_xyz2x4x4_x_m8192_n1024_f32_1_alg».proof.Proof.PhT
import proofs.«900725_g7700000000000726_dist_ar_v7x_xyz2x4x4_x_m8192_n1024_f32_1_alg».proof.Proof.PhT2
import proofs.«900725_g7700000000000726_dist_ar_v7x_xyz2x4x4_x_m8192_n1024_f32_1_alg».proof.Proof.PhC
import proofs.«900725_g7700000000000726_dist_ar_v7x_xyz2x4x4_x_m8192_n1024_f32_1_alg».proof.Proof.Names
import proofs.«900725_g7700000000000726_dist_ar_v7x_xyz2x4x4_x_m8192_n1024_f32_1_alg».proof.Proof.Gen.KernelIdeal.Skeleton
import proofs.«900725_g7700000000000726_dist_ar_v7x_xyz2x4x4_x_m8192_n1024_f32_1_alg».proof.Proof.Gen.KernelIdeal.Points

set_option maxRecDepth 65536

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The printed body's root sequence names part 74 and parts 61 to 73; part 74 is itself the sequence of parts 1 to 60. -/
def outerParts : List Nat := 74 :: (List.range 13).map (· + 61)
def innerParts : List Nat := (List.range 60).map (· + 1)

/-- The forwarding loop's results, in program order: iteration `j` leaves the two positions and the chunk it did not
    forward (an even iteration forwards the z partner's chunk and keeps the y partner's, an odd one the reverse). -/
def fwdPat : String :=
  ", ".intercalate ((List.range 16).map fun j => s!"Pydr{j}, Pzdr{j}, " ++ (if j % 2 = 0 then s!"Goy{j}" else s!"Goz{j}"))

/-- Restating the forwarded chunks, back from their send waits, as rows of the partners' quarters. -/
def backTac : String :=
  "(" ++ "; ".intercalate ((List.range 8).map fun e =>
    s!"ihave Goz{2*e} := (Entails.of_eq (show pts c (outE c {e}) fullShare (OUTc m c) = pts c (outM (zp c) {2*e}) fullShare (OUTc m c) from outM_even c {e} _ _)) $$ Se{e}; " ++
    s!"ihave Goy{2*e+1} := (Entails.of_eq (show pts c (outO c {e}) fullShare (OUTc m c) = pts c (outM (yp c) {2*e+1}) fullShare (OUTc m c) from outM_odd c {e} _ _)) $$ So{e}") ++ ")"

/-- Every own cell's position at its last round, as the closing takes them. -/
def posNames : String :=
  grpNm ["Pxs","Pxr","Pyds","Pydr","Pzds","Pzdr"] 16 ++ " " ++ grpNm ["Pyrs","Pyrr","Pzrs","Pzrr"] 8 ++ " Pcpq Pcpo0 Pcpo1"

set_option maxHeartbeats 8000000 in
theorem sound_body (m : (ℓ : Loc nD τ sig) → Buf (Elt F) ℓ) (c : Dev nD) (K : Dev nD × CK → ℕ) (W₀ : Waits sig Unit) (Kt : PUnit → sProp 𝕄) :
    iprop((ghost m K c ∗ creds c ∗ levAts L lv ∗ bufs0 m c ∗ owes (c : Thread nD τ) (O₀ c) W₀)
        ∗ ((Φ₁ m c ∗ ∃ W, owes (c : Thread nD τ) 0 W) -∗ Kt ⟨⟩))
      ⊢ wp frame (wpE (defs₀ (F := F)) 𝒱₀ c none) Set.univ
        (cc0_body (Memref.whole main_arg0) (Memref.isWhole_whole _) (Memref.whole main_v1) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4 cc0_scratch5 cc0_scratch6 cc0_scratch7 cc0_scratch8
          cc0_scratch9 cc0_scratch10 cc0_scratch11 cc0_scratch12 cc0_scratch13 cc0_scratch14) Kt := by
  -- the body as the chain of its statements
  rw [cc0_body_eq_skeleton]; unfold cc0_body_skel
  run_tac ("(simp only [" ++ ", ".intercalate (outerParts.map fun i => s!"k0_part{i}_eq_skeleton") ++ "])")
  run_tac ("(unfold " ++ " ".intercalate (outerParts.map fun i => s!"k0_part{i}_skel") ++ ")")
  run_tac ("(simp only [" ++ ", ".intercalate (innerParts.map fun i => s!"k0_part{i}_eq_skeleton") ++ "])")
  run_tac ("(unfold " ++ " ".intercalate (innerParts.map fun i => s!"k0_part{i}_skel") ++ ")")
  simp only [semSignalWord, semWaitWord, Prog.lift, Prog.bind_op, Prog.bind_ret, Prog.pure_eq_ret, wp_deviceId]
  -- what the device starts from, one name per resource
  have hpre := prelude (F := F) m c K W₀
  conv at hpre => rhs; simp only [postPrelude, posOwn, payToks, creds, bufsP, bigSep_fin16, bigSep_fin8]
  iintro ⟨Hall, HK⟩
  ihave Hpre := hpre $$ Hall
  run_tac ("(icases Hpre with ⟨#HR, #Hlev, ⟨Pbar, Pcpq, Pcpo0, Pcpo1, ⟨" ++ grp ["Pxs","Pxr","Pyds","Pydr","Pzds","Pzdr"] 16 ++ "⟩, ⟨"
    ++ grp ["Pyrs","Pyrr","Pzrs","Pzrr"] 8 ++ "⟩⟩, ⟨Tbx, Tby, Tbz, Tcpq, ⟨" ++ grp ["Txs","Txr"] 16 ++ "⟩, ⟨"
    ++ grp ["Tcpo","Tyds","Tydr","Tzds","Tzdr"] 16 ++ "⟩, ⟨" ++ grp ["Tyrs","Tyrr","Tzrs","Tzrr"] 8 ++ "⟩⟩, ⟨Cbar, ⟨"
    ++ grp ["Cxr","Cydr","Czdr"] 16 ++ "⟩, ⟨" ++ grp ["Cyrr","Czrr"] 8 ++ "⟩⟩, HO, ⟨HinRest, HQ, ⟨" ++ pt "Hsx" 16
    ++ "⟩, ⟨%fq, Hvq⟩, ⟨%fo, ⟨" ++ pt "Hom" 16 ++ "⟩⟩, HpX, HpY, HpZ, ⟨%fs, Hvs0, Hvs1⟩⟩⟩)")
  clear hpre
  -- entry: the local copy of the quarter, the three barrier signals, the wait for the three partners
  iapply (phase_E m c K fq _ _)
  iframe HR Hlev HO HQ Hvq Tcpq HpX HpY HpZ Tbx Tby Tbz Cbar Pbar
  run_tac ("(iintro ⟨HO, Ccpq, Pbar, " ++ pt "Rvr" 16 ++ ", " ++ pt "Roy" 16 ++ ", " ++ pt "RoyE" 8 ++ ", " ++ pt "Roz" 16 ++ ", " ++ pt "RozO" 8 ++ "⟩)")
  -- the sixteen copies to the x partner
  iapply (phase_X m c K _ _)
  run_tac ("(iframe HR Hlev HO " ++ nm "Hsx" 16 ++ " " ++ nm "Rvr" 16 ++ " " ++ nm "Txs" 16 ++ " " ++ nm "Txr" 16 ++ ")")
  run_tac ("(iintro ⟨HO, " ++ pt "Cxs" 16 ++ "⟩)")
  -- the quarter has arrived in the staging buffer
  iapply (phase_Q m c K _ _)
  iframe HR Hlev HO Ccpq Pcpq
  iintro ⟨HO, Pcpq, Hvq, HQ⟩
  -- the reduce-and-spread loop
  have hS := phase_S (F := F) m c K fs fs fo
  simp only [preS, preSj, postS, postSj, pendSj] at hS
  iapply (hS _ _)
  run_tac ("(iframe HR Hlev HO Hvq Hvs0 Hvs1 Pcpo0 Pcpo1 " ++ grpNm ["Cxr","Pxr","Pyds","Pzds","Hom","Tcpo","Roy","Tyds","Tydr","Roz","Tzds","Tzdr"] 16 ++ ")")
  run_tac ("(iintro ⟨HO, Hvq, Pcpo0, Pcpo1, " ++ grp ["Pxr","Hvr","Pyds","Pzds","Hom"] 14
    ++ ", ⟨Pxr14, Hvr14, Pyds14, Pzds14, Cyds14, Czds14, Ccpo14⟩, ⟨Pxr15, Hvr15, Pyds15, Pzds15, Cyds15, Czds15, Ccpo15⟩⟩)")
  clear hS
  ihave HO := (Entails.of_eq (show ow (F := F) c (rem2 c 0) = ow c (rem3 c 16) from rfl)) $$ HO
  -- the forwarding loop
  have hF := phase_F (F := F) m c K
  simp only [preF, postF] at hF
  iapply (hF _ _)
  run_tac ("(iframe HR Hlev HO " ++ grpNm ["Cydr","Pydr","Czdr","Pzdr"] 16 ++ " " ++ grpNm ["RoyE","Tyrs","Tyrr","RozO","Tzrs","Tzrr"] 8 ++ ")")
  run_tac ("(iintro ⟨HO, " ++ fwdPat ++ ", " ++ ", ".intercalate ((List.range 8).map fun e => s!"Cyrs{e}, Czrs{e}") ++ "⟩)")
  clear hF
  ihave HO := (Entails.of_eq (show ow (F := F) c (rem3 c 0) = ow c 0 from rfl)) $$ HO
  -- the closing waits: the forwards' receive and send cells
  have hT1 := phase_T1 (F := F) m c K (α := PUnit)
  simp only [bigSep_fin8, preE, postE, crN, posAt, wpB, chainT1, tailE] at hT1
  iapply (hT1 _ _)
  run_tac ("(iframe HR Hlev HO " ++ grpNm ["Cyrr","Pyrr","Czrr","Pzrr","Cyrs","Pyrs","Czrs","Pzrs"] 8 ++ ")")
  run_tac ("(iintro ⟨HO, " ++ grp ["Pyrr","GoE","Pzrr","GoO","Pyrs","Se","Pzrs","So"] 8 ++ "⟩)")
  clear hT1
  -- the x copies' send cells and the last two chunks' slots
  iapply (phase_T2 m c K _ _)
  run_tac ("(iframe HR Hlev HO " ++ nm "Cxs" 16 ++ " " ++ nm "Pxs" 16 ++ " Cyds14 Czds14 Ccpo14 Cyds15 Czds15 Ccpo15 Pyds14 Pzds14 Pyds15 Pzds15 Pcpo0 Pcpo1)")
  run_tac ("(iintro ⟨HO, " ++ pt "Hsx" 16 ++ ", " ++ pt "Pxs" 16 ++ ", Pyds14, Pzds14, Pyds15, Pzds15, Pcpo0, Pcpo1, Hom14, Hom15, Hvs0, Hvs1⟩)")
  -- the forwarded chunks are rows of the partners' quarters
  run_tac backTac
  -- every own cell is at its last round: close them
  rw [wp_ret]
  have hC := close_all (F := F) m c K
  conv at hC => lhs; simp only [bigSep_fin16, bigSep_fin8]
  run_tac ("(ihave Hs := hC $$ [" ++ posNames ++ "])")
  · run_tac ("(iframe HR " ++ posNames ++ ")")
  clear hC
  imod Hs with Hsems
  imodintro
  -- the buffers put back together
  have hfin := finale (F := F) m c (VQc m c) (VSc m c 14) (VSc m c 15)
  conv at hfin => lhs; simp only [preFinale, bigSep_fin16, bigSep_fin8]
  iapply HK
  iapply hfin
  run_tac ("(iframe HinRest HQ " ++ nm "Hsx" 16 ++ " " ++ nm "Hom" 16 ++ " " ++ nm "Goy" 16 ++ " " ++ nm "Goz" 16 ++ " " ++ nm "GoE" 8 ++ " "
    ++ nm "GoO" 8 ++ " Hvq " ++ nm "Hvr" 16 ++ " Hvs0 Hvs1 Hsems HO)")

/-- info: 'Cert.KernelIdeal.Ar.sound_body' depends on axioms: [propext, Classical.choice, Quot.sound] -/
#guard_msgs in #print axioms sound_body

end Cert.KernelIdeal.Ar

end
-- ==== Proof.Launch.lean ====
/-
  The launch: from "each device's body is proved" to the run of the whole mesh.
  * The ghost state: one rounds cell per semaphore of every TensorCore (the barrier semaphore and the 131 DMA
    semaphores), one token per duty of the schedule. Funding deals each device its own cells' round states, positions
    and tokens; the global step puts every cell's counter, at zero, with its round state under an invariant, and then
    hands each token to the device that PAYS its duty: a device's receive cells' tokens go to the partner whose copy
    lands there, its barrier cell's three tokens to its three partners. The partners are involutions of the mesh, so
    the dealing is a reindexing of a separating conjunction over the devices.
  * The launch credit: each device is dealt, on each of its cells, what the other devices owe that cell at launch:
    three units on its barrier cell, one copy's credit on each receive cell.
  * The run: the launch theorem for cores that owe at launch and share the runtime's barrier semaphore.
-/
import proofs.«900725_g7700000000000726_dist_ar_v7x_xyz2x4x4_x_m8192_n1024_f32_1_alg».proof.Proof.Body
import proofs.«900725_g7700000000000726_dist_ar_v7x_xyz2x4x4_x_m8192_n1024_f32_1_alg».proof.Proof.Gen.KernelIdeal.Launch
import proofs.«900725_g7700000000000726_dist_ar_v7x_xyz2x4x4_x_m8192_n1024_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Ar

open Cert.KernelIdeal Cert.KernelIdeal.Gen Cert.KernelIdeal.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Separating conjunctions over the index types of the launch -/

section BigSep
variable {M : Type} [URA M]

/-- Two nested separating conjunctions over finite sets commute. -/
theorem bigSep_comm {I J : Type} (s : Finset I) (t : Finset J) (Φ : I → J → sProp M) :
    (bigSep s fun i => bigSep t fun j => Φ i j) = bigSep t fun j => bigSep s fun i => Φ i j := by
  classical
  induction t using Finset.induction_on with
  | empty => simp only [bigSep_empty]; exact bigSep_emp_const _
  | insert a t ha ih =>
    rw [bigSep_insert ha, ← ih]
    exact Eq.trans (bigSep_congr fun i _ => bigSep_insert ha) (bigSep_sep' s _ _)

/-- Dealing: a family over (device, `k`) regrouped along a bijection of the devices for each `k`. -/
theorem bigSep_deal {K : Type} (t : Finset K) (π : K → Dev nD ≃ Dev nD) (Φ : Dev nD → K → sProp M) :
    (bigSep Finset.univ fun c : Dev nD => bigSep t fun k => Φ c k) = bigSep Finset.univ fun c : Dev nD => bigSep t fun k => Φ (π k c) k := by
  rw [bigSep_comm, bigSep_comm (Φ := fun c k => Φ (π k c) k)]
  exact bigSep_congr fun k _ => bigSep_univ_equiv (π k) (fun c => Φ c k)

theorem bigSep_unit (Φ : Unit → sProp M) : bigSep Finset.univ Φ = Φ () := bigSep_univ_of_subsingleton ()
theorem bigSep_fin2 (Φ : Fin 2 → sProp M) : bigSep Finset.univ Φ = iprop(Φ 0 ∗ Φ 1) :=
  bigSep_univ_eq_bigSepL [0, 1] (by decide) (by decide) Φ
theorem bigSep_fin4 (Φ : Fin 4 → sProp M) : bigSep Finset.univ Φ = iprop(Φ 0 ∗ Φ 1 ∗ Φ 2 ∗ Φ 3) :=
  bigSep_univ_eq_bigSepL [0, 1, 2, 3] (by decide) (by decide) Φ
theorem bigSep_fin5 (Φ : Fin 5 → sProp M) : bigSep Finset.univ Φ = iprop(Φ 0 ∗ Φ 1 ∗ Φ 2 ∗ Φ 3 ∗ Φ 4) :=
  bigSep_univ_eq_bigSepL [0, 1, 2, 3, 4] (by decide) (by decide) Φ
theorem bigSep_fin6 (Φ : Fin 6 → sProp M) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

end BigSep

/-! ## The kinds of cell, enumerated in the order the ghost state groups them -/

/-- The barrier, the input copy's, the two result copies' cells; per chunk the six cells of the exchange with the x
    partner and the spread to the y and z partners; per forwarded chunk the four cells of the two forwards. -/
abbrev CKS : Type := Unit ⊕ Unit ⊕ Unit ⊕ Unit ⊕ (Fin 16 × Fin 6) ⊕ (Fin 8 × Fin 4)

def ckOfS : CKS → CK
  | .inl _ => .bar
  | .inr (.inl _) => .cpq
  | .inr (.inr (.inl _)) => .cpo 0
  | .inr (.inr (.inr (.inl _))) => .cpo 1
  | .inr (.inr (.inr (.inr (.inl jb)))) => (![CK.xs jb.1, .xr jb.1, .yds jb.1, .ydr jb.1, .zds jb.1, .zdr jb.1] : Fin 6 → CK) jb.2
  | .inr (.inr (.inr (.inr (.inr ib)))) => (![CK.yrs ib.1, .yrr ib.1, .zrs ib.1, .zrr ib.1] : Fin 4 → CK) ib.2

def sOfCk : CK → CKS
  | .bar => .inl ()
  | .cpq => .inr (.inl ())
  | .cpo s => if s = 0 then .inr (.inr (.inl ())) else .inr (.inr (.inr (.inl ())))
  | .xs j => .inr (.inr (.inr (.inr (.inl (j, 0)))))
  | .xr j => .inr (.inr (.inr (.inr (.inl (j, 1)))))
  | .yds j => .inr (.inr (.inr (.inr (.inl (j, 2)))))
  | .ydr j => .inr (.inr (.inr (.inr (.inl (j, 3)))))
  | .zds j => .inr (.inr (.inr (.inr (.inl (j, 4)))))
  | .zdr j => .inr (.inr (.inr (.inr (.inl (j, 5)))))
  | .yrs i => .inr (.inr (.inr (.inr (.inr (i, 0)))))
  | .yrr i => .inr (.inr (.inr (.inr (.inr (i, 1)))))
  | .zrs i => .inr (.inr (.inr (.inr (.inr (i, 2)))))
  | .zrr i => .inr (.inr (.inr (.inr (.inr (i, 3)))))

theorem sOfCk_ckOfS : ∀ s : CKS, sOfCk (ckOfS s) = s := by
  rintro (_ | _ | _ | _ | ⟨j, b⟩ | ⟨i, b⟩)
  · rfl
  · rfl
  · rfl
  · rfl
  · fin_cases b <;> rfl
  · fin_cases b <;> rfl
theorem ckOfS_sOfCk : ∀ k : CK, ckOfS (sOfCk k) = k := by
  intro k; cases k <;> first | rfl | (rename_i s; revert s; decide)

def ckS : CKS ≃ CK := ⟨ckOfS, sOfCk, sOfCk_ckOfS, ckOfS_sOfCk⟩

/-- A separating conjunction over the kinds of cell, in that order. -/
theorem bigSep_CK {M : Type} [URA M] (Φ : CK → sProp M) :
    bigSep Finset.univ Φ = iprop(Φ .bar ∗ Φ .cpq ∗ Φ (.cpo 0) ∗ Φ (.cpo 1)
      ∗ (bigSep Finset.univ fun j : Fin 16 => iprop(Φ (.xs j) ∗ Φ (.xr j) ∗ Φ (.yds j) ∗ Φ (.ydr j) ∗ Φ (.zds j) ∗ Φ (.zdr j)))
      ∗ (bigSep Finset.univ fun i : Fin 8 => iprop(Φ (.yrs i) ∗ Φ (.yrr i) ∗ Φ (.zrs i) ∗ Φ (.zrr i)))) := by
  rw [bigSep_univ_equiv ckS Φ, bigSep_univ_sum, bigSep_univ_sum, bigSep_univ_sum, bigSep_univ_sum, bigSep_univ_sum,
    bigSep_unit, bigSep_unit, bigSep_unit, bigSep_unit, bigSep_univ_prod, bigSep_univ_prod]
  simp only [bigSep_fin6, bigSep_fin4]
  rfl

/-- The semaphore of a kind, as a bijection onto a core's semaphores. -/
theorem loc_ckOf : ∀ sm : SemLoc sig, (ckOf sm).loc = sm := by decide
def ckEquiv : CK ≃ SemLoc sig := ⟨CK.loc, ckOf, ckOf_loc, loc_ckOf⟩

/-! ## The duty tokens, enumerated in the order the ghost state groups the ones a device pays -/

def xpE : Dev nD ≃ Dev nD := ⟨xp, xp, xp_xp, xp_xp⟩
def ypE : Dev nD ≃ Dev nD := ⟨yp, yp, yp_yp, yp_yp⟩
def zpE : Dev nD ≃ Dev nD := ⟨zp, zp, zp_zp, zp_zp⟩

/-- The three barrier duties and the input copy's; per chunk the two of the exchange with the x partner; per chunk
    the five of the sum's copies; per forwarded chunk the four of the two forwards. -/
abbrev TI : Type := Unit ⊕ Unit ⊕ Unit ⊕ Unit ⊕ (Fin 16 × Fin 2) ⊕ (Fin 16 × Fin 5) ⊕ (Fin 8 × Fin 4)

/-- A token's kind of cell, -/
def tkK : TI → CK
  | .inl _ => .bar
  | .inr (.inl _) => .bar
  | .inr (.inr (.inl _)) => .bar
  | .inr (.inr (.inr (.inl _))) => .cpq
  | .inr (.inr (.inr (.inr (.inl jb)))) => (![CK.xs jb.1, .xr jb.1] : Fin 2 → CK) jb.2
  | .inr (.inr (.inr (.inr (.inr (.inl jb))))) => (![CK.cpo (slotOf jb.1), .yds jb.1, .ydr jb.1, .zds jb.1, .zdr jb.1] : Fin 5 → CK) jb.2
  | .inr (.inr (.inr (.inr (.inr (.inr ib))))) => (![CK.yrs ib.1, .yrr ib.1, .zrs ib.1, .zrr ib.1] : Fin 4 → CK) ib.2
/-- its round, -/
def tkR : TI → ℕ
  | .inr (.inr (.inr (.inr (.inr (.inl jb))))) => (![jb.1.val / 2, 0, 0, 0, 0] : Fin 5 → ℕ) jb.2
  | _ => 0
/-- its duty, -/
def tkD : TI → Fin 3
  | .inr (.inl _) => 1
  | .inr (.inr (.inl _)) => 2
  | _ => 0
/-- and who pays it, as a map from the payer to the cell's owner: the owner itself, or one of its partners. -/
def tkP : TI → Dev nD ≃ Dev nD
  | .inl _ => xpE
  | .inr (.inl _) => ypE
  | .inr (.inr (.inl _)) => zpE
  | .inr (.inr (.inr (.inl _))) => Equiv.refl _
  | .inr (.inr (.inr (.inr (.inl jb)))) => (![Equiv.refl _, xpE] : Fin 2 → Dev nD ≃ Dev nD) jb.2
  | .inr (.inr (.inr (.inr (.inr (.inl jb))))) => (![Equiv.refl _, Equiv.refl _, ypE, Equiv.refl _, zpE] : Fin 5 → Dev nD ≃ Dev nD) jb.2
  | .inr (.inr (.inr (.inr (.inr (.inr ib))))) => (![Equiv.refl _, ypE, Equiv.refl _, zpE] : Fin 4 → Dev nD ≃ Dev nD) ib.2

/-- The token of a (kind, round, duty). -/
def tiOf (k : CK) (r : ℕ) (d : Fin 3) : TI :=
  match k with
  | .bar => if d = 0 then .inl () else if d = 1 then .inr (.inl ()) else .inr (.inr (.inl ()))
  | .cpq => .inr (.inr (.inr (.inl ())))
  | .xs j => .inr (.inr (.inr (.inr (.inl (j, 0)))))
  | .xr j => .inr (.inr (.inr (.inr (.inl (j, 1)))))
  | .cpo s => .inr (.inr (.inr (.inr (.inr (.inl (chunkOf s r, 0))))))
  | .yds j => .inr (.inr (.inr (.inr (.inr (.inl (j, 1))))))
  | .ydr j => .inr (.inr (.inr (.inr (.inr (.inl (j, 2))))))
  | .zds j => .inr (.inr (.inr (.inr (.inr (.inl (j, 3))))))
  | .zdr j => .inr (.inr (.inr (.inr (.inr (.inl (j, 4))))))
  | .yrs i => .inr (.inr (.inr (.inr (.inr (.inr (i, 0))))))
  | .yrr i => .inr (.inr (.inr (.inr (.inr (.inr (i, 1))))))
  | .zrs i => .inr (.inr (.inr (.inr (.inr (.inr (i, 2))))))
  | .zrr i => .inr (.inr (.inr (.inr (.inr (.inr (i, 3))))))

theorem chunk_of_tok : ∀ j : Fin 16, chunkOf (slotOf j) (j.val / 2) = j := by decide

theorem tiOf_tk : ∀ t : TI, tiOf (tkK t) (tkR t) (tkD t) = t := by
  rintro (_ | _ | _ | _ | ⟨j, b⟩ | ⟨j, b⟩ | ⟨i, b⟩)
  · rfl
  · rfl
  · rfl
  · rfl
  · fin_cases b <;> rfl
  · fin_cases b
    · show Sum.inr (Sum.inr (Sum.inr (Sum.inr (Sum.inr (Sum.inl (chunkOf (slotOf j) (j.val / 2), (0 : Fin 5))))))) = _
      rw [chunk_of_tok]; rfl
    all_goals rfl
  · fin_cases b <;> rfl

/-- The (cell, round, duty) of a device's token. -/
abbrev tokOf (ot : Dev nD × TI) : GSem nD τ sig × ℕ × Fin 3 := (cell ot.1 (tkK ot.2), tkR ot.2, tkD ot.2)

theorem tokOf_injective : Function.Injective tokOf := by
  rintro ⟨o, t⟩ ⟨o', t'⟩ h
  have hc : (o, tkK t) = (o', tkK t') := cell_injective (a₁ := (o, tkK t)) (a₂ := (o', tkK t')) (congrArg (fun x : GSem nD τ sig × ℕ × Fin 3 => x.1) h)
  have ho : o = o' := congrArg Prod.fst hc
  have hk : tkK t = tkK t' := congrArg Prod.snd hc
  have hr : tkR t = tkR t' := congrArg (fun x : GSem nD τ sig × ℕ × Fin 3 => x.2.1) h
  have hd : tkD t = tkD t' := congrArg (fun x : GSem nD τ sig × ℕ × Fin 3 => x.2.2) h
  have ht : t = t' := by rw [← tiOf_tk t, ← tiOf_tk t', hk, hr, hd]
  rw [ho, ht]

/-- A separating conjunction over the tokens, in that order. -/
theorem bigSep_TI {M : Type} [URA M] (Φ : TI → sProp M) :
    bigSep Finset.univ Φ = iprop(Φ (.inl ()) ∗ Φ (.inr (.inl ())) ∗ Φ (.inr (.inr (.inl ()))) ∗ Φ (.inr (.inr (.inr (.inl ()))))
      ∗ (bigSep Finset.univ fun j : Fin 16 => iprop(Φ (.inr (.inr (.inr (.inr (.inl (j, 0)))))) ∗ Φ (.inr (.inr (.inr (.inr (.inl (j, 1))))))))
      ∗ (bigSep Finset.univ fun j : Fin 16 => iprop(Φ (.inr (.inr (.inr (.inr (.inr (.inl (j, 0))))))) ∗ Φ (.inr (.inr (.inr (.inr (.inr (.inl (j, 1)))))))
          ∗ Φ (.inr (.inr (.inr (.inr (.inr (.inl (j, 2))))))) ∗ Φ (.inr (.inr (.inr (.inr (.inr (.inl (j, 3))))))) ∗ Φ (.inr (.inr (.inr (.inr (.inr (.inl (j, 4)))))))))
      ∗ (bigSep Finset.univ fun i : Fin 8 => iprop(Φ (.inr (.inr (.inr (.inr (.inr (.inr (i, 0))))))) ∗ Φ (.inr (.inr (.inr (.inr (.inr (.inr (i, 1)))))))
          ∗ Φ (.inr (.inr (.inr (.inr (.inr (.inr (i, 2))))))) ∗ Φ (.inr (.inr (.inr (.inr (.inr (.inr (i, 3)))))))))) := by
  rw [bigSep_univ_sum, bigSep_univ_sum, bigSep_univ_sum, bigSep_univ_sum, bigSep_univ_sum, bigSep_univ_sum,
    bigSep_unit, bigSep_unit, bigSep_unit, bigSep_unit, bigSep_univ_prod, bigSep_univ_prod, bigSep_univ_prod]
  simp only [bigSep_fin2, bigSep_fin5, bigSep_fin4]
  rfl

/-- The tokens of device `c`'s own cells, as minted. -/
def toks (c : Dev nD) : sProp 𝕄 := bigSep Finset.univ fun t : TI => tok0 c (tkK t) (tkR t) (tkD t)

/-- Dealt to their payers, they are what each device pays with. -/
theorem payToks_eq (c : Dev nD) : (bigSep Finset.univ fun t : TI => (tok0 (tkP t c) (tkK t) (tkR t) (tkD t) : sProp 𝕄)) = payToks c := by
  rw [bigSep_TI]; rfl

theorem toks_around : (bigSep Finset.univ fun c : Dev nD => (toks c : sProp 𝕄)) ⊢ bigSep Finset.univ fun c : Dev nD => payToks c := by
  unfold toks
  rw [bigSep_deal Finset.univ tkP (fun (c : Dev nD) (t : TI) => (tok0 c (tkK t) (tkR t) (tkD t) : sProp 𝕄))]
  exact Entails.of_eq (bigSep_congr fun c _ => payToks_eq c)

/-! ## The launch element and its funding -/

section Launch

variable (m : (ℓ : Loc nD τ sig) → Buf (Elt F) ℓ) (ρ : Dev nD → PrngReg)

/-- The protocol's cells: every semaphore of every TensorCore. -/
def ringCells : Finset (GSem nD τ sig) := Finset.univ.map ⟨fun ok : Dev nD × CK => cell ok.1 ok.2, cell_injective⟩
/-- Its tokens: one per duty of the schedule. -/
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- What the launch element deals device `c`: its cells' round states, its positions, that round 0 of each is reached, and
    its own cells' tokens. -/
def G (c : Dev nD) : sProp 𝕄 :=
  iprop((bigSep Finset.univ fun k : CK => roundState ER (Rd m) (cell c k) 0)
    ∗ (bigSep Finset.univ fun k : CK => iprop(atPos ER (cell c k) 0 ∅ 0 ∗ reached ER (cell c k) 0)) ∗ toks c)

/-- What the global step makes of it. -/
def G' (c : Dev nD) : sProp 𝕄 := iprop(∃ K, ghost m K c)

theorem fund_ring : BI.own (ER (F := F) (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant -/

/-- The kernel's own semaphores: all the DMA semaphores. -/
abbrev osem : DmaSem sig → SemLoc sig := fun k => .dma k

theorem allScoped : ∀ k : DmaSem sig, (SemLoc.dma k : SemLoc sig).isScoped .tc = true := by decide

theorem ownSemFacts : Pipeline.OwnSemFacts cfg0.spec osem :=
  ⟨allScoped, fun a b h => SemLoc.dma.inj h, fun k w => w.elim0⟩

omit [FloatOps F] in
/-- The barrier semaphore is the launch's one unscoped semaphore. -/
theorem unscopedSems0_eq (c : Dev nD) : (unscopedSems0 c : sProp 𝕄) = semVal (cell c .bar) 0 := by
  unfold unscopedSems0; rw [bigSep_eq_bigSepL_of_eq [SemLoc.reg barS] (by decide) (by decide)]; rfl

/-- Every semaphore of a core: the barrier semaphore and the DMA semaphores. -/
theorem bigSep_semLoc {M : Type} [URA M] (Φ : SemLoc sig → sProp M) :
    bigSep Finset.univ Φ = iprop(Φ (.reg barS) ∗ bigSep Finset.univ fun k : DmaSem sig => Φ (.dma k)) := by
  rw [bigSep_univ_equiv (SemLoc.equivSum sig).symm Φ, bigSep_univ_sum]
  congr 1
  exact bigSep_univ_of_subsingleton (I := Sem sig) barS

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (cell c k) 0 : sProp 𝕄) := by
  have h : (bigSep Finset.univ fun k : CK => (semVal (cell c k) 0 : sProp 𝕄))
      = bigSep Finset.univ fun sm : SemLoc sig => (semVal (((c : Thread nD τ), sm) : GSem nD τ sig) 0 : sProp 𝕄) :=
    (bigSep_univ_equiv ckEquiv fun sm : SemLoc sig => (semVal (((c : Thread nD τ), sm) : GSem nD τ sig) 0 : sProp 𝕄)).symm
  rw [h, unscopedSems0_eq, bigSep_semLoc]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (cell c k)))
          ∗ (bigSep Finset.univ fun k : CK => iprop(atPos ER (cell c k) 0 ∅ 0 ∗ reached ER (cell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (cell c k) 0) ∗ bigSep Finset.univ fun k : CK => roundState ER (Rd m) (cell c k) 0)
      ⊢ (|={Set.univ}=> bigSep Finset.univ fun k : CK => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- From the invariants and reached marks of all cells, its positions and the tokens dealt to it, a device's ghost state. -/
theorem ghost_intro (K : Dev nD × CK → ℕ) (c : Dev nD) :
    iprop(recs m K ∗ ((bigSep Finset.univ fun k : CK => (pos0 c k : sProp 𝕄)) ∗ payToks c)) ⊢ G' m c := by
  unfold G' ghost posOwn
  rw [bigSep_CK (fun k => (pos0 c k : sProp 𝕄))]
  iintro ⟨#HR, Hpos, Htok⟩
  iexists K
  isplitr; · iexact HR
  isplitl [Hpos]; · iexact Hpos
  iexact Htok

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd m) κ (cell c k)))
          ∗ (bigSep Finset.univ fun k : CK => iprop(atPos ER (cell c k) 0 ∅ 0 ∗ reached ER (cell c k) 0)) ∗ toks c) : sProp 𝕄)
      ⊢ bigSep Finset.univ (G' m) := by
  rw [bigSep_sep', bigSep_sep', ← bigSep_univ_prod (fun ok : Dev nD × CK => iprop(∃ κ : ℕ, cellInv ER (Rd m) κ (cell ok.1 ok.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun ok : Dev nD × CK => (reached ER (cell ok.1 ok.2) 0 : sProp 𝕄))]
  iintro ⟨HI, ⟨Hat, #HR⟩, Htok⟩
  ihave HK := (BI.bigSep_exists_pi Finset.univ (fun (ok : Dev nD × CK) (κ : ℕ) => (cellInv ER (Rd m) κ (cell ok.1 ok.2) : sProp 𝕄))) $$ HI
  icases HK with ⟨%K, #HI⟩
  ihave Htk := (toks_around (F := F)) $$ Htok
  iapply (bigSep_with_persistent (R := recs m K) fun c _ => ghost_intro m K c)
  isplitr
  · unfold recs; isplitl; · iexact HI
    iexact HR
  · iapply (Entails.of_eq (bigSep_sep' Finset.univ (fun c : Dev nD => bigSep Finset.univ fun k : CK => (pos0 c k : sProp 𝕄)) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

section Credit

/-- Every device owing `n` units to its partner's cell of kind `k`, the launch deals device `c` `n` units of credit on
    its own cell of that kind: the partner map is an involution. -/
theorem lc_cell (k : CK) (f : Dev nD → Dev nD) (hf : ∀ c, f (f c) = c) (n : ℕ) (c : Dev nD) :
    (Pipeline.launchCred (fun d => (tallyAt (cell (f d) k) () n : Tal)) c : sProp 𝕄) ⊢ cred (tallyAt (cell c k) () n) :=
  Pipeline.launchCred_tallyAt k.loc f f hf hf () n c

/-- The receive cell the forward of chunk `j` lands on: the y partner's for an even chunk, the z partner's for an odd one. -/
def fwK (j : Fin 16) : CK := if j.val % 2 = 0 then .yrr (fin8 (j.val / 2)) else .zrr (fin8 (j.val / 2))

theorem lc_fw (c : Dev nD) (j : Fin 16) :
    (Pipeline.launchCred (fun d => tFw d j) c : sProp 𝕄) ⊢ cred (tallyAt (cell c (fwK j)) () No) := by
  unfold fwK
  by_cases h : j.val % 2 = 0
  · rw [if_pos h, show (fun d => tFw d j) = fun d => (tallyAt (cell (yp d) (.yrr (fin8 (j.val / 2)))) () No : Tal) from
      funext fun d => by unfold tFw tYR; rw [if_pos h]]
    exact lc_cell _ yp yp_yp No c
  · rw [if_neg h, show (fun d => tFw d j) = fun d => (tallyAt (cell (zp d) (.zrr (fin8 (j.val / 2)))) () No : Tal) from
      funext fun d => by unfold tFw tZR; rw [if_neg h]]
    exact lc_cell _ zp zp_zp No c

/-- The credit of the forwards still to make, one per forward. -/
theorem lc_rem3 (c : Dev nD) : ∀ k, (Pipeline.launchCred (fun d => rem3 d k) c : sProp 𝕄)
    ⊢ bigSep (Finset.range k) fun k' => cred (tallyAt (cell c (fwK (fin16 (15 - k')))) () No)
  | 0 => by
    rw [show (fun d : Dev nD => rem3 d 0) = fun _ => (0 : Tal) from rfl, Pipeline.launchCred_zero, Finset.range_zero, bigSep_empty]
    exact .rfl
  | k + 1 => by
    rw [show (fun d : Dev nD => rem3 d (k + 1)) = fun d => tFw d (fin16 (15 - k)) + rem3 d k from rfl, Pipeline.launchCred_add,
      Finset.range_add_one, bigSep_insert Finset.notMem_range_self]
    exact BI.sep_mono (lc_fw c _) (lc_rem3 c k)

/-- The credit of the spread iterations still to run, two per iteration, and of all the forwards. -/
theorem lc_rem2 (c : Dev nD) : ∀ k, (Pipeline.launchCred (fun d => rem2 d k) c : sProp 𝕄)
    ⊢ iprop((bigSep (Finset.range k) fun k' => iprop(cred (tallyAt (cell c (.ydr (fin16 (15 - k')))) () No) ∗ cred (tallyAt (cell c (.zdr (fin16 (15 - k')))) () No)))
      ∗ bigSep (Finset.range 16) fun k' => cred (tallyAt (cell c (fwK (fin16 (15 - k')))) () No))
  | 0 => by
    rw [show (fun d : Dev nD => rem2 d 0) = fun d => rem3 d 16 from rfl, Finset.range_zero, bigSep_empty]
    exact (lc_rem3 c 16).trans (emp_sep (PROP := sProp 𝕄)).2
  | k + 1 => by
    rw [show (fun d : Dev nD => rem2 d (k + 1)) = fun d => (tallyAt (cell (yp d) (.ydr (fin16 (15 - k)))) () No : Tal) + ((tallyAt (cell (zp d) (.zdr (fin16 (15 - k)))) () No : Tal) + rem2 d k) from rfl,
      Pipeline.launchCred_add, Pipeline.launchCred_add, Finset.range_add_one, bigSep_insert Finset.notMem_range_self]
    show _ ⊢ iprop((_ ∗ _) ∗ _)
    iintro ⟨Hy, Hz, Hr⟩
    ihave Hy' := (lc_cell (F := F) (.ydr (fin16 (15 - k))) yp yp_yp No c) $$ Hy
    ihave Hz' := (lc_cell (F := F) (.zdr (fin16 (15 - k))) zp zp_zp No c) $$ Hz
    ihave Hr' := (lc_rem2 c k) $$ Hr
    icases Hr' with ⟨Hd, Hf⟩
    isplitr [Hf]
    · isplitl [Hy' Hz']
      · isplitl [Hy'] <;> iassumption
      · iexact Hd
    · iexact Hf

/-- The credit of the copies to the x partner still to issue, and of everything after them. -/
theorem lc_rem1 (c : Dev nD) : ∀ k, (Pipeline.launchCred (fun d => rem1 d k) c : sProp 𝕄)
    ⊢ iprop((bigSep (Finset.range k) fun k' => cred (tallyAt (cell c (.xr (fin16 (15 - k')))) () Nv))
      ∗ (bigSep (Finset.range 16) fun k' => iprop(cred (tallyAt (cell c (.ydr (fin16 (15 - k')))) () No) ∗ cred (tallyAt (cell c (.zdr (fin16 (15 - k')))) () No)))
      ∗ bigSep (Finset.range 16) fun k' => cred (tallyAt (cell c (fwK (fin16 (15 - k')))) () No))
  | 0 => by
    rw [show (fun d : Dev nD => rem1 d 0) = fun d => rem2 d 16 from rfl, Finset.range_zero, bigSep_empty]
    exact (lc_rem2 c 16).trans (emp_sep (PROP := sProp 𝕄)).2
  | k + 1 => by
    rw [show (fun d : Dev nD => rem1 d (k + 1)) = fun d => (tallyAt (cell (xp d) (.xr (fin16 (15 - k)))) () Nv : Tal) + rem1 d k from rfl,
      Pipeline.launchCred_add, Finset.range_add_one, bigSep_insert Finset.notMem_range_self]
    show _ ⊢ iprop((_ ∗ _) ∗ _)
    iintro ⟨Hx, Hr⟩
    ihave Hx' := (lc_cell (F := F) (.xr (fin16 (15 - k))) xp xp_xp Nv c) $$ Hx
    ihave Hr' := (lc_rem1 c k) $$ Hr
    icases Hr' with ⟨Hd, Hf⟩
    isplitr [Hf]
    · isplitl [Hx'] <;> iassumption
    · iexact Hf

/-- Counting a chunk's index down from 15 runs through all sixteen chunks. -/
theorem bigSep_range16 {M : Type} [URA M] (Ψ : Fin 16 → sProp M) :
    bigSep (Finset.range 16) (fun k => Ψ (fin16 (15 - k))) = bigSep Finset.univ Ψ := by
  have h : (Finset.univ : Finset (Fin 16)) = (Finset.range 16).image (fun k => fin16 (15 - k)) := by decide
  rw [h, bigSep_image_of_injOn]
  intro a ha b hb hab
  have ha' : a < 16 := Finset.mem_range.mp (Finset.mem_coe.mp ha)
  have hb' : b < 16 := Finset.mem_range.mp (Finset.mem_coe.mp hb)
  have hv : (15 - a) % 16 = (15 - b) % 16 := congrArg Fin.val hab
  omega

/-- The forwards' receive cells, chunk by chunk, are the y and z partners' forward receive cells, pair by pair. -/
theorem bigSep_fw {M : Type} [URA M] (Ψ : CK → sProp M) :
    (bigSep Finset.univ fun j : Fin 16 => Ψ (fwK j)) = bigSep Finset.univ fun i : Fin 8 => iprop(Ψ (.yrr i) ∗ Ψ (.zrr i)) := by
  rw [bigSep_univ_equiv (finProdFinEquiv : Fin 8 × Fin 2 ≃ Fin 16) (fun j : Fin 16 => Ψ (fwK j)), bigSep_univ_prod]
  refine bigSep_congr fun i _ => ?_
  rw [bigSep_fin2]
  have h0 : ∀ i : Fin 8, fwK (finProdFinEquiv (i, (0 : Fin 2))) = .yrr i := by decide
  have h1 : ∀ i : Fin 8, fwK (finProdFinEquiv (i, (1 : Fin 2))) = .zrr i := by decide
  rw [h0, h1]

end Credit

theorem creds_intro (c : Dev nD) : (Pipeline.launchCred O₀ c : sProp 𝕄) ⊢ creds c := by
  show (Pipeline.launchCred (fun d => (tallyAt (cell (xp d) .bar) () 1 : Tal) + ((tallyAt (cell (yp d) .bar) () 1 : Tal) + ((tallyAt (cell (zp d) .bar) () 1 : Tal) + rem1 d 16))) c : sProp 𝕄) ⊢ creds c
  rw [Pipeline.launchCred_add, Pipeline.launchCred_add, Pipeline.launchCred_add]
  unfold creds
  iintro ⟨Hbx, Hby, Hbz, Hr⟩
  ihave Hbx' := (lc_cell (F := F) .bar xp xp_xp 1 c) $$ Hbx
  ihave Hby' := (lc_cell (F := F) .bar yp yp_yp 1 c) $$ Hby
  ihave Hbz' := (lc_cell (F := F) .bar zp zp_zp 1 c) $$ Hbz
  ihave Hr' := (lc_rem1 (F := F) c 16) $$ Hr
  rw [bigSep_range16 (fun j : Fin 16 => (cred (tallyAt (cell c (.xr j)) () Nv) : sProp 𝕄)),
    bigSep_range16 (fun j : Fin 16 => (iprop(cred (tallyAt (cell c (.ydr j)) () No) ∗ cred (tallyAt (cell c (.zdr j)) () No)) : sProp 𝕄)),
    bigSep_range16 (fun j : Fin 16 => (cred (tallyAt (cell c (fwK j)) () No) : sProp 𝕄)),
    bigSep_fw (fun k : CK => (cred (tallyAt (cell c k) () No) : sProp 𝕄))]
  icases Hr' with ⟨Hx, Hd, Hf⟩
  isplitl [Hbx' Hby' Hbz']
  · rw [← tallyAt_add (cell c .bar) () 1 2, ← tallyAt_add (cell c .bar) () 1 1]
    iapply (cred_add _ _).2
    isplitl [Hbx']; · iexact Hbx'
    iapply (cred_add _ _).2
    isplitl [Hby'] <;> iassumption
  isplitr [Hf]
  · iapply (Entails.of_eq (bigSep_sep' Finset.univ (fun j : Fin 16 => (cred (tallyAt (cell c (.xr j)) () Nv) : sProp 𝕄))
      (fun j : Fin 16 => (iprop(cred (tallyAt (cell c (.ydr j)) () No) ∗ cred (tallyAt (cell c (.zdr j)) () No)) : sProp 𝕄))).symm)
    isplitl [Hx] <;> iassumption
  · iexact Hf

/-! ## The pipeline's proof data: no window, one point -/

theorem fin_N (t : Fin cfg0.N) : t = t0_0 := fin_N0 t

/-- Before the point a device holds `Φ₀` and owes `O₀`; after it, `Φ₁` and nothing. -/
def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(emp) := by
  rw [show (Finset.univ : Finset (Fin cfg0.W)) = ∅ from Finset.univ_eq_empty, bigSep_empty]; rfl

/-- The library's body obligation on device `c`, from the body lemma. -/
theorem body_obligation (c : Dev nD) : BodyObligation (dats (F := F) m 0 c) (defs₀ (F := F)) 𝒱₀ () Set.univ := fun t => by
  rw [fin_N t, bigSep_W, bigSep_W]
  sl_whnfR [defs₀, Defs.onTc]
  rw [show (dats m 0 c).Φ t0_0.castSucc = Φ₀ m c from rfl, show (dats m 0 c).Φ t0_0.succ = Φ₁ m c from rfl]
  unfold Φ₀
  iintro ⟨⟨⟨%K, Hg⟩, Hcr, Hlev, Hb⟩, ⟨%W, -, Ho⟩, -⟩
  iapply (sound_body m c K W _)
  isplitl
  · isplitl [Hg]; · iexact Hg
    isplitl [Hcr]; · iexact Hcr
    isplitl [Hlev]; · iexact Hlev
    isplitl [Hb]; · iexact Hb
    iexact Ho
  · iintro ⟨HΦ, ⟨%W', Ho'⟩⟩
    isplitl [HΦ]; · iexact HΦ
    isplitl
    · iexists W'
      isplitr; · ipureintro; exact fun _ _ => Or.inl trivial
      iexact Ho'
    · iempintro

/-! ## The launch theorem's side conditions -/

/-- What a device holds when the region is entered, the scoped buffers apart. -/
def start (c : Dev nD) : sProp 𝕄 :=
  iprop((∃ K, ghost m K c) ∗ creds c ∗ levAts L lv
    ∗ (((c : Thread nD τ).loc main_arg0) ↦{fullShare} X m c)
    ∗ (∃ f : Buf (Elt F) ((c : Thread nD τ).loc main_v1), ((c : Thread nD τ).loc main_v1) ↦{fullShare} f))

/-- And what it keeps of the two arrays when the region is left. -/
def finalPts (c : Dev nD) : sProp 𝕄 :=
  iprop((((c : Thread nD τ).loc main_arg0) ↦{fullShare} X m c) ∗ (((c : Thread nD τ).loc main_v1) ↦{fullShare} OUTc m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hv⟩, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    isplitl [Ha]; · iexact Ha
    iexists _; iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start bufs0
  iintro ⟨⟨HG, Hcr, Hlev, Ha, Hv⟩, -, ⟨H0, H1, H2⟩⟩
  isplitl [HG]; · iexact HG
  isplitl [Hcr]; · iexact Hcr
  isplitl [Hlev]; · iexact Hlev
  isplitl [Ha]; · iexact Ha
  isplitl [Hv]; · iexact Hv
  isplitl [H0]; · iexact H0
  isplitl [H1]; · iexact H1
  iexact H2

theorem phi1_exit (c : Dev nD) :
    (dats m 0 c).Φ (Fin.last cfg0.N) ⊢ iprop(finalPts m c ∗ Pipeline.ownSems0 osem c ∗ Pipeline.scopedRest cfg0.spec c) := by
  rw [show (dats m 0 c).Φ (Fin.last cfg0.N) = Φ₁ m c from rfl, scopedRest0_eq]
  unfold Φ₁ bufs1 sems0 finalPts Pipeline.ownSems0
  iintro ⟨⟨Ha, Hv, H0, H1, H2⟩, Hs⟩
  isplitl [Ha Hv]
  · isplitl [Ha] <;> iassumption
  isplitl [Hs]; · iexact Hs
  isplitl [H0]; · iexact H0
  isplitl [H1]; · iexact H1
  iexact H2

/-- No window: the pipeline itself waits on nothing. -/
theorem waits (c : Dev nD) : (levAts L lv : sProp 𝕄) ⊢ Pipeline.cellsWaits cfgs (dats m) () 0 c :=
  Pipeline.cellsWaits_intro cfgs (dats m) () 0 c fun w s t => w.elim0

/-! ## The run -/

set_option maxRecDepth 8000 in
/-- At the compiled mesh of 32 devices, for any float values, from any memory with zero counters: every weakly fair
    execution of @main terminates, and every final state has each device's result array at `OUTc` and its input unchanged. -/
theorem run_main : θ_run defs (onTc (τ := τ) (main (F := F))) ⟨m, fun _ => 0, ρ⟩ (fun r => ∀ c : Dev nD,
      r.2.mem ((c.tc : Thread nD τ).loc main_v1) = OUTc m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := finalPts m) (Z := fun _ => iprop(emp))
    (hX := start_intro m ρ) (hin := phi0_intro m) (hout := phi1_exit m)
    (QY := fun c s => s.mem ((c : Thread nD τ).loc main_v1) = OUTc m c ∧ s.mem ((c : Thread nD τ).loc main_arg0) = X m c)
    (hY := fun c s' => by
      unfold finalPts
      iintro ⟨⟨Ha, Hv⟩, -, HSI⟩
      icombine HSI Ha gives %ha
      icombine HSI Hv gives %hv
      imodintro
      isplitr; · ipureintro; exact ⟨Buf.eq_of_forall_mem_univ hv, Buf.eq_of_forall_mem_univ ha⟩
      iexact HSI)
    (hQ := fun s h c => ⟨(h c).2.2.1, (h c).2.2.2⟩)

end Launch

/-- info: 'Cert.KernelIdeal.Ar.fund_ring' depends on axioms: [propext, Classical.choice, Quot.sound] -/
#guard_msgs in #print axioms fund_ring

/-- info: 'Cert.KernelIdeal.Ar.glob' depends on axioms: [propext, Classical.choice, Quot.sound] -/
#guard_msgs in #print axioms glob

/-- info: 'Cert.KernelIdeal.Ar.creds_intro' depends on axioms: [propext, Classical.choice, Quot.sound] -/
#guard_msgs in #print axioms creds_intro

/-- info: 'Cert.KernelIdeal.Ar.run_main' depends on axioms: [propext, Classical.choice, Quot.sound] -/
#guard_msgs in #print axioms run_main

end Cert.KernelIdeal.Ar

end
-- ==== Proof.KMesh.lean ====
/-
  The mesh of 32 devices, numbered row-major over (x, y, z) = (2, 4, 4): device `c` sits at
  (c / 16, c / 4 % 4, c % 4). Each device has three partners: `xp` flips the x coordinate, `yp` and `zp`
  flip the low bit of the y and of the z coordinate. The low bits of y and z name the quarter of the rows a
  device reduces itself (`qme`); its y partner's, z partner's and diagonal partner's quarters are `qyp`,
  `qzp`, `qdg`. This module decides, over the 32 devices, that the printed device-id chains are these
  partners and that the printed row offsets are the quarters' chunks.
-/
import proofs.«900725_g7700000000000726_dist_ar_v7x_xyz2x4x4_x_m8192_n1024_f32_1_alg».proof.Proof.Gen.Kernel
import Idealize.ShloMosaic.Lib.Decide

set_option Elab.async false

namespace Cert.Kernel.Mesh

open Cert.Kernel Cert.Kernel.Gen Idealize.ShloMosaic Idealize.SL.Sem

/-- The partner across the x axis. -/
def xp (c : Dev nD) : Dev nD := ⟨(4 * ((c.val / 4) % 4) + c.val % 4 + 16) - 16 * (c.val / 16), by
  have h : c.val < 32 := c.isLt; show _ < 32; omega⟩
/-- The partner across the low bit of the y coordinate. -/
def yp (c : Dev nD) : Dev nD := ⟨c.val + 4 - 8 * ((c.val / 4) % 2), by
  have h : c.val < 32 := c.isLt; show _ < 32; omega⟩
/-- The partner across the low bit of the z coordinate. -/
def zp (c : Dev nD) : Dev nD := ⟨c.val + 1 - 2 * (c.val % 2), by
  have h : c.val < 32 := c.isLt; show _ < 32; omega⟩

theorem xp_xp (c : Dev nD) : xp (xp c) = c := by revert c; decide
theorem yp_yp (c : Dev nD) : yp (yp c) = c := by revert c; decide
theorem zp_zp (c : Dev nD) : zp (zp c) = c := by revert c; decide
theorem yp_zp (c : Dev nD) : yp (zp c) = zp (yp c) := by revert c; decide
theorem xp_yp (c : Dev nD) : xp (yp c) = yp (xp c) := by revert c; decide
theorem xp_zp (c : Dev nD) : xp (zp c) = zp (xp c) := by revert c; decide
theorem xp_ne (c : Dev nD) : xp c ≠ c := by revert c; decide
theorem yp_ne (c : Dev nD) : yp c ≠ c := by revert c; decide
theorem zp_ne (c : Dev nD) : zp c ≠ c := by revert c; decide
theorem xp_ne_yp (c : Dev nD) : xp c ≠ yp c := by revert c; decide
theorem xp_ne_zp (c : Dev nD) : xp c ≠ zp c := by revert c; decide
theorem yp_ne_zp (c : Dev nD) : yp c ≠ zp c := by revert c; decide

/-- The quarter of the rows a device reduces itself, and its partners' quarters. -/
def qme (c : Dev nD) : Nat := 2 * ((c.val / 4) % 2) + c.val % 2
def qyp (c : Dev nD) : Nat := 2 * (1 - (c.val / 4) % 2) + c.val % 2
def qzp (c : Dev nD) : Nat := 2 * ((c.val / 4) % 2) + (1 - c.val % 2)
def qdg (c : Dev nD) : Nat := 2 * (1 - (c.val / 4) % 2) + (1 - c.val % 2)

theorem qme_lt (c : Dev nD) : qme c < 4 := by unfold qme; omega
theorem qyp_lt (c : Dev nD) : qyp c < 4 := by unfold qyp; omega
theorem qzp_lt (c : Dev nD) : qzp c < 4 := by unfold qzp; omega
theorem qdg_lt (c : Dev nD) : qdg c < 4 := by unfold qdg; omega
theorem qme_xp (c : Dev nD) : qme (xp c) = qme c := by revert c; decide
theorem qme_yp (c : Dev nD) : qme (yp c) = qyp c := by revert c; decide
theorem qme_zp (c : Dev nD) : qme (zp c) = qzp c := by revert c; decide
theorem qyp_yp (c : Dev nD) : qyp (yp c) = qme c := by revert c; decide
theorem qzp_zp (c : Dev nD) : qzp (zp c) = qme c := by revert c; decide
theorem qzp_yp (c : Dev nD) : qzp (yp c) = qdg c := by revert c; decide
theorem qyp_zp (c : Dev nD) : qyp (zp c) = qdg c := by revert c; decide
theorem qdg_yp (c : Dev nD) : qdg (yp c) = qzp c := by revert c; decide
theorem qdg_zp (c : Dev nD) : qdg (zp c) = qyp c := by revert c; decide

/-! ## The printed device chains -/

open Lean Elab Command in
/-- `dev_eq N p`: the printed chain `k0_devN` names partner `p`, decided over the mesh. -/
elab "dev_eq " n:num p:ident : command => do
  let k := n.getNat
  let thm := mkIdent (Name.mkSimple s!"dev{k}_eq")
  let dv := mkIdent (Name.mkSimple s!"k0_dev{k}")
  let lt := mkIdent (Name.mkSimple s!"k0_dev{k}_lt")
  elabCommand (← `(theorem $thm : ∀ c : Dev nD, (⟨$dv c, $lt c⟩ : Dev nD) = $p c := by decide +kernel))

dev_eq 1 xp
dev_eq 2 yp
dev_eq 3 zp
dev_eq 4 xp
dev_eq 5 xp
dev_eq 6 xp
dev_eq 7 xp
dev_eq 8 xp
dev_eq 9 xp
dev_eq 10 xp
dev_eq 11 xp
dev_eq 12 xp
dev_eq 13 xp
dev_eq 14 xp
dev_eq 15 xp
dev_eq 16 xp
dev_eq 17 xp
dev_eq 18 xp
dev_eq 19 xp
dev_eq 20 yp
dev_eq 21 zp
dev_eq 22 yp
dev_eq 23 zp
dev_eq 24 yp
dev_eq 25 zp
dev_eq 26 yp
dev_eq 27 zp
dev_eq 28 yp
dev_eq 29 zp
dev_eq 30 yp
dev_eq 31 zp
dev_eq 32 yp
dev_eq 33 zp
dev_eq 34 yp
dev_eq 35 zp
dev_eq 36 yp
dev_eq 37 zp
dev_eq 38 yp
dev_eq 39 zp
dev_eq 40 yp
dev_eq 41 zp
dev_eq 42 yp
dev_eq 43 zp
dev_eq 44 yp
dev_eq 45 zp
dev_eq 46 yp
dev_eq 47 zp
dev_eq 48 yp
dev_eq 49 zp
dev_eq 50 yp
dev_eq 51 zp
dev_eq 52 yp
dev_eq 53 zp
dev_eq 54 yp
dev_eq 55 zp
dev_eq 56 yp
dev_eq 57 zp
dev_eq 58 yp
dev_eq 59 zp
dev_eq 60 yp
dev_eq 61 zp
dev_eq 62 yp
dev_eq 63 zp
dev_eq 64 yp
dev_eq 65 zp
dev_eq 66 yp
dev_eq 67 zp

/-! ## The printed row offsets -/

theorem off1_eq : ∀ c : Dev nD, k0_off1 c = ![2048 * qme c, 0] := by decide +kernel
theorem off2_eq : ∀ (c : Dev nD) (j : Fin 16), k0_off2 c (BitVec.ofNat 32 (128 * j.val)) = ![2048 * qme c + 128 * j.val, 0] := by decide +kernel
theorem off3_eq : ∀ (c : Dev nD) (i : Fin 8), k0_off3 c (BitVec.ofNat 32 (256 * i.val)) = ![2048 * qzp c + 256 * i.val, 0] := by decide +kernel
theorem off4_eq : ∀ (c : Dev nD) (i : Fin 8), k0_off4 c (BitVec.ofNat 32 (128 + 256 * i.val)) = ![2048 * qyp c + 128 + 256 * i.val, 0] := by decide +kernel

end Cert.Kernel.Mesh
-- ==== Proof.KViews.lean ====
/-
  The memrefs the kernel body addresses, at a symbolic device `c` and chunk index, spelt exactly as the
  body's skeleton spells them (slices of the whole buffers at the printed offset functions), the semaphore
  cells, and the CONTENTS every buffer holds at each stage, as global functions of the launch memory `m`:
  device `c`'s input block `X c`, the sum `Ssum c = X c + X (xp c)` that device `c` computes for its own
  quarter of the rows, and the final result `OUTc c`, which at each row holds the sum computed by the device
  that owns the row's quarter and chunk in the exchange pattern.
-/
import proofs.«900725_g7700000000000726_dist_ar_v7x_xyz2x4x4_x_m8192_n1024_f32_1_alg».proof.Proof.KMesh
import Idealize.ShloMosaic.Lib.Pipeline.Launch
import Idealize.ShloMosaic.Lib.Pipeline.Kit
import Idealize.ShloMosaic.Lib.ValueIdx
import Idealize.ShloMosaic.Lib.Tactic

noncomputable section

namespace Cert.Kernel.Ar

open Cert.Kernel Cert.Kernel.Gen Cert.Kernel.Mesh
open Idealize.ShloMosaic Idealize.ShloMosaic.TcCoe Idealize.ShloMosaic.ValueIdx
open Idealize.SL Idealize.SL.Sem

variable {F : FTy → Type} [FloatOps F]

/-! ## The whole buffers -/

abbrev A0 : Memref sig .tc .hbm S8192x1024 .f32 := Memref.whole main_arg0
abbrev A1 : Memref sig .tc .hbm S8192x1024 .f32 := Memref.whole main_v1
abbrev VQ : Memref sig .tc .vmem S2048x1024 .f32 := Memref.whole cc0_scratch0
abbrev VR : Memref sig .tc .vmem S2048x1024 .f32 := Memref.whole cc0_scratch1
abbrev VS : Memref sig .tc .vmem S2x128x1024 .f32 := Memref.whole cc0_scratch2

/-! ## In-bounds evidence at a symbolic chunk -/

theorem inb16 (j : Fin 16) : ∀ a, (![j.val] : Fin 1 → Nat) a + S1.size a ≤ S16.size a := fun a => by
  have h := j.isLt; match a with | ⟨0, _⟩ => show j.val + 1 ≤ 16; omega
theorem inb8 (i : Fin 8) : ∀ a, (![i.val] : Fin 1 → Nat) a + S1.size a ≤ S8.size a := fun a => by
  have h := i.isLt; match a with | ⟨0, _⟩ => show i.val + 1 ≤ 8; omega
theorem inb2 (s : Fin 2) : ∀ a, (![s.val] : Fin 1 → Nat) a + S1.size a ≤ S2.size a := fun a => by
  have h := s.isLt; match a with | ⟨0, _⟩ => show s.val + 1 ≤ 2; omega
theorem inbR (j : Fin 16) : ∀ a, (![128 * j.val, 0] : Fin 2 → Nat) a + S128x1024.size a ≤ S2048x1024.size a := fun a => by
  have h := j.isLt
  match a with
  | ⟨0, _⟩ => show 128 * j.val + 128 ≤ 2048; omega
  | ⟨1, _⟩ => show 0 + 1024 ≤ 1024; omega
theorem inbS (s : Fin 2) : ∀ a, (![s.val, 0, 0] : Fin 3 → Nat) a + S1x128x1024.size a ≤ S2x128x1024.size a := fun a => by
  have h := s.isLt
  match a with
  | ⟨0, _⟩ => show s.val + 1 ≤ 2; omega
  | ⟨1, _⟩ => show 0 + 128 ≤ 128; omega
  | ⟨2, _⟩ => show 0 + 1024 ≤ 1024; omega

/-! ## The semaphores -/

abbrev sem16 (a : DmaSems sig S16) (j : Fin 16) : DmaSem sig :=
  ((a.slice (Rect.unit (s := S16) ![j.val] S1.size (inb16 j))).squeeze S_ squeezes_S1_S_).sem
abbrev sem8 (a : DmaSems sig S8) (i : Fin 8) : DmaSem sig :=
  ((a.slice (Rect.unit (s := S8) ![i.val] S1.size (inb8 i))).squeeze S_ squeezes_S1_S_).sem
abbrev sem2 (a : DmaSems sig S2) (s : Fin 2) : DmaSem sig :=
  ((a.slice (Rect.unit (s := S2) ![s.val] S1.size (inb2 s))).squeeze S_ squeezes_S1_S_).sem

/-- The runtime's barrier semaphore of collective id 0. -/
abbrev barS : Sem sig := (SemArray.scalar (sig.barrier 0 rfl) : Sems sig S_).sem

abbrev xS (j : Fin 16) : DmaSem sig := sem16 cc0_scratch3 j
abbrev xR (j : Fin 16) : DmaSem sig := sem16 cc0_scratch4 j
abbrev ydS (j : Fin 16) : DmaSem sig := sem16 cc0_scratch5 j
abbrev ydR (j : Fin 16) : DmaSem sig := sem16 cc0_scratch6 j
abbrev zdS (j : Fin 16) : DmaSem sig := sem16 cc0_scratch7 j
abbrev zdR (j : Fin 16) : DmaSem sig := sem16 cc0_scratch8 j
abbrev yrS (i : Fin 8) : DmaSem sig := sem8 cc0_scratch9 i
abbrev yrR (i : Fin 8) : DmaSem sig := sem8 cc0_scratch10 i
abbrev zrS (i : Fin 8) : DmaSem sig := sem8 cc0_scratch11 i
abbrev zrR (i : Fin 8) : DmaSem sig := sem8 cc0_scratch12 i
abbrev cpqS : DmaSem sig := cc0_scratch13.sem
abbrev cpoS (s : Fin 2) : DmaSem sig := sem2 cc0_scratch14 s

theorem xS_val (j : Fin 16) : (xS j).val = j.val := by revert j; decide
theorem xR_val (j : Fin 16) : (xR j).val = 16 + j.val := by revert j; decide
theorem ydS_val (j : Fin 16) : (ydS j).val = 32 + j.val := by revert j; decide
theorem ydR_val (j : Fin 16) : (ydR j).val = 48 + j.val := by revert j; decide
theorem zdS_val (j : Fin 16) : (zdS j).val = 64 + j.val := by revert j; decide
theorem zdR_val (j : Fin 16) : (zdR j).val = 80 + j.val := by revert j; decide
theorem yrS_val (i : Fin 8) : (yrS i).val = 96 + i.val := by revert i; decide
theorem yrR_val (i : Fin 8) : (yrR i).val = 104 + i.val := by revert i; decide
theorem zrS_val (i : Fin 8) : (zrS i).val = 112 + i.val := by revert i; decide
theorem zrR_val (i : Fin 8) : (zrR i).val = 120 + i.val := by revert i; decide
theorem cpqS_val : (cpqS : DmaSem sig).val = 128 := by decide
theorem cpoS_val (s : Fin 2) : (cpoS s).val = 129 + s.val := by revert s; decide

/-! ## The memrefs of the copies -/

/-- The quarter of the input a device reduces: the source of the local copy to `VQ`. -/
abbrev srcQ (c : Dev nD) : Memref sig .tc .hbm S2048x1024 .f32 :=
  A0.slice (Rect.unit (s := S8192x1024) (k0_off1 c) S2048x1024.size (k0_off1_inb c)) (fun _ => rfl)
/-- Chunk `j` of that quarter of the input: the source of the copy to the x partner. -/
abbrev srcX (c : Dev nD) (j : Fin 16) : Memref sig .tc .hbm S128x1024 .f32 :=
  A0.slice (Rect.unit (s := S8192x1024) (k0_off2 c (BitVec.ofNat 32 (128 * j.val))) S128x1024.size (k0_off2_inb c j)) (fun _ => rfl)
/-- The same rows of the RESULT array: where device `c`'s sum of chunk `j` goes, on itself and on its y and z partners. -/
abbrev outM (c : Dev nD) (j : Fin 16) : Memref sig .tc .hbm S128x1024 .f32 :=
  A1.slice (Rect.unit (s := S8192x1024) (k0_off2 c (BitVec.ofNat 32 (128 * j.val))) S128x1024.size (k0_off2_inb c j)) (fun _ => rfl)
/-- Even chunk `2 i` of the z partner's quarter of the result: forwarded to the y partner. -/
abbrev outE (c : Dev nD) (i : Fin 8) : Memref sig .tc .hbm S128x1024 .f32 :=
  A1.slice (Rect.unit (s := S8192x1024) (k0_off3 c (BitVec.ofNat 32 (256 * i.val))) S128x1024.size (k0_off3_inb c i)) (fun _ => rfl)
/-- Odd chunk `2 i + 1` of the y partner's quarter of the result: forwarded to the z partner. -/
abbrev outO (c : Dev nD) (i : Fin 8) : Memref sig .tc .hbm S128x1024 .f32 :=
  A1.slice (Rect.unit (s := S8192x1024) (k0_off4 c (BitVec.ofNat 32 (128 + 256 * i.val))) S128x1024.size (k0_off4_inb c i)) (fun _ => rfl)
/-- Chunk `j` of a receive or staging scratch of one quarter's size. -/
abbrev vrM (j : Fin 16) : Memref sig .tc .vmem S128x1024 .f32 :=
  VR.slice (Rect.unit (s := S2048x1024) ![128 * j.val, 0] S128x1024.size (inbR j)) (fun _ => rfl)
/-- Slot `s` of the two-slot sum buffer, as the copies read it. -/
abbrev vsM (s : Fin 2) : Memref sig .tc .vmem S128x1024 .f32 :=
  (VS.slice (Rect.unit (s := S2x128x1024) ![s.val, 0, 0] S1x128x1024.size (inbS s)) (fun _ => rfl)).squeeze S128x1024 squeezes_S1x128x1024_S128x1024

/-! ## Contents -/

variable (m : (ℓ : Loc nD τ sig) → Buf (Elt F) ℓ)

/-- Device `c`'s block of the input, as launched. -/
def X (c : Dev nD) : Buf (Elt F) ((c : Thread nD τ).loc main_arg0) := m ((c : Thread nD τ).loc main_arg0)

/-- What device `c` computes for the rows it reduces: its block plus its x partner's, row by row. -/
def Ssum (c : Dev nD) : FVec F S8192x1024 .f32 := addf (X m c) (X m (xp c))

/-- Row `r` of quarter `q`. -/
def qrow (q : Nat) (hq : q < 4) (r : Fin 2048) : Fin 8192 := ⟨2048 * q + r.val, by have := r.isLt; omega⟩

/-- `VQ` after the local copy: the device's own quarter of its block. -/
def VQc (c : Dev nD) : Buf (Elt F) ((c : Thread nD τ).loc cc0_scratch0) :=
  fun i => X m c (ix2 (qrow (qme c) (qme_lt c) (i 0)) (i 1))
/-- `VR` once every chunk from the x partner has landed: the x partner's same quarter. -/
def VRc (c : Dev nD) : Buf (Elt F) ((c : Thread nD τ).loc cc0_scratch1) :=
  fun i => X m (xp c) (ix2 (qrow (qme c) (qme_lt c) (i 0)) (i 1))
/-- A slot of `VS` holding the sum of chunk `j` (both slots stated alike: only one is ever claimed). -/
def VSc (c : Dev nD) (j : Fin 16) : Buf (Elt F) ((c : Thread nD τ).loc cc0_scratch2) :=
  fun i => Ssum m c (ix2 (qrow (qme c) (qme_lt c) ⟨128 * j.val + (i 1).val, by have hj := j.isLt; have h1 : (i 1).val < 128 := (i 1).isLt; show _ < 2048; omega⟩) (i 2))

/-- The device whose sum ends at row `r` of device `c`'s result: by the row's quarter, and in the diagonal quarter by
    the parity of its chunk (even chunks come round through the y partner, odd ones through the z partner). -/
def owner (c : Dev nD) (r : Nat) : Dev nD :=
  if r / 2048 = qme c then c
  else if r / 2048 = qyp c then yp c
  else if r / 2048 = qzp c then zp c
  else if (r % 2048 / 128) % 2 = 0 then zp (yp c) else yp (zp c)

/-- Device `c`'s result array at the end. -/
def OUTc (c : Dev nD) : Buf (Elt F) ((c : Thread nD τ).loc main_v1) :=
  fun i => Ssum m (owner c (i 0).val) i

end Cert.Kernel.Ar

end
-- ==== Proof.KSched.lean ====
/-
  The protocol, as a schedule of rounds (one per semaphore cell).
  Per device `o` (the cell's owner, the thread that waits on it):
  * the barrier semaphore: ONE round of three unit duties, paid by the x, y and z partner. Each hands the owner
    what it will write on that partner: the x partner's whole receive scratch, chunk by chunk; on the y (z) partner
    the rows of the result array the owner's sums go to, and the even (odd) chunks of the rows it forwards there;
  * the send semaphore of a copy (`xS ydS zdS yrS zrS`): one round, one duty, paid by the owner's own copy having read
    its source: the source comes back at the share it was lent at;
  * the receive semaphore of a copy (`xR ydR zdR yrR zrR`): one round, one duty, paid by the partner's copy having
    landed: the destination rows holding the final contents;
  * the local copy of the input quarter (`cpq`): one round; the staging buffer filled and the source share back;
  * the local copies of the sums to the result (`cpo s`): eight rounds, round `r` for chunk `2 r + s`: the result rows
    filled and the slot's share back.
-/
import proofs.«900725_g7700000000000726_dist_ar_v7x_xyz2x4x4_x_m8192_n1024_f32_1_alg».proof.Proof.KViews

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The kinds of cell -/

inductive CK where
  | bar
  | xs (j : Fin 16) | xr (j : Fin 16)
  | yds (j : Fin 16) | ydr (j : Fin 16)
  | zds (j : Fin 16) | zdr (j : Fin 16)
  | yrs (i : Fin 8) | yrr (i : Fin 8)
  | zrs (i : Fin 8) | zrr (i : Fin 8)
  | cpq
  | cpo (s : Fin 2)
  deriving DecidableEq, Fintype

/-- The semaphore of each kind. -/
def CK.loc : CK → SemLoc sig
  | .bar => .reg barS
  | .xs j => .dma (xS j) | .xr j => .dma (xR j)
  | .yds j => .dma (ydS j) | .ydr j => .dma (ydR j)
  | .zds j => .dma (zdS j) | .zdr j => .dma (zdR j)
  | .yrs i => .dma (yrS i) | .yrr i => .dma (yrR i)
  | .zrs i => .dma (zrS i) | .zrr i => .dma (zrR i)
  | .cpq => .dma cpqS
  | .cpo s => .dma (cpoS s)

/-- The kind of a DMA semaphore, by its number. -/
def ckOfNat (n : Nat) : CK :=
  if n < 16 then .xs ⟨n % 16, Nat.mod_lt _ (by decide)⟩
  else if n < 32 then .xr ⟨n % 16, Nat.mod_lt _ (by decide)⟩
  else if n < 48 then .yds ⟨n % 16, Nat.mod_lt _ (by decide)⟩
  else if n < 64 then .ydr ⟨n % 16, Nat.mod_lt _ (by decide)⟩
  else if n < 80 then .zds ⟨n % 16, Nat.mod_lt _ (by decide)⟩
  else if n < 96 then .zdr ⟨n % 16, Nat.mod_lt _ (by decide)⟩
  else if n < 104 then .yrs ⟨n % 8, Nat.mod_lt _ (by decide)⟩
  else if n < 112 then .yrr ⟨n % 8, Nat.mod_lt _ (by decide)⟩
  else if n < 120 then .zrs ⟨n % 8, Nat.mod_lt _ (by decide)⟩
  else if n < 128 then .zrr ⟨n % 8, Nat.mod_lt _ (by decide)⟩
  else if n = 128 then .cpq
  else .cpo ⟨(n + 1) % 2, Nat.mod_lt _ (by decide)⟩

def ckOf : SemLoc sig → CK
  | .reg _ => .bar
  | .dma s => ckOfNat s.val

theorem ckOf_loc : ∀ k : CK, ckOf k.loc = k := by
  intro k; cases k <;> first | rfl | (rename_i j; revert j; decide)

theorem loc_injective : Function.Injective CK.loc := fun a b h => by
  rw [← ckOf_loc a, ← ckOf_loc b, h]

/-- A device's cell of a kind. -/
abbrev cell (o : Dev nD) (k : CK) : GSem nD τ sig := ((o : Thread nD τ), k.loc)

theorem cell_injective : Function.Injective (fun ok : Dev nD × CK => cell ok.1 ok.2) := by
  rintro ⟨o, k⟩ ⟨o', k'⟩ h
  have h1 : o = o' := congrArg (fun g : GSem nD τ sig => g.1.1) h
  have h2 : k = k' := loc_injective (congrArg Prod.snd h)
  subst h1; subst h2; rfl

/-! ## Amounts: a copy credits its destination view's count -/

abbrev Nv : ℕ := (vrM 0).view.dmaCredit
abbrev No : ℕ := (outM (0 : Dev nD) 0).view.dmaCredit
abbrev Nq : ℕ := (VQ : Memref sig .tc .vmem S2048x1024 .f32).view.dmaCredit

theorem Nv_pos : 0 < Nv := View.dmaCredit_pos _ (by decide)
theorem No_pos : 0 < No := View.dmaCredit_pos _ (by decide)
theorem Nq_pos : 0 < Nq := View.dmaCredit_pos _ (by decide)

theorem vrM_credit (j : Fin 16) : (vrM j).view.dmaCredit = Nv := rfl
theorem outM_credit (c : Dev nD) (j : Fin 16) : (outM c j).view.dmaCredit = No := rfl
theorem outE_credit (c : Dev nD) (i : Fin 8) : (outE c i).view.dmaCredit = No := rfl
theorem outO_credit (c : Dev nD) (i : Fin 8) : (outO c i).view.dmaCredit = No := rfl

def amt : CK → ℕ
  | .bar => 1
  | .xs _ => Nv | .xr _ => Nv
  | .cpq => Nq
  | _ => No

theorem amt_pos (k : CK) : 0 < amt k := by
  cases k <;> first | exact Nat.one_pos | exact Nv_pos | exact No_pos | exact Nq_pos

/-- Rounds per cell: the two local result copies' cells have one per chunk of their slot. -/
def nRd : CK → ℕ
  | .cpo _ => 8
  | _ => 1

/-! ## Shares: the input quarter is read by the local copy and by the copies to the x partner at once; a slot of
the sum buffer by the local copy and the copies to the y and z partner at once -/

abbrev shQ : PosShare TreeShare := fullShare.left
abbrev shX : PosShare TreeShare := fullShare.right
abbrev shO : PosShare TreeShare := fullShare.left
abbrev shY : PosShare TreeShare := fullShare.right.left
abbrev shZ : PosShare TreeShare := fullShare.right.right

/-- The slot chunk `j` is summed in, and the chunk of round `r` of slot `s`. -/
def slotOf (j : Fin 16) : Fin 2 := ⟨j.val % 2, Nat.mod_lt _ (by decide)⟩
def chunkOf (s : Fin 2) (r : ℕ) : Fin 16 := ⟨(2 * r + s.val) % 16, Nat.mod_lt _ (by decide)⟩

/-! ## Payloads -/

variable (m : (ℓ : Loc nD τ sig) → Buf (Elt F) ℓ)

/-- A points-to over a memref's elements on device `o`. -/
abbrev pts {sp : Space} {s : Shape} (o : Dev nD) (M : Memref sig .tc sp s .f32) (q : PosShare TreeShare)
    (f : Buf (Elt F) (M.view.loc (o : Thread nD τ))) : sProp 𝕄 :=
  M.view.loc (o : Thread nD τ) ↦[M.view.set]{q} f
/-- The same at contents nobody has stated yet. -/
abbrev ptsE {sp : Space} {s : Shape} (o : Dev nD) (M : Memref sig .tc sp s .f32) : sProp 𝕄 :=
  iprop(∃ f : Buf (Elt F) (M.view.loc (o : Thread nD τ)), M.view.loc (o : Thread nD τ) ↦[M.view.set]{fullShare} f)

/-- What the x partner's barrier signal hands `o`: the x partner's receive scratch, chunk by chunk. -/
def payBarX (o : Dev nD) : sProp 𝕄 := bigSep Finset.univ fun j : Fin 16 => ptsE (F := F) (xp o) (vrM j)
/-- What the y partner's hands `o`: on the y partner, the result rows of `o`'s quarter and the even chunks of `o`'s z partner's. -/
def payBarY (o : Dev nD) : sProp 𝕄 :=
  iprop((bigSep Finset.univ fun j : Fin 16 => ptsE (F := F) (yp o) (outM o j)) ∗ bigSep Finset.univ fun i : Fin 8 => ptsE (F := F) (yp o) (outE o i))
/-- What the z partner's hands `o`: on the z partner, the result rows of `o`'s quarter and the odd chunks of `o`'s y partner's. -/
def payBarZ (o : Dev nD) : sProp 𝕄 :=
  iprop((bigSep Finset.univ fun j : Fin 16 => ptsE (F := F) (zp o) (outM o j)) ∗ bigSep Finset.univ fun i : Fin 8 => ptsE (F := F) (zp o) (outO o i))

def pay (o : Dev nD) (k : CK) (r : ℕ) (d : Fin 3) : sProp 𝕄 :=
  match k with
  | .bar => if d = 0 then payBarX (F := F) o else if d = 1 then payBarY (F := F) o else payBarZ (F := F) o
  | .xs j => pts o (srcX o j) shX (X m o)
  | .xr j => pts o (vrM j) fullShare (VRc m o)
  | .yds j => pts o (vsM (slotOf j)) shY (VSc m o j)
  | .ydr j => pts o (outM (yp o) j) fullShare (OUTc m o)
  | .zds j => pts o (vsM (slotOf j)) shZ (VSc m o j)
  | .zdr j => pts o (outM (zp o) j) fullShare (OUTc m o)
  | .yrs i => pts o (outE o i) fullShare (OUTc m o)
  | .yrr i => pts o (outE (yp o) i) fullShare (OUTc m o)
  | .zrs i => pts o (outO o i) fullShare (OUTc m o)
  | .zrr i => pts o (outO (zp o) i) fullShare (OUTc m o)
  | .cpq => iprop(pts o VQ fullShare (VQc m o) ∗ pts o (srcQ o) shQ (X m o))
  | .cpo s => iprop(pts o (outM o (chunkOf s r)) fullShare (OUTc m o) ∗ pts o (vsM s) shO (VSc m o (chunkOf s r)))

/-! ## The schedule -/

def Rd : Rounds.Schedule (GSem nD τ sig) (Fin 3) 𝕄 where
  duties g r := if g.1.2 = .tc ∧ r < nRd (ckOf g.2) then (if ckOf g.2 = .bar then Finset.univ else {0}) else ∅
  amount g _ _ := amt (ckOf g.2)
  payload g r d := pay m g.1.1 (ckOf g.2) r d
  amount_pos g _ _ _ := amt_pos _

instance Rd_payload_storable (g : GSem nD τ sig) (r : ℕ) (d : Fin 3) :
    BI.Storable (upEmb : UEmb _ 𝕄) ((Rd (F := F) m).payload g r d) := by
  show BI.Storable upEmb (pay m g.1.1 (ckOf g.2) r d)
  unfold pay payBarX payBarY payBarZ
  cases ckOf g.2 <;> (repeat' split) <;> infer_instance

section Tables
variable (o : Dev nD)

theorem ckOf_cell (k : CK) : ckOf (cell o k).2 = k := ckOf_loc k

theorem duties_bar : (Rd (F := F) m).duties (cell o .bar) 0 = Finset.univ := by
  dsimp only [Rd]; rw [ckOf_loc]; exact (if_pos ⟨rfl, Nat.one_pos⟩).trans (if_pos rfl)
theorem duties_one (k : CK) (hk : k ≠ .bar) (r : ℕ) (hr : r < nRd k) : (Rd (F := F) m).duties (cell o k) r = {0} := by
  dsimp only [Rd]; rw [ckOf_loc]; exact (if_pos ⟨rfl, hr⟩).trans (if_neg hk)
theorem duties_later (k : CK) (r : ℕ) (hr : nRd k ≤ r) : (Rd (F := F) m).duties (cell o k) r = ∅ := by
  dsimp only [Rd]; rw [ckOf_loc]; exact if_neg fun h => absurd h.2 (by omega)
theorem amount_cell (k : CK) (r : ℕ) (d : Fin 3) : (Rd (F := F) m).amount (cell o k) r d = amt k := by
  dsimp only [Rd]; rw [ckOf_loc]
theorem payload_cell (k : CK) (r : ℕ) (d : Fin 3) : (Rd (F := F) m).payload (cell o k) r d = pay m o k r d := by
  dsimp only [Rd]; rw [ckOf_loc]
theorem expect_bar : (Rd (F := F) m).expect (cell o .bar) 0 = 3 := by
  unfold Schedule.expect Schedule.amountOf
  rw [duties_bar, Finset.sum_congr rfl fun d _ => amount_cell m o .bar 0 d, Finset.sum_const, Finset.card_univ, Fintype.card_fin]; rfl
theorem expect_one (k : CK) (hk : k ≠ .bar) (r : ℕ) (hr : r < nRd k) : (Rd (F := F) m).expect (cell o k) r = amt k := by
  unfold Schedule.expect Schedule.amountOf
  rw [duties_one m o k hk r hr, Finset.sum_singleton, amount_cell]
/-- The rest of a one-duty round, no duty taken: its payload. -/
theorem rest_one (k : CK) (hk : k ≠ .bar) (r : ℕ) (hr : r < nRd k) :
    bigSep ((Rd (F := F) m).duties (cell o k) r \ ∅) (fun d => (Rd (F := F) m).payload (cell o k) r d) = pay m o k r 0 := by
  rw [Finset.sdiff_empty, duties_one m o k hk r hr, bigSep_singleton, payload_cell]
/-- The rest of the barrier's round: the three partners' payloads. -/
theorem rest_bar :
    bigSep ((Rd (F := F) m).duties (cell o .bar) 0 \ ∅) (fun d => (Rd (F := F) m).payload (cell o .bar) 0 d)
      = iprop(payBarX (F := F) o ∗ payBarY (F := F) o ∗ payBarZ (F := F) o) := by
  rw [Finset.sdiff_empty, duties_bar, bigSep_univ_eq_bigSepL [0, 1, 2] (by decide) (by decide), bigSepL_cons_cons, bigSepL_cons_cons, bigSepL_singleton,
    payload_cell, payload_cell, payload_cell]
  rfl

end Tables

end Cert.Kernel.Ar

end
-- ==== Proof.KSets.lean ====
/-
  The element sets of the kernel's row-block views: membership by row, the equalities between the views
  of one block of rows named from two devices, pairwise disjointness, the covers of the whole buffers, and
  from these the splitting of a whole points-to into its blocks and along shares.
-/
import proofs.«900725_g7700000000000726_dist_ar_v7x_xyz2x4x4_x_m8192_n1024_f32_1_alg».proof.Proof.KSched
import Idealize.ShloMosaic.Rules.PointsTo

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Blocks of rows of the 8192 x 1024 arrays -/

/-- Rows `[r, r + n)`, all columns. -/
def rowsH (r n : Nat) (h : r + n ≤ 8192) : Rect S8192x1024 :=
  Rect.unit (s := S8192x1024) ![r, 0] ![n, 1024] (Rect.inb₂ h (le_refl _))

theorem mem_rowsH {r n : Nat} {h : r + n ≤ 8192} {i : S8192x1024.Idx} :
    i ∈ (rowsH r n h).set ↔ r ≤ (i 0).val ∧ (i 0).val < r + n := by
  unfold rowsH
  rw [Rect.mem_set_unit, Fin.forall_fin_two]
  simp only [Matrix.cons_val_zero, Matrix.cons_val_one]
  constructor
  · rintro ⟨h0, -⟩; exact h0
  · intro h0; exact ⟨h0, Nat.zero_le _, by have := (i 1).isLt; simpa using this⟩

/-- Blocks of rows one of which ends before the other begins are disjoint. -/
theorem rowsH_disjoint {r n r' n' : Nat} {h : r + n ≤ 8192} {h' : r' + n' ≤ 8192}
    (hd : r + n ≤ r' ∨ r' + n' ≤ r) : Disjoint (rowsH r n h).set (rowsH r' n' h').set := by
  unfold rowsH
  exact Rect.unit_disjoint 0 (by simpa using hd)

theorem rowsH_congr {r r' n : Nat} {h : r + n ≤ 8192} (e : r = r') :
    (rowsH r n h).set = (rowsH r' n (e ▸ h)).set := by subst e; rfl

/-- A unit-stride rectangle at offsets `(r, 0)` of sizes `(n, 1024)`, however they are spelt, is that block. -/
theorem set_unit_rows {off size : Fin 2 → Nat} {inb : ∀ a, off a + size a ≤ S8192x1024.size a} {r n : Nat}
    {h : r + n ≤ 8192} (ho : off = ![r, 0]) (hz : size = ![n, 1024]) :
    (Rect.unit (s := S8192x1024) off size inb).set = (rowsH r n h).set := by
  subst ho; subst hz; rfl

/-- A block of 2048 rows is its sixteen blocks of 128 rows. -/
theorem rowsH_biUnion16 (r : Nat) (h : r + 2048 ≤ 8192) :
    (Finset.univ : Finset (Fin 16)).biUnion (fun j => (rowsH (r + 128 * j.val) 128 (by have := j.isLt; omega)).set)
      = (rowsH r 2048 h).set := by
  ext i
  simp only [Finset.mem_biUnion, Finset.mem_univ, true_and, mem_rowsH]
  constructor
  · rintro ⟨j, h1, h2⟩; have := j.isLt; omega
  · rintro ⟨h1, h2⟩
    exact ⟨⟨((i 0).val - r) / 128, by omega⟩, by show r + 128 * (((i 0).val - r) / 128) ≤ (i 0).val ∧ (i 0).val < r + 128 * (((i 0).val - r) / 128) + 128; omega⟩

/-! ## The views as blocks of rows -/

theorem qbounds (c : Dev nD) : qme c < 4 ∧ qyp c < 4 ∧ qzp c < 4 ∧ qdg c < 4 := ⟨qme_lt c, qyp_lt c, qzp_lt c, qdg_lt c⟩

theorem srcQ_rows (c : Dev nD) :
    (srcQ c).view.set = (rowsH (2048 * qme c) 2048 (by have := qme_lt c; omega)).set :=
  (View.set_slice_whole main_arg0 _).trans (set_unit_rows (off1_eq c) rfl)
theorem srcX_rows (c : Dev nD) (j : Fin 16) :
    (srcX c j).view.set = (rowsH (2048 * qme c + 128 * j.val) 128 (by have := qme_lt c; have := j.isLt; omega)).set :=
  (View.set_slice_whole main_arg0 _).trans (set_unit_rows (off2_eq c j) rfl)
theorem outM_rows (c : Dev nD) (j : Fin 16) :
    (outM c j).view.set = (rowsH (2048 * qme c + 128 * j.val) 128 (by have := qme_lt c; have := j.isLt; omega)).set :=
  (View.set_slice_whole main_v1 _).trans (set_unit_rows (off2_eq c j) rfl)
theorem outE_rows (c : Dev nD) (e : Fin 8) :
    (outE c e).view.set = (rowsH (2048 * qzp c + 256 * e.val) 128 (by have := qzp_lt c; have := e.isLt; omega)).set :=
  (View.set_slice_whole main_v1 _).trans (set_unit_rows (off3_eq c e) rfl)
theorem outO_rows (c : Dev nD) (e : Fin 8) :
    (outO c e).view.set = (rowsH (2048 * qyp c + 128 + 256 * e.val) 128 (by have := qyp_lt c; have := e.isLt; omega)).set :=
  (View.set_slice_whole main_v1 _).trans (set_unit_rows (off4_eq c e) rfl)

/-! ## Membership by rows -/

theorem mem_srcQ (c : Dev nD) (i : S8192x1024.Idx) :
    i ∈ (srcQ c).view.set ↔ 2048 * qme c ≤ (i 0).val ∧ (i 0).val < 2048 * qme c + 2048 := by
  rw [srcQ_rows]; exact mem_rowsH
theorem mem_srcX (c : Dev nD) (j : Fin 16) (i : S8192x1024.Idx) :
    i ∈ (srcX c j).view.set ↔ 2048 * qme c + 128 * j.val ≤ (i 0).val ∧ (i 0).val < 2048 * qme c + 128 * j.val + 128 := by
  rw [srcX_rows]; exact mem_rowsH
theorem mem_outM (c : Dev nD) (j : Fin 16) (i : S8192x1024.Idx) :
    i ∈ (outM c j).view.set ↔ 2048 * qme c + 128 * j.val ≤ (i 0).val ∧ (i 0).val < 2048 * qme c + 128 * j.val + 128 := by
  rw [outM_rows]; exact mem_rowsH
theorem mem_outE (c : Dev nD) (e : Fin 8) (i : S8192x1024.Idx) :
    i ∈ (outE c e).view.set ↔ 2048 * qzp c + 256 * e.val ≤ (i 0).val ∧ (i 0).val < 2048 * qzp c + 256 * e.val + 128 := by
  rw [outE_rows]; exact mem_rowsH
theorem mem_outO (c : Dev nD) (e : Fin 8) (i : S8192x1024.Idx) :
    i ∈ (outO c e).view.set ↔ 2048 * qyp c + 128 + 256 * e.val ≤ (i 0).val ∧ (i 0).val < 2048 * qyp c + 128 + 256 * e.val + 128 := by
  rw [outO_rows]; exact mem_rowsH

/-! ## One block of rows, named from two devices -/

/-- The even and the odd block of a pair. -/
abbrev evenJ (e : Fin 8) : Fin 16 := ⟨2 * e.val, by have := e.isLt; omega⟩
abbrev oddJ (e : Fin 8) : Fin 16 := ⟨2 * e.val + 1, by have := e.isLt; omega⟩

theorem outE_set (c : Dev nD) (e : Fin 8) : (outE c e).view.set = (outM (zp c) (evenJ e)).view.set :=
  (outE_rows c e).trans ((rowsH_congr (by
    rw [qme_zp]; show 2048 * qzp c + 256 * e.val = 2048 * qzp c + 128 * (2 * e.val); omega)).trans
    (outM_rows (zp c) (evenJ e)).symm)

theorem outO_set (c : Dev nD) (e : Fin 8) : (outO c e).view.set = (outM (yp c) (oddJ e)).view.set :=
  (outO_rows c e).trans ((rowsH_congr (by
    rw [qme_yp]; show 2048 * qyp c + 128 + 256 * e.val = 2048 * qyp c + 128 * (2 * e.val + 1); omega)).trans
    (outM_rows (yp c) (oddJ e)).symm)

/-! ## The receive scratch: sixteen blocks of 128 rows of 2048 -/

/-- The elements of block `j` of the receive scratch. -/
def vrK (j : Fin 16) : Finset S2048x1024.Idx := (vrM j).view.set

theorem vrM_set (j : Fin 16) :
    (vrM j).view.set = (Rect.unit (s := S2048x1024) ![128 * j.val, 0] S128x1024.size (inbR j)).set :=
  View.set_slice_whole cc0_scratch1 _

theorem mem_vrM (j : Fin 16) (i : S2048x1024.Idx) :
    i ∈ (vrM j).view.set ↔ 128 * j.val ≤ (i 0).val ∧ (i 0).val < 128 * j.val + 128 := by
  rw [vrM_set]
  show i ∈ (Rect.unit (s := S2048x1024) ![128 * j.val, 0] S128x1024.size (inbR j)).set ↔ _
  rw [Rect.mem_set_unit, Fin.forall_fin_two]
  simp only [Matrix.cons_val_zero, Matrix.cons_val_one]
  constructor
  · rintro ⟨h0, -⟩; exact h0
  · intro h0; exact ⟨h0, Nat.zero_le _, by have := (i 1).isLt; simpa using this⟩

theorem vrK_disjoint {j j' : Fin 16} (h : j ≠ j') : Disjoint (vrK j) (vrK j') := by
  unfold vrK
  rw [vrM_set, vrM_set]
  refine Rect.unit_disjoint 0 ?_
  have hne : j.val ≠ j'.val := fun e => h (Fin.ext e)
  show 128 * j.val + 128 ≤ 128 * j'.val ∨ 128 * j'.val + 128 ≤ 128 * j.val
  omega

theorem biUnion_vrK : (Finset.univ : Finset (Fin 16)).biUnion vrK = Finset.univ := by
  ext i
  refine ⟨fun _ => Finset.mem_univ _, fun _ => ?_⟩
  have hi : (i 0).val < 2048 := (i 0).isLt
  have hlt : (i 0).val / 128 < 16 := by omega
  refine Finset.mem_biUnion.mpr ⟨⟨(i 0).val / 128, hlt⟩, Finset.mem_univ _, ?_⟩
  show i ∈ (vrM ⟨(i 0).val / 128, hlt⟩).view.set
  exact (mem_vrM ⟨(i 0).val / 128, hlt⟩ i).mpr (by dsimp only; omega)

/-! ## The two slots of the sum buffer -/

/-- The elements of slot `s` of the sum buffer. -/
def vsK (s : Fin 2) : Finset S2x128x1024.Idx := (vsM s).view.set

theorem vsM_set (s : Fin 2) :
    (vsM s).view.set = (Rect.unit (s := S2x128x1024) ![s.val, 0, 0] S1x128x1024.size (inbS s)).set :=
  (View.set_reshape _ _).trans (View.set_slice_whole cc0_scratch2 _)

theorem mem_vsM (s : Fin 2) (i : S2x128x1024.Idx) : i ∈ (vsM s).view.set ↔ (i 0).val = s.val := by
  rw [vsM_set]
  show i ∈ (Rect.unit (s := S2x128x1024) ![s.val, 0, 0] S1x128x1024.size (inbS s)).set ↔ _
  rw [Rect.mem_set_unit]
  constructor
  · intro h
    have h0 : s.val ≤ (i 0).val ∧ (i 0).val < s.val + 1 := h 0
    omega
  · intro h a
    have h1 : (i 1).val < 128 := (i 1).isLt
    have h2 : (i 2).val < 1024 := (i 2).isLt
    match a with
    | ⟨0, _⟩ => exact (show s.val ≤ (i 0).val ∧ (i 0).val < s.val + 1 by omega)
    | ⟨1, _⟩ => exact (show 0 ≤ (i 1).val ∧ (i 1).val < 0 + 128 by omega)
    | ⟨2, _⟩ => exact (show 0 ≤ (i 2).val ∧ (i 2).val < 0 + 1024 by omega)

theorem vsK_disjoint : Disjoint (vsK 0) (vsK 1) := by
  unfold vsK
  rw [vsM_set, vsM_set]
  exact Rect.unit_disjoint 0 (.inl (by decide))

theorem union_vsK : vsK 0 ∪ vsK 1 = Finset.univ := by
  ext i
  refine ⟨fun _ => Finset.mem_univ _, fun _ => ?_⟩
  have hi : (i 0).val < 2 := (i 0).isLt
  rcases (show (i 0).val = 0 ∨ (i 0).val = 1 by omega) with h | h
  · exact Finset.mem_union_left _ ((mem_vsM 0 i).mpr h)
  · exact Finset.mem_union_right _ ((mem_vsM 1 i).mpr h)

/-! ## The input quarter: sixteen blocks -/

/-- The elements of block `j` of the quarter of the input device `c` reduces. -/
def srcK (c : Dev nD) (j : Fin 16) : Finset S8192x1024.Idx := (srcX c j).view.set

theorem srcK_disjoint (c : Dev nD) {j j' : Fin 16} (h : j ≠ j') : Disjoint (srcK c j) (srcK c j') := by
  unfold srcK
  rw [srcX_rows, srcX_rows]
  apply rowsH_disjoint
  have hne : j.val ≠ j'.val := fun e => h (Fin.ext e)
  omega

theorem biUnion_srcK (c : Dev nD) : (Finset.univ : Finset (Fin 16)).biUnion (srcK c) = (srcQ c).view.set := by
  rw [srcQ_rows, ← rowsH_biUnion16]
  exact Finset.biUnion_congr rfl fun j _ => srcX_rows c j

/-! ## The result array: four quarters, the fourth by even and odd blocks -/

/-- The index of the five families of blocks of the result array on a device: its own quarter's, its y
    partner's, its z partner's, and the even and the odd blocks of the fourth quarter. -/
abbrev OutT : Type := Fin 16 ⊕ Fin 16 ⊕ Fin 16 ⊕ Fin 8 ⊕ Fin 8

def outK (c : Dev nD) : OutT → Finset S8192x1024.Idx
  | .inl j => (outM c j).view.set
  | .inr (.inl j) => (outM (yp c) j).view.set
  | .inr (.inr (.inl j)) => (outM (zp c) j).view.set
  | .inr (.inr (.inr (.inl e))) => (outE (yp c) e).view.set
  | .inr (.inr (.inr (.inr e))) => (outO (zp c) e).view.set

/-- The first row of each block. -/
def outLo (c : Dev nD) : OutT → Nat
  | .inl j => 2048 * qme c + 128 * j.val
  | .inr (.inl j) => 2048 * qyp c + 128 * j.val
  | .inr (.inr (.inl j)) => 2048 * qzp c + 128 * j.val
  | .inr (.inr (.inr (.inl e))) => 2048 * qdg c + 256 * e.val
  | .inr (.inr (.inr (.inr e))) => 2048 * qdg c + 128 + 256 * e.val

/-- The four quarters of a device are the four combinations of two bits. -/
theorem quarters (c : Dev nD) : ∃ a b : Nat, a < 2 ∧ b < 2 ∧ qme c = 2 * a + b ∧ qyp c = 2 * (1 - a) + b
    ∧ qzp c = 2 * a + (1 - b) ∧ qdg c = 2 * (1 - a) + (1 - b) :=
  ⟨c.val / 4 % 2, c.val % 2, Nat.mod_lt _ (by decide), Nat.mod_lt _ (by decide), rfl, rfl, rfl, rfl⟩

theorem outLo_le (c : Dev nD) (t : OutT) : outLo c t + 128 ≤ 8192 := by
  obtain ⟨h1, h2, h3, h4⟩ := qbounds c
  rcases t with j | j | j | j | j <;> simp only [outLo] <;> have := j.isLt <;> omega

theorem outK_rows (c : Dev nD) (t : OutT) : outK c t = (rowsH (outLo c t) 128 (outLo_le c t)).set := by
  rcases t with j | j | j | j | j
  · exact outM_rows c j
  · exact (outM_rows (yp c) j).trans (rowsH_congr (by show 2048 * qme (yp c) + 128 * j.val = 2048 * qyp c + 128 * j.val; rw [qme_yp]))
  · exact (outM_rows (zp c) j).trans (rowsH_congr (by show 2048 * qme (zp c) + 128 * j.val = 2048 * qzp c + 128 * j.val; rw [qme_zp]))
  · exact (outE_rows (yp c) j).trans (rowsH_congr (by show 2048 * qzp (yp c) + 256 * j.val = 2048 * qdg c + 256 * j.val; rw [qzp_yp]))
  · exact (outO_rows (zp c) j).trans (rowsH_congr (by show 2048 * qyp (zp c) + 128 + 256 * j.val = 2048 * qdg c + 128 + 256 * j.val; rw [qyp_zp]))

theorem outK_disjoint (c : Dev nD) {t t' : OutT} (h : t ≠ t') : Disjoint (outK c t) (outK c t') := by
  rw [outK_rows, outK_rows]
  apply rowsH_disjoint
  obtain ⟨a, b, ha, hb, e1, e2, e3, e4⟩ := quarters c
  rcases t with j | j | j | j | j <;> rcases t' with k | k | k | k | k <;> simp only [outLo] <;>
    simp only [ne_eq, Sum.inl.injEq, Sum.inr.injEq, reduceCtorEq, not_false_eq_true, Fin.ext_iff] at h <;>
    have := j.isLt <;> have := k.isLt <;> omega

theorem biUnion_outK (c : Dev nD) : (Finset.univ : Finset OutT).biUnion (outK c) = Finset.univ := by
  ext i
  simp only [Finset.mem_biUnion, Finset.mem_univ, true_and, iff_true]
  have hi : (i 0).val < 8192 := (i 0).isLt
  obtain ⟨a, b, ha, hb, e1, e2, e3, e4⟩ := quarters c
  suffices h : ∃ t, outLo c t ≤ (i 0).val ∧ (i 0).val < outLo c t + 128 by
    obtain ⟨t, ht⟩ := h
    exact ⟨t, by rw [outK_rows]; exact mem_rowsH.mpr ht⟩
  have hq : (i 0).val / 2048 = qme c ∨ (i 0).val / 2048 = qyp c ∨ (i 0).val / 2048 = qzp c
      ∨ (i 0).val / 2048 = qdg c := by omega
  rcases hq with hq | hq | hq | hq
  · exact ⟨.inl ⟨(i 0).val % 2048 / 128, by omega⟩, by simp only [outLo]; omega⟩
  · exact ⟨.inr (.inl ⟨(i 0).val % 2048 / 128, by omega⟩), by simp only [outLo]; omega⟩
  · exact ⟨.inr (.inr (.inl ⟨(i 0).val % 2048 / 128, by omega⟩)), by simp only [outLo]; omega⟩
  · rcases Nat.mod_two_eq_zero_or_one ((i 0).val % 2048 / 128) with hp | hp
    · exact ⟨.inr (.inr (.inr (.inl ⟨(i 0).val % 2048 / 256, by omega⟩))), by simp only [outLo]; omega⟩
    · exact ⟨.inr (.inr (.inr (.inr ⟨(i 0).val % 2048 / 256, by omega⟩))), by simp only [outLo]; omega⟩

/-! ## Splitting the points-tos -/

/-- Along the two readers of the input quarter. -/
theorem share2 (ℓ : Loc nD τ sig) (I : Finset (Idx ℓ)) (f : Buf (Elt F) ℓ) :
    (ℓ ↦[I]{fullShare} f : sProp 𝕄) ⊣⊢ iprop((ℓ ↦[I]{shQ} f) ∗ (ℓ ↦[I]{shX} f)) :=
  pointsTo_share (PosShare.mem_left_op_right fullShare)

/-- Along the three readers of a slot of the sum buffer. -/
theorem share3 (ℓ : Loc nD τ sig) (I : Finset (Idx ℓ)) (f : Buf (Elt F) ℓ) :
    (ℓ ↦[I]{fullShare} f : sProp 𝕄) ⊣⊢ iprop((ℓ ↦[I]{shO} f) ∗ (ℓ ↦[I]{shY} f) ∗ (ℓ ↦[I]{shZ} f)) := by
  have h1 : (ℓ ↦[I]{fullShare} f : sProp 𝕄) ⊣⊢ iprop((ℓ ↦[I]{fullShare.left} f) ∗ (ℓ ↦[I]{fullShare.right} f)) :=
    pointsTo_share (PosShare.mem_left_op_right fullShare)
  have h2 : (ℓ ↦[I]{fullShare.right} f : sProp 𝕄) ⊣⊢ iprop((ℓ ↦[I]{fullShare.right.left} f) ∗ (ℓ ↦[I]{fullShare.right.right} f)) :=
    pointsTo_share (PosShare.mem_left_op_right fullShare.right)
  have e1 := BI.equiv_iff.mp ⟨h1.1, h1.2⟩
  have e2 := BI.equiv_iff.mp ⟨h2.1, h2.2⟩
  refine BIBase.BiEntails.of_eq ?_
  rw [e1, e2]

/-- A forwarded odd block is a block of the y partner's quarter; a forwarded even block one of the z partner's. -/
theorem outM_odd (c : Dev nD) (e : Fin 8) (q : PosShare TreeShare) (f : Buf (Elt F) ((c : Thread nD τ).loc main_v1)) :
    (pts c (outO c e) q f : sProp 𝕄) = pts c (outM (yp c) (oddJ e)) q f :=
  congrArg (fun I : Finset S8192x1024.Idx => (((c : Thread nD τ).loc main_v1 ↦[I]{q} f) : sProp 𝕄)) (outO_set c e)
theorem outM_even (c : Dev nD) (e : Fin 8) (q : PosShare TreeShare) (f : Buf (Elt F) ((c : Thread nD τ).loc main_v1)) :
    (pts c (outE c e) q f : sProp 𝕄) = pts c (outM (zp c) (evenJ e)) q f :=
  congrArg (fun I : Finset S8192x1024.Idx => (((c : Thread nD τ).loc main_v1 ↦[I]{q} f) : sProp 𝕄)) (outE_set c e)

/-- The result array by its sixty-four blocks. -/
theorem out_split_eq (c : Dev nD) (f : Buf (Elt F) ((c : Thread nD τ).loc main_v1)) :
    (((c : Thread nD τ).loc main_v1 ↦{fullShare} f) : sProp 𝕄)
      = iprop((bigSep Finset.univ fun j : Fin 16 => pts c (outM c j) fullShare f)
          ∗ (bigSep Finset.univ fun j : Fin 16 => pts c (outM (yp c) j) fullShare f)
          ∗ (bigSep Finset.univ fun j : Fin 16 => pts c (outM (zp c) j) fullShare f)
          ∗ (bigSep Finset.univ fun e : Fin 8 => pts c (outE (yp c) e) fullShare f)
          ∗ (bigSep Finset.univ fun e : Fin 8 => pts c (outO (zp c) e) fullShare f)) := by
  refine (Eq.trans ?_ (pointsTo_biUnion (ℓ := (c : Thread nD τ).loc main_v1) (q := fullShare) (f := f)
    (Finset.univ : Finset OutT) (outK c) (fun t _ t' _ h => outK_disjoint c h))).trans ?_
  · rw [biUnion_outK]
  · rw [bigSep_univ_sum, bigSep_univ_sum, bigSep_univ_sum, bigSep_univ_sum]
    rfl

theorem out_split (c : Dev nD) (f : Buf (Elt F) ((c : Thread nD τ).loc main_v1)) :
    (((c : Thread nD τ).loc main_v1 ↦{fullShare} f) : sProp 𝕄)
      ⊣⊢ iprop((bigSep Finset.univ fun j : Fin 16 => pts c (outM c j) fullShare f)
          ∗ (bigSep Finset.univ fun j : Fin 16 => pts c (outM (yp c) j) fullShare f)
          ∗ (bigSep Finset.univ fun j : Fin 16 => pts c (outM (zp c) j) fullShare f)
          ∗ (bigSep Finset.univ fun e : Fin 8 => pts c (outE (yp c) e) fullShare f)
          ∗ (bigSep Finset.univ fun e : Fin 8 => pts c (outO (zp c) e) fullShare f)) :=
  BIBase.BiEntails.of_eq (out_split_eq c f)

/-- The receive scratch by its sixteen blocks. -/
theorem vr_split_eq (c : Dev nD) (f : Buf (Elt F) ((c : Thread nD τ).loc cc0_scratch1)) :
    (((c : Thread nD τ).loc cc0_scratch1 ↦{fullShare} f) : sProp 𝕄)
      = bigSep Finset.univ fun j : Fin 16 => pts c (vrM j) fullShare f := by
  refine Eq.trans ?_ (pointsTo_biUnion (ℓ := (c : Thread nD τ).loc cc0_scratch1) (q := fullShare) (f := f)
    (Finset.univ : Finset (Fin 16)) vrK (fun j _ j' _ h => vrK_disjoint h))
  rw [biUnion_vrK]

theorem vr_split (c : Dev nD) (f : Buf (Elt F) ((c : Thread nD τ).loc cc0_scratch1)) :
    (((c : Thread nD τ).loc cc0_scratch1 ↦{fullShare} f) : sProp 𝕄)
      ⊣⊢ bigSep Finset.univ fun j : Fin 16 => pts c (vrM j) fullShare f :=
  BIBase.BiEntails.of_eq (vr_split_eq c f)

/-- The sum buffer by its two slots. -/
theorem vs_split (c : Dev nD) (f : Buf (Elt F) ((c : Thread nD τ).loc cc0_scratch2)) :
    (((c : Thread nD τ).loc cc0_scratch2 ↦{fullShare} f) : sProp 𝕄)
      ⊣⊢ iprop(pts c (vsM 0) fullShare f ∗ pts c (vsM 1) fullShare f) := by
  have h : (((c : Thread nD τ).loc cc0_scratch2 ↦[vsK 0 ∪ vsK 1]{fullShare} f) : sProp 𝕄)
      ⊣⊢ iprop(((c : Thread nD τ).loc cc0_scratch2 ↦[vsK 0]{fullShare} f) ∗ ((c : Thread nD τ).loc cc0_scratch2 ↦[vsK 1]{fullShare} f)) :=
    pointsTo_union vsK_disjoint
  rw [union_vsK] at h
  exact h

/-- The input block: the quarter the device reduces, and the rest. -/
theorem in_split (c : Dev nD) (f : Buf (Elt F) ((c : Thread nD τ).loc main_arg0)) :
    (((c : Thread nD τ).loc main_arg0 ↦{fullShare} f) : sProp 𝕄)
      ⊣⊢ iprop(pts c (srcQ c) fullShare f
          ∗ ((c : Thread nD τ).loc main_arg0 ↦[Finset.univ \ (srcQ c).view.set]{fullShare} f)) :=
  pointsTo_split_subset (Finset.subset_univ _)

/-- The input quarter by its sixteen blocks, at any share. -/
theorem srcQ_split_eq (c : Dev nD) (q : PosShare TreeShare) (f : Buf (Elt F) ((c : Thread nD τ).loc main_arg0)) :
    (pts c (srcQ c) q f : sProp 𝕄) = bigSep Finset.univ fun j : Fin 16 => pts c (srcX c j) q f := by
  refine Eq.trans ?_ (pointsTo_biUnion (ℓ := (c : Thread nD τ).loc main_arg0) (q := q) (f := f)
    (Finset.univ : Finset (Fin 16)) (srcK c) (fun j _ j' _ h => srcK_disjoint c h))
  rw [biUnion_srcK]

theorem srcQ_split (c : Dev nD) (q : PosShare TreeShare) (f : Buf (Elt F) ((c : Thread nD τ).loc main_arg0)) :
    (pts c (srcQ c) q f : sProp 𝕄) ⊣⊢ bigSep Finset.univ fun j : Fin 16 => pts c (srcX c j) q f :=
  BIBase.BiEntails.of_eq (srcQ_split_eq c q f)

/-! ## Joining back, forgetting contents, and universes as chains -/

/-- The two slots of the sum buffer, ending at different contents, are the whole buffer at some contents. -/
theorem vs_join (c : Dev nD) (f g : Buf (Elt F) ((c : Thread nD τ).loc cc0_scratch2)) :
    iprop(pts c (vsM 0) fullShare f ∗ pts c (vsM 1) fullShare g)
      ⊢ (iprop(∃ h, ((c : Thread nD τ).loc cc0_scratch2) ↦{fullShare} h) : sProp 𝕄) := by
  have hj : iprop((((c : Thread nD τ).loc cc0_scratch2) ↦[vsK 0]{fullShare} f) ∗ (((c : Thread nD τ).loc cc0_scratch2) ↦[vsK 1]{fullShare} g))
      ⊢ ((((c : Thread nD τ).loc cc0_scratch2) ↦[vsK 0 ∪ vsK 1]{fullShare} _) : sProp 𝕄) := pointsTo_join vsK_disjoint
  rw [union_vsK] at hj
  refine hj.trans ?_
  iintro H
  iexists _
  iexact H

/-- A points-to at stated contents is one at some contents. -/
theorem ptsE_of {sp : Space} {s : Shape} (o : Dev nD) (M : Memref sig .tc sp s .f32)
    (f : Buf (Elt F) (M.view.loc (o : Thread nD τ))) : pts o M fullShare f ⊢ ptsE (F := F) o M := by
  iintro H
  iexists f
  iexact H

/-- The same over a family of memrefs. -/
theorem ptsE_of_bigSep {sp : Space} {s : Shape} {T : Type} (S : Finset T) (c : Dev nD) (M : T → Memref sig .tc sp s .f32)
    (f : (j : T) → Buf (Elt F) ((M j).view.loc (c : Thread nD τ))) :
    bigSep S (fun j => pts c (M j) fullShare (f j)) ⊢ bigSep S (fun j => ptsE (F := F) c (M j)) :=
  bigSep_mono fun j _ => ptsE_of c (M j) (f j)

/-- A family over eight, and over sixteen, indices as a chain. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  rfl
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13
      ∗ Φ 14 ∗ Φ 15) := by
  rw [bigSep_univ_eq_bigSepL [0, 1, 2, 3, 4, 5, 6, 7, 8, 9, 10, 11, 12, 13, 14, 15] (by decide) (by decide)]
  rfl

/-- info: 'Cert.Kernel.Ar.out_split' depends on axioms: [propext, Classical.choice, Quot.sound] -/
#guard_msgs in #print axioms out_split
/-- info: 'Cert.Kernel.Ar.vr_split' depends on axioms: [propext, Classical.choice, Quot.sound] -/
#guard_msgs in #print axioms vr_split
/-- info: 'Cert.Kernel.Ar.vs_split' depends on axioms: [propext, Classical.choice, Quot.sound] -/
#guard_msgs in #print axioms vs_split
/-- info: 'Cert.Kernel.Ar.in_split' depends on axioms: [propext, Classical.choice, Quot.sound] -/
#guard_msgs in #print axioms in_split
/-- info: 'Cert.Kernel.Ar.srcQ_split' depends on axioms: [propext, Classical.choice, Quot.sound] -/
#guard_msgs in #print axioms srcQ_split
/-- info: 'Cert.Kernel.Ar.share3' depends on axioms: [propext, Classical.choice, Quot.sound] -/
#guard_msgs in #print axioms share3
/-- info: 'Cert.Kernel.Ar.vs_join' depends on axioms: [propext, Classical.choice, Quot.sound] -/
#guard_msgs in #print axioms vs_join
/-- info: 'Cert.Kernel.Ar.outE_set' depends on axioms: [propext, Classical.choice, Quot.sound] -/
#guard_msgs in #print axioms outE_set
/-- info: 'Cert.Kernel.Ar.outO_set' depends on axioms: [propext, Classical.choice, Quot.sound] -/
#guard_msgs in #print axioms outO_set
/-- info: 'Cert.Kernel.Ar.mem_vsM' depends on axioms: [propext, Classical.choice, Quot.sound] -/
#guard_msgs in #print axioms mem_vsM

end Cert.Kernel.Ar

end
-- ==== Proof.KGhost.lean ====
/-
  What each device starts the body from, and what it ends with.
  * What it owes at launch: one unit to each partner's barrier semaphore, and to each cell that one of its copies
    lands on (a receive cell on a partner) the copy's credit; written as nested sums in the order the body pays them,
    so that each payment takes the head off.
  * Its ghost state: every cell's invariant and that round 0 of every cell is reached (persistent, the same for all
    devices); its own cells' positions; the tokens of the duties IT pays (its own send and local cells', and the
    partners' receive and barrier cells'); the credit dealt to it at launch for what others owe its cells.
  * Levels for the deadlock argument: a device may wait on a cell only while everything it still owes is at a higher
    level. Local cells 0, the barrier 1, the x receive cells 2, the y/z spread receive cells 3, the forward receive cells 4:
    this is the order in which the body's waits and payments alternate.
-/
import proofs.«900725_g7700000000000726_dist_ar_v7x_xyz2x4x4_x_m8192_n1024_f32_1_alg».proof.Proof.KSched

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a device owes -/

def fin16 (n : ℕ) : Fin 16 := ⟨n % 16, Nat.mod_lt _ (by decide)⟩
def fin8 (n : ℕ) : Fin 8 := ⟨n % 8, Nat.mod_lt _ (by decide)⟩

abbrev Tal : Type := CellTallies nD τ sig Unit

def tBar (p : Dev nD) : Tal := tallyAt (cell p .bar) () 1
def tX (c : Dev nD) (j : Fin 16) : Tal := tallyAt (cell (xp c) (.xr j)) () Nv
def tYD (c : Dev nD) (j : Fin 16) : Tal := tallyAt (cell (yp c) (.ydr j)) () No
def tZD (c : Dev nD) (j : Fin 16) : Tal := tallyAt (cell (zp c) (.zdr j)) () No
def tYR (c : Dev nD) (i : Fin 8) : Tal := tallyAt (cell (yp c) (.yrr i)) () No
def tZR (c : Dev nD) (i : Fin 8) : Tal := tallyAt (cell (zp c) (.zrr i)) () No

/-- The forward iteration `j` of the last loop makes: an even chunk goes to the y partner, an odd one to the z partner. -/
def tFw (c : Dev nD) (j : Fin 16) : Tal := if j.val % 2 = 0 then tYR c (fin8 (j.val / 2)) else tZR c (fin8 (j.val / 2))

/-- Owed with the last `k` forwards still to make. -/
def rem3 (c : Dev nD) : ℕ → Tal
  | 0 => 0
  | k + 1 => tFw c (fin16 (15 - k)) + rem3 c k
/-- Owed with the last `k` spread iterations still to run (each pays the y partner, then the z partner). -/
def rem2 (c : Dev nD) : ℕ → Tal
  | 0 => rem3 c 16
  | k + 1 => tYD c (fin16 (15 - k)) + (tZD c (fin16 (15 - k)) + rem2 c k)
/-- Owed with the last `k` copies to the x partner still to issue. -/
def rem1 (c : Dev nD) : ℕ → Tal
  | 0 => rem2 c 16
  | k + 1 => tX c (fin16 (15 - k)) + rem1 c k
/-- Owed at launch: the three barrier signals (x, y, z in that order), then the copies. -/
def O₀ (c : Dev nD) : Tal := tBar (xp c) + (tBar (yp c) + (tBar (zp c) + rem1 c 16))

/-! ## Levels -/

def L (g : GSem nD τ sig) : Finset Unit := if g.1.2 = .tc then {()} else ∅
def lvK : CK → ℕ
  | .bar => 1
  | .xr _ => 2
  | .ydr _ => 3 | .zdr _ => 3
  | .yrr _ => 4 | .zrr _ => 4
  | _ => 0
def lv (g : GSem nD τ sig) (_ : Unit) : ℕ := lvK (ckOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (o : Dev nD) (k : CK) (u : Unit) : lv (cell o k) u = lvK k := by unfold lv; rw [ckOf_loc]

/-! ## The ghost state -/

variable (m : (ℓ : Loc nD τ sig) → Buf (Elt F) ℓ)

/-- Every cell's invariant, at the names `K`, and that round 0 of every cell is reached. -/
def recs (K : Dev nD × CK → ℕ) : sProp 𝕄 :=
  iprop((bigSep Finset.univ fun ok : Dev nD × CK => cellInv ER (Rd m) (K ok) (cell ok.1 ok.2))
    ∗ bigSep Finset.univ fun ok : Dev nD × CK => reached ER (cell ok.1 ok.2) 0)

instance recs_persistent (K : Dev nD × CK → ℕ) : BI.Persistent (recs m K) := by unfold recs; infer_instance

theorem inv_at (K : Dev nD × CK → ℕ) (o : Dev nD) (k : CK) : recs m K ⊢ cellInv ER (Rd m) (K (o, k)) (cell o k) := by
  unfold recs; iintro ⟨H, -⟩
  iapply (show (bigSep Finset.univ fun ok : Dev nD × CK => (cellInv ER (Rd m) (K ok) (cell ok.1 ok.2) : sProp 𝕄)) ⊢ cellInv ER (Rd m) (K (o, k)) (cell o k)
    from bigSep_elim (Finset.mem_univ (o, k)))
  iexact H
theorem reached_at (K : Dev nD × CK → ℕ) (o : Dev nD) (k : CK) : recs m K ⊢ reached ER (cell o k) 0 := by
  unfold recs; iintro ⟨-, H⟩
  iapply (show (bigSep Finset.univ fun ok : Dev nD × CK => (reached ER (cell ok.1 ok.2) 0 : sProp 𝕄)) ⊢ reached ER (cell o k) 0
    from bigSep_elim (Finset.mem_univ (o, k)))
  iexact H

abbrev pos0 (c : Dev nD) (k : CK) : sProp 𝕄 := atPos ER (cell c k) 0 ∅ 0
abbrev tok0 (o : Dev nD) (k : CK) (r : ℕ) (d : Fin 3) : sProp 𝕄 := dutyTok ER (cell o k) r d

/-- Device `c`'s positions on its own cells, grouped as the body's loops use them. -/
def posOwn (c : Dev nD) : sProp 𝕄 :=
  iprop(pos0 c .bar ∗ pos0 c .cpq ∗ pos0 c (.cpo 0) ∗ pos0 c (.cpo 1)
    ∗ (bigSep Finset.univ fun j : Fin 16 => iprop(pos0 c (.xs j) ∗ pos0 c (.xr j) ∗ pos0 c (.yds j) ∗ pos0 c (.ydr j) ∗ pos0 c (.zds j) ∗ pos0 c (.zdr j)))
    ∗ (bigSep Finset.univ fun i : Fin 8 => iprop(pos0 c (.yrs i) ∗ pos0 c (.yrr i) ∗ pos0 c (.zrs i) ∗ pos0 c (.zrr i))))

/-- The tokens of the duties device `c` pays: on the three partners' barrier cells (duty 0 on the x partner's, 1 on the y
    partner's, 2 on the z partner's), on its own local and send cells, and on the partners' receive cells. -/
def payToks (c : Dev nD) : sProp 𝕄 :=
  iprop(tok0 (xp c) .bar 0 0 ∗ tok0 (yp c) .bar 0 1 ∗ tok0 (zp c) .bar 0 2 ∗ tok0 c .cpq 0 0
    ∗ (bigSep Finset.univ fun j : Fin 16 => iprop(tok0 c (.xs j) 0 0 ∗ tok0 (xp c) (.xr j) 0 0))
    ∗ (bigSep Finset.univ fun j : Fin 16 => iprop(tok0 c (.cpo (slotOf j)) (j.val / 2) 0 ∗ tok0 c (.yds j) 0 0 ∗ tok0 (yp c) (.ydr j) 0 0
        ∗ tok0 c (.zds j) 0 0 ∗ tok0 (zp c) (.zdr j) 0 0))
    ∗ (bigSep Finset.univ fun i : Fin 8 => iprop(tok0 c (.yrs i) 0 0 ∗ tok0 (yp c) (.yrr i) 0 0 ∗ tok0 c (.zrs i) 0 0 ∗ tok0 (zp c) (.zrr i) 0 0)))

/-- The credit dealt to device `c` at launch: what the partners owe its barrier and receive cells. -/
def creds (c : Dev nD) : sProp 𝕄 :=
  iprop(cred (tallyAt (cell c .bar) () 3)
    ∗ (bigSep Finset.univ fun j : Fin 16 => iprop(cred (tallyAt (cell c (.xr j)) () Nv) ∗ cred (tallyAt (cell c (.ydr j)) () No) ∗ cred (tallyAt (cell c (.zdr j)) () No)))
    ∗ (bigSep Finset.univ fun i : Fin 8 => iprop(cred (tallyAt (cell c (.yrr i)) () No) ∗ cred (tallyAt (cell c (.zrr i)) () No))))

def ghost (K : Dev nD × CK → ℕ) (c : Dev nD) : sProp 𝕄 := iprop(recs m K ∗ posOwn c ∗ payToks c)

/-- Device `c`'s buffers as the body finds them: the input at its launch contents, the result and the scratches at anything. -/
def bufs0 (c : Dev nD) : sProp 𝕄 :=
  iprop((((c : Thread nD τ).loc main_arg0) ↦{fullShare} X m c)
    ∗ (∃ f : Buf (Elt F) ((c : Thread nD τ).loc main_v1), ((c : Thread nD τ).loc main_v1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- And at the end: the input unchanged, the result at its final contents, the scratches at anything. -/
def bufs1 (c : Dev nD) : sProp 𝕄 :=
  iprop((((c : Thread nD τ).loc main_arg0) ↦{fullShare} X m c)
    ∗ (((c : Thread nD τ).loc main_v1) ↦{fullShare} OUTc m c)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The own (scoped) DMA semaphores back at zero. -/
def sems0 (c : Dev nD) : sProp 𝕄 := bigSep Finset.univ fun s : DmaSem sig => semVal ((c : Thread nD τ), SemLoc.dma s) 0

/-- What the body of device `c` starts from, and ends with. -/
def Φ₀ (c : Dev nD) : sProp 𝕄 := iprop((∃ K, ghost m K c) ∗ creds c ∗ levAts L lv ∗ bufs0 m c)
def Φ₁ (c : Dev nD) : sProp 𝕄 := iprop(bufs1 m c ∗ sems0 c)

end Cert.Kernel.Ar

end
-- ==== Proof.KFrag.lean ====
/-
  The body's statements, one definition per kind of step, at a symbolic device `c` and chunk index, each followed by
  an arbitrary continuation `k`: the printed body is a chain of these (by definitional unfolding), so a lemma about
  one of them at a symbolic chunk applies at each of its unrolled occurrences.
-/
import proofs.«900725_g7700000000000726_dist_ar_v7x_xyz2x4x4_x_m8192_n1024_f32_1_alg».proof.Proof.KGhost
import proofs.«900725_g7700000000000726_dist_ar_v7x_xyz2x4x4_x_m8192_n1024_f32_1_alg».proof.Proof.Gen.Kernel.Skeleton

noncomputable section

namespace Cert.Kernel.Ar

open Cert.Kernel Cert.Kernel.Gen Cert.Kernel.Mesh
open Idealize.ShloMosaic Idealize.ShloMosaic.TcCoe
open Idealize.SL Idealize.SL.Sem

variable {F : FTy → Type} [FloatOps F]

/-- Programs of the kernel body. -/
abbrev PR (F : FTy → Type) [FloatOps F] (α : Type) : Type 1 := Prog (TpuEff nD τ sig (Elt F) Λ₀ .tc) α

variable {α : Type}

/-! ## Entry -/

/-- The local copy of the device's quarter of the input to `VQ`. -/
abbrev fCpq (c : Dev nD) (k : PR F α) : PR F α :=
  Prog.op (.enqueueDma (srcQ c) (.here VQ) (.dma cpqS) (View.wordExact_bits rfl) (Memref.isWhole_whole _).wordExact ⟨Or.inl rfl, trivial⟩) fun _ => k
/-- One unit to device `n`'s barrier semaphore. -/
abbrev fSig (n : Dev nD) (k : PR F α) : PR F α :=
  Prog.op (.semSignal ((n, Proc.tc) : Thread nD τ) barS (1#32).toNat) fun _ => k
/-- The wait for the three partners' units. -/
abbrev fBarWait (k : PR F α) : PR F α :=
  Prog.op (.semWait barS (3#32).toNat) fun _ => k
/-- Chunk `j` of the quarter to device `n`'s receive scratch. -/
abbrev fX (c : Dev nD) (j : Fin 16) (n : Dev nD) (k : PR F α) : PR F α :=
  Prog.op (.enqueueDma (srcX c j) (.remote (Dev.tc n) (vrM j) (.dma (xS j))) (.dma (xR j)) (View.wordExact_bits rfl) (View.wordExact_bits rfl) ⟨⟨rfl, Or.inl rfl⟩, trivial⟩) fun _ => k
/-- The wait for the local copy of the quarter. -/
abbrev fWaitQ (c : Dev nD) (k : PR F α) : PR F α :=
  Prog.op (.waitDma2 cpqS (srcQ c) VQ (View.wordExact_bits rfl) (Memref.isWhole_whole _).wordExact) fun _ => k

/-! ## The reduce-and-spread loop, iteration `j` (slot `slotOf j`) -/

/-- The waits that free a slot: the y copy's and the z copy's send semaphores of chunk `j`, and the local result copy's. -/
abbrev fWaitYdS (c : Dev nD) (j : Fin 16) (k : PR F α) : PR F α :=
  Prog.op (.waitDma2 (ydS j) (outM c j) (vsM (slotOf j)) (View.wordExact_bits rfl) ((View.wordExact_bits rfl).reshape _ _)) fun _ => k
abbrev fWaitZdS (c : Dev nD) (j : Fin 16) (k : PR F α) : PR F α :=
  Prog.op (.waitDma2 (zdS j) (outM c j) (vsM (slotOf j)) (View.wordExact_bits rfl) ((View.wordExact_bits rfl).reshape _ _)) fun _ => k
abbrev fWaitO (c : Dev nD) (j : Fin 16) (k : PR F α) : PR F α :=
  Prog.op (.waitDma2 (cpoS (slotOf j)) (vsM (slotOf j)) (outM c j) ((View.wordExact_bits rfl).reshape _ _) (View.wordExact_bits rfl)) fun _ => k
/-- The wait for the x partner's chunk `j`. -/
abbrev fWaitXR (c : Dev nD) (j : Fin 16) (k : PR F α) : PR F α :=
  Prog.op (.waitDma2 (xR j) (srcX c j) (vrM j) (View.wordExact_bits rfl) (View.wordExact_bits rfl)) fun _ => k
/-- The sum of chunk `j`: two loads, the (unused) load of the slot, the store of the sum into the slot. -/
abbrev fSum (j : Fin 16) (k : PR F α) : PR F α :=
  Prog.op (.load VQ (Rect.unit (s := S2048x1024) ![128 * j.val, 0] S128x1024.size (inbR j)).toLoadRect (View.loadsAt_vmem h_S128x1024)) fun (v : Vec F S128x1024 .f32) =>
  Prog.op (.load VR (Rect.unit (s := S2048x1024) ![128 * j.val, 0] S128x1024.size (inbR j)).toLoadRect (View.loadsAt_vmem h_S128x1024)) fun (w : Vec F S128x1024 .f32) =>
  Prog.op (.load VS (Rect.unit (s := S2x128x1024) ![(slotOf j).val, 0, 0] S1x128x1024.size (inbS (slotOf j))).toLoadRect (View.loadsAt_vmem h_S1x128x1024)) fun (_ : Vec F S1x128x1024 .f32) =>
  Prog.op (.store VS (Rect.unit (s := S2x128x1024) ![(slotOf j).val, 0, 0] S1x128x1024.size (inbS (slotOf j)))
        (shapeCast S1x128x1024 (addf v w) shapeCasts_S128x1024_S1x128x1024) Finset.univ (View.stores_vmem_bits_univ h_S1x128x1024 rfl) (.inl rfl)) fun _ => k
/-- The local copy of the slot to the device's own result rows. -/
abbrev fO (c : Dev nD) (j : Fin 16) (k : PR F α) : PR F α :=
  Prog.op (.enqueueDma (vsM (slotOf j)) (.here (outM c j)) (.dma (cpoS (slotOf j))) ((View.wordExact_bits rfl).reshape _ _) (View.wordExact_bits rfl) ⟨Or.inl rfl, trivial⟩) fun _ => k
/-- The copies of the slot to the same rows on device `n` (the y partner, the z partner). -/
abbrev fYD (c : Dev nD) (j : Fin 16) (n : Dev nD) (k : PR F α) : PR F α :=
  Prog.op (.enqueueDma (vsM (slotOf j)) (.remote (Dev.tc n) (outM c j) (.dma (ydS j))) (.dma (ydR j)) ((View.wordExact_bits rfl).reshape _ _) (View.wordExact_bits rfl) ⟨⟨rfl, Or.inl rfl⟩, trivial⟩) fun _ => k
abbrev fZD (c : Dev nD) (j : Fin 16) (n : Dev nD) (k : PR F α) : PR F α :=
  Prog.op (.enqueueDma (vsM (slotOf j)) (.remote (Dev.tc n) (outM c j) (.dma (zdS j))) (.dma (zdR j)) ((View.wordExact_bits rfl).reshape _ _) (View.wordExact_bits rfl) ⟨⟨rfl, Or.inl rfl⟩, trivial⟩) fun _ => k

/-! ## The forwarding loop -/

/-- The waits for the y partner's and the z partner's chunk `j`. -/
abbrev fWaitYdR (c : Dev nD) (j : Fin 16) (k : PR F α) : PR F α :=
  Prog.op (.waitDma2 (ydR j) (vsM (slotOf j)) (outM c j) ((View.wordExact_bits rfl).reshape _ _) (View.wordExact_bits rfl)) fun _ => k
abbrev fWaitZdR (c : Dev nD) (j : Fin 16) (k : PR F α) : PR F α :=
  Prog.op (.waitDma2 (zdR j) (vsM (slotOf j)) (outM c j) ((View.wordExact_bits rfl).reshape _ _) (View.wordExact_bits rfl)) fun _ => k
/-- Even chunk `2 e` of the z partner's quarter forwarded to device `n` (the y partner). -/
abbrev fYR (c : Dev nD) (e : Fin 8) (n : Dev nD) (k : PR F α) : PR F α :=
  Prog.op (.enqueueDma (outE c e) (.remote (Dev.tc n) (outE c e) (.dma (yrS e))) (.dma (yrR e)) (View.wordExact_bits rfl) (View.wordExact_bits rfl) ⟨⟨rfl, Or.inl rfl⟩, trivial⟩) fun _ => k
/-- Odd chunk `2 e + 1` of the y partner's quarter forwarded to device `n` (the z partner). -/
abbrev fZR (c : Dev nD) (e : Fin 8) (n : Dev nD) (k : PR F α) : PR F α :=
  Prog.op (.enqueueDma (outO c e) (.remote (Dev.tc n) (outO c e) (.dma (zrS e))) (.dma (zrR e)) (View.wordExact_bits rfl) (View.wordExact_bits rfl) ⟨⟨rfl, Or.inl rfl⟩, trivial⟩) fun _ => k

/-! ## Any other wait on a DMA semaphore, by its printed operands -/

abbrev fWait {sp sp' : Space} {s s' : Shape} (sem : DmaSem sig) (src : Memref sig .tc sp' s' .f32) (dst : Memref sig .tc sp s .f32)
    (h1 : src.view.WordExact) (h2 : dst.view.WordExact) (k : PR F α) : PR F α :=
  Prog.op (.waitDma2 sem src dst h1 h2) fun _ => k

end Cert.Kernel.Ar

end
-- ==== Proof.KLevels.lean ====
/-
  The levels of the deadlock argument, as facts about tallies: a tally is ABOVE `n` when every cell it is positive
  at is a TensorCore's and sits at a level above `n`. A device may wait on a cell of its own at level at most `n`
  while what it owes is above `n`. What a device owes shrinks along the body through the tails `rem1`, `rem2`,
  `rem3`: the copies to the x partner land on level 2 cells, the spread copies on level 3 cells, the forwards
  on level 4 cells.
-/
import proofs.«900725_g7700000000000726_dist_ar_v7x_xyz2x4x4_x_m8192_n1024_f32_1_alg».proof.Proof.KGhost

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel has no loop variant. -/
abbrev 𝒱₀ : Variants := Variants.none

/-- Every cell the tally is positive at is a TensorCore's, at a level above `n`. -/
def Above (n : ℕ) (O : Tal) : Prop := ∀ g u, 0 < O g u → g.1.2 = .tc ∧ n < lv g u

theorem above_zero (n : ℕ) : Above n 0 := fun g u hg => absurd hg (Nat.lt_irrefl 0)

theorem Above.add {n : ℕ} {O₁ O₂ : Tal} (h₁ : Above n O₁) (h₂ : Above n O₂) : Above n (O₁ + O₂) := fun g u hg =>
  (Pipeline.add_pos_cases hg).elim (h₁ g u) (h₂ g u)

theorem Above.mono {n n' : ℕ} {O : Tal} (h : n ≤ n') (hO : Above n' O) : Above n O := fun g u hg =>
  ⟨(hO g u hg).1, lt_of_le_of_lt h (hO g u hg).2⟩

/-- A tally at one cell of kind `k` is above every level below the kind's. -/
theorem above_tally (p : Dev nD) (k : CK) (a n : ℕ) (h : n < lvK k) : Above n (tallyAt (cell p k) () a) := fun g u hg => by
  obtain ⟨rfl, -⟩ := Pipeline.tallyAt_pos hg
  exact ⟨rfl, by rw [lv_cell]; exact h⟩

theorem above_tBar (p : Dev nD) : Above 0 (tBar p) := above_tally p .bar 1 0 (by decide)
theorem above_tX (c : Dev nD) (j : Fin 16) : Above 1 (tX c j) := above_tally _ _ _ 1 (show 1 < 2 by decide)
theorem above_tYD (c : Dev nD) (j : Fin 16) : Above 2 (tYD c j) := above_tally _ _ _ 2 (show 2 < 3 by decide)
theorem above_tZD (c : Dev nD) (j : Fin 16) : Above 2 (tZD c j) := above_tally _ _ _ 2 (show 2 < 3 by decide)
theorem above_tYR (c : Dev nD) (i : Fin 8) : Above 3 (tYR c i) := above_tally _ _ _ 3 (show 3 < 4 by decide)
theorem above_tZR (c : Dev nD) (i : Fin 8) : Above 3 (tZR c i) := above_tally _ _ _ 3 (show 3 < 4 by decide)

theorem above_tFw (c : Dev nD) (j : Fin 16) : Above 3 (tFw c j) := by
  unfold tFw; split
  · exact above_tYR _ _
  · exact above_tZR _ _

theorem above_rem3 (c : Dev nD) : ∀ k, Above 3 (rem3 c k)
  | 0 => above_zero 3
  | k + 1 => (above_tFw c _).add (above_rem3 c k)

theorem above_rem2 (c : Dev nD) : ∀ k, Above 2 (rem2 c k)
  | 0 => (above_rem3 c 16).mono (by decide)
  | k + 1 => (above_tYD c _).add ((above_tZD c _).add (above_rem2 c k))

theorem above_rem1 (c : Dev nD) : ∀ k, Above 1 (rem1 c k)
  | 0 => (above_rem2 c 16).mono (by decide)
  | k + 1 => (above_tX c _).add (above_rem1 c k)

/-- What a device owes at launch is above level 0. -/
theorem above_O₀ (c : Dev nD) : Above 0 (O₀ c) :=
  (above_tBar _).add ((above_tBar _).add ((above_tBar _).add ((above_rem1 c 16).mono (by decide))))

/-- The evidence of a wait: device `c` may wait on its cell of kind `k`, of level at most `n`, while what it owes is
    above `n`. -/
theorem mayWait_above (c : Dev nD) (k : CK) (n : ℕ) (hk : lvK k ≤ n) (O : Tal) (hO : Above n O) :
    (levAts L lv : sProp 𝕄) ⊢ MayWait (c : Thread nD τ) k.loc () O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; show lv (cell c k) () ≤ n; rw [lv_cell]; exact hk)
    (fun g u hg => (hO g u hg).2)

/-- Owing nothing, a device may wait anywhere. -/
theorem mayWait_zero (c : Dev nD) (k : CK) : (levAts L lv : sProp 𝕄) ⊢ MayWait (c : Thread nD τ) k.loc () 0 := by
  rw [MayWait_zero]; iintro -; iempintro

end Cert.Kernel.Ar

end
-- ==== Proof.KStepBase.lean ====
/-
  Shared by the step lemmas: what a device still owes, at whatever set of waits it has recorded; and the
  arithmetic that ties a chunk to its slot and to its round on the slot's local-copy cell.
-/
import proofs.«900725_g7700000000000726_dist_ar_v7x_xyz2x4x4_x_m8192_n1024_f32_1_alg».proof.Proof.KFrag
import proofs.«900725_g7700000000000726_dist_ar_v7x_xyz2x4x4_x_m8192_n1024_f32_1_alg».proof.Proof.KLevels

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `c` owes `O`, having recorded some waits. -/
def ow (c : Dev nD) (O : Tal) : sProp 𝕄 := iprop(∃ W, owes (c : Thread nD τ) O W)

/-- Chunk `j` is the chunk of round `j / 2` of its slot. -/
theorem chunkOf_slotOf (j : Fin 16) : chunkOf (slotOf j) (j.val / 2) = j := by revert j; decide
theorem round_lt (j : Fin 16) : j.val / 2 < nRd (.cpo (slotOf j)) := by revert j; decide

end Cert.Kernel.Ar

end
-- ==== Proof.KPhP.lean ====
/-
  The first and the last stretch of a device's body, as entailments between whole assertions: what the device is
  launched with, cut into the positions, tokens, credit and blocks of rows the body's steps take one at a time,
  with the three payloads of the entry handshake made from the rows the partners will write; and, at the end, the
  blocks of rows put back into whole buffers at their final contents.
-/
import proofs.«900725_g7700000000000726_dist_ar_v7x_xyz2x4x4_x_m8192_n1024_f32_1_alg».proof.Proof.KSets
import proofs.«900725_g7700000000000726_dist_ar_v7x_xyz2x4x4_x_m8192_n1024_f32_1_alg».proof.Proof.KStepBase

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The payloads of the entry handshake -/

theorem pay_barX (o : Dev nD) : pay m o .bar 0 0 = payBarX (F := F) o := rfl
theorem pay_barY (o : Dev nD) : pay m o .bar 0 1 = payBarY (F := F) o := rfl
theorem pay_barZ (o : Dev nD) : pay m o .bar 0 2 = payBarZ (F := F) o := rfl

/-- A device's whole receive scratch is what its x partner's signal hands that partner. -/
theorem payX_of (c : Dev nD) (f : Buf (Elt F) ((c : Thread nD τ).loc cc0_scratch1)) :
    (((c : Thread nD τ).loc cc0_scratch1 ↦{fullShare} f) : sProp 𝕄) ⊢ pay m (xp c) .bar 0 0 := by
  rw [pay_barX, vr_split_eq c f]
  unfold payBarX
  rw [xp_xp]
  exact ptsE_of_bigSep Finset.univ c vrM (fun _ => f)

/-- The rows of a device's result array that its y partner writes are what its signal hands that partner. -/
theorem payY_of (c : Dev nD) (f : Buf (Elt F) ((c : Thread nD τ).loc main_v1)) :
    iprop((bigSep Finset.univ fun j : Fin 16 => pts c (outM (yp c) j) fullShare f)
        ∗ (bigSep Finset.univ fun e : Fin 8 => pts c (outE (yp c) e) fullShare f))
      ⊢ pay m (yp c) .bar 0 1 := by
  rw [pay_barY]
  unfold payBarY
  rw [yp_yp]
  exact BIClass.sep_mono (ptsE_of_bigSep Finset.univ c (fun j => outM (yp c) j) (fun _ => f))
    (ptsE_of_bigSep Finset.univ c (fun e => outE (yp c) e) (fun _ => f))

/-- The same for the z partner. -/
theorem payZ_of (c : Dev nD) (f : Buf (Elt F) ((c : Thread nD τ).loc main_v1)) :
    iprop((bigSep Finset.univ fun j : Fin 16 => pts c (outM (zp c) j) fullShare f)
        ∗ (bigSep Finset.univ fun e : Fin 8 => pts c (outO (zp c) e) fullShare f))
      ⊢ pay m (zp c) .bar 0 2 := by
  rw [pay_barZ]
  unfold payBarZ
  rw [zp_zp]
  exact BIClass.sep_mono (ptsE_of_bigSep Finset.univ c (fun j => outM (zp c) j) (fun _ => f))
    (ptsE_of_bigSep Finset.univ c (fun e => outO (zp c) e) (fun _ => f))

/-! ## Whole buffers through the memrefs that name them -/

theorem pts_VQ (c : Dev nD) (f : Buf (Elt F) ((c : Thread nD τ).loc cc0_scratch0)) :
    (pts c VQ fullShare f : sProp 𝕄) = ((c : Thread nD τ).loc cc0_scratch0 ↦{fullShare} f) := by
  show (((c : Thread nD τ).loc cc0_scratch0 ↦[(View.whole cc0_scratch0).set]{fullShare} f) : sProp 𝕄) = _
  rw [View.set_whole]

theorem ow_of (c : Dev nD) (O : Tal) (W : Waits sig Unit) : owes (c : Thread nD τ) O W ⊢ (ow c O : sProp 𝕄) := by
  unfold ow
  iintro H
  iexists W
  iexact H

/-! ## The buffers as the body takes them -/

/-- The device's buffers cut for the body: the input as the rest, the quarter at the local copy's share and its
    sixteen blocks at the other; the first scratch whole; the device's own quarter of the result by blocks; the
    three payloads of the entry handshake (the receive scratch, and the result rows the y and the z partner write);
    the two slots of the sum buffer. -/
def bufsP (c : Dev nD) : sProp 𝕄 :=
  iprop((((c : Thread nD τ).loc main_arg0) ↦[Finset.univ \ (srcQ c).view.set]{fullShare} X m c)
    ∗ pts c (srcQ c) shQ (X m c)
    ∗ (bigSep Finset.univ fun j : Fin 16 => pts c (srcX c j) shX (X m c))
    ∗ (∃ fq : Buf (Elt F) ((c : Thread nD τ).loc cc0_scratch0), pts c VQ fullShare fq)
    ∗ (∃ fo : Buf (Elt F) ((c : Thread nD τ).loc main_v1), bigSep Finset.univ fun j : Fin 16 => pts c (outM c j) fullShare fo)
    ∗ pay m (xp c) .bar 0 0 ∗ pay m (yp c) .bar 0 1 ∗ pay m (zp c) .bar 0 2
    ∗ (∃ fs : Buf (Elt F) ((c : Thread nD τ).loc cc0_scratch2), pts c (vsM 0) fullShare fs ∗ pts c (vsM 1) fullShare fs))

theorem bufs0_split (c : Dev nD) : bufs0 m c ⊢ bufsP m c := by
  unfold bufs0 bufsP
  iintro ⟨Hin, ⟨%fo, Hout⟩, ⟨%fq, Hq⟩, ⟨%fr, Hr⟩, ⟨%fs, Hs⟩⟩
  ihave Hin2 := (in_split c (X m c)).1 $$ Hin
  icases Hin2 with ⟨HQf, HinRest⟩
  ihave HQ2 := (share2 ((c : Thread nD τ).loc main_arg0) (srcQ c).view.set (X m c)).1 $$ HQf
  icases HQ2 with ⟨HQ, HX⟩
  ihave HX2 := (srcQ_split c shX (X m c)).1 $$ HX
  ihave Ho := (out_split c fo).1 $$ Hout
  icases Ho with ⟨Hom, Hoy, Hoz, HoE, HoO⟩
  ihave Hs2 := (vs_split c fs).1 $$ Hs
  isplitl [HinRest]; · iexact HinRest
  isplitl [HQ]; · iexact HQ
  isplitl [HX2]; · iexact HX2
  isplitl [Hq]
  · iexists fq; rw [pts_VQ]; iexact Hq
  isplitl [Hom]
  · iexists fo; iexact Hom
  isplitl [Hr]
  · iapply (payX_of m c fr); iexact Hr
  isplitl [Hoy HoE]
  · iapply (payY_of m c fo); isplitl [Hoy]; · iexact Hoy
    iexact HoE
  isplitl [Hoz HoO]
  · iapply (payZ_of m c fo); isplitl [Hoz]; · iexact Hoz
    iexact HoO
  iexists fs
  iexact Hs2

/-- What the body's first step starts from: the cells' invariants and reached rounds, the levels, the device's
    positions, the tokens of the duties it pays, the credit dealt to it, what it owes, and its buffers cut. -/
def postPrelude (K : Dev nD × CK → ℕ) (c : Dev nD) : sProp 𝕄 :=
  iprop(recs m K ∗ levAts L lv ∗ posOwn c ∗ payToks c ∗ creds c ∗ ow c (O₀ c) ∗ bufsP m c)

/-- What a device is launched with, regrouped for the body. -/
theorem prelude (c : Dev nD) (K : Dev nD × CK → ℕ) (W : Waits sig Unit) :
    iprop(ghost m K c ∗ creds c ∗ levAts L lv ∗ bufs0 m c ∗ owes (c : Thread nD τ) (O₀ c) W)
      ⊢ postPrelude m K c := by
  unfold ghost postPrelude
  iintro ⟨⟨HR, HP, HT⟩, HC, HL, HB, HO⟩
  isplitl [HR]; · iexact HR
  isplitl [HL]; · iexact HL
  isplitl [HP]; · iexact HP
  isplitl [HT]; · iexact HT
  isplitl [HC]; · iexact HC
  isplitl [HO]
  · iapply (ow_of c (O₀ c) W); iexact HO
  iapply (bufs0_split m c)
  iexact HB

/-! ## The end -/

/-- What the body's last step leaves: the input cut as at the start, every block of the result at its final
    contents, the scratches, the device's semaphores at zero, nothing owed. -/
def preFinale (c : Dev nD) (fq : Buf (Elt F) ((c : Thread nD τ).loc cc0_scratch0))
    (f0 f1 : Buf (Elt F) ((c : Thread nD τ).loc cc0_scratch2)) : sProp 𝕄 :=
  iprop((((c : Thread nD τ).loc main_arg0) ↦[Finset.univ \ (srcQ c).view.set]{fullShare} X m c)
        ∗ pts c (srcQ c) shQ (X m c)
        ∗ (bigSep Finset.univ fun j : Fin 16 => pts c (srcX c j) shX (X m c))
        ∗ (bigSep Finset.univ fun j : Fin 16 => pts c (outM c j) fullShare (OUTc m c))
        ∗ (bigSep Finset.univ fun j : Fin 16 => pts c (outM (yp c) j) fullShare (OUTc m c))
        ∗ (bigSep Finset.univ fun j : Fin 16 => pts c (outM (zp c) j) fullShare (OUTc m c))
        ∗ (bigSep Finset.univ fun e : Fin 8 => pts c (outE (yp c) e) fullShare (OUTc m c))
        ∗ (bigSep Finset.univ fun e : Fin 8 => pts c (outO (zp c) e) fullShare (OUTc m c))
        ∗ pts c VQ fullShare fq
        ∗ (bigSep Finset.univ fun j : Fin 16 => pts c (vrM j) fullShare (VRc m c))
        ∗ pts c (vsM 0) fullShare f0 ∗ pts c (vsM 1) fullShare f1
        ∗ sems0 c ∗ ow c 0)

/-- The blocks of rows at their final contents, the scratches, the semaphores at zero and nothing owed are what
    the body ends with. -/
theorem finale (c : Dev nD) (fq : Buf (Elt F) ((c : Thread nD τ).loc cc0_scratch0))
    (f0 f1 : Buf (Elt F) ((c : Thread nD τ).loc cc0_scratch2)) :
    preFinale m c fq f0 f1 ⊢ (iprop(Φ₁ m c ∗ ∃ W, owes (c : Thread nD τ) 0 W) : sProp 𝕄) := by
  unfold preFinale Φ₁ bufs1 ow
  iintro ⟨HinRest, HQ, HX, Hom, Hoy, Hoz, HoE, HoO, Hvq, Hvr, Hvs0, Hvs1, Hsems, HO⟩
  isplitr [HO]
  · isplitr [Hsems]
    · -- the input
      isplitl [HinRest HQ HX]
      · iapply (in_split c (X m c)).2
        isplitr [HinRest]
        · iapply (share2 ((c : Thread nD τ).loc main_arg0) (srcQ c).view.set (X m c)).2
          isplitl [HQ]; · iexact HQ
          iapply (srcQ_split c shX (X m c)).2
          iexact HX
        · iexact HinRest
      -- the result
      isplitl [Hom Hoy Hoz HoE HoO]
      · iapply (out_split c (OUTc m c)).2
        isplitl [Hom]; · iexact Hom
        isplitl [Hoy]; · iexact Hoy
        isplitl [Hoz]; · iexact Hoz
        isplitl [HoE]; · iexact HoE
        iexact HoO
      -- the scratches
      isplitl [Hvq]
      · iexists fq; rw [← pts_VQ]; iexact Hvq
      isplitl [Hvr]
      · iexists (VRc m c); iapply (vr_split c (VRc m c)).2; iexact Hvr
      iapply (vs_join c f0 f1)
      isplitl [Hvs0]; · iexact Hvs0
      iexact Hvs1
    · iexact Hsems
  · iexact HO

/-- info: 'Cert.Kernel.Ar.prelude' depends on axioms: [propext, Classical.choice, Quot.sound] -/
#guard_msgs in #print axioms prelude
/-- info: 'Cert.Kernel.Ar.finale' depends on axioms: [propext, Classical.choice, Quot.sound] -/
#guard_msgs in #print axioms finale
/-- info: 'Cert.Kernel.Ar.bufs0_split' depends on axioms: [propext, Classical.choice, Quot.sound] -/
#guard_msgs in #print axioms bufs0_split
/-- info: 'Cert.Kernel.Ar.payX_of' depends on axioms: [propext, Classical.choice, Quot.sound] -/
#guard_msgs in #print axioms payX_of
/-- info: 'Cert.Kernel.Ar.payY_of' depends on axioms: [propext, Classical.choice, Quot.sound] -/
#guard_msgs in #print axioms payY_of
/-- info: 'Cert.Kernel.Ar.payZ_of' depends on axioms: [propext, Classical.choice, Quot.sound] -/
#guard_msgs in #print axioms payZ_of

end Cert.Kernel.Ar

end
-- ==== Proof.KLanding.lean ====
/-
  What each copy of the kernel lands on its destination's elements, and what the body's store leaves in a
  slot of the sum buffer, as the global contents of the exchange pattern.

  Every view here is a unit-stride window of a whole buffer (for the sum buffer, with its leading unit axis
  dropped), so reading contents through it is reading them at the window's offsets plus the index; a copy's
  landing `dst.write fd (src.read fs) univ` agrees on `dst`'s elements with any contents `G` that `dst` reads as
  `src` reads `fs`. The row arithmetic is the closed form of the printed offsets; which device's sum a row of the
  result holds (`owner`) is decided over the mesh from the row's quarter and, in the diagonal quarter, from the
  parity of its chunk.
-/
import proofs.«900725_g7700000000000726_dist_ar_v7x_xyz2x4x4_x_m8192_n1024_f32_1_alg».proof.Proof.KViews
import Idealize.ShloMosaic.Lib.Pipeline.Value

noncomputable section

namespace Cert.Kernel.Ar

open Cert.Kernel Cert.Kernel.Gen Cert.Kernel.Mesh
open Idealize.ShloMosaic Idealize.ShloMosaic.TcCoe Idealize.ShloMosaic.ValueIdx
open Idealize.SL Idealize.SL.Sem

variable {F : FTy → Type} [FloatOps F]

/-! ## Reading and writing through a window -/

/-- Writing `w` on every index of a view leaves, on the view's elements, any contents the view reads as `w`. -/
theorem write_univ_eq_of_read_eq {sg : RefSig} {κ : Kind} {sp : Space} {s : Shape} {e : EltTy} {Val : EltTy → Type}
    (dst : View sg κ sp s e) (fd G : dst.ty.Contents Val) (w : s.Idx → Val e)
    (h : ∀ x, dst.read Val G x = w x) :
    ∀ i ∈ dst.set, dst.write Val fd w Finset.univ i = G i := by
  intro i hi
  obtain ⟨y, rfl⟩ := dst.exists_emb_of_mem_set hi
  rw [View.write_emb_of_mem _ _ (Finset.mem_univ y), ← h y, View.read_apply, cast_cast, cast_eq]

/-- A unit-stride window of a view reads the view at the window's offsets plus the index. -/
theorem read_slice_unit_idx {sg : RefSig} {κ : Kind} {sp : Space} {s : Shape} {e : EltTy} {Val : EltTy → Type}
    (v : View sg κ sp s e) (off size : Fin s.rank → Nat) (inb : ∀ a, off a + size a ≤ s.size a)
    (f : v.ty.Contents Val) (x : (⟨s.rank, size⟩ : Shape).Idx) (i : s.Idx)
    (hi : ∀ a, (i a).val = off a + (x a).val) :
    (v.slice (Rect.unit off size inb)).read Val f x = v.read Val f i := by
  have h : (Rect.unit off size inb).emb x = i := funext fun a => Fin.ext (by
    rw [hi a, Rect.emb_apply]; simp)
  rw [← h]; rfl

/-! ## Rows -/

/-- Row `r` of chunk `j` of a quarter. -/
def crow (j : Fin 16) (r : Fin 128) : Fin 2048 :=
  ⟨128 * j.val + r.val, by have hj := j.isLt; have hr := r.isLt; omega⟩

/-- The launch contents of a device's block depend on the device and the index only. -/
theorem X_congr (m : (ℓ : Loc nD τ sig) → Buf (Elt F) ℓ) {c c' : Dev nD} (h : c = c') {i i' : S8192x1024.Idx}
    (hi : i = i') : X m c i = X m c' i' := by subst h; subst hi; rfl

theorem Ssum_congr (m : (ℓ : Loc nD τ sig) → Buf (Elt F) ℓ) {c c' : Dev nD} (h : c = c') (i : S8192x1024.Idx) :
    Ssum m c i = Ssum m c' i := by subst h; rfl

/-! ## Whose sum a row of the result holds -/

theorem owner_of_qme (c : Dev nD) (r : Nat) (h : r / 2048 = qme c) : owner c r = c := by
  unfold owner; rw [if_pos h]

theorem owner_yp_of_qme (c : Dev nD) (r : Nat) (h : r / 2048 = qme c) : owner (yp c) r = c := by
  have h1 : ¬ (qme c = qme (yp c)) := by clear h; revert c; decide
  have h2 : qme c = qyp (yp c) := by clear h; revert c; decide
  unfold owner; rw [h, if_neg h1, if_pos h2, yp_yp]

theorem owner_zp_of_qme (c : Dev nD) (r : Nat) (h : r / 2048 = qme c) : owner (zp c) r = c := by
  have h1 : ¬ (qme c = qme (zp c)) := by clear h; revert c; decide
  have h2 : ¬ (qme c = qyp (zp c)) := by clear h; revert c; decide
  have h3 : qme c = qzp (zp c) := by clear h; revert c; decide
  unfold owner; rw [h, if_neg h1, if_neg h2, if_pos h3, zp_zp]

theorem owner_of_qzp (c : Dev nD) (r : Nat) (h : r / 2048 = qzp c) : owner c r = zp c := by
  have h1 : ¬ (qzp c = qme c) := by clear h; revert c; decide
  have h2 : ¬ (qzp c = qyp c) := by clear h; revert c; decide
  unfold owner; rw [h, if_neg h1, if_neg h2, if_pos rfl]

theorem owner_yp_of_qzp_even (c : Dev nD) (r : Nat) (h : r / 2048 = qzp c) (he : (r % 2048 / 128) % 2 = 0) :
    owner (yp c) r = zp c := by
  have h1 : ¬ (qzp c = qme (yp c)) := by clear h; revert c; decide
  have h2 : ¬ (qzp c = qyp (yp c)) := by clear h; revert c; decide
  have h3 : ¬ (qzp c = qzp (yp c)) := by clear h; revert c; decide
  unfold owner; rw [h, if_neg h1, if_neg h2, if_neg h3, if_pos he, yp_yp]

theorem owner_of_qyp (c : Dev nD) (r : Nat) (h : r / 2048 = qyp c) : owner c r = yp c := by
  have h1 : ¬ (qyp c = qme c) := by clear h; revert c; decide
  unfold owner; rw [h, if_neg h1, if_pos rfl]

theorem owner_zp_of_qyp_odd (c : Dev nD) (r : Nat) (h : r / 2048 = qyp c) (ho : (r % 2048 / 128) % 2 = 1) :
    owner (zp c) r = yp c := by
  have h1 : ¬ (qyp c = qme (zp c)) := by clear h; revert c; decide
  have h2 : ¬ (qyp c = qyp (zp c)) := by clear h; revert c; decide
  have h3 : ¬ (qyp c = qzp (zp c)) := by clear h; revert c; decide
  have h4 : ¬ ((r % 2048 / 128) % 2 = 0) := by omega
  unfold owner; rw [h, if_neg h1, if_neg h2, if_neg h3, if_neg h4, zp_zp]

variable (m : (ℓ : Loc nD τ sig) → Buf (Elt F) ℓ)

/-! ## The local copy of the device's quarter -/

theorem land_cpq (c : Dev nD) (fd : Buf (Elt F) ((c : Thread nD τ).loc cc0_scratch0)) :
    ∀ i ∈ (VQ : Memref sig .tc .vmem S2048x1024 .f32).view.set,
      (VQ.view.write (Elt F) fd ((srcQ c).view.read (Elt F) (X m c)) Finset.univ) i = VQc m c i := by
  refine write_univ_eq_of_read_eq VQ.view fd (VQc m c) _ fun x => ?_
  refine (read_slice_unit_idx A0.view (k0_off1 c) S2048x1024.size (k0_off1_inb c) (X m c) x
    (ix2 (qrow (qme c) (qme_lt c) (x 0)) (x 1)) ?_).symm
  intro a; rw [off1_eq c]
  match a with
  | ⟨0, _⟩ => rfl
  | ⟨1, _⟩ => exact (Nat.zero_add _).symm

/-! ## The chunks sent to the x partner -/

theorem land_x (c : Dev nD) (j : Fin 16) (fd : Buf (Elt F) ((xp c : Thread nD τ).loc cc0_scratch1)) :
    ∀ i ∈ (vrM j).view.set,
      ((vrM j).view.write (Elt F) fd ((srcX c j).view.read (Elt F) (X m c)) Finset.univ) i = VRc m (xp c) i := by
  refine write_univ_eq_of_read_eq (vrM j).view fd (VRc m (xp c)) _ fun x => ?_
  have hL := read_slice_unit_idx VR.view ![128 * j.val, 0] S128x1024.size (inbR j) (VRc m (xp c)) x
    (ix2 (crow j (x 0)) (x 1)) (fun a => by
      match a with
      | ⟨0, _⟩ => rfl
      | ⟨1, _⟩ => exact (Nat.zero_add _).symm)
  have hR := read_slice_unit_idx A0.view (k0_off2 c (BitVec.ofNat 32 (128 * j.val))) S128x1024.size (k0_off2_inb c j)
    (X m c) x (ix2 (qrow (qme c) (qme_lt c) (crow j (x 0))) (x 1)) (fun a => by
      rw [off2_eq c j]
      match a with
      | ⟨0, _⟩ => exact (Nat.add_assoc _ _ _).symm
      | ⟨1, _⟩ => exact (Nat.zero_add _).symm)
  refine hL.trans (Eq.trans ?_ hR.symm)
  show X m (xp (xp c)) (ix2 (qrow (qme (xp c)) (qme_lt (xp c)) (crow j (x 0))) (x 1)) = _
  refine X_congr m (xp_xp c) ?_
  have hq : qrow (qme (xp c)) (qme_lt (xp c)) (crow j (x 0)) = qrow (qme c) (qme_lt c) (crow j (x 0)) :=
    Fin.ext (by show 2048 * qme (xp c) + _ = 2048 * qme c + _; rw [qme_xp])
  rw [hq]; rfl

/-! ## The sums written to the result, on the device and on its y and z partners -/

/-- The slot's rank-2 view reads the sum of chunk `j`. -/
theorem read_vsM (c : Dev nD) (j : Fin 16) (s : Fin 2) (x : S128x1024.Idx) :
    (vsM s).view.read (Elt F) (VSc m c j) x = Ssum m c (ix2 (qrow (qme c) (qme_lt c) (crow j (x 0))) (x 1)) := by
  show ((VS.slice (Rect.unit (s := S2x128x1024) ![s.val, 0, 0] S1x128x1024.size (inbS s)) (fun _ => rfl)).squeeze
    S128x1024 squeezes_S1x128x1024_S128x1024).view.read (Elt F) (VSc m c j) x = _
  rw [Memref.read_squeeze_slice _ _ _ _ shapeCasts_S1x128x1024_S128x1024, shapeCast_dropUnit_apply]
  refine (read_slice_unit_idx VS.view ![s.val, 0, 0] S1x128x1024.size (inbS s) (VSc m c j) _
    (ix3 s (x 0) (x 1)) ?_).trans rfl
  refine Fin.forall_fin_succ.mpr ⟨?_, Fin.forall_fin_succ.mpr ⟨?_, Fin.forall_fin_succ.mpr ⟨?_, fun a => a.elim0⟩⟩⟩
  · exact (Nat.add_zero _).symm
  · exact (Nat.zero_add _).symm
  · exact (Nat.zero_add _).symm

/-- Rows `(qme c, j)` of the result of a device that holds `c`'s sum there. -/
theorem read_outM (c d : Dev nD) (j : Fin 16) (x : S128x1024.Idx)
    (hown : ∀ r, r / 2048 = qme c → owner d r = c) :
    (outM c j).view.read (Elt F) (OUTc m d) x = Ssum m c (ix2 (qrow (qme c) (qme_lt c) (crow j (x 0))) (x 1)) := by
  refine (read_slice_unit_idx A1.view (k0_off2 c (BitVec.ofNat 32 (128 * j.val))) S128x1024.size (k0_off2_inb c j)
    (OUTc m d) x (ix2 (qrow (qme c) (qme_lt c) (crow j (x 0))) (x 1)) (fun a => by
      rw [off2_eq c j]
      match a with
      | ⟨0, _⟩ => exact (Nat.add_assoc _ _ _).symm
      | ⟨1, _⟩ => exact (Nat.zero_add _).symm)).trans ?_
  show Ssum m (owner d (2048 * qme c + (128 * j.val + (x 0).val))) _ = _
  refine Ssum_congr m (hown _ ?_) _
  have hj := j.isLt; have hx : (x 0).val < 128 := (x 0).isLt
  omega

theorem land_o (c : Dev nD) (j : Fin 16) (s : Fin 2) (fd : Buf (Elt F) ((c : Thread nD τ).loc main_v1)) :
    ∀ i ∈ (outM c j).view.set,
      ((outM c j).view.write (Elt F) fd ((vsM s).view.read (Elt F) (VSc m c j)) Finset.univ) i = OUTc m c i := by
  refine write_univ_eq_of_read_eq (outM c j).view fd (OUTc m c) _ fun x => ?_
  rw [read_vsM m c j s x]; exact read_outM m c c j x (owner_of_qme c)

theorem land_yd (c : Dev nD) (j : Fin 16) (s : Fin 2) (fd : Buf (Elt F) ((yp c : Thread nD τ).loc main_v1)) :
    ∀ i ∈ (outM c j).view.set,
      ((outM c j).view.write (Elt F) fd ((vsM s).view.read (Elt F) (VSc m c j)) Finset.univ) i = OUTc m (yp c) i := by
  refine write_univ_eq_of_read_eq (outM c j).view fd (OUTc m (yp c)) _ fun x => ?_
  rw [read_vsM m c j s x]; exact read_outM m c (yp c) j x (owner_yp_of_qme c)

theorem land_zd (c : Dev nD) (j : Fin 16) (s : Fin 2) (fd : Buf (Elt F) ((zp c : Thread nD τ).loc main_v1)) :
    ∀ i ∈ (outM c j).view.set,
      ((outM c j).view.write (Elt F) fd ((vsM s).view.read (Elt F) (VSc m c j)) Finset.univ) i = OUTc m (zp c) i := by
  refine write_univ_eq_of_read_eq (outM c j).view fd (OUTc m (zp c)) _ fun x => ?_
  rw [read_vsM m c j s x]; exact read_outM m c (zp c) j x (owner_zp_of_qme c)

/-! ## The forwarded chunks of the diagonal quarter -/

/-- Row `r` of even chunk `2 e`, and of odd chunk `2 e + 1`, of a quarter. -/
def erow (e : Fin 8) (r : Fin 128) : Fin 2048 :=
  ⟨256 * e.val + r.val, by have he := e.isLt; have hr := r.isLt; omega⟩
def orow (e : Fin 8) (r : Fin 128) : Fin 2048 :=
  ⟨128 + 256 * e.val + r.val, by have he := e.isLt; have hr := r.isLt; omega⟩

/-- Even chunk `2 e` of quarter `qzp c` of the result of a device that holds the z partner's sum there. -/
theorem read_outE (c d : Dev nD) (e : Fin 8) (x : S128x1024.Idx)
    (hown : ∀ r, r / 2048 = qzp c → (r % 2048 / 128) % 2 = 0 → owner d r = zp c) :
    (outE c e).view.read (Elt F) (OUTc m d) x = Ssum m (zp c) (ix2 (qrow (qzp c) (qzp_lt c) (erow e (x 0))) (x 1)) := by
  refine (read_slice_unit_idx A1.view (k0_off3 c (BitVec.ofNat 32 (256 * e.val))) S128x1024.size (k0_off3_inb c e)
    (OUTc m d) x (ix2 (qrow (qzp c) (qzp_lt c) (erow e (x 0))) (x 1)) (fun a => by
      rw [off3_eq c e]
      match a with
      | ⟨0, _⟩ => exact (Nat.add_assoc _ _ _).symm
      | ⟨1, _⟩ => exact (Nat.zero_add _).symm)).trans ?_
  show Ssum m (owner d (2048 * qzp c + (256 * e.val + (x 0).val))) _ = _
  have he := e.isLt; have hx : (x 0).val < 128 := (x 0).isLt
  refine Ssum_congr m (hown _ ?_ ?_) _ <;> omega

/-- Odd chunk `2 e + 1` of quarter `qyp c` of the result of a device that holds the y partner's sum there. -/
theorem read_outO (c d : Dev nD) (e : Fin 8) (x : S128x1024.Idx)
    (hown : ∀ r, r / 2048 = qyp c → (r % 2048 / 128) % 2 = 1 → owner d r = yp c) :
    (outO c e).view.read (Elt F) (OUTc m d) x = Ssum m (yp c) (ix2 (qrow (qyp c) (qyp_lt c) (orow e (x 0))) (x 1)) := by
  refine (read_slice_unit_idx A1.view (k0_off4 c (BitVec.ofNat 32 (128 + 256 * e.val))) S128x1024.size (k0_off4_inb c e)
    (OUTc m d) x (ix2 (qrow (qyp c) (qyp_lt c) (orow e (x 0))) (x 1)) (fun a => by
      rw [off4_eq c e]
      match a with
      | ⟨0, _⟩ => show 2048 * qyp c + (128 + 256 * e.val + (x 0).val) = 2048 * qyp c + 128 + 256 * e.val + (x 0).val; omega
      | ⟨1, _⟩ => exact (Nat.zero_add _).symm)).trans ?_
  show Ssum m (owner d (2048 * qyp c + (128 + 256 * e.val + (x 0).val))) _ = _
  have he := e.isLt; have hx : (x 0).val < 128 := (x 0).isLt
  refine Ssum_congr m (hown _ ?_ ?_) _ <;> omega

theorem land_yr (c : Dev nD) (e : Fin 8) (fd : Buf (Elt F) ((yp c : Thread nD τ).loc main_v1)) :
    ∀ i ∈ (outE c e).view.set,
      ((outE c e).view.write (Elt F) fd ((outE c e).view.read (Elt F) (OUTc m c)) Finset.univ) i = OUTc m (yp c) i := by
  refine write_univ_eq_of_read_eq (outE c e).view fd (OUTc m (yp c)) _ fun x => ?_
  rw [read_outE m c c e x (fun r h _ => owner_of_qzp c r h), read_outE m c (yp c) e x (owner_yp_of_qzp_even c)]

theorem land_zr (c : Dev nD) (e : Fin 8) (fd : Buf (Elt F) ((zp c : Thread nD τ).loc main_v1)) :
    ∀ i ∈ (outO c e).view.set,
      ((outO c e).view.write (Elt F) fd ((outO c e).view.read (Elt F) (OUTc m c)) Finset.univ) i = OUTc m (zp c) i := by
  refine write_univ_eq_of_read_eq (outO c e).view fd (OUTc m (zp c)) _ fun x => ?_
  rw [read_outO m c c e x (fun r h _ => owner_of_qyp c r h), read_outO m c (zp c) e x (owner_zp_of_qyp_odd c)]

/-! ## The body's sum into a slot -/

/-- The slot's rank-3 window and its rank-2 view cover the same elements. -/
theorem access_vs_set (s : Fin 2) :
    (VS.access (Rect.unit (s := S2x128x1024) ![s.val, 0, 0] S1x128x1024.size (inbS s))).set = (vsM s).view.set := by
  show _ = ((VS.view.slice (Rect.unit (s := S2x128x1024) ![s.val, 0, 0] S1x128x1024.size (inbS s))).reshape S128x1024
    squeezes_S1x128x1024_S128x1024.numel_eq).set
  rw [View.set_reshape]

/-- The sum of chunk `j` of the device's quarter and of the x partner's, stored with a leading unit axis into
    slot `s`, leaves the slot holding the sum of chunk `j`. -/
theorem store_vs (c : Dev nD) (j : Fin 16) (s : Fin 2) (f : Buf (Elt F) ((c : Thread nD τ).loc cc0_scratch2)) :
    ∀ i ∈ (vsM s).view.set,
      ((VS.access (Rect.unit (s := S2x128x1024) ![s.val, 0, 0] S1x128x1024.size (inbS s))).write (Elt F) f
        (shapeCast S1x128x1024
          (addf (VQ.view.readAt (Elt F) (Rect.unit (s := S2048x1024) ![128 * j.val, 0] S128x1024.size (inbR j)).toLoadRect (VQc m c))
                (VR.view.readAt (Elt F) (Rect.unit (s := S2048x1024) ![128 * j.val, 0] S128x1024.size (inbR j)).toLoadRect (VRc m c)))
          shapeCasts_S128x1024_S1x128x1024) Finset.univ) i = VSc m c j i := by
  rw [← access_vs_set s]
  refine write_univ_eq_of_read_eq (VS.access (Rect.unit (s := S2x128x1024) ![s.val, 0, 0] S1x128x1024.size (inbS s)))
    f (VSc m c j) _ fun x => ?_
  rw [shapeCast_addUnit_apply]
  have h0 : (x 0).val = 0 := by have h : (x 0).val < 1 := (x 0).isLt; omega
  refine (read_slice_unit_idx VS.view ![s.val, 0, 0] S1x128x1024.size (inbS s) (VSc m c j) x
    (ix3 s (x 1) (x 2)) ?_).trans ?_
  · refine Fin.forall_fin_succ.mpr ⟨?_, Fin.forall_fin_succ.mpr ⟨?_, Fin.forall_fin_succ.mpr ⟨?_, fun a => a.elim0⟩⟩⟩
    · show s.val = s.val + (x 0).val; rw [h0]; rfl
    · exact (Nat.zero_add _).symm
    · exact (Nat.zero_add _).symm
  · have hidx : ∀ a : Fin 2, ((ix2 (crow j (x 1)) (x 2) : S2048x1024.Idx) a).val
        = (![128 * j.val, 0] : Fin 2 → Nat) a + ((fun a : Fin 2 => x a.succ) a).val := fun a => by
      match a with
      | ⟨0, _⟩ => rfl
      | ⟨1, _⟩ => exact (Nat.zero_add _).symm
    have hQ := read_slice_unit_idx VQ.view ![128 * j.val, 0] S128x1024.size (inbR j) (VQc m c)
      (fun a : Fin 2 => x a.succ) (ix2 (crow j (x 1)) (x 2)) hidx
    have hR := read_slice_unit_idx VR.view ![128 * j.val, 0] S128x1024.size (inbR j) (VRc m c)
      (fun a : Fin 2 => x a.succ) (ix2 (crow j (x 1)) (x 2)) hidx
    show FloatOps.addf (X m c _) (X m (xp c) _) = FloatOps.addf _ _
    exact congrArg₂ FloatOps.addf hQ.symm hR.symm

/-- info: 'Cert.Kernel.Ar.land_zr' depends on axioms: [propext, Classical.choice, Quot.sound] -/
#guard_msgs in #print axioms land_zr
/-- info: 'Cert.Kernel.Ar.store_vs' depends on axioms: [propext, Classical.choice, Quot.sound] -/
#guard_msgs in #print axioms store_vs

end Cert.Kernel.Ar

end
-- ==== Proof.KStepEntry.lean ====
/-
  The entry of the kernel body, one step at a time at a symbolic device `c` (and chunk `j`):
  * the local copy of the device's quarter of its input block into the staging buffer pays the one duty of the
    copy's own cell; its payload is the staging buffer holding the quarter and the lent share of the source;
  * a unit signalled to a partner's barrier semaphore pays one of the three duties of that partner's barrier round,
    handing the partner the buffers it will write on this device;
  * the wait for three units on the device's own barrier semaphore consumes that round whole and receives the
    three partners' payloads: the buffers this device will write on them;
  * the copy of chunk `j` of the quarter into the x partner's receive scratch pays the one duty of the device's
    send cell (the lent share of the source comes back) and the one duty of the x partner's receive cell (the chunk
    of the scratch holding the x partner's partner's, that is this device's, rows).
-/
import proofs.«900725_g7700000000000726_dist_ar_v7x_xyz2x4x4_x_m8192_n1024_f32_1_alg».proof.Proof.KStepBase
import proofs.«900725_g7700000000000726_dist_ar_v7x_xyz2x4x4_x_m8192_n1024_f32_1_alg».proof.Proof.KLanding

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem cpq_ne_bar : CK.cpq ≠ CK.bar := fun h => by cases h
theorem xs_ne_bar (j : Fin 16) : CK.xs j ≠ CK.bar := fun h => by cases h
theorem xr_ne_bar (j : Fin 16) : CK.xr j ≠ CK.bar := fun h => by cases h

/-! ## The local copy of the quarter -/

theorem step_cpq (c : Dev nD) (K : Dev nD × CK → ℕ) (f : Buf (Elt F) (VQ.view.loc (c : Thread nD τ)))
    {α : Type} (kk : PR F α) (Q : α → sProp 𝕄) :
    iprop(recs m K ∗ pts c (srcQ c) shQ (X m c) ∗ pts c VQ fullShare f ∗ tok0 c .cpq 0 0)
      ⊢ iprop((cred (tallyAt (cell c .cpq) () Nq) -∗ wp frame (wpE (defs₀ (F := F)) 𝒱₀ c none) Set.univ kk Q)
          -∗ wp frame (wpE (defs₀ (F := F)) 𝒱₀ c none) Set.univ (fCpq c kk) Q) := by
  have hd : (0 : Fin 3) ∈ (Rd m).duties (cell c .cpq) 0 := by
    rw [duties_one m c .cpq cpq_ne_bar 0 Nat.one_pos]; exact Finset.mem_singleton_self _
  have hpay : iprop(((VQ : Memref sig .tc .vmem S2048x1024 .f32).view.loc (c : Thread nD τ) ↦[VQ.view.set]{fullShare}
        (VQ.view.write (Elt F) f ((srcQ c).view.read (Elt F) (X m c)) Finset.univ))
        ∗ ((srcQ c).view.loc (c : Thread nD τ) ↦[(srcQ c).view.set]{shQ} X m c))
      ⊢ (Rd m).payload (cell c .cpq) 0 0 := by
    rw [payload_cell m c .cpq 0 0, pointsTo_congr (land_cpq m c f)]
    exact .rfl
  iintro ⟨#Hrec, Hs, Hd, T⟩ Hk
  ihave #I := (inv_at m K c .cpq) $$ Hrec
  ihave #R := (reached_at m K c .cpq) $$ Hrec
  iapply (Rounds.wp_copy_pointsTo 𝒱₀ ER (Rd m) (c : Thread nD τ) none (src := srcQ c) (dst := VQ) (sem := .dma cpqS)
    (q := shQ) (fs := X m c) (fd := f) (r := 0) (d := 0) hd () Nq rfl (amount_cell m c .cpq 0 0) hpay) $$ [Hs Hd T] [Hk]
  · isplitr; · iexact I
    isplitl [Hs]; · iexact Hs
    isplitl [Hd]; · iexact Hd
    isplitl [T]; · iexact T
    iexact R
  · iexact Hk

/-! ## A unit to a partner's barrier semaphore -/

theorem step_sig (c : Dev nD) (K : Dev nD × CK → ℕ) (p n : Dev nD) (hn : n = p) (d : Fin 3) (O : Tal)
    {α : Type} (kk : PR F α) (Q : α → sProp 𝕄) :
    iprop(recs m K ∗ ow c (tBar p + O) ∗ tok0 p .bar 0 d ∗ pay m p .bar 0 d)
      ⊢ iprop((ow c O -∗ wp frame (wpE (defs₀ (F := F)) 𝒱₀ c none) Set.univ kk Q)
          -∗ wp frame (wpE (defs₀ (F := F)) 𝒱₀ c none) Set.univ (fSig n kk) Q) := by
  subst hn
  have hd : d ∈ (Rd m).duties (cell n .bar) 0 := by rw [duties_bar m n]; exact Finset.mem_univ d
  rw [← show (Rd m).payload ((n : Thread nD τ), SemLoc.reg barS) 0 d = pay m n .bar 0 d from payload_cell m n .bar 0 d]
  unfold ow
  iintro ⟨#Hrec, HO, T, P⟩ Hk
  icases HO with ⟨%W, HO⟩
  ihave #I := (inv_at m K n .bar) $$ Hrec
  ihave #R := (reached_at m K n .bar) $$ Hrec
  iapply (Rounds.wp_signal 𝒱₀ ER (Rd m) (c : Thread nD τ) none (dst := (n : Thread nD τ)) (sem := barS) (r := 0) (d := d) (k' := 1)
    hd (amount_cell m n .bar 0 d) () O (add_comm _ _) (W := W)) $$ [HO T P] [Hk]
  · isplitr; · iexact I
    isplitl [HO]; · iexact HO
    isplitl [T]; · iexact T
    isplitl [P]; · iexact P
    iexact R
  · iintro HO
    iapply Hk
    iexists W
    iexact HO

/-! ## The wait for the three partners' units -/

theorem step_barwait (c : Dev nD) (K : Dev nD × CK → ℕ) (O : Tal) (hO : Above 1 O)
    {α : Type} (kk : PR F α) (Q : α → sProp 𝕄) :
    iprop(recs m K ∗ levAts L lv ∗ cred (tallyAt (cell c .bar) () 3) ∗ ow c O ∗ pos0 c .bar)
      ⊢ iprop(((ow c O ∗ atPos ER (cell c .bar) 1 ∅ 0 ∗ payBarX (F := F) c ∗ payBarY (F := F) c ∗ payBarZ (F := F) c)
            -∗ wp frame (wpE (defs₀ (F := F)) 𝒱₀ c none) Set.univ kk Q)
          -∗ wp frame (wpE (defs₀ (F := F)) 𝒱₀ c none) Set.univ (fBarWait kk) Q) := by
  unfold ow
  iintro ⟨#Hrec, Hlev, Hc, HO, Hat⟩ Hk
  icases HO with ⟨%W, HO⟩
  ihave #I := (inv_at m K c .bar) $$ Hrec
  ihave Hmw := (mayWait_above (F := F) c .bar 1 (Nat.le_refl 1) O hO) $$ Hlev
  iapply (Rounds.wp_wait_rest_token 𝒱₀ ER (Rd m) (c : Thread nD τ) none (sm := .reg barS) (k' := 3) (κ := K (c, .bar))
    (fun Kc => wpE_semWait_eq 𝒱₀ (c : Thread nD τ) none Set.univ Kc) (Set.mem_univ _) () (O := O) (W := W) (R := 0) (m := 0) (T := ∅)
    ((Nat.zero_add 3).trans (expect_bar m c).symm)) $$ [Hc HO Hmw Hat] [Hk]
  · isplitr; · iexact I
    isplitl [Hc]; · iexact Hc
    isplitl [HO]; · iexact HO
    isplitl [Hmw]; · iexact Hmw
    iexact Hat
  · rw [show bigSep ((Rd m).duties ((c : Thread nD τ), SemLoc.reg barS) 0 \ ∅) (fun d => (Rd m).payload ((c : Thread nD τ), SemLoc.reg barS) 0 d)
        = iprop(payBarX (F := F) c ∗ payBarY (F := F) c ∗ payBarZ (F := F) c) from rest_bar m c]
    iintro ⟨HO, Hat, -, HX, HY, HZ⟩
    iapply Hk
    isplitl [HO]; · iexists _; iexact HO
    isplitl [Hat]; · iexact Hat
    isplitl [HX]; · iexact HX
    isplitl [HY]; · iexact HY
    iexact HZ

/-! ## Chunk `j` of the quarter to the x partner -/

theorem step_x (c : Dev nD) (K : Dev nD × CK → ℕ) (j : Fin 16) (n : Dev nD) (hn : n = xp c)
    (fd : Buf (Elt F) ((vrM j).view.loc (xp c : Thread nD τ))) (O : Tal)
    {α : Type} (kk : PR F α) (Q : α → sProp 𝕄) :
    iprop(recs m K ∗ pts c (srcX c j) shX (X m c) ∗ pts (xp c) (vrM j) fullShare fd ∗ ow c (tX c j + O)
        ∗ tok0 c (.xs j) 0 0 ∗ tok0 (xp c) (.xr j) 0 0)
      ⊢ iprop(((cred (tallyAt (cell c (.xs j)) () Nv) ∗ ow c O) -∗ wp frame (wpE (defs₀ (F := F)) 𝒱₀ c none) Set.univ kk Q)
          -∗ wp frame (wpE (defs₀ (F := F)) 𝒱₀ c none) Set.univ (fX c j n kk) Q) := by
  subst hn
  have hd₁ : (0 : Fin 3) ∈ (Rd m).duties (cell c (.xs j)) 0 := by
    rw [duties_one m c (.xs j) (xs_ne_bar j) 0 Nat.one_pos]; exact Finset.mem_singleton_self _
  have hd₂ : (0 : Fin 3) ∈ (Rd m).duties (cell (xp c) (.xr j)) 0 := by
    rw [duties_one m (xp c) (.xr j) (xr_ne_bar j) 0 Nat.one_pos]; exact Finset.mem_singleton_self _
  have hpay₁ : ((srcX c j).view.loc (c : Thread nD τ) ↦[(srcX c j).view.set]{shX} X m c) ⊢ (Rd m).payload (cell c (.xs j)) 0 0 :=
    Entails.of_eq (payload_cell m c (.xs j) 0 0).symm
  have hpay₂ : ((vrM j).view.loc (Dev.tc (xp c) : Thread nD τ) ↦[(vrM j).view.set]{fullShare}
        ((vrM j).view.write (Elt F) fd ((srcX c j).view.read (Elt F) (X m c)) Finset.univ))
      ⊢ (Rd m).payload (cell (xp c) (.xr j)) 0 0 := by
    rw [payload_cell m (xp c) (.xr j) 0 0, pointsTo_congr (land_x m c j fd)]
    exact .rfl
  unfold ow
  iintro ⟨#Hrec, Hs, Hd, HO, T1, T2⟩ Hk
  icases HO with ⟨%W, HO⟩
  ihave #I1 := (inv_at m K c (.xs j)) $$ Hrec
  ihave #I2 := (inv_at m K (xp c) (.xr j)) $$ Hrec
  ihave #R1 := (reached_at m K c (.xs j)) $$ Hrec
  ihave #R2 := (reached_at m K (xp c) (.xr j)) $$ Hrec
  iapply (Rounds.wp_send_pointsTo 𝒱₀ ER (Rd m) (c : Thread nD τ) none (c' := Dev.tc (xp c)) (src := srcX c j) (dst := vrM j)
    (q := shX) (fs := X m c) (fd := fd) (r₁ := 0) (r₂ := 0) (d₁ := 0) (d₂ := 0) hd₁ hd₂ () () Nv rfl
    (amount_cell m c (.xs j) 0 0) (amount_cell m (xp c) (.xr j) 0 0) O (add_comm _ _) (W := W) hpay₁ hpay₂) $$ [Hs Hd HO T1 T2] [Hk]
  · isplitr; · iexact I1
    isplitr; · iexact I2
    isplitl [Hs]; · iexact Hs
    isplitl [Hd]; · iexact Hd
    isplitl [HO]; · iexact HO
    isplitl [T1]; · iexact T1
    isplitr; · iexact R1
    isplitl [T2]; · iexact T2
    iexact R2
  · iintro ⟨C, HO⟩
    iapply Hk
    isplitl [C]; · iexact C
    iexists W
    iexact HO

/-- info: 'Cert.Kernel.Ar.step_cpq' depends on axioms: [propext, Classical.choice, Quot.sound] -/
#guard_msgs in #print axioms step_cpq
/-- info: 'Cert.Kernel.Ar.step_sig' depends on axioms: [propext, Classical.choice, Quot.sound] -/
#guard_msgs in #print axioms step_sig
/-- info: 'Cert.Kernel.Ar.step_barwait' depends on axioms: [propext, Classical.choice, Quot.sound] -/
#guard_msgs in #print axioms step_barwait
/-- info: 'Cert.Kernel.Ar.step_x' depends on axioms: [propext, Classical.choice, Quot.sound] -/
#guard_msgs in #print axioms step_x

end Cert.Kernel.Ar

end
-- ==== Proof.KStepWait.lean ====
/-
  The wait of a device on one of its own DMA cells, for the whole of the cell's current round (every such round has
  one duty, of the amount the wait asks for): the device presents the credit for the round and that everything it
  still owes sits at a level above the cell's, and comes back one round further, with the round's payload. And the
  closing of a cell at the kernel's end: past its last round a cell has no duty, so its owner takes the counter
  back at zero.
-/
import proofs.«900725_g7700000000000726_dist_ar_v7x_xyz2x4x4_x_m8192_n1024_f32_1_alg».proof.Proof.KFrag
import proofs.«900725_g7700000000000726_dist_ar_v7x_xyz2x4x4_x_m8192_n1024_f32_1_alg».proof.Proof.KLevels
import proofs.«900725_g7700000000000726_dist_ar_v7x_xyz2x4x4_x_m8192_n1024_f32_1_alg».proof.Proof.KStepBase

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A wait for the rest (all) of round `r` of the device's own cell of kind `k`. -/
theorem step_wait (m : (ℓ : Loc nD τ sig) → Buf (Elt F) ℓ) (c : Dev nD) (K : Dev nD × CK → ℕ) (k : CK) (hk : k ≠ .bar)
    (s : DmaSem sig) (hs : k.loc = .dma s) (r : ℕ) (hr : r < nRd k) {sp sp' : Space} {s1 s2 : Shape}
    (src : Memref sig .tc sp' s2 .f32) (dst : Memref sig .tc sp s1 .f32) (h1 : src.view.WordExact) (h2 : dst.view.WordExact)
    (hamt : dst.view.dmaCredit = amt k) (n : ℕ) (hn : lvK k ≤ n) (O : Tal) (hO : Above n O)
    {α : Type} (kk : PR F α) (Q : α → sProp 𝕄) :
    iprop(recs m K ∗ levAts L lv ∗ cred (tallyAt (cell c k) () (amt k)) ∗ ow (F := F) c O ∗ atPos ER (cell c k) r ∅ 0)
      ⊢ iprop(((ow (F := F) c O ∗ atPos ER (cell c k) (r + 1) ∅ 0 ∗ reached ER (cell c k) (r + 1) ∗ pay m c k r 0)
            -∗ wp frame (wpE (defs₀ (F := F)) 𝒱₀ c none) Set.univ kk Q)
          -∗ wp frame (wpE (defs₀ (F := F)) 𝒱₀ c none) Set.univ (fWait s src dst h1 h2 kk) Q) := by
  have hw : ∀ Kq : PUnit → sProp 𝕄, wpE (defs₀ (F := F)) 𝒱₀ (c : Thread nD τ) none Set.univ (.waitDma2 s src dst h1 h2) Kq
      = waitSpec (c : Thread nD τ) Set.univ k.loc (amt k) Kq := fun Kq => by
    rw [hs, ← hamt]; exact wpE_waitDma2_eq 𝒱₀ (c : Thread nD τ) none Set.univ Kq
  unfold ow
  iintro ⟨#Hrec, #Hlev, Hcred, ⟨%W, HL⟩, Hat⟩ Hk
  ihave Hinv := (inv_at m K c k) $$ Hrec
  ihave Hmw := (mayWait_above (F := F) c k n hn O hO) $$ Hlev
  iapply (wp_wait_rest_token 𝒱₀ ER (Rd m) (c : Thread nD τ) none hw (Set.mem_univ (K (c, k))) ()
    (R := r) (T := ∅) (m := 0) (by rw [expect_one m c k hk r hr, Nat.zero_add])) $$ [Hcred HL Hat]
  · isplitr; · iexact Hinv
    isplitl [Hcred]; · iexact Hcred
    isplitl [HL]; · iexact HL
    isplitr; · iexact Hmw
    iexact Hat
  iintro ⟨HL, Hat, Hr, Hrest⟩
  ihave Hpay := (Entails.of_eq (rest_one m c k hk r hr)) $$ Hrest
  iapply Hk
  isplitl [HL]; · iexists _; iexact HL
  isplitl [Hat]; · iexact Hat
  isplitl [Hr]; · iexact Hr
  iexact Hpay

/-- Past its last round a cell of the device's own has no duty: the device closes it and holds its counter at zero. -/
theorem close_cell (m : (ℓ : Loc nD τ sig) → Buf (Elt F) ℓ) (c : Dev nD) (K : Dev nD × CK → ℕ) (k : CK) (hk : k ≠ .bar) :
    iprop(recs m K ∗ atPos ER (cell c k) (nRd k) ∅ 0) ⊢ iprop(|={Set.univ}=> semVal (cell c k) 0) := by
  iintro ⟨#Hrec, Hat⟩
  ihave Hinv := (inv_at m K c k) $$ Hrec
  iapply (cell_close ER (Rd m) (Set.mem_univ (K (c, k))) ?_ (R := nRd k) (fun r hr => duties_later m c k r hr))
  · exact fun h => h
  isplitr; · iexact Hinv
  iexact Hat

end Cert.Kernel.Ar

end
-- ==== Proof.KTac.lean ====
/-
  A tactic that runs tactic text built at elaboration time: the body's unrolled loops repeat one block of steps
  per chunk, differing only in the chunk's number, which the hypothesis names carry.
-/
import Lean

open Lean Elab Tactic

namespace Cert.Kernel.Ar

/-- Parse `s` as one tactic (a parenthesised sequence) and run it. -/
def runTacStr (s : String) : TacticM Unit := do
  match Parser.runParserCategory (← getEnv) `tactic s with
  | .ok stx => evalTactic stx
  | .error e => throwError "tactic text does not parse: {e}\n{s}"

/-- `tac_str "…"`: run the tactic text. -/
elab "tac_str " s:str : tactic => runTacStr s.getString

end Cert.Kernel.Ar
-- ==== Proof.KPhE.lean ====
/-
  The entry of the kernel body (phase E), the sixteen copies to the x partner (phase X) and the wait for the local
  copy of the quarter (phase Q), each as one theorem over the phase's whole chain of statements: from the named
  resources the phase consumes and a continuation that takes the resources it leaves. The proofs apply, statement
  by statement, the step lemma of the statement at its literal chunk; the repeated blocks are written once as
  tactic text over the chunk's number, and each theorem's statement (one assertion per chunk) is spelt from the
  chunk's number in the same way.
-/
import proofs.«900725_g7700000000000726_dist_ar_v7x_xyz2x4x4_x_m8192_n1024_f32_1_alg».proof.Proof.KStepEntry
import proofs.«900725_g7700000000000726_dist_ar_v7x_xyz2x4x4_x_m8192_n1024_f32_1_alg».proof.Proof.KStepWait
import proofs.«900725_g7700000000000726_dist_ar_v7x_xyz2x4x4_x_m8192_n1024_f32_1_alg».proof.Proof.KSets
import proofs.«900725_g7700000000000726_dist_ar_v7x_xyz2x4x4_x_m8192_n1024_f32_1_alg».proof.Proof.KTac

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Tactics
open Lean Elab Tactic Command

/-! ## The proofs' repeated blocks -/

/-- The local copy of the quarter, the three barrier signals, the barrier wait, and the three partners' payloads
    opened chunk by chunk. -/
def entryText : String :=
"(
  try unfold O₀
  iapply (step_cpq m c K _ _ _) $$ [HQ Hvq Tcpq]
  · isplitr; · iexact HR
    isplitl [HQ]; · iexact HQ
    isplitl [Hvq]; · iexact Hvq
    iexact Tcpq
  iintro Ccpq
  iapply (step_sig m c K (xp c) _ (dev1_eq c) 0 (tBar (yp c) + (tBar (zp c) + rem1 c 16)) _ _) $$ [HO Tbx HpX]
  · isplitr; · iexact HR
    isplitl [HO]; · iexact HO
    isplitl [Tbx]; · iexact Tbx
    iexact HpX
  iintro HO
  iapply (step_sig m c K (yp c) _ (dev2_eq c) 1 (tBar (zp c) + rem1 c 16) _ _) $$ [HO Tby HpY]
  · isplitr; · iexact HR
    isplitl [HO]; · iexact HO
    isplitl [Tby]; · iexact Tby
    iexact HpY
  iintro HO
  iapply (step_sig m c K (zp c) _ (dev3_eq c) 2 (rem1 c 16) _ _) $$ [HO Tbz HpZ]
  · isplitr; · iexact HR
    isplitl [HO]; · iexact HO
    isplitl [Tbz]; · iexact Tbz
    iexact HpZ
  iintro HO
  iapply (step_barwait m c K (rem1 c 16) (above_rem1 c 16) _ _) $$ [Cbar HO Pbar]
  · isplitr; · iexact HR
    isplitr; · iexact Hlev
    isplitl [Cbar]; · iexact Cbar
    isplitl [HO]; · iexact HO
    iexact Pbar
  iintro ⟨HO, Pbar, RX, RY, RZ⟩
  unfold payBarX payBarY payBarZ
  ihave RX := (Entails.of_eq (bigSep_fin16 _)) $$ RX
  icases RX with ⟨Rvr0, Rvr1, Rvr2, Rvr3, Rvr4, Rvr5, Rvr6, Rvr7, Rvr8, Rvr9, Rvr10, Rvr11, Rvr12, Rvr13, Rvr14, Rvr15⟩
  icases RY with ⟨RYa, RYb⟩
  ihave RYa := (Entails.of_eq (bigSep_fin16 _)) $$ RYa
  icases RYa with ⟨Roy0, Roy1, Roy2, Roy3, Roy4, Roy5, Roy6, Roy7, Roy8, Roy9, Roy10, Roy11, Roy12, Roy13, Roy14, Roy15⟩
  ihave RYb := (Entails.of_eq (bigSep_fin8 _)) $$ RYb
  icases RYb with ⟨RoyE0, RoyE1, RoyE2, RoyE3, RoyE4, RoyE5, RoyE6, RoyE7⟩
  icases RZ with ⟨RZa, RZb⟩
  ihave RZa := (Entails.of_eq (bigSep_fin16 _)) $$ RZa
  icases RZa with ⟨Roz0, Roz1, Roz2, Roz3, Roz4, Roz5, Roz6, Roz7, Roz8, Roz9, Roz10, Roz11, Roz12, Roz13, Roz14, Roz15⟩
  ihave RZb := (Entails.of_eq (bigSep_fin8 _)) $$ RZb
  icases RZb with ⟨RozO0, RozO1, RozO2, RozO3, RozO4, RozO5, RozO6, RozO7⟩)"

/-- The copy of chunk `j` to the x partner: what is owed is restated with this copy's unit in front, the chunk of
    the partner's scratch is taken at the contents it holds. -/
def xCopyText (j : Nat) : String :=
s!"(
  icases Rvr{j} with ⟨%fvr{j}, Rvr{j}⟩
  ihave HO := (Entails.of_eq (congrArg (ow (F := F) c) (show rem1 c {16 - j} = tX c {j} + rem1 c {15 - j} from rfl))) $$ HO
  iapply (step_x m c K {j} _ (dev{4 + j}_eq c) fvr{j} (rem1 c {15 - j}) _ _) $$ [Hsx{j} Rvr{j} HO Txs{j} Txr{j}]
  · isplitr; · iexact HR
    isplitl [Hsx{j}]; · iexact Hsx{j}
    isplitl [Rvr{j}]; · iexact Rvr{j}
    isplitl [HO]; · iexact HO
    isplitl [Txs{j}]; · iexact Txs{j}
    iexact Txr{j}
  iintro ⟨Cxs{j}, HO⟩)"

/-- After the last copy nothing of the first stretch is owed: what is owed is the second stretch, whole. -/
def xEndText : String :=
"(
  ihave HO := (Entails.of_eq (congrArg (ow (F := F) c) (show rem1 c 0 = rem2 c 16 from rfl))) $$ HO)"

/-- The wait for the local copy of the quarter: the staging buffer comes back holding the quarter, with the lent
    share of the source. -/
def waitQText : String :=
"(
  iapply (step_wait m c K .cpq (fun h => by cases h) cpqS rfl 0 Nat.one_pos (srcQ c) VQ _ _ rfl 2 (Nat.zero_le 2) (rem2 c 16) (above_rem2 c 16) _ _) $$ [Ccpq HO Pcpq]
  · isplitr; · iexact HR
    isplitr; · iexact Hlev
    isplitl [Ccpq]; · iexact Ccpq
    isplitl [HO]; · iexact HO
    iexact Pcpq
  iintro ⟨HO, Pcpq, -, Hpay⟩
  ihave Hpay := (Entails.of_eq (show pay m c .cpq 0 0 = iprop(pts c VQ fullShare (VQc m c) ∗ pts c (srcQ c) shQ (X m c)) from rfl)) $$ Hpay
  icases Hpay with ⟨Hvq, HQ⟩)"

/-- Phase E: the entry. -/
elab "ph_entry" : tactic => runTacStr entryText
/-- Phase X, one copy. -/
elab "ph_xcopy " j:num : tactic => runTacStr (xCopyText j.getNat)
/-- Phase X: the sixteen copies in order. -/
elab "ph_xcopies" : tactic => do
  for j in [0:16] do runTacStr (xCopyText j)
  runTacStr xEndText
/-- Phase Q: the wait for the quarter. -/
elab "ph_waitq" : tactic => runTacStr waitQText

/-! ## The statements, spelt from the chunk's number

A phase's resources are listed as pairs: the name the proof gives a hypothesis, and its assertion. -/

/-- One assertion per chunk `0 … n - 1`. -/
def perChunk (n : Nat) (f : Nat → String × String) : List (String × String) := (List.range n).map f

/-- What the entry consumes. -/
def preEList : List (String × String) :=
  [("HO", "ow c (O₀ c)"), ("HQ", "pts c (srcQ c) shQ (X m c)"), ("Hvq", "pts c VQ fullShare fq"), ("Tcpq", "tok0 c .cpq 0 0"),
   ("HpX", "pay m (xp c) .bar 0 0"), ("HpY", "pay m (yp c) .bar 0 1"), ("HpZ", "pay m (zp c) .bar 0 2"),
   ("Tbx", "tok0 (xp c) .bar 0 0"), ("Tby", "tok0 (yp c) .bar 0 1"), ("Tbz", "tok0 (zp c) .bar 0 2"),
   ("Cbar", "cred (tallyAt (cell c .bar) () 3)"), ("Pbar", "pos0 c .bar")]
/-- What it leaves: the three partners' payloads chunk by chunk. -/
def postEList : List (String × String) :=
  [("HO", "ow c (rem1 c 16)"), ("Ccpq", "cred (tallyAt (cell c .cpq) () Nq)"), ("Pbar", "atPos ER (cell c .bar) 1 ∅ 0")]
  ++ perChunk 16 (fun j => (s!"Rvr{j}", s!"ptsE (F := F) (xp c) (vrM {j})"))
  ++ perChunk 16 (fun j => (s!"Roy{j}", s!"ptsE (F := F) (yp c) (outM c {j})"))
  ++ perChunk 8 (fun e => (s!"RoyE{e}", s!"ptsE (F := F) (yp c) (outE c {e})"))
  ++ perChunk 16 (fun j => (s!"Roz{j}", s!"ptsE (F := F) (zp c) (outM c {j})"))
  ++ perChunk 8 (fun e => (s!"RozO{e}", s!"ptsE (F := F) (zp c) (outO c {e})"))
/-- The entry's statements. -/
def chainEStr : String :=
  "fCpq c (fSig ⟨k0_dev1 c, k0_dev1_lt c⟩ (fSig ⟨k0_dev2 c, k0_dev2_lt c⟩ (fSig ⟨k0_dev3 c, k0_dev3_lt c⟩ (fBarWait kk))))"

/-- What the sixteen copies consume, kind by kind. -/
def preXList : List (String × String) :=
  [("HO", "ow c (rem1 c 16)")]
  ++ perChunk 16 (fun j => (s!"Hsx{j}", s!"pts c (srcX c {j}) shX (X m c)"))
  ++ perChunk 16 (fun j => (s!"Rvr{j}", s!"ptsE (F := F) (xp c) (vrM {j})"))
  ++ perChunk 16 (fun j => (s!"Txs{j}", s!"tok0 c (.xs {j}) 0 0"))
  ++ perChunk 16 (fun j => (s!"Txr{j}", s!"tok0 (xp c) (.xr {j}) 0 0"))
/-- What they leave: the credit of each copy's send cell. -/
def postXList : List (String × String) :=
  [("HO", "ow c (rem2 c 16)")]
  ++ perChunk 16 (fun j => (s!"Cxs{j}", s!"cred (tallyAt (cell c (.xs {j})) () Nv)"))
/-- The sixteen copies, in order, before the continuation. -/
def chainXStr : String :=
  (List.range 16).foldr (fun j acc => s!"fX c {j} ⟨k0_dev{4 + j} c, k0_dev{4 + j}_lt c⟩ ({acc})") "kk"

/-- What the wait for the quarter consumes and leaves. -/
def preQList : List (String × String) :=
  [("HO", "ow c (rem2 c 16)"), ("Ccpq", "cred (tallyAt (cell c .cpq) () Nq)"), ("Pcpq", "pos0 c .cpq")]
def postQList : List (String × String) :=
  [("HO", "ow c (rem2 c 16)"), ("Pcpq", "atPos ER (cell c .cpq) 1 ∅ 0"), ("Hvq", "pts c VQ fullShare (VQc m c)"),
   ("HQ", "pts c (srcQ c) shQ (X m c)")]

/-- Proving a `∗`-chain of named hypotheses, in order: one line each. -/
def closeRunE : List String → String
  | [] => "  iempintro"
  | [n] => s!"  iexact {n}"
  | n :: ns => s!"  isplitl [{n}]; · iexact {n}\n" ++ closeRunE ns

/-- A phase's theorem: from the persistent facts, what the phase consumes and a continuation taking what it leaves,
    the phase's statements followed by the continuation run. The proof names the hypotheses, runs the phase's
    tactic and hands the continuation what is left. -/
def phaseTextE (name extra : String) (pre post : List (String × String)) (chain tac : String) : String :=
  let sep := fun (l : List (String × String)) => "\n        ∗ ".intercalate (l.map (·.2))
  s!"theorem {name} (c : Dev nD) (K : Dev nD × CK → ℕ){extra} (kk : PR F PUnit) (Q : PUnit → sProp 𝕄) :
    iprop(recs m K ∗ levAts L lv
        ∗ {sep pre}
        ∗ (({sep post})
            -∗ wp frame (wpE (defs₀ (F := F)) 𝒱₀ c none) Set.univ kk Q))
      ⊢ wp frame (wpE (defs₀ (F := F)) 𝒱₀ c none) Set.univ
          ({chain}) Q := by
  iintro ⟨#HR, #Hlev, {", ".intercalate (pre.map (·.1))}, Hk⟩
  {tac}
  iapply Hk
{closeRunE (post.map (·.1))}"

/-- Parse one command and elaborate it. -/
def cmdOfTextE (s : String) : CommandElabM Unit := do
  match Parser.runParserCategory (← getEnv) `command s with
  | .ok stx => elabCommand stx
  | .error e => throwError "command text does not parse: {e}\n{s}"

/-- The three phases' theorems. -/
elab "gen_phase_E" : command =>
  cmdOfTextE (phaseTextE "phase_E" " (fq : Buf (Elt F) (VQ.view.loc (c : Thread nD τ)))" preEList postEList chainEStr "ph_entry")
elab "gen_phase_X" : command =>
  cmdOfTextE (phaseTextE "phase_X" "" preXList postXList chainXStr "ph_xcopies")
elab "gen_phase_Q" : command =>
  cmdOfTextE (phaseTextE "phase_Q" "" preQList postQList "fWaitQ c kk" "ph_waitq")

end Tactics

gen_phase_E
gen_phase_X
gen_phase_Q

/-- info: 'Cert.Kernel.Ar.phase_E' depends on axioms: [propext, Classical.choice, Quot.sound] -/
#guard_msgs in #print axioms phase_E
/-- info: 'Cert.Kernel.Ar.phase_X' depends on axioms: [propext, Classical.choice, Quot.sound] -/
#guard_msgs in #print axioms phase_X
/-- info: 'Cert.Kernel.Ar.phase_Q' depends on axioms: [propext, Classical.choice, Quot.sound] -/
#guard_msgs in #print axioms phase_Q

end Cert.Kernel.Ar

end
-- ==== Proof.KStepSpread.lean ====
/-
  One iteration of the reduce-and-spread loop, the three copies of a summed slot: the local copy of slot
  `slotOf j` to the device's own result rows of chunk `j`, and the copies of the same slot to the same rows on
  the y partner and on the z partner. Each copy reads the slot at its own share of it and pays one duty per
  cell it credits: the local copy the duty of round `j / 2` of the slot's local cell, whose payload is the rows
  filled and the share back; a remote copy the one duty of its send cell (the share back) and the one duty of the
  partner's receive cell (the rows, on the partner, holding this device's sums).
-/
import proofs.«900725_g7700000000000726_dist_ar_v7x_xyz2x4x4_x_m8192_n1024_f32_1_alg».proof.Proof.KLanding
import proofs.«900725_g7700000000000726_dist_ar_v7x_xyz2x4x4_x_m8192_n1024_f32_1_alg».proof.Proof.KStepBase

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A cell that is not the barrier's has the one duty `0` in each of its rounds. -/
theorem mem_duties_one (m : (ℓ : Loc nD τ sig) → Buf (Elt F) ℓ) (o : Dev nD) (k : CK) (hk : k ≠ .bar) (r : ℕ) (hr : r < nRd k) :
    (0 : Fin 3) ∈ (Rd m).duties (cell o k) r := by
  rw [duties_one m o k hk r hr]; exact Finset.mem_singleton_self _

/-- The payload of round `j / 2` of the slot's local cell, at chunk `j`. -/
theorem pay_cpo (m : (ℓ : Loc nD τ sig) → Buf (Elt F) ℓ) (c : Dev nD) (j : Fin 16) :
    pay m c (.cpo (slotOf j)) (j.val / 2) 0
      = iprop(pts c (outM c j) fullShare (OUTc m c) ∗ pts c (vsM (slotOf j)) shO (VSc m c j)) := by
  show iprop(pts c (outM c (chunkOf (slotOf j) (j.val / 2))) fullShare (OUTc m c)
    ∗ pts c (vsM (slotOf j)) shO (VSc m c (chunkOf (slotOf j) (j.val / 2)))) = _
  rw [chunkOf_slotOf j]

/-- The payload of the y partner's receive cell of chunk `j`: on the y partner, this device's rows of the result. -/
theorem pay_ydr (m : (ℓ : Loc nD τ sig) → Buf (Elt F) ℓ) (c : Dev nD) (j : Fin 16) :
    pay m (yp c) (.ydr j) 0 0 = pts (yp c) (outM c j) fullShare (OUTc m (yp c)) := by
  show pts (yp c) (outM (yp (yp c)) j) fullShare (OUTc m (yp c)) = _
  rw [yp_yp c]

/-- The payload of the z partner's receive cell of chunk `j`. -/
theorem pay_zdr (m : (ℓ : Loc nD τ sig) → Buf (Elt F) ℓ) (c : Dev nD) (j : Fin 16) :
    pay m (zp c) (.zdr j) 0 0 = pts (zp c) (outM c j) fullShare (OUTc m (zp c)) := by
  show pts (zp c) (outM (zp (zp c)) j) fullShare (OUTc m (zp c)) = _
  rw [zp_zp c]

/-- The local copy of the slot of chunk `j` to the device's own result rows. -/
theorem step_o (m : (ℓ : Loc nD τ sig) → Buf (Elt F) ℓ) (c : Dev nD) (K : Dev nD × CK → ℕ) (j : Fin 16)
    (fd : Buf (Elt F) ((outM c j).view.loc (c : Thread nD τ))) {α : Type} (kk : PR F α) (Q : α → sProp 𝕄) :
    iprop(recs m K ∗ reached ER (cell c (.cpo (slotOf j))) (j.val / 2) ∗ pts c (vsM (slotOf j)) shO (VSc m c j)
        ∗ pts c (outM c j) fullShare fd ∗ tok0 c (.cpo (slotOf j)) (j.val / 2) 0)
      ⊢ iprop((cred (tallyAt (cell c (.cpo (slotOf j))) () No) -∗ wp frame (wpE (defs₀ (F := F)) 𝒱₀ c none) Set.univ kk Q)
          -∗ wp frame (wpE (defs₀ (F := F)) 𝒱₀ c none) Set.univ (fO c j kk) Q) := by
  iintro ⟨#Hrec, Hr, Hs, Hd, Ht⟩ Hk
  iapply (Rounds.wp_copy_pointsTo (Γ := .empty) (defs := defs₀ (F := F)) 𝒱₀ ER (Rd m) (c : Thread nD τ) none
    (src := vsM (slotOf j)) (dst := outM c j) (sem := .dma (cpoS (slotOf j))) (q := shO) (fs := VSc m c j) (fd := fd)
    (r := j.val / 2) (d := 0) (κ := K (c, .cpo (slotOf j)))
    (mem_duties_one m c (.cpo (slotOf j)) (fun h => by cases h) (j.val / 2) (round_lt j))
    () No rfl (amount_cell m c (.cpo (slotOf j)) (j.val / 2) 0)
    (by
      show _ ⊢ (Rd m).payload (cell c (.cpo (slotOf j))) (j.val / 2) 0
      rw [payload_cell m c (.cpo (slotOf j)) (j.val / 2) 0, pay_cpo m c j, pointsTo_congr (land_o m c j (slotOf j) fd)])) $$ [Hr Hs Hd Ht]
  · isplitr; · iapply (inv_at m K c (.cpo (slotOf j))) $$ Hrec
    isplitl [Hs]; · iexact Hs
    isplitl [Hd]; · iexact Hd
    isplitl [Ht]; · iexact Ht
    iexact Hr
  iexact Hk

/-- The copy of the slot of chunk `j` to the same rows of the result on the y partner. -/
theorem step_yd (m : (ℓ : Loc nD τ sig) → Buf (Elt F) ℓ) (c : Dev nD) (K : Dev nD × CK → ℕ) (j : Fin 16)
    (n : Dev nD) (hn : n = yp c) (fd : Buf (Elt F) ((outM c j).view.loc (yp c : Thread nD τ))) (O : Tal)
    {α : Type} (kk : PR F α) (Q : α → sProp 𝕄) :
    iprop(recs m K ∗ pts c (vsM (slotOf j)) shY (VSc m c j) ∗ pts (yp c) (outM c j) fullShare fd ∗ ow c (tYD c j + O)
        ∗ tok0 c (.yds j) 0 0 ∗ tok0 (yp c) (.ydr j) 0 0)
      ⊢ iprop(((cred (tallyAt (cell c (.yds j)) () No) ∗ ow c O) -∗ wp frame (wpE (defs₀ (F := F)) 𝒱₀ c none) Set.univ kk Q)
          -∗ wp frame (wpE (defs₀ (F := F)) 𝒱₀ c none) Set.univ (fYD c j n kk) Q) := by
  subst hn
  unfold ow
  iintro ⟨#Hrec, Hs, Hd, ⟨%W, HO⟩, T1, T2⟩ Hk
  iapply (Rounds.wp_send_pointsTo (Γ := .empty) (defs := defs₀ (F := F)) 𝒱₀ ER (Rd m) (c : Thread nD τ) none
    (c' := Dev.tc (yp c)) (src := vsM (slotOf j)) (dst := outM c j) (sS := .dma (ydS j)) (sem := .dma (ydR j))
    (q := shY) (fs := VSc m c j) (fd := fd) (r₁ := 0) (r₂ := 0) (d₁ := 0) (d₂ := 0)
    (κ₁ := K (c, .yds j)) (κ₂ := K (yp c, .ydr j)) (W := W)
    (mem_duties_one m c (.yds j) (fun h => by cases h) 0 Nat.one_pos)
    (mem_duties_one m (yp c) (.ydr j) (fun h => by cases h) 0 Nat.one_pos)
    () () No rfl (amount_cell m c (.yds j) 0 0) (amount_cell m (yp c) (.ydr j) 0 0) O (add_comm _ _)
    (Entails.of_eq (payload_cell m c (.yds j) 0 0).symm)
    (by
      show _ ⊢ (Rd m).payload (cell (yp c) (.ydr j)) 0 0
      rw [payload_cell m (yp c) (.ydr j) 0 0, pay_ydr m c j, pointsTo_congr (land_yd m c j (slotOf j) fd)])) $$ [Hs Hd HO T1 T2]
  · isplitr; · iapply (inv_at m K c (.yds j)) $$ Hrec
    isplitr; · iapply (inv_at m K (yp c) (.ydr j)) $$ Hrec
    isplitl [Hs]; · iexact Hs
    isplitl [Hd]; · iexact Hd
    isplitl [HO]; · iexact HO
    isplitl [T1]; · iexact T1
    isplitr; · iapply (reached_at m K c (.yds j)) $$ Hrec
    isplitl [T2]; · iexact T2
    iapply (reached_at m K (yp c) (.ydr j)) $$ Hrec
  iintro ⟨Hc, HO⟩
  iapply Hk
  isplitl [Hc]; · iexact Hc
  iexists W; iexact HO

/-- The copy of the slot of chunk `j` to the same rows of the result on the z partner. -/
theorem step_zd (m : (ℓ : Loc nD τ sig) → Buf (Elt F) ℓ) (c : Dev nD) (K : Dev nD × CK → ℕ) (j : Fin 16)
    (n : Dev nD) (hn : n = zp c) (fd : Buf (Elt F) ((outM c j).view.loc (zp c : Thread nD τ))) (O : Tal)
    {α : Type} (kk : PR F α) (Q : α → sProp 𝕄) :
    iprop(recs m K ∗ pts c (vsM (slotOf j)) shZ (VSc m c j) ∗ pts (zp c) (outM c j) fullShare fd ∗ ow c (tZD c j + O)
        ∗ tok0 c (.zds j) 0 0 ∗ tok0 (zp c) (.zdr j) 0 0)
      ⊢ iprop(((cred (tallyAt (cell c (.zds j)) () No) ∗ ow c O) -∗ wp frame (wpE (defs₀ (F := F)) 𝒱₀ c none) Set.univ kk Q)
          -∗ wp frame (wpE (defs₀ (F := F)) 𝒱₀ c none) Set.univ (fZD c j n kk) Q) := by
  subst hn
  unfold ow
  iintro ⟨#Hrec, Hs, Hd, ⟨%W, HO⟩, T1, T2⟩ Hk
  iapply (Rounds.wp_send_pointsTo (Γ := .empty) (defs := defs₀ (F := F)) 𝒱₀ ER (Rd m) (c : Thread nD τ) none
    (c' := Dev.tc (zp c)) (src := vsM (slotOf j)) (dst := outM c j) (sS := .dma (zdS j)) (sem := .dma (zdR j))
    (q := shZ) (fs := VSc m c j) (fd := fd) (r₁ := 0) (r₂ := 0) (d₁ := 0) (d₂ := 0)
    (κ₁ := K (c, .zds j)) (κ₂ := K (zp c, .zdr j)) (W := W)
    (mem_duties_one m c (.zds j) (fun h => by cases h) 0 Nat.one_pos)
    (mem_duties_one m (zp c) (.zdr j) (fun h => by cases h) 0 Nat.one_pos)
    () () No rfl (amount_cell m c (.zds j) 0 0) (amount_cell m (zp c) (.zdr j) 0 0) O (add_comm _ _)
    (Entails.of_eq (payload_cell m c (.zds j) 0 0).symm)
    (by
      show _ ⊢ (Rd m).payload (cell (zp c) (.zdr j)) 0 0
      rw [payload_cell m (zp c) (.zdr j) 0 0, pay_zdr m c j, pointsTo_congr (land_zd m c j (slotOf j) fd)])) $$ [Hs Hd HO T1 T2]
  · isplitr; · iapply (inv_at m K c (.zds j)) $$ Hrec
    isplitr; · iapply (inv_at m K (zp c) (.zdr j)) $$ Hrec
    isplitl [Hs]; · iexact Hs
    isplitl [Hd]; · iexact Hd
    isplitl [HO]; · iexact HO
    isplitl [T1]; · iexact T1
    isplitr; · iapply (reached_at m K c (.zds j)) $$ Hrec
    isplitl [T2]; · iexact T2
    iapply (reached_at m K (zp c) (.zdr j)) $$ Hrec
  iintro ⟨Hc, HO⟩
  iapply Hk
  isplitl [Hc]; · iexact Hc
  iexists W; iexact HO

/-- info: 'Cert.Kernel.Ar.step_o' depends on axioms: [propext, Classical.choice, Quot.sound] -/
#guard_msgs in #print axioms step_o
/-- info: 'Cert.Kernel.Ar.step_yd' depends on axioms: [propext, Classical.choice, Quot.sound] -/
#guard_msgs in #print axioms step_yd
/-- info: 'Cert.Kernel.Ar.step_zd' depends on axioms: [propext, Classical.choice, Quot.sound] -/
#guard_msgs in #print axioms step_zd

end Cert.Kernel.Ar

end
-- ==== Proof.KStepSum.lean ====
/-
  The sum step of the reduce-and-spread loop: the two loads read chunk `j` of the device's own quarter and of the
  x partner's, the load of the slot reads nothing that is used, and the store leaves in the slot the sum of
  chunk `j`. The staging buffer of the device's quarter is held whole, the receive scratch by chunk `j` only,
  the sum buffer by the slot only: each access goes through elements of what is held.
-/
import proofs.«900725_g7700000000000726_dist_ar_v7x_xyz2x4x4_x_m8192_n1024_f32_1_alg».proof.Proof.KStepBase
import proofs.«900725_g7700000000000726_dist_ar_v7x_xyz2x4x4_x_m8192_n1024_f32_1_alg».proof.Proof.KLanding

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A load through a window of a buffer reads elements of the window's view. -/
theorem setOn_slice_subset {sg : RefSig} {κ : Kind} {sp : Space} {s : Shape} {e : EltTy} (v : View sg κ sp s e) (r : Rect s) :
    v.setOn r.toLoadRect.set ⊆ (v.slice r).set := by
  rw [View.set_slice]; exact subset_rfl

theorem step_sum (m : (ℓ : Loc nD τ sig) → Buf (Elt F) ℓ) (c : Dev nD) (j : Fin 16)
    (f : Buf (Elt F) (VS.view.loc (c : Thread nD τ))) {α : Type} (kk : PR F α) (Q : α → sProp 𝕄) :
    iprop(pts c VQ fullShare (VQc m c) ∗ pts c (vrM j) fullShare (VRc m c) ∗ pts c (vsM (slotOf j)) fullShare f)
      ⊢ iprop((iprop(pts c VQ fullShare (VQc m c) ∗ pts c (vrM j) fullShare (VRc m c) ∗ pts c (vsM (slotOf j)) fullShare (VSc m c j))
            -∗ wp frame (wpE (defs₀ (F := F)) 𝒱₀ c none) Set.univ kk Q)
          -∗ wp frame (wpE (defs₀ (F := F)) 𝒱₀ c none) Set.univ (fSum j kk) Q) := by
  iintro ⟨HQ, HR, HS⟩ Hk
  iapply (wp_load 𝒱₀ (c : Thread nD τ) none Set.univ (m := VQ) (S := VQ.view.set) (q := fullShare) (f := VQc m c)
    (View.setOn_subset_set _ _)) $$ HQ
  iintro HQ
  iapply (wp_load 𝒱₀ (c : Thread nD τ) none Set.univ (m := VR) (S := (vrM j).view.set) (q := fullShare) (f := VRc m c)
    (setOn_slice_subset VR.view _)) $$ HR
  iintro HR
  iapply (wp_load 𝒱₀ (c : Thread nD τ) none Set.univ (m := VS) (S := (vsM (slotOf j)).view.set) (q := fullShare) (f := f)
    (by rw [← access_vs_set]; exact setOn_slice_subset VS.view _)) $$ HS
  iintro HS
  iapply (wp_store 𝒱₀ (c : Thread nD τ) none Set.univ (m := VS)
    (r := Rect.unit (s := S2x128x1024) ![(slotOf j).val, 0, 0] S1x128x1024.size (inbS (slotOf j)))
    (S := (vsM (slotOf j)).view.set) (f := f)
    (by rw [← access_vs_set, View.setOn_univ])) $$ HS
  iintro HS
  iapply Hk
  isplitl [HQ]
  · iexact HQ
  isplitl [HR]
  · iexact HR
  iapply (Entails.of_eq (pointsTo_congr (ℓ := (vsM (slotOf j)).view.loc (c : Thread nD τ)) (q := fullShare)
    (store_vs m c j (slotOf j) f))) $$ HS

/-- info: 'Cert.Kernel.Ar.step_sum' depends on axioms: [propext, Classical.choice, Quot.sound] -/
#guard_msgs in #print axioms step_sum

end Cert.Kernel.Ar

end
-- ==== Proof.KPhS.lean ====
/-
  The reduce-and-spread loop, one iteration as a tactic over the chunk's number: the hypothesis names of the
  body's proof carry the chunk, the slot and the round, so each iteration is the same text at other numbers.
  Iteration `j` frees its slot of chunk `j - 2` (the waits on that chunk's two send cells and on the slot's local
  cell, each returning its share of the slot), waits for the x partner's chunk `j`, sums it with the device's own
  into the slot, splits the slot three ways and issues the local copy and the copies to the y and z partners.
-/
import proofs.«900725_g7700000000000726_dist_ar_v7x_xyz2x4x4_x_m8192_n1024_f32_1_alg».proof.Proof.KStepSpread
import proofs.«900725_g7700000000000726_dist_ar_v7x_xyz2x4x4_x_m8192_n1024_f32_1_alg».proof.Proof.KStepWait
import proofs.«900725_g7700000000000726_dist_ar_v7x_xyz2x4x4_x_m8192_n1024_f32_1_alg».proof.Proof.KStepSum
import proofs.«900725_g7700000000000726_dist_ar_v7x_xyz2x4x4_x_m8192_n1024_f32_1_alg».proof.Proof.KSets
import proofs.«900725_g7700000000000726_dist_ar_v7x_xyz2x4x4_x_m8192_n1024_f32_1_alg».proof.Proof.KTac

namespace Cert.Kernel.Ar

section Meta

open Lean Elab Tactic Command

/-- The wait on a one-round send cell (kind text `yds` / `zds`) of chunk `p`, owing `rem2 c k`: the share of the slot comes back. -/
def waitSendText (kd sem : String) (p k : Nat) (cr pos out : String) : String :=
  s!"iapply (step_wait m c K (.{kd} {p}) (fun h => by cases h) ({sem} {p}) rfl 0 Nat.one_pos (outM c {p}) (vsM (slotOf {p})) _ _ rfl 2 (by decide) (rem2 c {k}) (above_rem2 c {k}) _ _) $$ [{cr} HO {pos}]; " ++
  s!"isplitr; iexact HR; isplitr; iexact Hlev; isplitl [{cr}]; iexact {cr}; isplitl [HO]; iexact HO; iexact {pos}; " ++
  s!"iintro ⟨HO, {pos}, -, Hpay⟩; " ++
  s!"ihave {out} := (Entails.of_eq (pay_{kd} m c {p})) $$ Hpay"

/-- The three waits that free the slot of chunk `p` (owing `rem2 c k`) and the rejoining of the slot's three shares. -/
def freeSlotText (p k : Nat) : String :=
  let s := p % 2
  waitSendText "yds" "ydS" p k s!"Cyds{p}" s!"Pyds{p}" s!"Ys{p}" ++ "; " ++
  waitSendText "zds" "zdS" p k s!"Czds{p}" s!"Pzds{p}" s!"Zs{p}" ++ "; " ++
  s!"iapply (step_wait m c K (.cpo (slotOf {p})) (fun h => by cases h) (cpoS (slotOf {p})) rfl (({p} : Fin 16).val / 2) (round_lt {p}) (vsM (slotOf {p})) (outM c {p}) _ _ rfl 2 (by decide) (rem2 c {k}) (above_rem2 c {k}) _ _) $$ [Ccpo{p} HO Pcpo{s}]; " ++
  s!"isplitr; iexact HR; isplitr; iexact Hlev; isplitl [Ccpo{p}]; iexact Ccpo{p}; isplitl [HO]; iexact HO; iexact Pcpo{s}; " ++
  s!"iintro ⟨HO, Pcpo{s}, Rcpo{s}, Hpay⟩; " ++
  s!"icases (Entails.of_eq (pay_cpo m c {p})) $$ Hpay with ⟨Hom{p}, Os{p}⟩; " ++
  s!"ihave Hvs{s} := (share3 ((vsM (slotOf {p})).view.loc (c : Thread nD τ)) (vsM (slotOf {p})).view.set (VSc m c {p})).2 $$ [Os{p} Ys{p} Zs{p}]; " ++
  s!"isplitl [Os{p}]; iexact Os{p}; isplitl [Ys{p}]; iexact Ys{p}; iexact Zs{p}"

/-- The wait for the x partner's chunk, the sum into the slot, the slot split three ways, and the three copies. -/
def sumSpreadText (j : Nat) : String :=
  let s := j % 2
  let k := 16 - j
  s!"iapply (step_wait m c K (.xr {j}) (fun h => by cases h) (xR {j}) rfl 0 Nat.one_pos (srcX c {j}) (vrM {j}) _ _ rfl 2 (by decide) (rem2 c {k}) (above_rem2 c {k}) _ _) $$ [Cxr{j} HO Pxr{j}]; " ++
  s!"isplitr; iexact HR; isplitr; iexact Hlev; isplitl [Cxr{j}]; iexact Cxr{j}; isplitl [HO]; iexact HO; iexact Pxr{j}; " ++
  s!"iintro ⟨HO, Pxr{j}, -, Hpay⟩; " ++
  s!"ihave Hvr{j} := (Entails.of_eq (pay_xr m c {j})) $$ Hpay; " ++
  s!"iapply (step_sum m c {j} _ _ _) $$ [Hvq Hvr{j} Hvs{s}]; " ++
  s!"isplitl [Hvq]; iexact Hvq; isplitl [Hvr{j}]; iexact Hvr{j}; iexact Hvs{s}; " ++
  s!"iintro ⟨Hvq, Hvr{j}, Hvs{s}⟩; " ++
  s!"icases (share3 ((vsM (slotOf {j})).view.loc (c : Thread nD τ)) (vsM (slotOf {j})).view.set (VSc m c {j})).1 $$ Hvs{s} with ⟨Os{j}, Ys{j}, Zs{j}⟩; " ++
  s!"iapply (step_o m c K {j} _ _ _) $$ [Rcpo{s} Os{j} Hom{j} Tcpo{j}]; " ++
  s!"isplitr; iexact HR; isplitl [Rcpo{s}]; iexact Rcpo{s}; isplitl [Os{j}]; iexact Os{j}; isplitl [Hom{j}]; iexact Hom{j}; iexact Tcpo{j}; " ++
  s!"iintro Ccpo{j}; " ++
  s!"icases Roy{j} with ⟨%fdy, Roy{j}⟩; " ++
  s!"iapply (step_yd m c K {j} _ (dev{20 + 2 * j}_eq c) _ (tZD c {j} + rem2 c {k - 1}) _ _) $$ [Ys{j} Roy{j} HO Tyds{j} Tydr{j}]; " ++
  s!"isplitr; iexact HR; isplitl [Ys{j}]; iexact Ys{j}; isplitl [Roy{j}]; iexact Roy{j}; isplitl [HO]; iexact HO; isplitl [Tyds{j}]; iexact Tyds{j}; iexact Tydr{j}; " ++
  s!"iintro ⟨Cyds{j}, HO⟩; " ++
  s!"icases Roz{j} with ⟨%fdz, Roz{j}⟩; " ++
  s!"iapply (step_zd m c K {j} _ (dev{21 + 2 * j}_eq c) _ (rem2 c {k - 1}) _ _) $$ [Zs{j} Roz{j} HO Tzds{j} Tzdr{j}]; " ++
  s!"isplitr; iexact HR; isplitl [Zs{j}]; iexact Zs{j}; isplitl [Roz{j}]; iexact Roz{j}; isplitl [HO]; iexact HO; isplitl [Tzds{j}]; iexact Tzds{j}; iexact Tzdr{j}; " ++
  s!"iintro ⟨Czds{j}, HO⟩"

/-- `spread_it j`: iteration `j` of the reduce-and-spread loop. For `j < 2` the slot is fresh and the round-0 fact of
    its local cell is read off the shared record; from `j = 2` on the slot is first freed of chunk `j - 2`. -/
elab "spread_it " j:num : tactic => do
  let j := j.getNat
  let pre := if j < 2 then s!"ihave Rcpo{j % 2} := (reached_at m K c (.cpo {j % 2})) $$ HR" else freeSlotText (j - 2) (16 - j)
  runTacStr ("(" ++ pre ++ "; " ++ sumSpreadText j ++ ")")

/-- The names of chunk `j`'s share of what the loop takes, in the order of `preSj`. -/
def preNames (j : Nat) : String :=
  s!"⟨Cxr{j}, Pxr{j}, Pyds{j}, Pzds{j}, Hom{j}, Tcpo{j}, Roy{j}, Tyds{j}, Tydr{j}, Roz{j}, Tzds{j}, Tzdr{j}⟩"

/-- `intro_S`: name what the loop takes. -/
elab "intro_S" : tactic =>
  runTacStr ("iintro ⟨#HR, #Hlev, ⟨HO, Hvq, Hvs0, Hvs1, Pcpo0, Pcpo1, " ++ ", ".intercalate ((List.range 16).map preNames) ++ "⟩, Hk⟩")

/-- Hand the hypotheses `hs` over, one per conjunct of the goal, in order; `last`: the goal ends with them. -/
def giveText (hs : List String) (last : Bool) : String :=
  match hs with
  | [] => ""
  | [h] => if last then s!"iexact {h}" else s!"isplitl [{h}]; iexact {h}"
  | h :: t => s!"isplitl [{h}]; iexact {h}; " ++ giveText t last

/-- `close_S`: what the loop leaves, conjunct by conjunct, to the continuation. -/
elab "close_S" : tactic => do
  let grp (j : Nat) : List String := [s!"Pxr{j}", s!"Hvr{j}", s!"Pyds{j}", s!"Pzds{j}", s!"Hom{j}"]
  let pend (j : Nat) : List String := [s!"Pxr{j}", s!"Hvr{j}", s!"Pyds{j}", s!"Pzds{j}", s!"Cyds{j}", s!"Czds{j}", s!"Ccpo{j}"]
  let one (hs : List String) (last : Bool) : String :=
    if last then giveText hs true else "isplitl [" ++ " ".intercalate hs ++ "]; " ++ giveText hs true
  let mid := "; ".intercalate ((List.range 14).map fun j => one (grp j) false)
  runTacStr ("(iapply Hk; " ++ giveText ["HO", "Hvq", "Pcpo0", "Pcpo1"] false ++ "; " ++ mid ++ "; " ++ one (pend 14) false ++ "; " ++ one (pend 15) true ++ ")")

/-- Parse `s` as one command and run it. -/
def runCmdS (s : String) : CommandElabM Unit := do
  match Parser.runParserCategory (← getEnv) `command s with
  | .ok stx => elabCommand stx
  | .error e => throwError "command text does not parse: {e}\n{s}"

/-- The sixteen iterations, each before what follows it; the last before the continuation `k`. -/
def chainSStr : String :=
  (List.range 16).foldr (fun j acc =>
    let it := s!"fIt c {j} ⟨k0_dev{20 + 2 * j} c, k0_dev{20 + 2 * j}_lt c⟩ ⟨k0_dev{21 + 2 * j} c, k0_dev{21 + 2 * j}_lt c⟩"
    if j < 2 then s!"{it} <| {acc}" else s!"fFree c {j - 2} <| {it} <| {acc}") "k"

/-- `gen_defs_S`: the loop's program `chainS` and the two assertions `preS`, `postS`, one item per chunk. -/
elab "gen_defs_S" : command => do
  let items (f : Nat → String) (n : Nat) : String := " ∗ ".intercalate ((List.range n).map f)
  runCmdS ("/-- The sixteen iterations: the first two find their slots fresh, the others free theirs of the chunk two before. -/\n" ++
    s!"abbrev chainS (c : Dev nD) (k : PR F α) : PR F α := {chainSStr}")
  runCmdS ("/-- What the loop starts from: what the device still owes (the spread and forward copies), the staged quarter, the two slots at any contents, the two local cells at round 0, and each chunk's share. -/\n" ++
    "def preS (m : (ℓ : Loc nD τ sig) → Buf (Elt F) ℓ) (c : Dev nD) (f0 f1 : Buf (Elt F) ((c : Thread nD τ).loc cc0_scratch2)) (fo : Buf (Elt F) ((c : Thread nD τ).loc main_v1)) : sProp 𝕄 := " ++
    "iprop(ow c (rem2 c 16) ∗ pts c VQ fullShare (VQc m c) ∗ pts c (vsM 0) fullShare f0 ∗ pts c (vsM 1) fullShare f1 ∗ pos0 c (.cpo 0) ∗ pos0 c (.cpo 1) ∗ " ++
    items (fun j => s!"preSj c fo {j}") 16 ++ ")")
  runCmdS ("/-- What it ends with: only the forward copies owed, the local cells at round 7 (the last chunk of each slot in flight). -/\n" ++
    "def postS (m : (ℓ : Loc nD τ sig) → Buf (Elt F) ℓ) (c : Dev nD) : sProp 𝕄 := " ++
    "iprop(ow c (rem2 c 0) ∗ pts c VQ fullShare (VQc m c) ∗ atPos ER (cell c (.cpo 0)) 7 ∅ 0 ∗ atPos ER (cell c (.cpo 1)) 7 ∅ 0 ∗ " ++
    items (fun j => s!"postSj m c {j}") 14 ++ " ∗ pendSj m c 14 ∗ pendSj m c 15)")

end Meta

end Cert.Kernel.Ar

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The payloads the iteration's waits return, spelt as points-tos -/

theorem pay_xr (m : (ℓ : Loc nD τ sig) → Buf (Elt F) ℓ) (c : Dev nD) (j : Fin 16) :
    pay m c (.xr j) 0 0 = pts c (vrM j) fullShare (VRc m c) := rfl
theorem pay_yds (m : (ℓ : Loc nD τ sig) → Buf (Elt F) ℓ) (c : Dev nD) (j : Fin 16) :
    pay m c (.yds j) 0 0 = pts c (vsM (slotOf j)) shY (VSc m c j) := rfl
theorem pay_zds (m : (ℓ : Loc nD τ sig) → Buf (Elt F) ℓ) (c : Dev nD) (j : Fin 16) :
    pay m c (.zds j) 0 0 = pts c (vsM (slotOf j)) shZ (VSc m c j) := rfl

/-! ## The loop's program -/

variable {α : Type}

/-- The waits that free the slot of chunk `p`. -/
abbrev fFree (c : Dev nD) (p : Fin 16) (k : PR F α) : PR F α := fWaitYdS c p (fWaitZdS c p (fWaitO c p k))
/-- Chunk `j` awaited, summed into its slot, and the slot copied to the device's own result and to the partners `ny`, `nz`. -/
abbrev fIt (c : Dev nD) (j : Fin 16) (ny nz : Dev nD) (k : PR F α) : PR F α :=
  fWaitXR c j (fSum j (fO c j (fYD c j ny (fZD c j nz k))))

/-! ## What the loop takes and what it leaves -/

/-- For chunk `j`: the credit and the position of the x partner's receive cell, the positions of the two send cells,
    the device's own result rows (at any contents `fo`), the same rows on the y and on the z partner, and the tokens
    of the five duties the iteration's three copies pay. -/
def preSj (c : Dev nD) (fo : Buf (Elt F) ((c : Thread nD τ).loc main_v1)) (j : Fin 16) : sProp 𝕄 :=
  iprop(cred (tallyAt (cell c (.xr j)) () Nv) ∗ pos0 c (.xr j) ∗ pos0 c (.yds j) ∗ pos0 c (.zds j)
    ∗ pts c (outM c j) fullShare fo ∗ tok0 c (.cpo (slotOf j)) (j.val / 2) 0
    ∗ ptsE (F := F) (yp c) (outM c j) ∗ tok0 c (.yds j) 0 0 ∗ tok0 (yp c) (.ydr j) 0 0
    ∗ ptsE (F := F) (zp c) (outM c j) ∗ tok0 c (.zds j) 0 0 ∗ tok0 (zp c) (.zdr j) 0 0)

/-- For a chunk whose copies were waited inside the loop: the three cells one round on, the x partner's chunk, and
    the device's own result rows final. -/
def postSj (m : (ℓ : Loc nD τ sig) → Buf (Elt F) ℓ) (c : Dev nD) (j : Fin 16) : sProp 𝕄 :=
  iprop(atPos ER (cell c (.xr j)) 1 ∅ 0 ∗ pts c (vrM j) fullShare (VRc m c)
    ∗ atPos ER (cell c (.yds j)) 1 ∅ 0 ∗ atPos ER (cell c (.zds j)) 1 ∅ 0 ∗ pts c (outM c j) fullShare (OUTc m c))

/-- For the last two chunks, whose copies are still in flight at the loop's end: the send cells not yet waited, and
    the credit for the three waits to come. -/
def pendSj (m : (ℓ : Loc nD τ sig) → Buf (Elt F) ℓ) (c : Dev nD) (j : Fin 16) : sProp 𝕄 :=
  iprop(atPos ER (cell c (.xr j)) 1 ∅ 0 ∗ pts c (vrM j) fullShare (VRc m c) ∗ pos0 c (.yds j) ∗ pos0 c (.zds j)
    ∗ cred (tallyAt (cell c (.yds j)) () No) ∗ cred (tallyAt (cell c (.zds j)) () No)
    ∗ cred (tallyAt (cell c (.cpo (slotOf j))) () No))

/-! ## The loop's program, what it takes and what it leaves, an item per chunk -/

gen_defs_S

/-- The reduce-and-spread loop: from `preS`, the sixteen iterations leave `postS`. -/
theorem phase_S (m : (ℓ : Loc nD τ sig) → Buf (Elt F) ℓ) (c : Dev nD) (K : Dev nD × CK → ℕ)
    (f0 f1 : Buf (Elt F) ((c : Thread nD τ).loc cc0_scratch2)) (fo : Buf (Elt F) ((c : Thread nD τ).loc main_v1))
    (kk : PR F PUnit) (Q : PUnit → sProp 𝕄) :
    iprop(recs m K ∗ levAts L lv ∗ preS m c f0 f1 fo
        ∗ (postS m c -∗ wp frame (wpE (defs₀ (F := F)) 𝒱₀ c none) Set.univ kk Q))
      ⊢ wp frame (wpE (defs₀ (F := F)) 𝒱₀ c none) Set.univ (chainS c kk) Q := by
  unfold preS postS preSj postSj pendSj
  intro_S
  spread_it 0
  spread_it 1
  spread_it 2
  spread_it 3
  spread_it 4
  spread_it 5
  spread_it 6
  spread_it 7
  spread_it 8
  spread_it 9
  spread_it 10
  spread_it 11
  spread_it 12
  spread_it 13
  spread_it 14
  spread_it 15
  close_S

/-- info: 'Cert.Kernel.Ar.phase_S' depends on axioms: [propext, Classical.choice, Quot.sound] -/
#guard_msgs in #print axioms phase_S

end Cert.Kernel.Ar

end
-- ==== Proof.KStepFwd.lean ====
/-
  The forwarding copies of the last loop. A device holds, in its own result array, an even chunk of its z partner's
  quarter (an odd chunk of its y partner's), at its final contents; it copies the chunk to the same rows of its y (z)
  partner's result array, which it was handed at the barrier. The partner's rows then hold the partner's final contents
  there: the chunk lies in the partner's diagonal quarter, whose owner is the same device.
-/
import proofs.«900725_g7700000000000726_dist_ar_v7x_xyz2x4x4_x_m8192_n1024_f32_1_alg».proof.Proof.KStepBase
import proofs.«900725_g7700000000000726_dist_ar_v7x_xyz2x4x4_x_m8192_n1024_f32_1_alg».proof.Proof.KLanding

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Even chunk `2 e` of the z partner's quarter, forwarded to the y partner. -/
theorem step_yr (m : (ℓ : Loc nD τ sig) → Buf (Elt F) ℓ) (c : Dev nD) (K : Dev nD × CK → ℕ) (e : Fin 8) (n : Dev nD) (hn : n = yp c)
    (fd : Buf (Elt F) ((outE c e).view.loc (yp c : Thread nD τ))) (O : Tal) {α : Type} (kk : PR F α) (Q : α → sProp 𝕄) :
    iprop(recs m K ∗ pts c (outE c e) fullShare (OUTc m c) ∗ pts (yp c) (outE c e) fullShare fd ∗ ow (F := F) c (tYR c e + O)
        ∗ tok0 (F := F) c (.yrs e) 0 0 ∗ tok0 (F := F) (yp c) (.yrr e) 0 0)
      ⊢ iprop(((cred (tallyAt (cell c (.yrs e)) () No) ∗ ow (F := F) c O)
            -∗ wp frame (wpE (defs₀ (F := F)) 𝒱₀ c none) Set.univ kk Q)
          -∗ wp frame (wpE (defs₀ (F := F)) 𝒱₀ c none) Set.univ (fYR c e n kk) Q) := by
  subst hn
  have hd₁ : (0 : Fin 3) ∈ (Rd (F := F) m).duties (cell c (.yrs e)) 0 := by
    rw [duties_one m c (.yrs e) (fun h => by cases h) 0 Nat.one_pos]; exact Finset.mem_singleton_self _
  have hd₂ : (0 : Fin 3) ∈ (Rd (F := F) m).duties (cell (yp c) (.yrr e)) 0 := by
    rw [duties_one m (yp c) (.yrr e) (fun h => by cases h) 0 Nat.one_pos]; exact Finset.mem_singleton_self _
  have hpay₁ : ((outE c e).view.loc (c : Thread nD τ) ↦[(outE c e).view.set]{fullShare} OUTc m c : sProp 𝕄)
      ⊢ (Rd (F := F) m).payload (cell c (.yrs e)) 0 0 := by
    rw [payload_cell]; exact .rfl
  have hpay₂ : ((outE c e).view.loc (yp c : Thread nD τ) ↦[(outE c e).view.set]{fullShare}
        ((outE c e).view.write (Elt F) fd ((outE c e).view.read (Elt F) (OUTc m c)) Finset.univ) : sProp 𝕄)
      ⊢ (Rd (F := F) m).payload (cell (yp c) (.yrr e)) 0 0 := by
    rw [payload_cell, pointsTo_congr (land_yr m c e fd)]
    show _ ⊢ pts (yp c) (outE (yp (yp c)) e) fullShare (OUTc m (yp c))
    rw [yp_yp]
  unfold ow
  iintro ⟨#Hrec, Hsrc, Hdst, ⟨%W, HL⟩, Ht₁, Ht₂⟩ Hk
  ihave Hi₁ := (inv_at m K c (.yrs e)) $$ Hrec
  ihave Hi₂ := (inv_at m K (yp c) (.yrr e)) $$ Hrec
  ihave Hr₁ := (reached_at m K c (.yrs e)) $$ Hrec
  ihave Hr₂ := (reached_at m K (yp c) (.yrr e)) $$ Hrec
  iapply (wp_send_pointsTo 𝒱₀ ER (Rd m) (c : Thread nD τ) none (c' := (yp c : Thread nD τ)) (src := outE c e) (dst := outE c e)
    (q := fullShare) (fs := OUTc m c) (fd := fd) (r₁ := 0) (r₂ := 0) (d₁ := 0) (d₂ := 0)
    hd₁ hd₂ () () No rfl (amount_cell m c (.yrs e) 0 0) (amount_cell m (yp c) (.yrr e) 0 0)
    (O₀ := tYR c e + O) O (add_comm _ _) hpay₁ hpay₂) $$ [Hsrc Hdst HL Ht₁ Ht₂]
  · isplitr; · iexact Hi₁
    isplitr; · iexact Hi₂
    isplitl [Hsrc]; · iexact Hsrc
    isplitl [Hdst]; · iexact Hdst
    isplitl [HL]; · iexact HL
    isplitl [Ht₁]; · iexact Ht₁
    isplitr; · iexact Hr₁
    isplitl [Ht₂]; · iexact Ht₂
    iexact Hr₂
  iintro ⟨Hc, HL⟩
  iapply Hk
  isplitl [Hc]; · iexact Hc
  iexists _; iexact HL

/-- Odd chunk `2 e + 1` of the y partner's quarter, forwarded to the z partner. -/
theorem step_zr (m : (ℓ : Loc nD τ sig) → Buf (Elt F) ℓ) (c : Dev nD) (K : Dev nD × CK → ℕ) (e : Fin 8) (n : Dev nD) (hn : n = zp c)
    (fd : Buf (Elt F) ((outO c e).view.loc (zp c : Thread nD τ))) (O : Tal) {α : Type} (kk : PR F α) (Q : α → sProp 𝕄) :
    iprop(recs m K ∗ pts c (outO c e) fullShare (OUTc m c) ∗ pts (zp c) (outO c e) fullShare fd ∗ ow (F := F) c (tZR c e + O)
        ∗ tok0 (F := F) c (.zrs e) 0 0 ∗ tok0 (F := F) (zp c) (.zrr e) 0 0)
      ⊢ iprop(((cred (tallyAt (cell c (.zrs e)) () No) ∗ ow (F := F) c O)
            -∗ wp frame (wpE (defs₀ (F := F)) 𝒱₀ c none) Set.univ kk Q)
          -∗ wp frame (wpE (defs₀ (F := F)) 𝒱₀ c none) Set.univ (fZR c e n kk) Q) := by
  subst hn
  have hd₁ : (0 : Fin 3) ∈ (Rd (F := F) m).duties (cell c (.zrs e)) 0 := by
    rw [duties_one m c (.zrs e) (fun h => by cases h) 0 Nat.one_pos]; exact Finset.mem_singleton_self _
  have hd₂ : (0 : Fin 3) ∈ (Rd (F := F) m).duties (cell (zp c) (.zrr e)) 0 := by
    rw [duties_one m (zp c) (.zrr e) (fun h => by cases h) 0 Nat.one_pos]; exact Finset.mem_singleton_self _
  have hpay₁ : ((outO c e).view.loc (c : Thread nD τ) ↦[(outO c e).view.set]{fullShare} OUTc m c : sProp 𝕄)
      ⊢ (Rd (F := F) m).payload (cell c (.zrs e)) 0 0 := by
    rw [payload_cell]; exact .rfl
  have hpay₂ : ((outO c e).view.loc (zp c : Thread nD τ) ↦[(outO c e).view.set]{fullShare}
        ((outO c e).view.write (Elt F) fd ((outO c e).view.read (Elt F) (OUTc m c)) Finset.univ) : sProp 𝕄)
      ⊢ (Rd (F := F) m).payload (cell (zp c) (.zrr e)) 0 0 := by
    rw [payload_cell, pointsTo_congr (land_zr m c e fd)]
    show _ ⊢ pts (zp c) (outO (zp (zp c)) e) fullShare (OUTc m (zp c))
    rw [zp_zp]
  unfold ow
  iintro ⟨#Hrec, Hsrc, Hdst, ⟨%W, HL⟩, Ht₁, Ht₂⟩ Hk
  ihave Hi₁ := (inv_at m K c (.zrs e)) $$ Hrec
  ihave Hi₂ := (inv_at m K (zp c) (.zrr e)) $$ Hrec
  ihave Hr₁ := (reached_at m K c (.zrs e)) $$ Hrec
  ihave Hr₂ := (reached_at m K (zp c) (.zrr e)) $$ Hrec
  iapply (wp_send_pointsTo 𝒱₀ ER (Rd m) (c : Thread nD τ) none (c' := (zp c : Thread nD τ)) (src := outO c e) (dst := outO c e)
    (q := fullShare) (fs := OUTc m c) (fd := fd) (r₁ := 0) (r₂ := 0) (d₁ := 0) (d₂ := 0)
    hd₁ hd₂ () () No rfl (amount_cell m c (.zrs e) 0 0) (amount_cell m (zp c) (.zrr e) 0 0)
    (O₀ := tZR c e + O) O (add_comm _ _) hpay₁ hpay₂) $$ [Hsrc Hdst HL Ht₁ Ht₂]
  · isplitr; · iexact Hi₁
    isplitr; · iexact Hi₂
    isplitl [Hsrc]; · iexact Hsrc
    isplitl [Hdst]; · iexact Hdst
    isplitl [HL]; · iexact HL
    isplitl [Ht₁]; · iexact Ht₁
    isplitr; · iexact Hr₁
    isplitl [Ht₂]; · iexact Ht₂
    iexact Hr₂
  iintro ⟨Hc, HL⟩
  iapply Hk
  isplitl [Hc]; · iexact Hc
  iexists _; iexact HL

/-- info: 'Cert.Kernel.Ar.step_yr' depends on axioms: [propext, Classical.choice, Quot.sound] -/
#guard_msgs in #print axioms step_yr
/-- info: 'Cert.Kernel.Ar.step_zr' depends on axioms: [propext, Classical.choice, Quot.sound] -/
#guard_msgs in #print axioms step_zr

end Cert.Kernel.Ar

end
-- ==== Proof.KPhF.lean ====
/-
  The forwarding loop, as tactic text over the named hypotheses of the body proof. Iteration `j`: the wait for the y
  partner's chunk `j`; for odd `j` the forward of that chunk to the z partner; the wait for the z partner's chunk `j`;
  for even `j` the forward of that chunk to the y partner. Each wait's payload and what the device owes are restated
  in the forms the next step takes them in (equal by unfolding the schedule's tables at the literal chunk).
-/
import proofs.«900725_g7700000000000726_dist_ar_v7x_xyz2x4x4_x_m8192_n1024_f32_1_alg».proof.Proof.KStepWait
import proofs.«900725_g7700000000000726_dist_ar_v7x_xyz2x4x4_x_m8192_n1024_f32_1_alg».proof.Proof.KStepFwd
import proofs.«900725_g7700000000000726_dist_ar_v7x_xyz2x4x4_x_m8192_n1024_f32_1_alg».proof.Proof.KSets
import proofs.«900725_g7700000000000726_dist_ar_v7x_xyz2x4x4_x_m8192_n1024_f32_1_alg».proof.Proof.KTac

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The wait for round 0 of a cell whose copies credit the amount of a block of 128 rows of the result, with that
    amount and the next round spelt as literals. -/
theorem step_wait0 (m : (ℓ : Loc nD τ sig) → Buf (Elt F) ℓ) (c : Dev nD) (K : Dev nD × CK → ℕ) (k : CK) (hk : k ≠ .bar)
    (hNo : amt k = No) (hr : 0 < nRd k) (s : DmaSem sig) (hs : k.loc = .dma s) {sp sp' : Space} {s1 s2 : Shape}
    (src : Memref sig .tc sp' s2 .f32) (dst : Memref sig .tc sp s1 .f32) (h1 : src.view.WordExact) (h2 : dst.view.WordExact)
    (hamt : dst.view.dmaCredit = No) (n : ℕ) (hn : lvK k ≤ n) (O : Tal) (hO : Above n O)
    {α : Type} (kk : PR F α) (Q : α → sProp 𝕄) :
    iprop(recs m K ∗ levAts L lv ∗ cred (tallyAt (cell c k) () No) ∗ ow (F := F) c O ∗ atPos ER (cell c k) 0 ∅ 0)
      ⊢ iprop(((ow (F := F) c O ∗ atPos ER (cell c k) 1 ∅ 0 ∗ reached ER (cell c k) 1 ∗ pay m c k 0 0)
            -∗ wp frame (wpE (defs₀ (F := F)) 𝒱₀ c none) Set.univ kk Q)
          -∗ wp frame (wpE (defs₀ (F := F)) 𝒱₀ c none) Set.univ (fWait s src dst h1 h2 kk) Q) := by
  have h := step_wait m c K k hk s hs 0 hr src dst h1 h2 (hamt.trans hNo.symm) n hn O hO kk Q
  rw [hNo] at h
  exact h

end Cert.Kernel.Ar

end

namespace Cert.Kernel.Ar

section Tactics
open Lean Elab Tactic

/-- The wait on the receive cell `kind j` (`ydr` or `zdr`, from partner `p`) at round 0, owing `rem3 c r`; the payload is
    named `G`, as the partner's rows of chunk `j` at their final contents. -/
def phFWait (kind sem p : String) (j r : Nat) (G : String) : String :=
  s!"(iapply (step_wait0 m c K (.{kind} {j}) (fun h => by cases h) rfl Nat.one_pos ({sem} {j}) rfl (vsM (slotOf {j})) (outM c {j}) _ _ (outM_credit c {j}) 3 (by decide) (rem3 c {r}) (above_rem3 c {r}) _ _) $$ [C{kind}{j} HO P{kind}{j}]; isplitr; iexact HR; isplitr; iexact Hlev; isplitl [C{kind}{j}]; iexact C{kind}{j}; isplitl [HO]; iexact HO; iexact P{kind}{j}; iintro ⟨HO, P{kind}{j}, -, Gtmp⟩; ihave {G} := (Entails.of_eq (show pay m c (.{kind} {j}) 0 0 = pts c (outM ({p} c) {j}) fullShare (OUTc m c) from rfl)) $$ Gtmp)"

/-- The forward of chunk `j`, held under `G` as rows of partner `p`'s quarter and restated by `restate` as the forward's
    source view: `step` is `step_zr` or `step_yr`, `R` the other partner's rows from the barrier, `s` / `t` the kinds of
    the send and receive cells, `tal` the tally the forward pays. -/
def phFFwd (step restate view p R s t tal : String) (j e d r : Nat) (G : String) : String :=
  s!"(ihave Hfsrc := (Entails.of_eq (show pts c (outM ({p} c) {j}) fullShare (OUTc m c) = pts c ({view} c {e}) fullShare (OUTc m c) from ({restate} (F := F) c {e} fullShare (OUTc m c)).symm)) $$ {G}; ihave HO := (Entails.of_eq (show ow (F := F) c (rem3 c {r + 1}) = ow (F := F) c ({tal} c {e} + rem3 c {r}) from rfl)) $$ HO; icases {R}{e} with ⟨%fd{R}{e}, {R}{e}⟩; iapply ({step} m c K {e} _ (dev{d}_eq c) fd{R}{e} (rem3 c {r}) _ _) $$ [Hfsrc {R}{e} HO T{s}{e} T{t}{e}]; isplitr; iexact HR; isplitl [Hfsrc]; iexact Hfsrc; isplitl [{R}{e}]; iexact {R}{e}; isplitl [HO]; iexact HO; isplitl [T{s}{e}]; iexact T{s}{e}; iexact T{t}{e}; iintro ⟨C{s}{e}, HO⟩)"

/-- `ph_F j`: iteration `j` of the forwarding loop. -/
elab "ph_F " j:num : tactic => do
  let J := j.getNat
  let E := J / 2
  if J % 2 == 1 then
    runTacStr (phFWait "ydr" "ydR" "yp" J (16 - J) s!"Goy{J}")
    runTacStr (phFFwd "step_zr" "outM_odd" "outO" "yp" "RozO" "zrs" "zrr" "tZR" J E (52 + J) (15 - J) s!"Goy{J}")
    runTacStr (phFWait "zdr" "zdR" "zp" J (15 - J) s!"Goz{J}")
  else
    runTacStr (phFWait "ydr" "ydR" "yp" J (16 - J) s!"Goy{J}")
    runTacStr (phFWait "zdr" "zdR" "zp" J (16 - J) s!"Goz{J}")
    runTacStr (phFFwd "step_yr" "outM_even" "outE" "zp" "RoyE" "yrs" "yrr" "tYR" J E (52 + J) (15 - J) s!"Goz{J}")

/-! ## The whole loop as one theorem

The statement (what the sixteen iterations take, what they leave, and the chain of the loop's fragments) and its proof
text are built here from the iteration's number, with every chunk a literal. -/

/-- What iteration `j`, then what pair `e` of iterations, takes; with the names the proof gives them. -/
def preFj (j : Nat) : List (String × String) :=
  [(s!"Cydr{j}", s!"cred (tallyAt (cell c (.ydr {j})) () No)"), (s!"Pydr{j}", s!"pos0 (F := F) c (.ydr {j})"),
   (s!"Czdr{j}", s!"cred (tallyAt (cell c (.zdr {j})) () No)"), (s!"Pzdr{j}", s!"pos0 (F := F) c (.zdr {j})")]
def preFe (e : Nat) : List (String × String) :=
  [(s!"RoyE{e}", s!"ptsE (F := F) (yp c) (outE c {e})"), (s!"Tyrs{e}", s!"tok0 (F := F) c (.yrs {e}) 0 0"), (s!"Tyrr{e}", s!"tok0 (F := F) (yp c) (.yrr {e}) 0 0"),
   (s!"RozO{e}", s!"ptsE (F := F) (zp c) (outO c {e})"), (s!"Tzrs{e}", s!"tok0 (F := F) c (.zrs {e}) 0 0"), (s!"Tzrr{e}", s!"tok0 (F := F) (zp c) (.zrr {e}) 0 0")]
/-- What iteration `j`, then pair `e`, leaves: both receive cells one round on, the rows that were not forwarded (the y
    partner's for even `j`, the z partner's for odd `j`), and the credit of the two forwards' send cells. -/
def postFj (j : Nat) : List (String × String) :=
  [(s!"Pydr{j}", s!"atPos ER (cell c (.ydr {j})) 1 ∅ 0"), (s!"Pzdr{j}", s!"atPos ER (cell c (.zdr {j})) 1 ∅ 0"),
   if j % 2 == 0 then (s!"Goy{j}", s!"pts c (outM (yp c) {j}) fullShare (OUTc m c)")
   else (s!"Goz{j}", s!"pts c (outM (zp c) {j}) fullShare (OUTc m c)")]
def postFe (e : Nat) : List (String × String) :=
  [(s!"Cyrs{e}", s!"cred (tallyAt (cell c (.yrs {e})) () No)"), (s!"Czrs{e}", s!"cred (tallyAt (cell c (.zrs {e})) () No)")]

def preFAll : List (String × String) :=
  [("HO", "ow (F := F) c (rem3 c 16)")] ++ (List.range 16).foldr (fun j acc => preFj j ++ acc) [] ++ (List.range 8).foldr (fun e acc => preFe e ++ acc) []
def postFAll : List (String × String) :=
  [("HO", "ow (F := F) c (rem3 c 0)")] ++ (List.range 16).foldr (fun j acc => postFj j ++ acc) [] ++ (List.range 8).foldr (fun e acc => postFe e ++ acc) []

/-- The loop's fragments, iteration by iteration, before the continuation `kk`. -/
def chainFStr : String :=
  (List.range 16).foldr (fun j acc =>
    if j % 2 == 0 then s!"fWaitYdR c {j} (fWaitZdR c {j} (fYR c {j / 2} ⟨k0_dev{52 + j} c, k0_dev{52 + j}_lt c⟩ ({acc})))"
    else s!"fWaitYdR c {j} (fZR c {j / 2} ⟨k0_dev{52 + j} c, k0_dev{52 + j}_lt c⟩ (fWaitZdR c {j} ({acc})))") "kk"

open Lean Elab Command

/-- Proving a chain of named hypotheses, in order. -/
def splitNames : List String → String
  | [] => "iempintro"
  | [n] => s!"iexact {n}"
  | n :: ns => s!"isplitl [{n}]; iexact {n}; " ++ splitNames ns

def runCmdStr (s : String) : CommandElabM Unit := do
  match Parser.runParserCategory (← getEnv) `command s with
  | .ok stx => elabCommand stx
  | .error e => throwError "command text does not parse: {e}\n{s}"

/-- `gen_phase_F`: the definitions `preF`, `postF`, `chainF` and the theorem `phase_F`. -/
elab "gen_phase_F" : command => do
  let sep := fun (l : List (String × String)) => " ∗ ".intercalate (l.map (·.2))
  runCmdStr s!"def preF (c : Dev nD) : sProp 𝕄 := iprop({sep preFAll})"
  runCmdStr s!"def postF (m : (ℓ : Loc nD τ sig) → Buf (Elt F) ℓ) (c : Dev nD) : sProp 𝕄 := iprop({sep postFAll})"
  runCmdStr s!"abbrev chainF (c : Dev nD) (kk : PR F PUnit) : PR F PUnit := {chainFStr}"
  let iters := "\n".intercalate ((List.range 16).map fun j => s!"  ph_F {j}")
  runCmdStr s!"theorem phase_F (m : (ℓ : Loc nD τ sig) → Buf (Elt F) ℓ) (c : Dev nD) (K : Dev nD × CK → ℕ) (kk : PR F PUnit) (Q : PUnit → sProp 𝕄) :
    iprop(recs m K ∗ levAts L lv ∗ preF (F := F) c ∗ (postF m c -∗ wp frame (wpE (defs₀ (F := F)) 𝒱₀ c none) Set.univ kk Q))
      ⊢ wp frame (wpE (defs₀ (F := F)) 𝒱₀ c none) Set.univ (chainF c kk) Q := by
  unfold preF postF
  iintro ⟨#HR, #Hlev, ⟨{", ".intercalate (preFAll.map (·.1))}⟩, Hk⟩
{iters}
  iapply Hk
  tac_str \"({splitNames (postFAll.map (·.1))})\""

end Tactics

end Cert.Kernel.Ar

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

gen_phase_F

/-- info: 'Cert.Kernel.Ar.phase_F' depends on axioms: [propext, Classical.choice, Quot.sound] -/
#guard_msgs in #print axioms phase_F

end Cert.Kernel.Ar

end
-- ==== Proof.KSems.lean ====
/-
  The device's 131 DMA semaphores, all at zero, from the closed cells kind by kind: six families of sixteen (the
  send and receive cells of the copies to the x, y and z partner), four of eight (those of the forwards), the cell of
  the local copy of the quarter and the two of the local copies to the result. The semaphores are numbered family
  after family, so the index set splits as sums and products of initial segments.
-/
import proofs.«900725_g7700000000000726_dist_ar_v7x_xyz2x4x4_x_m8192_n1024_f32_1_alg».proof.Proof.KGhost

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The DMA semaphores by family: semaphore `16 t + j` is chunk `j` of the `t`-th family of sixteen, `96 + 8 t + e`
    chunk `e` of the `t`-th family of eight, and `128 + i` the `i`-th single one. -/
def semEquiv : (Fin 16 × Fin 6) ⊕ ((Fin 8 × Fin 4) ⊕ Fin 3) ≃ DmaSem sig :=
  (Equiv.sumCongr ((Equiv.prodComm _ _).trans finProdFinEquiv)
    ((Equiv.sumCongr ((Equiv.prodComm _ _).trans finProdFinEquiv) (Equiv.refl _)).trans finSumFinEquiv)).trans
    (finSumFinEquiv (m := 6 * 16) (n := 4 * 8 + 3))

theorem semEquiv_xs : ∀ j : Fin 16, semEquiv (.inl (j, 0)) = xS j := by decide
theorem semEquiv_xr : ∀ j : Fin 16, semEquiv (.inl (j, 1)) = xR j := by decide
theorem semEquiv_yds : ∀ j : Fin 16, semEquiv (.inl (j, 2)) = ydS j := by decide
theorem semEquiv_ydr : ∀ j : Fin 16, semEquiv (.inl (j, 3)) = ydR j := by decide
theorem semEquiv_zds : ∀ j : Fin 16, semEquiv (.inl (j, 4)) = zdS j := by decide
theorem semEquiv_zdr : ∀ j : Fin 16, semEquiv (.inl (j, 5)) = zdR j := by decide
theorem semEquiv_yrs : ∀ e : Fin 8, semEquiv (.inr (.inl (e, 0))) = yrS e := by decide
theorem semEquiv_yrr : ∀ e : Fin 8, semEquiv (.inr (.inl (e, 1))) = yrR e := by decide
theorem semEquiv_zrs : ∀ e : Fin 8, semEquiv (.inr (.inl (e, 2))) = zrS e := by decide
theorem semEquiv_zrr : ∀ e : Fin 8, semEquiv (.inr (.inl (e, 3))) = zrR e := by decide
theorem semEquiv_cpq : semEquiv (.inr (.inr 0)) = cpqS := by decide
theorem semEquiv_cpo0 : semEquiv (.inr (.inr 1)) = cpoS 0 := by decide
theorem semEquiv_cpo1 : semEquiv (.inr (.inr 2)) = cpoS 1 := by decide

theorem sems0_intro (c : Dev nD) :
    (iprop((bigSep Finset.univ fun j : Fin 16 => iprop(semVal (cell c (.xs j)) 0 ∗ semVal (cell c (.xr j)) 0
          ∗ semVal (cell c (.yds j)) 0 ∗ semVal (cell c (.ydr j)) 0 ∗ semVal (cell c (.zds j)) 0 ∗ semVal (cell c (.zdr j)) 0))
        ∗ (bigSep Finset.univ fun e : Fin 8 => iprop(semVal (cell c (.yrs e)) 0 ∗ semVal (cell c (.yrr e)) 0
          ∗ semVal (cell c (.zrs e)) 0 ∗ semVal (cell c (.zrr e)) 0))
        ∗ semVal (cell c .cpq) 0 ∗ semVal (cell c (.cpo 0)) 0 ∗ semVal (cell c (.cpo 1)) 0) : sProp 𝕄) ⊢ sems0 c := by
  unfold sems0
  rw [bigSep_univ_equiv semEquiv, bigSep_univ_sum, bigSep_univ_sum, bigSep_univ_prod, bigSep_univ_prod,
    bigSep_univ_eq_bigSepL ([0, 1, 2] : List (Fin 3)) (by decide) (by decide)]
  simp only [bigSep_univ_eq_bigSepL ([0, 1, 2, 3, 4, 5] : List (Fin 6)) (by decide) (by decide),
    bigSep_univ_eq_bigSepL ([0, 1, 2, 3] : List (Fin 4)) (by decide) (by decide),
    bigSepL_cons_cons, bigSepL_singleton,
    semEquiv_xs, semEquiv_xr, semEquiv_yds, semEquiv_ydr, semEquiv_zds, semEquiv_zdr,
    semEquiv_yrs, semEquiv_yrr, semEquiv_zrs, semEquiv_zrr, semEquiv_cpq, semEquiv_cpo0, semEquiv_cpo1]
  exact .rfl

/-- info: 'Cert.Kernel.Ar.sems0_intro' depends on axioms: [propext, Classical.choice, Quot.sound] -/
#guard_msgs in #print axioms sems0_intro

end Cert.Kernel.Ar

end
-- ==== Proof.KPhT.lean ====
/-
  The first part of the body's tail: for each of the eight forwards, the waits for the two chunks forwarded to this
  device to have landed and for the two chunks forwarded from it to have been read.

  The four waits of one forward are proved once at a symbolic index; a list of such steps, each taking what the
  device owes and giving it back, is run by induction on the list.
-/
import proofs.«900725_g7700000000000726_dist_ar_v7x_xyz2x4x4_x_m8192_n1024_f32_1_alg».proof.Proof.KStepWait
import proofs.«900725_g7700000000000726_dist_ar_v7x_xyz2x4x4_x_m8192_n1024_f32_1_alg».proof.Proof.KSets
import proofs.«900725_g7700000000000726_dist_ar_v7x_xyz2x4x4_x_m8192_n1024_f32_1_alg».proof.Proof.KSems

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The credit for the one duty of a round of the device's own cell of kind `k`. -/
abbrev cr (c : Dev nD) (k : CK) : sProp 𝕄 := cred (tallyAt (cell c k) () (amt k))
/-- The same with the amount spelt out. -/
abbrev crN (c : Dev nD) (k : CK) (a : ℕ) : sProp 𝕄 := cred (tallyAt (cell c k) () a)
theorem cr_of (c : Dev nD) (k : CK) (a : ℕ) (h : amt k = a) : crN (F := F) c k a ⊢ cr c k := by subst h; exact .rfl
/-- The device's position on its own cell of kind `k`: `r` rounds consumed. -/
abbrev posAt (c : Dev nD) (k : CK) (r : ℕ) : sProp 𝕄 := atPos ER (cell c k) r ∅ 0

variable {α : Type}

/-! ## The fragments -/

/-- The four waits of forward `e`: both forwards landed here, both forwards from here read. -/
abbrev tailE (c : Dev nD) (e : Fin 8) (k : PR F α) : PR F α :=
  fWait (yrR e) (outE c e) (outE c e) (View.wordExact_bits rfl) (View.wordExact_bits rfl)
  (fWait (zrR e) (outO c e) (outO c e) (View.wordExact_bits rfl) (View.wordExact_bits rfl)
  (fWait (yrS e) (outE c e) (outE c e) (View.wordExact_bits rfl) (View.wordExact_bits rfl)
  (fWait (zrS e) (outO c e) (outO c e) (View.wordExact_bits rfl) (View.wordExact_bits rfl) k)))

/-! ## What each group takes and gives -/

abbrev preE (c : Dev nD) (e : Fin 8) : sProp 𝕄 :=
  iprop(crN c (.yrr e) No ∗ posAt c (.yrr e) 0 ∗ crN c (.zrr e) No ∗ posAt c (.zrr e) 0
    ∗ crN c (.yrs e) No ∗ posAt c (.yrs e) 0 ∗ crN c (.zrs e) No ∗ posAt c (.zrs e) 0)
abbrev postE (m : (ℓ : Loc nD τ sig) → Buf (Elt F) ℓ) (c : Dev nD) (e : Fin 8) : sProp 𝕄 :=
  iprop(posAt c (.yrr e) 1 ∗ pts c (outE (yp c) e) fullShare (OUTc m c)
    ∗ posAt c (.zrr e) 1 ∗ pts c (outO (zp c) e) fullShare (OUTc m c)
    ∗ posAt c (.yrs e) 1 ∗ pts c (outE c e) fullShare (OUTc m c)
    ∗ posAt c (.zrs e) 1 ∗ pts c (outO c e) fullShare (OUTc m c))

/-- The body's programs under the kernel's clauses. -/
abbrev wpB (c : Dev nD) (k : PR F α) (Q : α → sProp 𝕄) : sProp 𝕄 :=
  wp frame (wpE (defs₀ (F := F)) 𝒱₀ c none) Set.univ k Q

variable (m : (ℓ : Loc nD τ sig) → Buf (Elt F) ℓ) (c : Dev nD) (K : Dev nD × CK → ℕ)

/-! ## The payloads of the cells waited on here -/

theorem pay_yrr (e : Fin 8) : (pay m c (.yrr e) 0 0 : sProp 𝕄) = pts c (outE (yp c) e) fullShare (OUTc m c) := rfl
theorem pay_zrr (e : Fin 8) : (pay m c (.zrr e) 0 0 : sProp 𝕄) = pts c (outO (zp c) e) fullShare (OUTc m c) := rfl
theorem pay_yrs (e : Fin 8) : (pay m c (.yrs e) 0 0 : sProp 𝕄) = pts c (outE c e) fullShare (OUTc m c) := rfl
theorem pay_zrs (e : Fin 8) : (pay m c (.zrs e) 0 0 : sProp 𝕄) = pts c (outO c e) fullShare (OUTc m c) := rfl

/-! ## One group at a symbolic chunk -/

theorem tail_e (e : Fin 8) (kk : PR F α) (Q : α → sProp 𝕄) :
    iprop(recs m K ∗ levAts L lv ∗ ow (F := F) c 0 ∗ preE c e ∗ ((ow (F := F) c 0 ∗ postE m c e) -∗ wpB c kk Q))
      ⊢ wpB c (tailE c e kk) Q := by
  iintro ⟨#HR, #Hlev, HO, ⟨C1, P1, C2, P2, C3, P3, C4, P4⟩, Hk⟩
  ihave C1 := (cr_of c (.yrr e) No rfl) $$ C1
  ihave C2 := (cr_of c (.zrr e) No rfl) $$ C2
  ihave C3 := (cr_of c (.yrs e) No rfl) $$ C3
  ihave C4 := (cr_of c (.zrs e) No rfl) $$ C4
  iapply (step_wait m c K (.yrr e) (fun h => by cases h) (yrR e) rfl 0 Nat.one_pos (outE c e) (outE c e) _ _ rfl 4
    (le_refl 4) 0 (above_zero 4) _ Q) $$ [C1 HO P1]
  · isplitr; · iexact HR
    isplitr; · iexact Hlev
    isplitl [C1]; · iexact C1
    isplitl [HO]; · iexact HO
    iexact P1
  iintro ⟨HO, P1, -, G1⟩
  ihave G1 := (Entails.of_eq (pay_yrr m c e)) $$ G1
  iapply (step_wait m c K (.zrr e) (fun h => by cases h) (zrR e) rfl 0 Nat.one_pos (outO c e) (outO c e) _ _ rfl 4
    (le_refl 4) 0 (above_zero 4) _ Q) $$ [C2 HO P2]
  · isplitr; · iexact HR
    isplitr; · iexact Hlev
    isplitl [C2]; · iexact C2
    isplitl [HO]; · iexact HO
    iexact P2
  iintro ⟨HO, P2, -, G2⟩
  ihave G2 := (Entails.of_eq (pay_zrr m c e)) $$ G2
  iapply (step_wait m c K (.yrs e) (fun h => by cases h) (yrS e) rfl 0 Nat.one_pos (outE c e) (outE c e) _ _ rfl 4
    (Nat.zero_le 4) 0 (above_zero 4) _ Q) $$ [C3 HO P3]
  · isplitr; · iexact HR
    isplitr; · iexact Hlev
    isplitl [C3]; · iexact C3
    isplitl [HO]; · iexact HO
    iexact P3
  iintro ⟨HO, P3, -, G3⟩
  ihave G3 := (Entails.of_eq (pay_yrs m c e)) $$ G3
  iapply (step_wait m c K (.zrs e) (fun h => by cases h) (zrS e) rfl 0 Nat.one_pos (outO c e) (outO c e) _ _ rfl 4
    (Nat.zero_le 4) 0 (above_zero 4) _ Q) $$ [C4 HO P4]
  · isplitr; · iexact HR
    isplitr; · iexact Hlev
    isplitl [C4]; · iexact C4
    isplitl [HO]; · iexact HO
    iexact P4
  iintro ⟨HO, P4, -, G4⟩
  ihave G4 := (Entails.of_eq (pay_zrs m c e)) $$ G4
  iapply Hk
  isplitl [HO]; · iexact HO
  isplitl [P1]; · iexact P1
  isplitl [G1]; · iexact G1
  isplitl [P2]; · iexact P2
  isplitl [G2]; · iexact G2
  isplitl [P3]; · iexact P3
  isplitl [G3]; · iexact G3
  isplitl [P4]; · iexact P4
  iexact G4

/-! ## A list of groups -/

theorem bigSepL_cons_sep {ι : Type} (i : ι) (l : List ι) (Φ : ι → sProp 𝕄) :
    bigSepL (i :: l) Φ = iprop(Φ i ∗ bigSepL l Φ) := bigSepL_cons i l Φ
theorem bigSepL_nil_emp {ι : Type} (Φ : ι → sProp 𝕄) : bigSepL ([] : List ι) Φ = iprop(emp) := rfl

/-- Steps that each take what the device owes and give it back, run one after the other. -/
theorem fold_steps {ι : Type} (step : ι → PR F α → PR F α) (pre post : ι → sProp 𝕄)
    (h : ∀ (i : ι) (kk : PR F α) (Q : α → sProp 𝕄),
      iprop(recs m K ∗ levAts L lv ∗ ow (F := F) c 0 ∗ pre i ∗ ((ow (F := F) c 0 ∗ post i) -∗ wpB c kk Q)) ⊢ wpB c (step i kk) Q)
    (l : List ι) (kk : PR F α) (Q : α → sProp 𝕄) :
    iprop(recs m K ∗ levAts L lv ∗ ow (F := F) c 0 ∗ bigSepL l pre ∗ ((ow (F := F) c 0 ∗ bigSepL l post) -∗ wpB c kk Q))
      ⊢ wpB c (l.foldr step kk) Q := by
  induction l generalizing kk Q with
  | nil =>
    rw [bigSepL_nil_emp, bigSepL_nil_emp]
    iintro ⟨#HR, #Hlev, HO, -, Hk⟩
    iapply Hk
    isplitl [HO]; · iexact HO
    iempintro
  | cons i l ih =>
    rw [bigSepL_cons_sep, bigSepL_cons_sep]
    iintro ⟨#HR, #Hlev, HO, ⟨Hi, Hl⟩, Hk⟩
    iapply (h i (l.foldr step kk) Q)
    isplitr; · iexact HR
    isplitr; · iexact Hlev
    isplitl [HO]; · iexact HO
    isplitl [Hi]; · iexact Hi
    iintro ⟨HO, Gi⟩
    iapply (ih kk Q)
    isplitr; · iexact HR
    isplitr; · iexact Hlev
    isplitl [HO]; · iexact HO
    isplitl [Hl]; · iexact Hl
    iintro ⟨HO, Gl⟩
    iapply Hk
    isplitl [HO]; · iexact HO
    isplitl [Gi]; · iexact Gi
    iexact Gl

/-! ## The eight forwards -/

/-- The waits of the eight forwards, in program order. -/
abbrev chainT1 (c : Dev nD) (kk : PR F α) : PR F α :=
  tailE c 0 (tailE c 1 (tailE c 2 (tailE c 3 (tailE c 4 (tailE c 5 (tailE c 6 (tailE c 7 kk)))))))

theorem phase_T1 (kk : PR F α) (Q : α → sProp 𝕄) :
    iprop(recs m K ∗ levAts L lv ∗ (ow (F := F) c 0 ∗ bigSep Finset.univ (preE (F := F) c))
        ∗ ((ow (F := F) c 0 ∗ bigSep Finset.univ (postE m c)) -∗ wpB c kk Q))
      ⊢ wpB c (chainT1 c kk) Q := by
  rw [bigSep_univ_eq_bigSepL ([0, 1, 2, 3, 4, 5, 6, 7] : List (Fin 8)) (by decide) (by decide) (preE (F := F) c),
    bigSep_univ_eq_bigSepL ([0, 1, 2, 3, 4, 5, 6, 7] : List (Fin 8)) (by decide) (by decide) (postE m c)]
  iintro ⟨#HR, #Hlev, ⟨HO, Hp⟩, Hk⟩
  iapply (fold_steps m c K (tailE c) (preE c) (postE m c) (tail_e m c K) [0, 1, 2, 3, 4, 5, 6, 7] kk Q)
  isplitr; · iexact HR
  isplitr; · iexact Hlev
  isplitl [HO]; · iexact HO
  isplitl [Hp]; · iexact Hp
  iexact Hk

/-- info: 'Cert.Kernel.Ar.phase_T1' depends on axioms: [propext, Classical.choice, Quot.sound] -/
#guard_msgs in #print axioms phase_T1

end Cert.Kernel.Ar

end
-- ==== Proof.KPhT2.lean ====
/-
  The end of the kernel body's waits, second half: the sixteen waits for the copies to the x partner to have read
  their source (each gives back the lent share of its chunk of the input quarter), then, for the last chunk of
  each slot of the sum buffer, the three waits that free the slot: the copies to the y and to the z partner have
  read it, the local copy has filled the chunk's rows of the result. The slot's three shares rejoin. The proof's
  repeated blocks are tactic text over the chunk's number, and the theorem's statement (one assertion per chunk)
  is spelt from the chunk's number in the same way.
-/
import proofs.«900725_g7700000000000726_dist_ar_v7x_xyz2x4x4_x_m8192_n1024_f32_1_alg».proof.Proof.KStepWait
import proofs.«900725_g7700000000000726_dist_ar_v7x_xyz2x4x4_x_m8192_n1024_f32_1_alg».proof.Proof.KSets
import proofs.«900725_g7700000000000726_dist_ar_v7x_xyz2x4x4_x_m8192_n1024_f32_1_alg».proof.Proof.KTac

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Tactics
open Lean Elab Tactic Command

/-! ## The proof's repeated blocks -/

/-- The wait for the copy of chunk `j` to the x partner to have read its source. -/
def xsWaitText (j : Nat) : String :=
s!"(
  iapply (step_wait m c K (.xs {j}) (fun h => by cases h) (xS {j}) rfl 0 Nat.one_pos (vrM {j}) (srcX c {j}) _ _ rfl 0 (Nat.le_refl 0) 0 (above_zero 0) _ _) $$ [Cxs{j} HO Pxs{j}]
  · isplitr; · iexact HR
    isplitr; · iexact Hlev
    isplitl [Cxs{j}]; · iexact Cxs{j}
    isplitl [HO]; · iexact HO
    iexact Pxs{j}
  iintro ⟨HO, Pxs{j}, -, Hsx{j}⟩
  ihave Hsx{j} := (Entails.of_eq (show pay m c (.xs {j}) 0 0 = pts c (srcX c {j}) shX (X m c) from rfl)) $$ Hsx{j})"

/-- The three waits that free the slot of chunk `j`, and the slot's shares rejoined. -/
def slotWaitText (j : Nat) : String :=
s!"(
  iapply (step_wait m c K (.yds {j}) (fun h => by cases h) (ydS {j}) rfl 0 Nat.one_pos (outM c {j}) (vsM (slotOf {j})) _ _ rfl 0 (Nat.le_refl 0) 0 (above_zero 0) _ _) $$ [Cyds{j} HO Pyds{j}]
  · isplitr; · iexact HR
    isplitr; · iexact Hlev
    isplitl [Cyds{j}]; · iexact Cyds{j}
    isplitl [HO]; · iexact HO
    iexact Pyds{j}
  iintro ⟨HO, Pyds{j}, -, Ys{j}⟩
  ihave Ys{j} := (Entails.of_eq (show pay m c (.yds {j}) 0 0 = pts c (vsM {j % 2}) shY (VSc m c {j}) from rfl)) $$ Ys{j}
  iapply (step_wait m c K (.zds {j}) (fun h => by cases h) (zdS {j}) rfl 0 Nat.one_pos (outM c {j}) (vsM (slotOf {j})) _ _ rfl 0 (Nat.le_refl 0) 0 (above_zero 0) _ _) $$ [Czds{j} HO Pzds{j}]
  · isplitr; · iexact HR
    isplitr; · iexact Hlev
    isplitl [Czds{j}]; · iexact Czds{j}
    isplitl [HO]; · iexact HO
    iexact Pzds{j}
  iintro ⟨HO, Pzds{j}, -, Zs{j}⟩
  ihave Zs{j} := (Entails.of_eq (show pay m c (.zds {j}) 0 0 = pts c (vsM {j % 2}) shZ (VSc m c {j}) from rfl)) $$ Zs{j}
  iapply (step_wait m c K (.cpo {j % 2}) (fun h => by cases h) (cpoS {j % 2}) rfl {j / 2} (by decide) (vsM (slotOf {j})) (outM c {j}) _ _ rfl 0 (Nat.le_refl 0) 0 (above_zero 0) _ _) $$ [Ccpo{j} HO Pcpo{j % 2}]
  · isplitr; · iexact HR
    isplitr; · iexact Hlev
    isplitl [Ccpo{j}]; · iexact Ccpo{j}
    isplitl [HO]; · iexact HO
    iexact Pcpo{j % 2}
  iintro ⟨HO, Pcpo{j % 2}, -, Hpay⟩
  ihave Hpay := (Entails.of_eq (show pay m c (.cpo {j % 2}) {j / 2} 0 = iprop(pts c (outM c {j}) fullShare (OUTc m c) ∗ pts c (vsM {j % 2}) shO (VSc m c {j})) from rfl)) $$ Hpay
  icases Hpay with ⟨Hom{j}, Os{j}⟩
  ihave Hvs{j % 2} := ((share3 ((vsM {j % 2}).view.loc (c : Thread nD τ)) (vsM {j % 2}).view.set (VSc m c {j})).2) $$ [Os{j} Ys{j} Zs{j}]
  · isplitl [Os{j}]; · iexact Os{j}
    isplitl [Ys{j}]; · iexact Ys{j}
    iexact Zs{j})"

elab "ph_xswaits" : tactic => do
  for j in [0:16] do runTacStr (xsWaitText j)
elab "ph_slotwaits " j:num : tactic => runTacStr (slotWaitText j.getNat)

/-! ## The statement, spelt from the chunk's number

The phase's resources are listed as pairs: the name the proof gives a hypothesis, and its assertion. -/

/-- One assertion per chunk `0 … n - 1`. -/
def perChunkT (n : Nat) (f : Nat → String × String) : List (String × String) := (List.range n).map f

/-- The credit and the positions of the last chunk `j` of a slot: its two send cells', and its local copy's credit. -/
def slotCred (j : Nat) : List (String × String) :=
  [(s!"Cyds{j}", s!"cred (tallyAt (cell c (.yds {j})) () No)"), (s!"Czds{j}", s!"cred (tallyAt (cell c (.zds {j})) () No)"),
   (s!"Ccpo{j}", s!"cred (tallyAt (cell c (.cpo (slotOf {j}))) () No)")]
def slotPos (j r : Nat) : List (String × String) :=
  [(s!"Pyds{j}", s!"atPos ER (cell c (.yds {j})) {r} ∅ 0"), (s!"Pzds{j}", s!"atPos ER (cell c (.zds {j})) {r} ∅ 0")]
def slotPos0 (j : Nat) : List (String × String) :=
  [(s!"Pyds{j}", s!"pos0 c (.yds {j})"), (s!"Pzds{j}", s!"pos0 c (.zds {j})")]
/-- The two local-copy cells at round `r`. -/
def cpoPos (r : Nat) : List (String × String) :=
  perChunkT 2 (fun s => (s!"Pcpo{s}", s!"atPos ER (cell c (.cpo {s})) {r} ∅ 0"))

/-- What these waits consume. -/
def preT2List : List (String × String) :=
  [("HO", "ow c 0")]
  ++ perChunkT 16 (fun j => (s!"Cxs{j}", s!"cred (tallyAt (cell c (.xs {j})) () Nv)"))
  ++ perChunkT 16 (fun j => (s!"Pxs{j}", s!"pos0 c (.xs {j})"))
  ++ slotCred 14 ++ slotCred 15 ++ slotPos0 14 ++ slotPos0 15 ++ cpoPos 7
/-- What they leave. -/
def postT2List : List (String × String) :=
  [("HO", "ow c 0")]
  ++ perChunkT 16 (fun j => (s!"Hsx{j}", s!"pts c (srcX c {j}) shX (X m c)"))
  ++ perChunkT 16 (fun j => (s!"Pxs{j}", s!"atPos ER (cell c (.xs {j})) 1 ∅ 0"))
  ++ slotPos 14 1 ++ slotPos 15 1 ++ cpoPos 8
  ++ [("Hom14", "pts c (outM c 14) fullShare (OUTc m c)"), ("Hom15", "pts c (outM c 15) fullShare (OUTc m c)"),
      ("Hvs0", "pts c (vsM 0) fullShare (VSc m c 14)"), ("Hvs1", "pts c (vsM 1) fullShare (VSc m c 15)")]
/-- The sixteen waits on the send cells of the copies to the x partner, then the two slots' waits, before the
    continuation. -/
def chainT2Str : String :=
  (List.range 16).foldr (fun j acc =>
      s!"fWait (xS {j}) (vrM {j}) (srcX c {j}) (View.wordExact_bits rfl) (View.wordExact_bits rfl) ({acc})")
    "fWaitYdS c 14 (fWaitZdS c 14 (fWaitO c 14 (fWaitYdS c 15 (fWaitZdS c 15 (fWaitO c 15 kk)))))"

/-- Proving a `∗`-chain of named hypotheses, in order: one line each. -/
def closeRunT2 : List String → String
  | [] => "  iempintro"
  | [n] => s!"  iexact {n}"
  | n :: ns => s!"  isplitl [{n}]; · iexact {n}\n" ++ closeRunT2 ns

/-- The phase's theorem: from the persistent facts, what the phase consumes and a continuation taking what it
    leaves, the phase's statements followed by the continuation run. -/
def phaseTextT2 (name : String) (pre post : List (String × String)) (chain tac : String) : String :=
  let sep := fun (l : List (String × String)) => "\n        ∗ ".intercalate (l.map (·.2))
  s!"theorem {name} (c : Dev nD) (K : Dev nD × CK → ℕ) (kk : PR F PUnit) (Q : PUnit → sProp 𝕄) :
    iprop(recs m K ∗ levAts L lv
        ∗ {sep pre}
        ∗ (({sep post})
            -∗ wp frame (wpE (defs₀ (F := F)) 𝒱₀ c none) Set.univ kk Q))
      ⊢ wp frame (wpE (defs₀ (F := F)) 𝒱₀ c none) Set.univ
          ({chain}) Q := by
  iintro ⟨#HR, #Hlev, {", ".intercalate (pre.map (·.1))}, Hk⟩
  {tac}
  iapply Hk
{closeRunT2 (post.map (·.1))}"

/-- Parse one command and elaborate it. -/
def cmdOfTextT2 (s : String) : CommandElabM Unit := do
  match Parser.runParserCategory (← getEnv) `command s with
  | .ok stx => elabCommand stx
  | .error e => throwError "command text does not parse: {e}\n{s}"

elab "gen_phase_T2" : command =>
  cmdOfTextT2 (phaseTextT2 "phase_T2" preT2List postT2List chainT2Str "ph_xswaits\n  ph_slotwaits 14\n  ph_slotwaits 15")

end Tactics

gen_phase_T2

/-- info: 'Cert.Kernel.Ar.phase_T2' depends on axioms: [propext, Classical.choice, Quot.sound] -/
#guard_msgs in #print axioms phase_T2

end Cert.Kernel.Ar

end
-- ==== Proof.KPhC.lean ====
/-
  The kernel's end: every DMA cell of the device stands past its last round (round 1 for the one-round cells, round 8
  for the two cells of the local copies of the sums), where it has no duty left, so the device closes each and takes its
  counter back at zero; together they are the device's 131 DMA semaphores at zero.
-/
import proofs.«900725_g7700000000000726_dist_ar_v7x_xyz2x4x4_x_m8192_n1024_f32_1_alg».proof.Proof.KStepWait
import proofs.«900725_g7700000000000726_dist_ar_v7x_xyz2x4x4_x_m8192_n1024_f32_1_alg».proof.Proof.KSems

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
/-- Under a persistent assertion, an update of every summand is an update of the whole. -/
theorem bigSep_fupd_under {I : Type} [DecidableEq I] {S : Finset I} {R : sProp 𝕄} [BI.Persistent R] {Φ Ψ : I → sProp 𝕄}
    (h : ∀ i ∈ S, iprop(R ∗ Φ i) ⊢ iprop(|={Set.univ}=> Ψ i)) : iprop(R ∗ bigSep S Φ) ⊢ iprop(|={Set.univ}=> bigSep S Ψ) :=
  ((sep_mono_left (BI.bigSep_of_persistent S R)).trans (by rw [← bigSep_sep']; exact bigSep_mono h)).trans (bigSep_fupd _ _)

/-- The six cells of chunk `j`'s copies to the x, y and z partner, closed. -/
theorem close_six (c : Dev nD) (K : Dev nD × CK → ℕ) (j : Fin 16) :
    iprop(recs m K ∗ (atPos ER (cell c (.xs j)) 1 ∅ 0 ∗ atPos ER (cell c (.xr j)) 1 ∅ 0 ∗ atPos ER (cell c (.yds j)) 1 ∅ 0
        ∗ atPos ER (cell c (.ydr j)) 1 ∅ 0 ∗ atPos ER (cell c (.zds j)) 1 ∅ 0 ∗ atPos ER (cell c (.zdr j)) 1 ∅ 0))
      ⊢ iprop(|={Set.univ}=> (semVal (cell c (.xs j)) 0 ∗ semVal (cell c (.xr j)) 0 ∗ semVal (cell c (.yds j)) 0
        ∗ semVal (cell c (.ydr j)) 0 ∗ semVal (cell c (.zds j)) 0 ∗ semVal (cell c (.zdr j)) 0)) := by
  iintro ⟨#HR, P1, P2, P3, P4, P5, P6⟩
  imod (close_cell m c K (.xs j) (fun h => by cases h)) $$ [P1] with S1
  · isplitr; · iexact HR
    iexact P1
  imod (close_cell m c K (.xr j) (fun h => by cases h)) $$ [P2] with S2
  · isplitr; · iexact HR
    iexact P2
  imod (close_cell m c K (.yds j) (fun h => by cases h)) $$ [P3] with S3
  · isplitr; · iexact HR
    iexact P3
  imod (close_cell m c K (.ydr j) (fun h => by cases h)) $$ [P4] with S4
  · isplitr; · iexact HR
    iexact P4
  imod (close_cell m c K (.zds j) (fun h => by cases h)) $$ [P5] with S5
  · isplitr; · iexact HR
    iexact P5
  imod (close_cell m c K (.zdr j) (fun h => by cases h)) $$ [P6] with S6
  · isplitr; · iexact HR
    iexact P6
  imodintro
  isplitl [S1]; · iexact S1
  isplitl [S2]; · iexact S2
  isplitl [S3]; · iexact S3
  isplitl [S4]; · iexact S4
  isplitl [S5]; · iexact S5
  iexact S6

/-- The four cells of forwarded chunk `e`'s two forwards, closed. -/
theorem close_four (c : Dev nD) (K : Dev nD × CK → ℕ) (e : Fin 8) :
    iprop(recs m K ∗ (atPos ER (cell c (.yrs e)) 1 ∅ 0 ∗ atPos ER (cell c (.yrr e)) 1 ∅ 0 ∗ atPos ER (cell c (.zrs e)) 1 ∅ 0
        ∗ atPos ER (cell c (.zrr e)) 1 ∅ 0))
      ⊢ iprop(|={Set.univ}=> (semVal (cell c (.yrs e)) 0 ∗ semVal (cell c (.yrr e)) 0 ∗ semVal (cell c (.zrs e)) 0
        ∗ semVal (cell c (.zrr e)) 0)) := by
  iintro ⟨#HR, P1, P2, P3, P4⟩
  imod (close_cell m c K (.yrs e) (fun h => by cases h)) $$ [P1] with S1
  · isplitr; · iexact HR
    iexact P1
  imod (close_cell m c K (.yrr e) (fun h => by cases h)) $$ [P2] with S2
  · isplitr; · iexact HR
    iexact P2
  imod (close_cell m c K (.zrs e) (fun h => by cases h)) $$ [P3] with S3
  · isplitr; · iexact HR
    iexact P3
  imod (close_cell m c K (.zrr e) (fun h => by cases h)) $$ [P4] with S4
  · isplitr; · iexact HR
    iexact P4
  imodintro
  isplitl [S1]; · iexact S1
  isplitl [S2]; · iexact S2
  isplitl [S3]; · iexact S3
  iexact S4

/-- Every DMA cell of the device closed: its DMA semaphores all at zero. -/
theorem close_all (c : Dev nD) (K : Dev nD × CK → ℕ) :
    iprop(recs m K
        ∗ (bigSep Finset.univ fun j : Fin 16 => iprop(atPos ER (cell c (.xs j)) 1 ∅ 0 ∗ atPos ER (cell c (.xr j)) 1 ∅ 0
            ∗ atPos ER (cell c (.yds j)) 1 ∅ 0 ∗ atPos ER (cell c (.ydr j)) 1 ∅ 0 ∗ atPos ER (cell c (.zds j)) 1 ∅ 0
            ∗ atPos ER (cell c (.zdr j)) 1 ∅ 0))
        ∗ (bigSep Finset.univ fun e : Fin 8 => iprop(atPos ER (cell c (.yrs e)) 1 ∅ 0 ∗ atPos ER (cell c (.yrr e)) 1 ∅ 0
            ∗ atPos ER (cell c (.zrs e)) 1 ∅ 0 ∗ atPos ER (cell c (.zrr e)) 1 ∅ 0))
        ∗ atPos ER (cell c .cpq) 1 ∅ 0 ∗ atPos ER (cell c (.cpo 0)) 8 ∅ 0 ∗ atPos ER (cell c (.cpo 1)) 8 ∅ 0)
      ⊢ iprop(|={Set.univ}=> sems0 (F := F) c) := by
  iintro ⟨#HR, H16, H8, Pq, Po0, Po1⟩
  imod (bigSep_fupd_under (R := recs m K) (fun j _ => close_six m c K j)) $$ [H16] with S16
  · isplitr; · iexact HR
    iexact H16
  imod (bigSep_fupd_under (R := recs m K) (fun e _ => close_four m c K e)) $$ [H8] with S8
  · isplitr; · iexact HR
    iexact H8
  imod (close_cell m c K .cpq (fun h => by cases h)) $$ [Pq] with Sq
  · isplitr; · iexact HR
    iexact Pq
  imod (close_cell m c K (.cpo 0) (fun h => by cases h)) $$ [Po0] with So0
  · isplitr; · iexact HR
    iexact Po0
  imod (close_cell m c K (.cpo 1) (fun h => by cases h)) $$ [Po1] with So1
  · isplitr; · iexact HR
    iexact Po1
  imodintro
  iapply (sems0_intro (F := F) c)
  isplitl [S16]; · iexact S16
  isplitl [S8]; · iexact S8
  isplitl [Sq]; · iexact Sq
  isplitl [So0] <;> iassumption

/-- info: 'Cert.Kernel.Ar.close_all' depends on axioms: [propext, Classical.choice, Quot.sound] -/
#guard_msgs in #print axioms close_all

end Cert.Kernel.Ar

end
-- ==== Proof.KNames.lean ====
/-
  Names by number: the body keeps one proof-mode hypothesis per chunk (sixteen or eight of each kind), named by a
  prefix and the chunk's number. These functions spell such lists, and `run_tac` runs tactic text built from them.
-/
import proofs.«900725_g7700000000000726_dist_ar_v7x_xyz2x4x4_x_m8192_n1024_f32_1_alg».proof.Proof.KTac

open Lean Elab Tactic

namespace Cert.Kernel.Ar

/-- `p0 p1 … p(n-1)`, separated by blanks: for `iframe`. -/
def nm (p : String) (n : Nat) : String := " ".intercalate ((List.range n).map fun i => s!"{p}{i}")
/-- `p0, p1, …, p(n-1)`: for an introduction pattern. -/
def pt (p : String) (n : Nat) : String := ", ".intercalate ((List.range n).map fun i => s!"{p}{i}")
/-- `⟨a0, b0, …⟩, ⟨a1, b1, …⟩, …`: one group per number, of the given prefixes. -/
def grp (ps : List String) (n : Nat) : String :=
  ", ".intercalate ((List.range n).map fun i => "⟨" ++ ", ".intercalate (ps.map fun p => s!"{p}{i}") ++ "⟩")
/-- The same groups as one `∗`-chain of names separated by blanks. -/
def grpNm (ps : List String) (n : Nat) : String :=
  " ".intercalate ((List.range n).map fun i => " ".intercalate (ps.map fun p => s!"{p}{i}"))

/-- `run_tac e`: evaluate the string `e` and run it as one tactic. -/
elab "run_tac " e:term : tactic => do
  let s ← unsafe (Term.evalTerm String (mkConst ``String) e)
  runTacStr s

end Cert.Kernel.Ar
-- ==== Proof.KBody.lean ====
/-
  The body of the kernel on one device, run from the ghost state the launch deals it to the state it ends in.
  The printed body is the chain of its statements (Frag.lean). It is cut into phases, each a theorem of its own:
  the entry (the local copy of the device's quarter, the three barrier signals, the wait for the three partners),
  the sixteen copies to the x partner, the arrival of the quarter, the reduce-and-spread loop, the forwarding loop,
  and the closing waits; then every own semaphore cell is closed and the buffers are put back together. Between two
  phases every resource is a hypothesis of its own, named by its kind and its chunk's number.
-/
import proofs.«900725_g7700000000000726_dist_ar_v7x_xyz2x4x4_x_m8192_n1024_f32_1_alg».proof.Proof.KPhP
import proofs.«900725_g7700000000000726_dist_ar_v7x_xyz2x4x4_x_m8192_n1024_f32_1_alg».proof.Proof.KPhE
import proofs.«900725_g7700000000000726_dist_ar_v7x_xyz2x4x4_x_m8192_n1024_f32_1_alg».proof.Proof.KPhS
import proofs.«900725_g7700000000000726_dist_ar_v7x_xyz2x4x4_x_m8192_n1024_f32_1_alg».proof.Proof.KPhF
import proofs.«900725_g7700000000000726_dist_ar_v7x_xyz2x4x4_x_m8192_n1024_f32_1_alg».proof.Proof.KPhT
import proofs.«900725_g7700000000000726_dist_ar_v7x_xyz2x4x4_x_m8192_n1024_f32_1_alg».proof.Proof.KPhT2
import proofs.«900725_g7700000000000726_dist_ar_v7x_xyz2x4x4_x_m8192_n1024_f32_1_alg».proof.Proof.KPhC
import proofs.«900725_g7700000000000726_dist_ar_v7x_xyz2x4x4_x_m8192_n1024_f32_1_alg».proof.Proof.KNames
import proofs.«900725_g7700000000000726_dist_ar_v7x_xyz2x4x4_x_m8192_n1024_f32_1_alg».proof.Proof.Gen.Kernel.Skeleton
import proofs.«900725_g7700000000000726_dist_ar_v7x_xyz2x4x4_x_m8192_n1024_f32_1_alg».proof.Proof.Gen.Kernel.Points

set_option maxRecDepth 65536

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The printed body's root sequence names part 74 and parts 61 to 73; part 74 is itself the sequence of parts 1 to 60. -/
def outerParts : List Nat := 74 :: (List.range 13).map (· + 61)
def innerParts : List Nat := (List.range 60).map (· + 1)

/-- The forwarding loop's results, in program order: iteration `j` leaves the two positions and the chunk it did not
    forward (an even iteration forwards the z partner's chunk and keeps the y partner's, an odd one the reverse). -/
def fwdPat : String :=
  ", ".intercalate ((List.range 16).map fun j => s!"Pydr{j}, Pzdr{j}, " ++ (if j % 2 = 0 then s!"Goy{j}" else s!"Goz{j}"))

/-- Restating the forwarded chunks, back from their send waits, as rows of the partners' quarters. -/
def backTac : String :=
  "(" ++ "; ".intercalate ((List.range 8).map fun e =>
    s!"ihave Goz{2*e} := (Entails.of_eq (show pts c (outE c {e}) fullShare (OUTc m c) = pts c (outM (zp c) {2*e}) fullShare (OUTc m c) from outM_even c {e} _ _)) $$ Se{e}; " ++
    s!"ihave Goy{2*e+1} := (Entails.of_eq (show pts c (outO c {e}) fullShare (OUTc m c) = pts c (outM (yp c) {2*e+1}) fullShare (OUTc m c) from outM_odd c {e} _ _)) $$ So{e}") ++ ")"

/-- Every own cell's position at its last round, as the closing takes them. -/
def posNames : String :=
  grpNm ["Pxs","Pxr","Pyds","Pydr","Pzds","Pzdr"] 16 ++ " " ++ grpNm ["Pyrs","Pyrr","Pzrs","Pzrr"] 8 ++ " Pcpq Pcpo0 Pcpo1"

set_option maxHeartbeats 8000000 in
theorem sound_body (m : (ℓ : Loc nD τ sig) → Buf (Elt F) ℓ) (c : Dev nD) (K : Dev nD × CK → ℕ) (W₀ : Waits sig Unit) (Kt : PUnit → sProp 𝕄) :
    iprop((ghost m K c ∗ creds c ∗ levAts L lv ∗ bufs0 m c ∗ owes (c : Thread nD τ) (O₀ c) W₀)
        ∗ ((Φ₁ m c ∗ ∃ W, owes (c : Thread nD τ) 0 W) -∗ Kt ⟨⟩))
      ⊢ wp frame (wpE (defs₀ (F := F)) 𝒱₀ c none) Set.univ
        (cc0_body (Memref.whole main_arg0) (Memref.isWhole_whole _) (Memref.whole main_v1) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4 cc0_scratch5 cc0_scratch6 cc0_scratch7 cc0_scratch8
          cc0_scratch9 cc0_scratch10 cc0_scratch11 cc0_scratch12 cc0_scratch13 cc0_scratch14) Kt := by
  -- the body as the chain of its statements
  rw [cc0_body_eq_skeleton]; unfold cc0_body_skel
  run_tac ("(simp only [" ++ ", ".intercalate (outerParts.map fun i => s!"k0_part{i}_eq_skeleton") ++ "])")
  run_tac ("(unfold " ++ " ".intercalate (outerParts.map fun i => s!"k0_part{i}_skel") ++ ")")
  run_tac ("(simp only [" ++ ", ".intercalate (innerParts.map fun i => s!"k0_part{i}_eq_skeleton") ++ "])")
  run_tac ("(unfold " ++ " ".intercalate (innerParts.map fun i => s!"k0_part{i}_skel") ++ ")")
  simp only [semSignalWord, semWaitWord, Prog.lift, Prog.bind_op, Prog.bind_ret, Prog.pure_eq_ret, wp_deviceId]
  -- what the device starts from, one name per resource
  have hpre := prelude (F := F) m c K W₀
  conv at hpre => rhs; simp only [postPrelude, posOwn, payToks, creds, bufsP, bigSep_fin16, bigSep_fin8]
  iintro ⟨Hall, HK⟩
  ihave Hpre := hpre $$ Hall
  run_tac ("(icases Hpre with ⟨#HR, #Hlev, ⟨Pbar, Pcpq, Pcpo0, Pcpo1, ⟨" ++ grp ["Pxs","Pxr","Pyds","Pydr","Pzds","Pzdr"] 16 ++ "⟩, ⟨"
    ++ grp ["Pyrs","Pyrr","Pzrs","Pzrr"] 8 ++ "⟩⟩, ⟨Tbx, Tby, Tbz, Tcpq, ⟨" ++ grp ["Txs","Txr"] 16 ++ "⟩, ⟨"
    ++ grp ["Tcpo","Tyds","Tydr","Tzds","Tzdr"] 16 ++ "⟩, ⟨" ++ grp ["Tyrs","Tyrr","Tzrs","Tzrr"] 8 ++ "⟩⟩, ⟨Cbar, ⟨"
    ++ grp ["Cxr","Cydr","Czdr"] 16 ++ "⟩, ⟨" ++ grp ["Cyrr","Czrr"] 8 ++ "⟩⟩, HO, ⟨HinRest, HQ, ⟨" ++ pt "Hsx" 16
    ++ "⟩, ⟨%fq, Hvq⟩, ⟨%fo, ⟨" ++ pt "Hom" 16 ++ "⟩⟩, HpX, HpY, HpZ, ⟨%fs, Hvs0, Hvs1⟩⟩⟩)")
  clear hpre
  -- entry: the local copy of the quarter, the three barrier signals, the wait for the three partners
  iapply (phase_E m c K fq _ _)
  iframe HR Hlev HO HQ Hvq Tcpq HpX HpY HpZ Tbx Tby Tbz Cbar Pbar
  run_tac ("(iintro ⟨HO, Ccpq, Pbar, " ++ pt "Rvr" 16 ++ ", " ++ pt "Roy" 16 ++ ", " ++ pt "RoyE" 8 ++ ", " ++ pt "Roz" 16 ++ ", " ++ pt "RozO" 8 ++ "⟩)")
  -- the sixteen copies to the x partner
  iapply (phase_X m c K _ _)
  run_tac ("(iframe HR Hlev HO " ++ nm "Hsx" 16 ++ " " ++ nm "Rvr" 16 ++ " " ++ nm "Txs" 16 ++ " " ++ nm "Txr" 16 ++ ")")
  run_tac ("(iintro ⟨HO, " ++ pt "Cxs" 16 ++ "⟩)")
  -- the quarter has arrived in the staging buffer
  iapply (phase_Q m c K _ _)
  iframe HR Hlev HO Ccpq Pcpq
  iintro ⟨HO, Pcpq, Hvq, HQ⟩
  -- the reduce-and-spread loop
  have hS := phase_S (F := F) m c K fs fs fo
  simp only [preS, preSj, postS, postSj, pendSj] at hS
  iapply (hS _ _)
  run_tac ("(iframe HR Hlev HO Hvq Hvs0 Hvs1 Pcpo0 Pcpo1 " ++ grpNm ["Cxr","Pxr","Pyds","Pzds","Hom","Tcpo","Roy","Tyds","Tydr","Roz","Tzds","Tzdr"] 16 ++ ")")
  run_tac ("(iintro ⟨HO, Hvq, Pcpo0, Pcpo1, " ++ grp ["Pxr","Hvr","Pyds","Pzds","Hom"] 14
    ++ ", ⟨Pxr14, Hvr14, Pyds14, Pzds14, Cyds14, Czds14, Ccpo14⟩, ⟨Pxr15, Hvr15, Pyds15, Pzds15, Cyds15, Czds15, Ccpo15⟩⟩)")
  clear hS
  ihave HO := (Entails.of_eq (show ow (F := F) c (rem2 c 0) = ow c (rem3 c 16) from rfl)) $$ HO
  -- the forwarding loop
  have hF := phase_F (F := F) m c K
  simp only [preF, postF] at hF
  iapply (hF _ _)
  run_tac ("(iframe HR Hlev HO " ++ grpNm ["Cydr","Pydr","Czdr","Pzdr"] 16 ++ " " ++ grpNm ["RoyE","Tyrs","Tyrr","RozO","Tzrs","Tzrr"] 8 ++ ")")
  run_tac ("(iintro ⟨HO, " ++ fwdPat ++ ", " ++ ", ".intercalate ((List.range 8).map fun e => s!"Cyrs{e}, Czrs{e}") ++ "⟩)")
  clear hF
  ihave HO := (Entails.of_eq (show ow (F := F) c (rem3 c 0) = ow c 0 from rfl)) $$ HO
  -- the closing waits: the forwards' receive and send cells
  have hT1 := phase_T1 (F := F) m c K (α := PUnit)
  simp only [bigSep_fin8, preE, postE, crN, posAt, wpB, chainT1, tailE] at hT1
  iapply (hT1 _ _)
  run_tac ("(iframe HR Hlev HO " ++ grpNm ["Cyrr","Pyrr","Czrr","Pzrr","Cyrs","Pyrs","Czrs","Pzrs"] 8 ++ ")")
  run_tac ("(iintro ⟨HO, " ++ grp ["Pyrr","GoE","Pzrr","GoO","Pyrs","Se","Pzrs","So"] 8 ++ "⟩)")
  clear hT1
  -- the x copies' send cells and the last two chunks' slots
  iapply (phase_T2 m c K _ _)
  run_tac ("(iframe HR Hlev HO " ++ nm "Cxs" 16 ++ " " ++ nm "Pxs" 16 ++ " Cyds14 Czds14 Ccpo14 Cyds15 Czds15 Ccpo15 Pyds14 Pzds14 Pyds15 Pzds15 Pcpo0 Pcpo1)")
  run_tac ("(iintro ⟨HO, " ++ pt "Hsx" 16 ++ ", " ++ pt "Pxs" 16 ++ ", Pyds14, Pzds14, Pyds15, Pzds15, Pcpo0, Pcpo1, Hom14, Hom15, Hvs0, Hvs1⟩)")
  -- the forwarded chunks are rows of the partners' quarters
  run_tac backTac
  -- every own cell is at its last round: close them
  rw [wp_ret]
  have hC := close_all (F := F) m c K
  conv at hC => lhs; simp only [bigSep_fin16, bigSep_fin8]
  run_tac ("(ihave Hs := hC $$ [" ++ posNames ++ "])")
  · run_tac ("(iframe HR " ++ posNames ++ ")")
  clear hC
  imod Hs with Hsems
  imodintro
  -- the buffers put back together
  have hfin := finale (F := F) m c (VQc m c) (VSc m c 14) (VSc m c 15)
  conv at hfin => lhs; simp only [preFinale, bigSep_fin16, bigSep_fin8]
  iapply HK
  iapply hfin
  run_tac ("(iframe HinRest HQ " ++ nm "Hsx" 16 ++ " " ++ nm "Hom" 16 ++ " " ++ nm "Goy" 16 ++ " " ++ nm "Goz" 16 ++ " " ++ nm "GoE" 8 ++ " "
    ++ nm "GoO" 8 ++ " Hvq " ++ nm "Hvr" 16 ++ " Hvs0 Hvs1 Hsems HO)")

/-- info: 'Cert.Kernel.Ar.sound_body' depends on axioms: [propext, Classical.choice, Quot.sound] -/
#guard_msgs in #print axioms sound_body

end Cert.Kernel.Ar

end
-- ==== Proof.KLaunch.lean ====
/-
  The launch: from "each device's body is proved" to the run of the whole mesh.
  * The ghost state: one rounds cell per semaphore of every TensorCore (the barrier semaphore and the 131 DMA
    semaphores), one token per duty of the schedule. Funding deals each device its own cells' round states, positions
    and tokens; the global step puts every cell's counter, at zero, with its round state under an invariant, and then
    hands each token to the device that PAYS its duty: a device's receive cells' tokens go to the partner whose copy
    lands there, its barrier cell's three tokens to its three partners. The partners are involutions of the mesh, so
    the dealing is a reindexing of a separating conjunction over the devices.
  * The launch credit: each device is dealt, on each of its cells, what the other devices owe that cell at launch:
    three units on its barrier cell, one copy's credit on each receive cell.
  * The run: the launch theorem for cores that owe at launch and share the runtime's barrier semaphore.
-/
import proofs.«900725_g7700000000000726_dist_ar_v7x_xyz2x4x4_x_m8192_n1024_f32_1_alg».proof.Proof.KBody
import proofs.«900725_g7700000000000726_dist_ar_v7x_xyz2x4x4_x_m8192_n1024_f32_1_alg».proof.Proof.Gen.Kernel.Launch
import proofs.«900725_g7700000000000726_dist_ar_v7x_xyz2x4x4_x_m8192_n1024_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Ar

open Cert.Kernel Cert.Kernel.Gen Cert.Kernel.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Separating conjunctions over the index types of the launch -/

section BigSep
variable {M : Type} [URA M]

/-- Two nested separating conjunctions over finite sets commute. -/
theorem bigSep_comm {I J : Type} (s : Finset I) (t : Finset J) (Φ : I → J → sProp M) :
    (bigSep s fun i => bigSep t fun j => Φ i j) = bigSep t fun j => bigSep s fun i => Φ i j := by
  classical
  induction t using Finset.induction_on with
  | empty => simp only [bigSep_empty]; exact bigSep_emp_const _
  | insert a t ha ih =>
    rw [bigSep_insert ha, ← ih]
    exact Eq.trans (bigSep_congr fun i _ => bigSep_insert ha) (bigSep_sep' s _ _)

/-- Dealing: a family over (device, `k`) regrouped along a bijection of the devices for each `k`. -/
theorem bigSep_deal {K : Type} (t : Finset K) (π : K → Dev nD ≃ Dev nD) (Φ : Dev nD → K → sProp M) :
    (bigSep Finset.univ fun c : Dev nD => bigSep t fun k => Φ c k) = bigSep Finset.univ fun c : Dev nD => bigSep t fun k => Φ (π k c) k := by
  rw [bigSep_comm, bigSep_comm (Φ := fun c k => Φ (π k c) k)]
  exact bigSep_congr fun k _ => bigSep_univ_equiv (π k) (fun c => Φ c k)

theorem bigSep_unit (Φ : Unit → sProp M) : bigSep Finset.univ Φ = Φ () := bigSep_univ_of_subsingleton ()
theorem bigSep_fin2 (Φ : Fin 2 → sProp M) : bigSep Finset.univ Φ = iprop(Φ 0 ∗ Φ 1) :=
  bigSep_univ_eq_bigSepL [0, 1] (by decide) (by decide) Φ
theorem bigSep_fin4 (Φ : Fin 4 → sProp M) : bigSep Finset.univ Φ = iprop(Φ 0 ∗ Φ 1 ∗ Φ 2 ∗ Φ 3) :=
  bigSep_univ_eq_bigSepL [0, 1, 2, 3] (by decide) (by decide) Φ
theorem bigSep_fin5 (Φ : Fin 5 → sProp M) : bigSep Finset.univ Φ = iprop(Φ 0 ∗ Φ 1 ∗ Φ 2 ∗ Φ 3 ∗ Φ 4) :=
  bigSep_univ_eq_bigSepL [0, 1, 2, 3, 4] (by decide) (by decide) Φ
theorem bigSep_fin6 (Φ : Fin 6 → sProp M) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

end BigSep

/-! ## The kinds of cell, enumerated in the order the ghost state groups them -/

/-- The barrier, the input copy's, the two result copies' cells; per chunk the six cells of the exchange with the x
    partner and the spread to the y and z partners; per forwarded chunk the four cells of the two forwards. -/
abbrev CKS : Type := Unit ⊕ Unit ⊕ Unit ⊕ Unit ⊕ (Fin 16 × Fin 6) ⊕ (Fin 8 × Fin 4)

def ckOfS : CKS → CK
  | .inl _ => .bar
  | .inr (.inl _) => .cpq
  | .inr (.inr (.inl _)) => .cpo 0
  | .inr (.inr (.inr (.inl _))) => .cpo 1
  | .inr (.inr (.inr (.inr (.inl jb)))) => (![CK.xs jb.1, .xr jb.1, .yds jb.1, .ydr jb.1, .zds jb.1, .zdr jb.1] : Fin 6 → CK) jb.2
  | .inr (.inr (.inr (.inr (.inr ib)))) => (![CK.yrs ib.1, .yrr ib.1, .zrs ib.1, .zrr ib.1] : Fin 4 → CK) ib.2

def sOfCk : CK → CKS
  | .bar => .inl ()
  | .cpq => .inr (.inl ())
  | .cpo s => if s = 0 then .inr (.inr (.inl ())) else .inr (.inr (.inr (.inl ())))
  | .xs j => .inr (.inr (.inr (.inr (.inl (j, 0)))))
  | .xr j => .inr (.inr (.inr (.inr (.inl (j, 1)))))
  | .yds j => .inr (.inr (.inr (.inr (.inl (j, 2)))))
  | .ydr j => .inr (.inr (.inr (.inr (.inl (j, 3)))))
  | .zds j => .inr (.inr (.inr (.inr (.inl (j, 4)))))
  | .zdr j => .inr (.inr (.inr (.inr (.inl (j, 5)))))
  | .yrs i => .inr (.inr (.inr (.inr (.inr (i, 0)))))
  | .yrr i => .inr (.inr (.inr (.inr (.inr (i, 1)))))
  | .zrs i => .inr (.inr (.inr (.inr (.inr (i, 2)))))
  | .zrr i => .inr (.inr (.inr (.inr (.inr (i, 3)))))

theorem sOfCk_ckOfS : ∀ s : CKS, sOfCk (ckOfS s) = s := by
  rintro (_ | _ | _ | _ | ⟨j, b⟩ | ⟨i, b⟩)
  · rfl
  · rfl
  · rfl
  · rfl
  · fin_cases b <;> rfl
  · fin_cases b <;> rfl
theorem ckOfS_sOfCk : ∀ k : CK, ckOfS (sOfCk k) = k := by
  intro k; cases k <;> first | rfl | (rename_i s; revert s; decide)

def ckS : CKS ≃ CK := ⟨ckOfS, sOfCk, sOfCk_ckOfS, ckOfS_sOfCk⟩

/-- A separating conjunction over the kinds of cell, in that order. -/
theorem bigSep_CK {M : Type} [URA M] (Φ : CK → sProp M) :
    bigSep Finset.univ Φ = iprop(Φ .bar ∗ Φ .cpq ∗ Φ (.cpo 0) ∗ Φ (.cpo 1)
      ∗ (bigSep Finset.univ fun j : Fin 16 => iprop(Φ (.xs j) ∗ Φ (.xr j) ∗ Φ (.yds j) ∗ Φ (.ydr j) ∗ Φ (.zds j) ∗ Φ (.zdr j)))
      ∗ (bigSep Finset.univ fun i : Fin 8 => iprop(Φ (.yrs i) ∗ Φ (.yrr i) ∗ Φ (.zrs i) ∗ Φ (.zrr i)))) := by
  rw [bigSep_univ_equiv ckS Φ, bigSep_univ_sum, bigSep_univ_sum, bigSep_univ_sum, bigSep_univ_sum, bigSep_univ_sum,
    bigSep_unit, bigSep_unit, bigSep_unit, bigSep_unit, bigSep_univ_prod, bigSep_univ_prod]
  simp only [bigSep_fin6, bigSep_fin4]
  rfl

/-- The semaphore of a kind, as a bijection onto a core's semaphores. -/
theorem loc_ckOf : ∀ sm : SemLoc sig, (ckOf sm).loc = sm := by decide
def ckEquiv : CK ≃ SemLoc sig := ⟨CK.loc, ckOf, ckOf_loc, loc_ckOf⟩

/-! ## The duty tokens, enumerated in the order the ghost state groups the ones a device pays -/

def xpE : Dev nD ≃ Dev nD := ⟨xp, xp, xp_xp, xp_xp⟩
def ypE : Dev nD ≃ Dev nD := ⟨yp, yp, yp_yp, yp_yp⟩
def zpE : Dev nD ≃ Dev nD := ⟨zp, zp, zp_zp, zp_zp⟩

/-- The three barrier duties and the input copy's; per chunk the two of the exchange with the x partner; per chunk
    the five of the sum's copies; per forwarded chunk the four of the two forwards. -/
abbrev TI : Type := Unit ⊕ Unit ⊕ Unit ⊕ Unit ⊕ (Fin 16 × Fin 2) ⊕ (Fin 16 × Fin 5) ⊕ (Fin 8 × Fin 4)

/-- A token's kind of cell, -/
def tkK : TI → CK
  | .inl _ => .bar
  | .inr (.inl _) => .bar
  | .inr (.inr (.inl _)) => .bar
  | .inr (.inr (.inr (.inl _))) => .cpq
  | .inr (.inr (.inr (.inr (.inl jb)))) => (![CK.xs jb.1, .xr jb.1] : Fin 2 → CK) jb.2
  | .inr (.inr (.inr (.inr (.inr (.inl jb))))) => (![CK.cpo (slotOf jb.1), .yds jb.1, .ydr jb.1, .zds jb.1, .zdr jb.1] : Fin 5 → CK) jb.2
  | .inr (.inr (.inr (.inr (.inr (.inr ib))))) => (![CK.yrs ib.1, .yrr ib.1, .zrs ib.1, .zrr ib.1] : Fin 4 → CK) ib.2
/-- its round, -/
def tkR : TI → ℕ
  | .inr (.inr (.inr (.inr (.inr (.inl jb))))) => (![jb.1.val / 2, 0, 0, 0, 0] : Fin 5 → ℕ) jb.2
  | _ => 0
/-- its duty, -/
def tkD : TI → Fin 3
  | .inr (.inl _) => 1
  | .inr (.inr (.inl _)) => 2
  | _ => 0
/-- and who pays it, as a map from the payer to the cell's owner: the owner itself, or one of its partners. -/
def tkP : TI → Dev nD ≃ Dev nD
  | .inl _ => xpE
  | .inr (.inl _) => ypE
  | .inr (.inr (.inl _)) => zpE
  | .inr (.inr (.inr (.inl _))) => Equiv.refl _
  | .inr (.inr (.inr (.inr (.inl jb)))) => (![Equiv.refl _, xpE] : Fin 2 → Dev nD ≃ Dev nD) jb.2
  | .inr (.inr (.inr (.inr (.inr (.inl jb))))) => (![Equiv.refl _, Equiv.refl _, ypE, Equiv.refl _, zpE] : Fin 5 → Dev nD ≃ Dev nD) jb.2
  | .inr (.inr (.inr (.inr (.inr (.inr ib))))) => (![Equiv.refl _, ypE, Equiv.refl _, zpE] : Fin 4 → Dev nD ≃ Dev nD) ib.2

/-- The token of a (kind, round, duty). -/
def tiOf (k : CK) (r : ℕ) (d : Fin 3) : TI :=
  match k with
  | .bar => if d = 0 then .inl () else if d = 1 then .inr (.inl ()) else .inr (.inr (.inl ()))
  | .cpq => .inr (.inr (.inr (.inl ())))
  | .xs j => .inr (.inr (.inr (.inr (.inl (j, 0)))))
  | .xr j => .inr (.inr (.inr (.inr (.inl (j, 1)))))
  | .cpo s => .inr (.inr (.inr (.inr (.inr (.inl (chunkOf s r, 0))))))
  | .yds j => .inr (.inr (.inr (.inr (.inr (.inl (j, 1))))))
  | .ydr j => .inr (.inr (.inr (.inr (.inr (.inl (j, 2))))))
  | .zds j => .inr (.inr (.inr (.inr (.inr (.inl (j, 3))))))
  | .zdr j => .inr (.inr (.inr (.inr (.inr (.inl (j, 4))))))
  | .yrs i => .inr (.inr (.inr (.inr (.inr (.inr (i, 0))))))
  | .yrr i => .inr (.inr (.inr (.inr (.inr (.inr (i, 1))))))
  | .zrs i => .inr (.inr (.inr (.inr (.inr (.inr (i, 2))))))
  | .zrr i => .inr (.inr (.inr (.inr (.inr (.inr (i, 3))))))

theorem chunk_of_tok : ∀ j : Fin 16, chunkOf (slotOf j) (j.val / 2) = j := by decide

theorem tiOf_tk : ∀ t : TI, tiOf (tkK t) (tkR t) (tkD t) = t := by
  rintro (_ | _ | _ | _ | ⟨j, b⟩ | ⟨j, b⟩ | ⟨i, b⟩)
  · rfl
  · rfl
  · rfl
  · rfl
  · fin_cases b <;> rfl
  · fin_cases b
    · show Sum.inr (Sum.inr (Sum.inr (Sum.inr (Sum.inr (Sum.inl (chunkOf (slotOf j) (j.val / 2), (0 : Fin 5))))))) = _
      rw [chunk_of_tok]; rfl
    all_goals rfl
  · fin_cases b <;> rfl

/-- The (cell, round, duty) of a device's token. -/
abbrev tokOf (ot : Dev nD × TI) : GSem nD τ sig × ℕ × Fin 3 := (cell ot.1 (tkK ot.2), tkR ot.2, tkD ot.2)

theorem tokOf_injective : Function.Injective tokOf := by
  rintro ⟨o, t⟩ ⟨o', t'⟩ h
  have hc : (o, tkK t) = (o', tkK t') := cell_injective (a₁ := (o, tkK t)) (a₂ := (o', tkK t')) (congrArg (fun x : GSem nD τ sig × ℕ × Fin 3 => x.1) h)
  have ho : o = o' := congrArg Prod.fst hc
  have hk : tkK t = tkK t' := congrArg Prod.snd hc
  have hr : tkR t = tkR t' := congrArg (fun x : GSem nD τ sig × ℕ × Fin 3 => x.2.1) h
  have hd : tkD t = tkD t' := congrArg (fun x : GSem nD τ sig × ℕ × Fin 3 => x.2.2) h
  have ht : t = t' := by rw [← tiOf_tk t, ← tiOf_tk t', hk, hr, hd]
  rw [ho, ht]

/-- A separating conjunction over the tokens, in that order. -/
theorem bigSep_TI {M : Type} [URA M] (Φ : TI → sProp M) :
    bigSep Finset.univ Φ = iprop(Φ (.inl ()) ∗ Φ (.inr (.inl ())) ∗ Φ (.inr (.inr (.inl ()))) ∗ Φ (.inr (.inr (.inr (.inl ()))))
      ∗ (bigSep Finset.univ fun j : Fin 16 => iprop(Φ (.inr (.inr (.inr (.inr (.inl (j, 0)))))) ∗ Φ (.inr (.inr (.inr (.inr (.inl (j, 1))))))))
      ∗ (bigSep Finset.univ fun j : Fin 16 => iprop(Φ (.inr (.inr (.inr (.inr (.inr (.inl (j, 0))))))) ∗ Φ (.inr (.inr (.inr (.inr (.inr (.inl (j, 1)))))))
          ∗ Φ (.inr (.inr (.inr (.inr (.inr (.inl (j, 2))))))) ∗ Φ (.inr (.inr (.inr (.inr (.inr (.inl (j, 3))))))) ∗ Φ (.inr (.inr (.inr (.inr (.inr (.inl (j, 4)))))))))
      ∗ (bigSep Finset.univ fun i : Fin 8 => iprop(Φ (.inr (.inr (.inr (.inr (.inr (.inr (i, 0))))))) ∗ Φ (.inr (.inr (.inr (.inr (.inr (.inr (i, 1)))))))
          ∗ Φ (.inr (.inr (.inr (.inr (.inr (.inr (i, 2))))))) ∗ Φ (.inr (.inr (.inr (.inr (.inr (.inr (i, 3)))))))))) := by
  rw [bigSep_univ_sum, bigSep_univ_sum, bigSep_univ_sum, bigSep_univ_sum, bigSep_univ_sum, bigSep_univ_sum,
    bigSep_unit, bigSep_unit, bigSep_unit, bigSep_unit, bigSep_univ_prod, bigSep_univ_prod, bigSep_univ_prod]
  simp only [bigSep_fin2, bigSep_fin5, bigSep_fin4]
  rfl

/-- The tokens of device `c`'s own cells, as minted. -/
def toks (c : Dev nD) : sProp 𝕄 := bigSep Finset.univ fun t : TI => tok0 c (tkK t) (tkR t) (tkD t)

/-- Dealt to their payers, they are what each device pays with. -/
theorem payToks_eq (c : Dev nD) : (bigSep Finset.univ fun t : TI => (tok0 (tkP t c) (tkK t) (tkR t) (tkD t) : sProp 𝕄)) = payToks c := by
  rw [bigSep_TI]; rfl

theorem toks_around : (bigSep Finset.univ fun c : Dev nD => (toks c : sProp 𝕄)) ⊢ bigSep Finset.univ fun c : Dev nD => payToks c := by
  unfold toks
  rw [bigSep_deal Finset.univ tkP (fun (c : Dev nD) (t : TI) => (tok0 c (tkK t) (tkR t) (tkD t) : sProp 𝕄))]
  exact Entails.of_eq (bigSep_congr fun c _ => payToks_eq c)

/-! ## The launch element and its funding -/

section Launch

variable (m : (ℓ : Loc nD τ sig) → Buf (Elt F) ℓ) (ρ : Dev nD → PrngReg)

/-- The protocol's cells: every semaphore of every TensorCore. -/
def ringCells : Finset (GSem nD τ sig) := Finset.univ.map ⟨fun ok : Dev nD × CK => cell ok.1 ok.2, cell_injective⟩
/-- Its tokens: one per duty of the schedule. -/
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- What the launch element deals device `c`: its cells' round states, its positions, that round 0 of each is reached, and
    its own cells' tokens. -/
def G (c : Dev nD) : sProp 𝕄 :=
  iprop((bigSep Finset.univ fun k : CK => roundState ER (Rd m) (cell c k) 0)
    ∗ (bigSep Finset.univ fun k : CK => iprop(atPos ER (cell c k) 0 ∅ 0 ∗ reached ER (cell c k) 0)) ∗ toks c)

/-- What the global step makes of it. -/
def G' (c : Dev nD) : sProp 𝕄 := iprop(∃ K, ghost m K c)

theorem fund_ring : BI.own (ER (F := F) (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant -/

/-- The kernel's own semaphores: all the DMA semaphores. -/
abbrev osem : DmaSem sig → SemLoc sig := fun k => .dma k

theorem allScoped : ∀ k : DmaSem sig, (SemLoc.dma k : SemLoc sig).isScoped .tc = true := by decide

theorem ownSemFacts : Pipeline.OwnSemFacts cfg0.spec osem :=
  ⟨allScoped, fun a b h => SemLoc.dma.inj h, fun k w => w.elim0⟩

omit [FloatOps F] in
/-- The barrier semaphore is the launch's one unscoped semaphore. -/
theorem unscopedSems0_eq (c : Dev nD) : (unscopedSems0 c : sProp 𝕄) = semVal (cell c .bar) 0 := by
  unfold unscopedSems0; rw [bigSep_eq_bigSepL_of_eq [SemLoc.reg barS] (by decide) (by decide)]; rfl

/-- Every semaphore of a core: the barrier semaphore and the DMA semaphores. -/
theorem bigSep_semLoc {M : Type} [URA M] (Φ : SemLoc sig → sProp M) :
    bigSep Finset.univ Φ = iprop(Φ (.reg barS) ∗ bigSep Finset.univ fun k : DmaSem sig => Φ (.dma k)) := by
  rw [bigSep_univ_equiv (SemLoc.equivSum sig).symm Φ, bigSep_univ_sum]
  congr 1
  exact bigSep_univ_of_subsingleton (I := Sem sig) barS

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (cell c k) 0 : sProp 𝕄) := by
  have h : (bigSep Finset.univ fun k : CK => (semVal (cell c k) 0 : sProp 𝕄))
      = bigSep Finset.univ fun sm : SemLoc sig => (semVal (((c : Thread nD τ), sm) : GSem nD τ sig) 0 : sProp 𝕄) :=
    (bigSep_univ_equiv ckEquiv fun sm : SemLoc sig => (semVal (((c : Thread nD τ), sm) : GSem nD τ sig) 0 : sProp 𝕄)).symm
  rw [h, unscopedSems0_eq, bigSep_semLoc]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (cell c k)))
          ∗ (bigSep Finset.univ fun k : CK => iprop(atPos ER (cell c k) 0 ∅ 0 ∗ reached ER (cell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (cell c k) 0) ∗ bigSep Finset.univ fun k : CK => roundState ER (Rd m) (cell c k) 0)
      ⊢ (|={Set.univ}=> bigSep Finset.univ fun k : CK => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- From the invariants and reached marks of all cells, its positions and the tokens dealt to it, a device's ghost state. -/
theorem ghost_intro (K : Dev nD × CK → ℕ) (c : Dev nD) :
    iprop(recs m K ∗ ((bigSep Finset.univ fun k : CK => (pos0 c k : sProp 𝕄)) ∗ payToks c)) ⊢ G' m c := by
  unfold G' ghost posOwn
  rw [bigSep_CK (fun k => (pos0 c k : sProp 𝕄))]
  iintro ⟨#HR, Hpos, Htok⟩
  iexists K
  isplitr; · iexact HR
  isplitl [Hpos]; · iexact Hpos
  iexact Htok

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd m) κ (cell c k)))
          ∗ (bigSep Finset.univ fun k : CK => iprop(atPos ER (cell c k) 0 ∅ 0 ∗ reached ER (cell c k) 0)) ∗ toks c) : sProp 𝕄)
      ⊢ bigSep Finset.univ (G' m) := by
  rw [bigSep_sep', bigSep_sep', ← bigSep_univ_prod (fun ok : Dev nD × CK => iprop(∃ κ : ℕ, cellInv ER (Rd m) κ (cell ok.1 ok.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun ok : Dev nD × CK => (reached ER (cell ok.1 ok.2) 0 : sProp 𝕄))]
  iintro ⟨HI, ⟨Hat, #HR⟩, Htok⟩
  ihave HK := (BI.bigSep_exists_pi Finset.univ (fun (ok : Dev nD × CK) (κ : ℕ) => (cellInv ER (Rd m) κ (cell ok.1 ok.2) : sProp 𝕄))) $$ HI
  icases HK with ⟨%K, #HI⟩
  ihave Htk := (toks_around (F := F)) $$ Htok
  iapply (bigSep_with_persistent (R := recs m K) fun c _ => ghost_intro m K c)
  isplitr
  · unfold recs; isplitl; · iexact HI
    iexact HR
  · iapply (Entails.of_eq (bigSep_sep' Finset.univ (fun c : Dev nD => bigSep Finset.univ fun k : CK => (pos0 c k : sProp 𝕄)) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

section Credit

/-- Every device owing `n` units to its partner's cell of kind `k`, the launch deals device `c` `n` units of credit on
    its own cell of that kind: the partner map is an involution. -/
theorem lc_cell (k : CK) (f : Dev nD → Dev nD) (hf : ∀ c, f (f c) = c) (n : ℕ) (c : Dev nD) :
    (Pipeline.launchCred (fun d => (tallyAt (cell (f d) k) () n : Tal)) c : sProp 𝕄) ⊢ cred (tallyAt (cell c k) () n) :=
  Pipeline.launchCred_tallyAt k.loc f f hf hf () n c

/-- The receive cell the forward of chunk `j` lands on: the y partner's for an even chunk, the z partner's for an odd one. -/
def fwK (j : Fin 16) : CK := if j.val % 2 = 0 then .yrr (fin8 (j.val / 2)) else .zrr (fin8 (j.val / 2))

theorem lc_fw (c : Dev nD) (j : Fin 16) :
    (Pipeline.launchCred (fun d => tFw d j) c : sProp 𝕄) ⊢ cred (tallyAt (cell c (fwK j)) () No) := by
  unfold fwK
  by_cases h : j.val % 2 = 0
  · rw [if_pos h, show (fun d => tFw d j) = fun d => (tallyAt (cell (yp d) (.yrr (fin8 (j.val / 2)))) () No : Tal) from
      funext fun d => by unfold tFw tYR; rw [if_pos h]]
    exact lc_cell _ yp yp_yp No c
  · rw [if_neg h, show (fun d => tFw d j) = fun d => (tallyAt (cell (zp d) (.zrr (fin8 (j.val / 2)))) () No : Tal) from
      funext fun d => by unfold tFw tZR; rw [if_neg h]]
    exact lc_cell _ zp zp_zp No c

/-- The credit of the forwards still to make, one per forward. -/
theorem lc_rem3 (c : Dev nD) : ∀ k, (Pipeline.launchCred (fun d => rem3 d k) c : sProp 𝕄)
    ⊢ bigSep (Finset.range k) fun k' => cred (tallyAt (cell c (fwK (fin16 (15 - k')))) () No)
  | 0 => by
    rw [show (fun d : Dev nD => rem3 d 0) = fun _ => (0 : Tal) from rfl, Pipeline.launchCred_zero, Finset.range_zero, bigSep_empty]
    exact .rfl
  | k + 1 => by
    rw [show (fun d : Dev nD => rem3 d (k + 1)) = fun d => tFw d (fin16 (15 - k)) + rem3 d k from rfl, Pipeline.launchCred_add,
      Finset.range_add_one, bigSep_insert Finset.notMem_range_self]
    exact BI.sep_mono (lc_fw c _) (lc_rem3 c k)

/-- The credit of the spread iterations still to run, two per iteration, and of all the forwards. -/
theorem lc_rem2 (c : Dev nD) : ∀ k, (Pipeline.launchCred (fun d => rem2 d k) c : sProp 𝕄)
    ⊢ iprop((bigSep (Finset.range k) fun k' => iprop(cred (tallyAt (cell c (.ydr (fin16 (15 - k')))) () No) ∗ cred (tallyAt (cell c (.zdr (fin16 (15 - k')))) () No)))
      ∗ bigSep (Finset.range 16) fun k' => cred (tallyAt (cell c (fwK (fin16 (15 - k')))) () No))
  | 0 => by
    rw [show (fun d : Dev nD => rem2 d 0) = fun d => rem3 d 16 from rfl, Finset.range_zero, bigSep_empty]
    exact (lc_rem3 c 16).trans (emp_sep (PROP := sProp 𝕄)).2
  | k + 1 => by
    rw [show (fun d : Dev nD => rem2 d (k + 1)) = fun d => (tallyAt (cell (yp d) (.ydr (fin16 (15 - k)))) () No : Tal) + ((tallyAt (cell (zp d) (.zdr (fin16 (15 - k)))) () No : Tal) + rem2 d k) from rfl,
      Pipeline.launchCred_add, Pipeline.launchCred_add, Finset.range_add_one, bigSep_insert Finset.notMem_range_self]
    show _ ⊢ iprop((_ ∗ _) ∗ _)
    iintro ⟨Hy, Hz, Hr⟩
    ihave Hy' := (lc_cell (F := F) (.ydr (fin16 (15 - k))) yp yp_yp No c) $$ Hy
    ihave Hz' := (lc_cell (F := F) (.zdr (fin16 (15 - k))) zp zp_zp No c) $$ Hz
    ihave Hr' := (lc_rem2 c k) $$ Hr
    icases Hr' with ⟨Hd, Hf⟩
    isplitr [Hf]
    · isplitl [Hy' Hz']
      · isplitl [Hy'] <;> iassumption
      · iexact Hd
    · iexact Hf

/-- The credit of the copies to the x partner still to issue, and of everything after them. -/
theorem lc_rem1 (c : Dev nD) : ∀ k, (Pipeline.launchCred (fun d => rem1 d k) c : sProp 𝕄)
    ⊢ iprop((bigSep (Finset.range k) fun k' => cred (tallyAt (cell c (.xr (fin16 (15 - k')))) () Nv))
      ∗ (bigSep (Finset.range 16) fun k' => iprop(cred (tallyAt (cell c (.ydr (fin16 (15 - k')))) () No) ∗ cred (tallyAt (cell c (.zdr (fin16 (15 - k')))) () No)))
      ∗ bigSep (Finset.range 16) fun k' => cred (tallyAt (cell c (fwK (fin16 (15 - k')))) () No))
  | 0 => by
    rw [show (fun d : Dev nD => rem1 d 0) = fun d => rem2 d 16 from rfl, Finset.range_zero, bigSep_empty]
    exact (lc_rem2 c 16).trans (emp_sep (PROP := sProp 𝕄)).2
  | k + 1 => by
    rw [show (fun d : Dev nD => rem1 d (k + 1)) = fun d => (tallyAt (cell (xp d) (.xr (fin16 (15 - k)))) () Nv : Tal) + rem1 d k from rfl,
      Pipeline.launchCred_add, Finset.range_add_one, bigSep_insert Finset.notMem_range_self]
    show _ ⊢ iprop((_ ∗ _) ∗ _)
    iintro ⟨Hx, Hr⟩
    ihave Hx' := (lc_cell (F := F) (.xr (fin16 (15 - k))) xp xp_xp Nv c) $$ Hx
    ihave Hr' := (lc_rem1 c k) $$ Hr
    icases Hr' with ⟨Hd, Hf⟩
    isplitr [Hf]
    · isplitl [Hx'] <;> iassumption
    · iexact Hf

/-- Counting a chunk's index down from 15 runs through all sixteen chunks. -/
theorem bigSep_range16 {M : Type} [URA M] (Ψ : Fin 16 → sProp M) :
    bigSep (Finset.range 16) (fun k => Ψ (fin16 (15 - k))) = bigSep Finset.univ Ψ := by
  have h : (Finset.univ : Finset (Fin 16)) = (Finset.range 16).image (fun k => fin16 (15 - k)) := by decide
  rw [h, bigSep_image_of_injOn]
  intro a ha b hb hab
  have ha' : a < 16 := Finset.mem_range.mp (Finset.mem_coe.mp ha)
  have hb' : b < 16 := Finset.mem_range.mp (Finset.mem_coe.mp hb)
  have hv : (15 - a) % 16 = (15 - b) % 16 := congrArg Fin.val hab
  omega

/-- The forwards' receive cells, chunk by chunk, are the y and z partners' forward receive cells, pair by pair. -/
theorem bigSep_fw {M : Type} [URA M] (Ψ : CK → sProp M) :
    (bigSep Finset.univ fun j : Fin 16 => Ψ (fwK j)) = bigSep Finset.univ fun i : Fin 8 => iprop(Ψ (.yrr i) ∗ Ψ (.zrr i)) := by
  rw [bigSep_univ_equiv (finProdFinEquiv : Fin 8 × Fin 2 ≃ Fin 16) (fun j : Fin 16 => Ψ (fwK j)), bigSep_univ_prod]
  refine bigSep_congr fun i _ => ?_
  rw [bigSep_fin2]
  have h0 : ∀ i : Fin 8, fwK (finProdFinEquiv (i, (0 : Fin 2))) = .yrr i := by decide
  have h1 : ∀ i : Fin 8, fwK (finProdFinEquiv (i, (1 : Fin 2))) = .zrr i := by decide
  rw [h0, h1]

end Credit

theorem creds_intro (c : Dev nD) : (Pipeline.launchCred O₀ c : sProp 𝕄) ⊢ creds c := by
  show (Pipeline.launchCred (fun d => (tallyAt (cell (xp d) .bar) () 1 : Tal) + ((tallyAt (cell (yp d) .bar) () 1 : Tal) + ((tallyAt (cell (zp d) .bar) () 1 : Tal) + rem1 d 16))) c : sProp 𝕄) ⊢ creds c
  rw [Pipeline.launchCred_add, Pipeline.launchCred_add, Pipeline.launchCred_add]
  unfold creds
  iintro ⟨Hbx, Hby, Hbz, Hr⟩
  ihave Hbx' := (lc_cell (F := F) .bar xp xp_xp 1 c) $$ Hbx
  ihave Hby' := (lc_cell (F := F) .bar yp yp_yp 1 c) $$ Hby
  ihave Hbz' := (lc_cell (F := F) .bar zp zp_zp 1 c) $$ Hbz
  ihave Hr' := (lc_rem1 (F := F) c 16) $$ Hr
  rw [bigSep_range16 (fun j : Fin 16 => (cred (tallyAt (cell c (.xr j)) () Nv) : sProp 𝕄)),
    bigSep_range16 (fun j : Fin 16 => (iprop(cred (tallyAt (cell c (.ydr j)) () No) ∗ cred (tallyAt (cell c (.zdr j)) () No)) : sProp 𝕄)),
    bigSep_range16 (fun j : Fin 16 => (cred (tallyAt (cell c (fwK j)) () No) : sProp 𝕄)),
    bigSep_fw (fun k : CK => (cred (tallyAt (cell c k) () No) : sProp 𝕄))]
  icases Hr' with ⟨Hx, Hd, Hf⟩
  isplitl [Hbx' Hby' Hbz']
  · rw [← tallyAt_add (cell c .bar) () 1 2, ← tallyAt_add (cell c .bar) () 1 1]
    iapply (cred_add _ _).2
    isplitl [Hbx']; · iexact Hbx'
    iapply (cred_add _ _).2
    isplitl [Hby'] <;> iassumption
  isplitr [Hf]
  · iapply (Entails.of_eq (bigSep_sep' Finset.univ (fun j : Fin 16 => (cred (tallyAt (cell c (.xr j)) () Nv) : sProp 𝕄))
      (fun j : Fin 16 => (iprop(cred (tallyAt (cell c (.ydr j)) () No) ∗ cred (tallyAt (cell c (.zdr j)) () No)) : sProp 𝕄))).symm)
    isplitl [Hx] <;> iassumption
  · iexact Hf

/-! ## The pipeline's proof data: no window, one point -/

theorem fin_N (t : Fin cfg0.N) : t = t0_0 := fin_N0 t

/-- Before the point a device holds `Φ₀` and owes `O₀`; after it, `Φ₁` and nothing. -/
def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(emp) := by
  rw [show (Finset.univ : Finset (Fin cfg0.W)) = ∅ from Finset.univ_eq_empty, bigSep_empty]; rfl

/-- The library's body obligation on device `c`, from the body lemma. -/
theorem body_obligation (c : Dev nD) : BodyObligation (dats (F := F) m 0 c) (defs₀ (F := F)) 𝒱₀ () Set.univ := fun t => by
  rw [fin_N t, bigSep_W, bigSep_W]
  sl_whnfR [defs₀, Defs.onTc]
  rw [show (dats m 0 c).Φ t0_0.castSucc = Φ₀ m c from rfl, show (dats m 0 c).Φ t0_0.succ = Φ₁ m c from rfl]
  unfold Φ₀
  iintro ⟨⟨⟨%K, Hg⟩, Hcr, Hlev, Hb⟩, ⟨%W, -, Ho⟩, -⟩
  iapply (sound_body m c K W _)
  isplitl
  · isplitl [Hg]; · iexact Hg
    isplitl [Hcr]; · iexact Hcr
    isplitl [Hlev]; · iexact Hlev
    isplitl [Hb]; · iexact Hb
    iexact Ho
  · iintro ⟨HΦ, ⟨%W', Ho'⟩⟩
    isplitl [HΦ]; · iexact HΦ
    isplitl
    · iexists W'
      isplitr; · ipureintro; exact fun _ _ => Or.inl trivial
      iexact Ho'
    · iempintro

/-! ## The launch theorem's side conditions -/

/-- What a device holds when the region is entered, the scoped buffers apart. -/
def start (c : Dev nD) : sProp 𝕄 :=
  iprop((∃ K, ghost m K c) ∗ creds c ∗ levAts L lv
    ∗ (((c : Thread nD τ).loc main_arg0) ↦{fullShare} X m c)
    ∗ (∃ f : Buf (Elt F) ((c : Thread nD τ).loc main_v1), ((c : Thread nD τ).loc main_v1) ↦{fullShare} f))

/-- And what it keeps of the two arrays when the region is left. -/
def finalPts (c : Dev nD) : sProp 𝕄 :=
  iprop((((c : Thread nD τ).loc main_arg0) ↦{fullShare} X m c) ∗ (((c : Thread nD τ).loc main_v1) ↦{fullShare} OUTc m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hv⟩, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    isplitl [Ha]; · iexact Ha
    iexists _; iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start bufs0
  iintro ⟨⟨HG, Hcr, Hlev, Ha, Hv⟩, -, ⟨H0, H1, H2⟩⟩
  isplitl [HG]; · iexact HG
  isplitl [Hcr]; · iexact Hcr
  isplitl [Hlev]; · iexact Hlev
  isplitl [Ha]; · iexact Ha
  isplitl [Hv]; · iexact Hv
  isplitl [H0]; · iexact H0
  isplitl [H1]; · iexact H1
  iexact H2

theorem phi1_exit (c : Dev nD) :
    (dats m 0 c).Φ (Fin.last cfg0.N) ⊢ iprop(finalPts m c ∗ Pipeline.ownSems0 osem c ∗ Pipeline.scopedRest cfg0.spec c) := by
  rw [show (dats m 0 c).Φ (Fin.last cfg0.N) = Φ₁ m c from rfl, scopedRest0_eq]
  unfold Φ₁ bufs1 sems0 finalPts Pipeline.ownSems0
  iintro ⟨⟨Ha, Hv, H0, H1, H2⟩, Hs⟩
  isplitl [Ha Hv]
  · isplitl [Ha] <;> iassumption
  isplitl [Hs]; · iexact Hs
  isplitl [H0]; · iexact H0
  isplitl [H1]; · iexact H1
  iexact H2

/-- No window: the pipeline itself waits on nothing. -/
theorem waits (c : Dev nD) : (levAts L lv : sProp 𝕄) ⊢ Pipeline.cellsWaits cfgs (dats m) () 0 c :=
  Pipeline.cellsWaits_intro cfgs (dats m) () 0 c fun w s t => w.elim0

/-! ## The run -/

set_option maxRecDepth 8000 in
/-- At the compiled mesh of 32 devices, for any float values, from any memory with zero counters: every weakly fair
    execution of @main terminates, and every final state has each device's result array at `OUTc` and its input unchanged. -/
theorem run_main : θ_run defs (onTc (τ := τ) (main (F := F))) ⟨m, fun _ => 0, ρ⟩ (fun r => ∀ c : Dev nD,
      r.2.mem ((c.tc : Thread nD τ).loc main_v1) = OUTc m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := finalPts m) (Z := fun _ => iprop(emp))
    (hX := start_intro m ρ) (hin := phi0_intro m) (hout := phi1_exit m)
    (QY := fun c s => s.mem ((c : Thread nD τ).loc main_v1) = OUTc m c ∧ s.mem ((c : Thread nD τ).loc main_arg0) = X m c)
    (hY := fun c s' => by
      unfold finalPts
      iintro ⟨⟨Ha, Hv⟩, -, HSI⟩
      icombine HSI Ha gives %ha
      icombine HSI Hv gives %hv
      imodintro
      isplitr; · ipureintro; exact ⟨Buf.eq_of_forall_mem_univ hv, Buf.eq_of_forall_mem_univ ha⟩
      iexact HSI)
    (hQ := fun s h c => ⟨(h c).2.2.1, (h c).2.2.2⟩)

end Launch

/-- info: 'Cert.Kernel.Ar.fund_ring' depends on axioms: [propext, Classical.choice, Quot.sound] -/
#guard_msgs in #print axioms fund_ring

/-- info: 'Cert.Kernel.Ar.glob' depends on axioms: [propext, Classical.choice, Quot.sound] -/
#guard_msgs in #print axioms glob

/-- info: 'Cert.Kernel.Ar.creds_intro' depends on axioms: [propext, Classical.choice, Quot.sound] -/
#guard_msgs in #print axioms creds_intro

/-- info: 'Cert.Kernel.Ar.run_main' depends on axioms: [propext, Classical.choice, Quot.sound] -/
#guard_msgs in #print axioms run_main

end Cert.Kernel.Ar

end
-- ==== Proof.lean ====
/- The proof of `Cert.Claim` — frame_Kernel ∧ frame_KernelIdeal ∧ frame_ReferenceIdeal ∧ preserves_Kernel_KernelIdeal ∧
   algebraic_KernelIdeal_ReferenceIdeal —: hand-written, untrusted.

   The kernel is an all-reduce over the x axis of a 2 × 4 × 4 mesh, spread over the y and z axes. Each of the 32
   devices holds one half of the rows of the whole input (the half its x coordinate names); the result is the sum
   of the two halves, wanted whole on every device. The four devices that share an x coordinate and the high bits of
   y and z divide the rows into four quarters, one each (by the low bits of y and z). A device copies its quarter
   of its own half to a scratch, receives the same quarter of the other half from its x partner chunk by chunk,
   adds the two chunk by chunk, and writes each sum to its own result array and to the same rows of its y partner's
   and its z partner's result arrays; the quarter of the fourth device of the group reaches it in two hops, the even
   chunks through the y partner and the odd chunks through the z partner, each forwarding what it received. So every
   row of every device's result holds the sum SOME device of its group computed: that device's half plus its x
   partner's half, at that row. All devices of a group hold the same half and their x partners the other, so the
   row is the sum of the two halves of the whole input in one order or the other; at the extended reals addition
   is commutative, and the reference computes exactly that sum (its reduction starts from zero).

   The kernel's run (every weakly fair execution terminates; each device's result array ends at that function of
   the launch memory, its argument array unchanged) is proved once, for any float instance, over a schedule of
   rounds for the semaphores: with the value dropped it is the frame, at the word-level instance and at the
   extended reals; at the extended reals, with each device holding its block of the reference's input, its value
   is the reference's result. The ideal pass rewrote no operation, so `preserves` states nothing. -/
import proofs.«900725_g7700000000000726_dist_ar_v7x_xyz2x4x4_x_m8192_n1024_f32_1_alg».proof.Defs
import proofs.«900725_g7700000000000726_dist_ar_v7x_xyz2x4x4_x_m8192_n1024_f32_1_alg».proof.Proof.Gen.Kernel
import proofs.«900725_g7700000000000726_dist_ar_v7x_xyz2x4x4_x_m8192_n1024_f32_1_alg».proof.Proof.Gen.Kernel.Skeleton
import proofs.«900725_g7700000000000726_dist_ar_v7x_xyz2x4x4_x_m8192_n1024_f32_1_alg».proof.Proof.Gen.Kernel.Launch
import proofs.«900725_g7700000000000726_dist_ar_v7x_xyz2x4x4_x_m8192_n1024_f32_1_alg».proof.Proof.Gen.Kernel.Points
import proofs.«900725_g7700000000000726_dist_ar_v7x_xyz2x4x4_x_m8192_n1024_f32_1_alg».proof.Proof.Gen.Kernel.Frame
import proofs.«900725_g7700000000000726_dist_ar_v7x_xyz2x4x4_x_m8192_n1024_f32_1_alg».proof.Proof.Gen.KernelIdeal
import proofs.«900725_g7700000000000726_dist_ar_v7x_xyz2x4x4_x_m8192_n1024_f32_1_alg».proof.Proof.Gen.KernelIdeal.Skeleton
import proofs.«900725_g7700000000000726_dist_ar_v7x_xyz2x4x4_x_m8192_n1024_f32_1_alg».proof.Proof.Gen.KernelIdeal.Launch
import proofs.«900725_g7700000000000726_dist_ar_v7x_xyz2x4x4_x_m8192_n1024_f32_1_alg».proof.Proof.Gen.KernelIdeal.Points
import proofs.«900725_g7700000000000726_dist_ar_v7x_xyz2x4x4_x_m8192_n1024_f32_1_alg».proof.Proof.Gen.KernelIdeal.Frame
import proofs.«900725_g7700000000000726_dist_ar_v7x_xyz2x4x4_x_m8192_n1024_f32_1_alg».proof.Proof.Gen.ReferenceIdeal
import proofs.«900725_g7700000000000726_dist_ar_v7x_xyz2x4x4_x_m8192_n1024_f32_1_alg».proof.Proof.Gen.Pre_finite_inputs_Kernel
import proofs.«900725_g7700000000000726_dist_ar_v7x_xyz2x4x4_x_m8192_n1024_f32_1_alg».proof.Proof.Gen.Pre_finite_inputs_ReferenceIdeal
import proofs.«900725_g7700000000000726_dist_ar_v7x_xyz2x4x4_x_m8192_n1024_f32_1_alg».proof.Proof.RefSide
import proofs.«900725_g7700000000000726_dist_ar_v7x_xyz2x4x4_x_m8192_n1024_f32_1_alg».proof.Proof.Value
import proofs.«900725_g7700000000000726_dist_ar_v7x_xyz2x4x4_x_m8192_n1024_f32_1_alg».proof.Proof.Launch
import proofs.«900725_g7700000000000726_dist_ar_v7x_xyz2x4x4_x_m8192_n1024_f32_1_alg».proof.Proof.KLaunch
import Idealize.ShloMosaic.Adequacy
import Idealize.ShloMosaic.Init

noncomputable section

namespace Cert.Proof

open Idealize.ShloMosaic Idealize.SL.Sem

/-- The kernel as printed runs and leaves its argument arrays unchanged: its run with the value dropped. -/
theorem frame_k : Cert.frame_Kernel := fun m ρ _ =>
  (θ_run Cert.Kernel.defs _ _).mono (fun _ h c => (h c).2) (Cert.Kernel.Ar.run_main (F := Bits) m ρ)

/-- The same of the kernel read at the extended reals. -/
theorem frame_ki : Cert.frame_KernelIdeal := fun m ρ _ =>
  (θ_run Cert.KernelIdeal.defs _ _).mono (fun _ h c => (h c).2) (Cert.KernelIdeal.Ar.run_main (F := Ideal) m ρ)

/-- The ideal pass rewrote no operation. -/
theorem preserves : Cert.preserves_Kernel_KernelIdeal := trivial

/-- At the extended reals every device's result array ends at the reference's result: the kernel's run names each
    device's result as a function of the launch memory, that function is the reference's stage of the whole input
    when each device holds its block of it, and the reference's run ends at that stage. -/
theorem algebraic : Cert.algebraic_KernelIdeal_ReferenceIdeal := by
  intro m g m' g' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h c).1.trans ?_, (h c).2⟩)
      (Cert.KernelIdeal.Ar.run_main (F := Ideal) m g)
    exact Cert.KernelIdeal.Ar.OUTc_eq_ref m _ hagree c
  · exact (θ_run Cert.ReferenceIdeal.defs _ _).mono (fun _ h => h 0) (Cert.RefSide.run m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.RefSide.frame_ri, preserves, algebraic⟩

end Cert.Proof

end
